-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Kernel.lean ====
abbrev S2048x1024 : Shape := ⟨2, ![2048, 1024]⟩
abbrev S1x1024 : Shape := ⟨2, ![1, 1024]⟩
abbrev S16x1x1024 : Shape := ⟨3, ![16, 1, 1024]⟩
abbrev S16 : Shape := ⟨1, ![16]⟩
abbrev S_ : Shape := ⟨0, ![]⟩
abbrev S1024 : Shape := ⟨1, ![1024]⟩
abbrev S1x1x1024 : Shape := ⟨3, ![1, 1, 1024]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .local _ .vmem, ⟨0, _⟩ => ⟨S2048x1024, .f32⟩
  | .local _ .vmem, ⟨1, _⟩ => ⟨S1x1024, .f32⟩
  | .local _ .vmem, ⟨2, _⟩ => ⟨S16x1x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_140 : BitVec 32 := 1#32
  let v206 : BitVec 32 := Scalar.addi v2 c1_i32_140
  let c16_i32_141 : BitVec 32 := 16#32
  let c0_i32_142 : BitVec 32 := 0#32
  let v207 : BitVec 1 := Scalar.cmpi .eq c16_i32_141 c0_i32_142
  let c1_i32_143 : BitVec 32 := 1#32
  let v208 : BitVec 32 := Scalar.select v207 c1_i32_143 c16_i32_141
  let v209 : BitVec 32 := Scalar.remsi v206 v208
  let c0_i32_145 : BitVec 32 := 0#32
  let v211 : BitVec 1 := Scalar.cmpi .slt v209 c0_i32_145
  let c0_i32_146 : BitVec 32 := 0#32
  let v212 : BitVec 1 := Scalar.cmpi .slt v208 c0_i32_146
  let v213 : BitVec 1 := Scalar.xori v211 v212
  let c0_i32_144 : BitVec 32 := 0#32
  let v210 : BitVec 1 := Scalar.cmpi .ne v209 c0_i32_144
  let v214 : BitVec 1 := Scalar.andi v213 v210
  let v215 : BitVec 32 := Scalar.addi v209 v208
  let v216 : BitVec 32 := Scalar.select v214 v215 v209
  let c1_i32_151 : BitVec 32 := 1#32
  let v217 : BitVec 32 := Scalar.muli v216 c1_i32_151
  let v218 : BitVec 32 := Scalar.addi c0_i32_152 v217
  v218.toNat
def k0_dev17 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_157 : BitVec 32 := 2#32
  let v227 : BitVec 32 := Scalar.addi v2 c2_i32_157
  let c16_i32_158 : BitVec 32 := 16#32
  let c0_i32_159 : BitVec 32 := 0#32
  let v228 : BitVec 1 := Scalar.cmpi .eq c16_i32_158 c0_i32_159
  let c1_i32_160 : BitVec 32 := 1#32
  let v229 : BitVec 32 := Scalar.select v228 c1_i32_160 c16_i32_158
  let v230 : BitVec 32 := Scalar.remsi v227 v229
  let c0_i32_162 : BitVec 32 := 0#32
  let v232 : BitVec 1 := Scalar.cmpi .slt v230 c0_i32_162
  let c0_i32_163 : BitVec 32 := 0#32
  let v233 : BitVec 1 := Scalar.cmpi .slt v229 c0_i32_163
  let v234 : BitVec 1 := Scalar.xori v232 v233
  let c0_i32_161 : BitVec 32 := 0#32
  let v231 : BitVec 1 := Scalar.cmpi .ne v230 c0_i32_161
  let v235 : BitVec 1 := Scalar.andi v234 v231
  let v236 : BitVec 32 := Scalar.addi v230 v229
  let v237 : BitVec 32 := Scalar.select v235 v236 v230
  let c1_i32_168 : BitVec 32 := 1#32
  let v238 : BitVec 32 := Scalar.muli v237 c1_i32_168
  let v239 : BitVec 32 := Scalar.addi c0_i32_169 v238
  v239.toNat
def k0_dev18 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_174 : BitVec 32 := 3#32
  let v248 : BitVec 32 := Scalar.addi v2 c3_i32_174
  let c16_i32_175 : BitVec 32 := 16#32
  let c0_i32_176 : BitVec 32 := 0#32
  let v249 : BitVec 1 := Scalar.cmpi .eq c16_i32_175 c0_i32_176
  let c1_i32_177 : BitVec 32 := 1#32
  let v250 : BitVec 32 := Scalar.select v249 c1_i32_177 c16_i32_175
  let v251 : BitVec 32 := Scalar.remsi v248 v250
  let c0_i32_179 : BitVec 32 := 0#32
  let v253 : BitVec 1 := Scalar.cmpi .slt v251 c0_i32_179
  let c0_i32_180 : BitVec 32 := 0#32
  let v254 : BitVec 1 := Scalar.cmpi .slt v250 c0_i32_180
  let v255 : BitVec 1 := Scalar.xori v253 v254
  let c0_i32_178 : BitVec 32 := 0#32
  let v252 : BitVec 1 := Scalar.cmpi .ne v251 c0_i32_178
  let v256 : BitVec 1 := Scalar.andi v255 v252
  let v257 : BitVec 32 := Scalar.addi v251 v250
  let v258 : BitVec 32 := Scalar.select v256 v257 v251
  let c1_i32_185 : BitVec 32 := 1#32
  let v259 : BitVec 32 := Scalar.muli v258 c1_i32_185
  let v260 : BitVec 32 := Scalar.addi c0_i32_186 v259
  v260.toNat
def k0_dev19 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_191 : BitVec 32 := 4#32
  let v269 : BitVec 32 := Scalar.addi v2 c4_i32_191
  let c16_i32_192 : BitVec 32 := 16#32
  let c0_i32_193 : BitVec 32 := 0#32
  let v270 : BitVec 1 := Scalar.cmpi .eq c16_i32_192 c0_i32_193
  let c1_i32_194 : BitVec 32 := 1#32
  let v271 : BitVec 32 := Scalar.select v270 c1_i32_194 c16_i32_192
  let v272 : BitVec 32 := Scalar.remsi v269 v271
  let c0_i32_196 : BitVec 32 := 0#32
  let v274 : BitVec 1 := Scalar.cmpi .slt v272 c0_i32_196
  let c0_i32_197 : BitVec 32 := 0#32
  let v275 : BitVec 1 := Scalar.cmpi .slt v271 c0_i32_197
  let v276 : BitVec 1 := Scalar.xori v274 v275
  let c0_i32_195 : BitVec 32 := 0#32
  let v273 : BitVec 1 := Scalar.cmpi .ne v272 c0_i32_195
  let v277 : BitVec 1 := Scalar.andi v276 v273
  let v278 : BitVec 32 := Scalar.addi v272 v271
  let v279 : BitVec 32 := Scalar.select v277 v278 v272
  let c1_i32_202 : BitVec 32 := 1#32
  let v280 : BitVec 32 := Scalar.muli v279 c1_i32_202
  let v281 : BitVec 32 := Scalar.addi c0_i32_203 v280
  v281.toNat
def k0_dev20 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_208 : BitVec 32 := 5#32
  let v290 : BitVec 32 := Scalar.addi v2 c5_i32_208
  let c16_i32_209 : BitVec 32 := 16#32
  let c0_i32_210 : BitVec 32 := 0#32
  let v291 : BitVec 1 := Scalar.cmpi .eq c16_i32_209 c0_i32_210
  let c1_i32_211 : BitVec 32 := 1#32
  let v292 : BitVec 32 := Scalar.select v291 c1_i32_211 c16_i32_209
  let v293 : BitVec 32 := Scalar.remsi v290 v292
  let c0_i32_213 : BitVec 32 := 0#32
  let v295 : BitVec 1 := Scalar.cmpi .slt v293 c0_i32_213
  let c0_i32_214 : BitVec 32 := 0#32
  let v296 : BitVec 1 := Scalar.cmpi .slt v292 c0_i32_214
  let v297 : BitVec 1 := Scalar.xori v295 v296
  let c0_i32_212 : BitVec 32 := 0#32
  let v294 : BitVec 1 := Scalar.cmpi .ne v293 c0_i32_212
  let v298 : BitVec 1 := Scalar.andi v297 v294
  let v299 : BitVec 32 := Scalar.addi v293 v292
  let v300 : BitVec 32 := Scalar.select v298 v299 v293
  let c1_i32_219 : BitVec 32 := 1#32
  let v301 : BitVec 32 := Scalar.muli v300 c1_i32_219
  let v302 : BitVec 32 := Scalar.addi c0_i32_220 v301
  v302.toNat
def k0_dev21 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_225 : BitVec 32 := 6#32
  let v311 : BitVec 32 := Scalar.addi v2 c6_i32_225
  let c16_i32_226 : BitVec 32 := 16#32
  let c0_i32_227 : BitVec 32 := 0#32
  let v312 : BitVec 1 := Scalar.cmpi .eq c16_i32_226 c0_i32_227
  let c1_i32_228 : BitVec 32 := 1#32
  let v313 : BitVec 32 := Scalar.select v312 c1_i32_228 c16_i32_226
  let v314 : BitVec 32 := Scalar.remsi v311 v313
  let c0_i32_230 : BitVec 32 := 0#32
  let v316 : BitVec 1 := Scalar.cmpi .slt v314 c0_i32_230
  let c0_i32_231 : BitVec 32 := 0#32
  let v317 : BitVec 1 := Scalar.cmpi .slt v313 c0_i32_231
  let v318 : BitVec 1 := Scalar.xori v316 v317
  let c0_i32_229 : BitVec 32 := 0#32
  let v315 : BitVec 1 := Scalar.cmpi .ne v314 c0_i32_229
  let v319 : BitVec 1 := Scalar.andi v318 v315
  let v320 : BitVec 32 := Scalar.addi v314 v313
  let v321 : BitVec 32 := Scalar.select v319 v320 v314
  let c1_i32_236 : BitVec 32 := 1#32
  let v322 : BitVec 32 := Scalar.muli v321 c1_i32_236
  let v323 : BitVec 32 := Scalar.addi c0_i32_237 v322
  v323.toNat
def k0_dev22 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_242 : BitVec 32 := 7#32
  let v332 : BitVec 32 := Scalar.addi v2 c7_i32_242
  let c16_i32_243 : BitVec 32 := 16#32
  let c0_i32_244 : BitVec 32 := 0#32
  let v333 : BitVec 1 := Scalar.cmpi .eq c16_i32_243 c0_i32_244
  let c1_i32_245 : BitVec 32 := 1#32
  let v334 : BitVec 32 := Scalar.select v333 c1_i32_245 c16_i32_243
  let v335 : BitVec 32 := Scalar.remsi v332 v334
  let c0_i32_247 : BitVec 32 := 0#32
  let v337 : BitVec 1 := Scalar.cmpi .slt v335 c0_i32_247
  let c0_i32_248 : BitVec 32 := 0#32
  let v338 : BitVec 1 := Scalar.cmpi .slt v334 c0_i32_248
  let v339 : BitVec 1 := Scalar.xori v337 v338
  let c0_i32_246 : BitVec 32 := 0#32
  let v336 : BitVec 1 := Scalar.cmpi .ne v335 c0_i32_246
  let v340 : BitVec 1 := Scalar.andi v339 v336
  let v341 : BitVec 32 := Scalar.addi v335 v334
  let v342 : BitVec 32 := Scalar.select v340 v341 v335
  let c1_i32_253 : BitVec 32 := 1#32
  let v343 : BitVec 32 := Scalar.muli v342 c1_i32_253
  let v344 : BitVec 32 := Scalar.addi c0_i32_254 v343
  v344.toNat
def k0_dev23 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_259 : BitVec 32 := 8#32
  let v353 : BitVec 32 := Scalar.addi v2 c8_i32_259
  let c16_i32_260 : BitVec 32 := 16#32
  let c0_i32_261 : BitVec 32 := 0#32
  let v354 : BitVec 1 := Scalar.cmpi .eq c16_i32_260 c0_i32_261
  let c1_i32_262 : BitVec 32 := 1#32
  let v355 : BitVec 32 := Scalar.select v354 c1_i32_262 c16_i32_260
  let v356 : BitVec 32 := Scalar.remsi v353 v355
  let c0_i32_264 : BitVec 32 := 0#32
  let v358 : BitVec 1 := Scalar.cmpi .slt v356 c0_i32_264
  let c0_i32_265 : BitVec 32 := 0#32
  let v359 : BitVec 1 := Scalar.cmpi .slt v355 c0_i32_265
  let v360 : BitVec 1 := Scalar.xori v358 v359
  let c0_i32_263 : BitVec 32 := 0#32
  let v357 : BitVec 1 := Scalar.cmpi .ne v356 c0_i32_263
  let v361 : BitVec 1 := Scalar.andi v360 v357
  let v362 : BitVec 32 := Scalar.addi v356 v355
  let v363 : BitVec 32 := Scalar.select v361 v362 v356
  let c1_i32_270 : BitVec 32 := 1#32
  let v364 : BitVec 32 := Scalar.muli v363 c1_i32_270
  let v365 : BitVec 32 := Scalar.addi c0_i32_271 v364
  v365.toNat
def k0_dev24 (d0 : Dev nD) : Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_276 : BitVec 32 := 9#32
  let v374 : BitVec 32 := Scalar.addi v2 c9_i32_276
  let c16_i32_277 : BitVec 32 := 16#32
  let c0_i32_278 : BitVec 32 := 0#32
  let v375 : BitVec 1 := Scalar.cmpi .eq c16_i32_277 c0_i32_278
  let c1_i32_279 : BitVec 32 := 1#32
  let v376 : BitVec 32 := Scalar.select v375 c1_i32_279 c16_i32_277
  let v377 : BitVec 32 := Scalar.remsi v374 v376
  let c0_i32_281 : BitVec 32 := 0#32
  let v379 : BitVec 1 := Scalar.cmpi .slt v377 c0_i32_281
  let c0_i32_282 : BitVec 32 := 0#32
  let v380 : BitVec 1 := Scalar.cmpi .slt v376 c0_i32_282
  let v381 : BitVec 1 := Scalar.xori v379 v380
  let c0_i32_280 : BitVec 32 := 0#32
  let v378 : BitVec 1 := Scalar.cmpi .ne v377 c0_i32_280
  let v382 : BitVec 1 := Scalar.andi v381 v378
  let v383 : BitVec 32 := Scalar.addi v377 v376
  let v384 : BitVec 32 := Scalar.select v382 v383 v377
  let c1_i32_287 : BitVec 32 := 1#32
  let v385 : BitVec 32 := Scalar.muli v384 c1_i32_287
  let v386 : BitVec 32 := Scalar.addi c0_i32_288 v385
  v386.toNat
def k0_dev25 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_293 : BitVec 32 := 10#32
  let v395 : BitVec 32 := Scalar.addi v2 c10_i32_293
  let c16_i32_294 : BitVec 32 := 16#32
  let c0_i32_295 : BitVec 32 := 0#32
  let v396 : BitVec 1 := Scalar.cmpi .eq c16_i32_294 c0_i32_295
  let c1_i32_296 : BitVec 32 := 1#32
  let v397 : BitVec 32 := Scalar.select v396 c1_i32_296 c16_i32_294
  let v398 : BitVec 32 := Scalar.remsi v395 v397
  let c0_i32_298 : BitVec 32 := 0#32
  let v400 : BitVec 1 := Scalar.cmpi .slt v398 c0_i32_298
  let c0_i32_299 : BitVec 32 := 0#32
  let v401 : BitVec 1 := Scalar.cmpi .slt v397 c0_i32_299
  let v402 : BitVec 1 := Scalar.xori v400 v401
  let c0_i32_297 : BitVec 32 := 0#32
  let v399 : BitVec 1 := Scalar.cmpi .ne v398 c0_i32_297
  let v403 : BitVec 1 := Scalar.andi v402 v399
  let v404 : BitVec 32 := Scalar.addi v398 v397
  let v405 : BitVec 32 := Scalar.select v403 v404 v398
  let c1_i32_304 : BitVec 32 := 1#32
  let v406 : BitVec 32 := Scalar.muli v405 c1_i32_304
  let v407 : BitVec 32 := Scalar.addi c0_i32_305 v406
  v407.toNat
def k0_dev26 (d0 : Dev nD) : Nat :=
  let c0_i32_322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_310 : BitVec 32 := 11#32
  let v416 : BitVec 32 := Scalar.addi v2 c11_i32_310
  let c16_i32_311 : BitVec 32 := 16#32
  let c0_i32_312 : BitVec 32 := 0#32
  let v417 : BitVec 1 := Scalar.cmpi .eq c16_i32_311 c0_i32_312
  let c1_i32_313 : BitVec 32 := 1#32
  let v418 : BitVec 32 := Scalar.select v417 c1_i32_313 c16_i32_311
  let v419 : BitVec 32 := Scalar.remsi v416 v418
  let c0_i32_315 : BitVec 32 := 0#32
  let v421 : BitVec 1 := Scalar.cmpi .slt v419 c0_i32_315
  let c0_i32_316 : BitVec 32 := 0#32
  let v422 : BitVec 1 := Scalar.cmpi .slt v418 c0_i32_316
  let v423 : BitVec 1 := Scalar.xori v421 v422
  let c0_i32_314 : BitVec 32 := 0#32
  let v420 : BitVec 1 := Scalar.cmpi .ne v419 c0_i32_314
  let v424 : BitVec 1 := Scalar.andi v423 v420
  let v425 : BitVec 32 := Scalar.addi v419 v418
  let v426 : BitVec 32 := Scalar.select v424 v425 v419
  let c1_i32_321 : BitVec 32 := 1#32
  let v427 : BitVec 32 := Scalar.muli v426 c1_i32_321
  let v428 : BitVec 32 := Scalar.addi c0_i32_322 v427
  v428.toNat
def k0_dev27 (d0 : Dev nD) : Nat :=
  let c0_i32_339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_327 : BitVec 32 := 12#32
  let v437 : BitVec 32 := Scalar.addi v2 c12_i32_327
  let c16_i32_328 : BitVec 32 := 16#32
  let c0_i32_329 : BitVec 32 := 0#32
  let v438 : BitVec 1 := Scalar.cmpi .eq c16_i32_328 c0_i32_329
  let c1_i32_330 : BitVec 32 := 1#32
  let v439 : BitVec 32 := Scalar.select v438 c1_i32_330 c16_i32_328
  let v440 : BitVec 32 := Scalar.remsi v437 v439
  let c0_i32_332 : BitVec 32 := 0#32
  let v442 : BitVec 1 := Scalar.cmpi .slt v440 c0_i32_332
  let c0_i32_333 : BitVec 32 := 0#32
  let v443 : BitVec 1 := Scalar.cmpi .slt v439 c0_i32_333
  let v444 : BitVec 1 := Scalar.xori v442 v443
  let c0_i32_331 : BitVec 32 := 0#32
  let v441 : BitVec 1 := Scalar.cmpi .ne v440 c0_i32_331
  let v445 : BitVec 1 := Scalar.andi v444 v441
  let v446 : BitVec 32 := Scalar.addi v440 v439
  let v447 : BitVec 32 := Scalar.select v445 v446 v440
  let c1_i32_338 : BitVec 32 := 1#32
  let v448 : BitVec 32 := Scalar.muli v447 c1_i32_338
  let v449 : BitVec 32 := Scalar.addi c0_i32_339 v448
  v449.toNat
def k0_dev28 (d0 : Dev nD) : Nat :=
  let c0_i32_356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_344 : BitVec 32 := 13#32
  let v458 : BitVec 32 := Scalar.addi v2 c13_i32_344
  let c16_i32_345 : BitVec 32 := 16#32
  let c0_i32_346 : BitVec 32 := 0#32
  let v459 : BitVec 1 := Scalar.cmpi .eq c16_i32_345 c0_i32_346
  let c1_i32_347 : BitVec 32 := 1#32
  let v460 : BitVec 32 := Scalar.select v459 c1_i32_347 c16_i32_345
  let v461 : BitVec 32 := Scalar.remsi v458 v460
  let c0_i32_349 : BitVec 32 := 0#32
  let v463 : BitVec 1 := Scalar.cmpi .slt v461 c0_i32_349
  let c0_i32_350 : BitVec 32 := 0#32
  let v464 : BitVec 1 := Scalar.cmpi .slt v460 c0_i32_350
  let v465 : BitVec 1 := Scalar.xori v463 v464
  let c0_i32_348 : BitVec 32 := 0#32
  let v462 : BitVec 1 := Scalar.cmpi .ne v461 c0_i32_348
  let v466 : BitVec 1 := Scalar.andi v465 v462
  let v467 : BitVec 32 := Scalar.addi v461 v460
  let v468 : BitVec 32 := Scalar.select v466 v467 v461
  let c1_i32_355 : BitVec 32 := 1#32
  let v469 : BitVec 32 := Scalar.muli v468 c1_i32_355
  let v470 : BitVec 32 := Scalar.addi c0_i32_356 v469
  v470.toNat
def k0_dev29 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_361 : BitVec 32 := 14#32
  let v479 : BitVec 32 := Scalar.addi v2 c14_i32_361
  let c16_i32_362 : BitVec 32 := 16#32
  let c0_i32_363 : BitVec 32 := 0#32
  let v480 : BitVec 1 := Scalar.cmpi .eq c16_i32_362 c0_i32_363
  let c1_i32_364 : BitVec 32 := 1#32
  let v481 : BitVec 32 := Scalar.select v480 c1_i32_364 c16_i32_362
  let v482 : BitVec 32 := Scalar.remsi v479 v481
  let c0_i32_366 : BitVec 32 := 0#32
  let v484 : BitVec 1 := Scalar.cmpi .slt v482 c0_i32_366
  let c0_i32_367 : BitVec 32 := 0#32
  let v485 : BitVec 1 := Scalar.cmpi .slt v481 c0_i32_367
  let v486 : BitVec 1 := Scalar.xori v484 v485
  let c0_i32_365 : BitVec 32 := 0#32
  let v483 : BitVec 1 := Scalar.cmpi .ne v482 c0_i32_365
  let v487 : BitVec 1 := Scalar.andi v486 v483
  let v488 : BitVec 32 := Scalar.addi v482 v481
  let v489 : BitVec 32 := Scalar.select v487 v488 v482
  let c1_i32_372 : BitVec 32 := 1#32
  let v490 : BitVec 32 := Scalar.muli v489 c1_i32_372
  let v491 : BitVec 32 := Scalar.addi c0_i32_373 v490
  v491.toNat
def k0_dev30 (d0 : Dev nD) : Nat :=
  let c0_i32_390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_378 : BitVec 32 := 15#32
  let v500 : BitVec 32 := Scalar.addi v2 c15_i32_378
  let c16_i32_379 : BitVec 32 := 16#32
  let c0_i32_380 : BitVec 32 := 0#32
  let v501 : BitVec 1 := Scalar.cmpi .eq c16_i32_379 c0_i32_380
  let c1_i32_381 : BitVec 32 := 1#32
  let v502 : BitVec 32 := Scalar.select v501 c1_i32_381 c16_i32_379
  let v503 : BitVec 32 := Scalar.remsi v500 v502
  let c0_i32_383 : BitVec 32 := 0#32
  let v505 : BitVec 1 := Scalar.cmpi .slt v503 c0_i32_383
  let c0_i32_384 : BitVec 32 := 0#32
  let v506 : BitVec 1 := Scalar.cmpi .slt v502 c0_i32_384
  let v507 : BitVec 1 := Scalar.xori v505 v506
  let c0_i32_382 : BitVec 32 := 0#32
  let v504 : BitVec 1 := Scalar.cmpi .ne v503 c0_i32_382
  let v508 : BitVec 1 := Scalar.andi v507 v504
  let v509 : BitVec 32 := Scalar.addi v503 v502
  let v510 : BitVec 32 := Scalar.select v508 v509 v503
  let c1_i32_389 : BitVec 32 := 1#32
  let v511 : BitVec 32 := Scalar.muli v510 c1_i32_389
  let v512 : BitVec 32 := Scalar.addi c0_i32_390 v511
  v512.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S2048x1024_S1024 : S2048x1024.Reduces [0] S1024
  bitsLt_bf16_f32 : FTy.bits .bf16 < FTy.bits .f32
  inb_S16x1x1024_S1x1x1024_0_0_0 : ∀ a, (![0, 0, 0] : Fin 3 → Nat) a + S1x1x1024.size a ≤ S16x1x1024.size a
  h_S1x1x1024 : 0 < S1x1x1024.numel
  shapeCasts_S1x1x1024_S1024 : S1x1x1024.ShapeCasts S1024
  shapeCasts_S1024_S1x1x1024 : S1024.ShapeCasts S1x1x1024
  packedbf16_S16x1x1024_S1x1x1024_0_0_0 : (Rect.unit (s := S16x1x1024) ![0, 0, 0] S1x1x1024.size inb_S16x1x1024_S1x1x1024_0_0_0).PackedRows (EltTy.packing .bf16)
  hamt_15 : (15#32 : BitVec 32).msb = false
  inb_S16_S1_1 : ∀ a, (![1] : Fin 1 → Nat) a + S1.size a ≤ S16.size a
  squeezes_S1_S_ : S1.Squeezes S_
  inb_S16x1x1024_S1x1x1024_1_0_0 : ∀ a, (![1, 0, 0] : Fin 3 → Nat) a + S1x1x1024.size a ≤ S16x1x1024.size a
  squeezes_S1x1x1024_S1x1024 : S1x1x1024.Squeezes S1x1024
  wordsbf16_S16x1x1024_S1x1x1024_0_0_0 : (Rect.unit (s := S16x1x1024) ![0, 0, 0] S1x1x1024.size inb_S16x1x1024_S1x1x1024_0_0_0).WholeWords (EltTy.packing .bf16)
  wordsbf16_S16x1x1024_S1x1x1024_1_0_0 : (Rect.unit (s := S16x1x1024) ![1, 0, 0] S1x1x1024.size inb_S16x1x1024_S1x1x1024_1_0_0).WholeWords (EltTy.packing .bf16)
  inb_S16_S1_2 : ∀ a, (![2] : Fin 1 → Nat) a + S1.size a ≤ S16.size a
  inb_S16x1x1024_S1x1x1024_2_0_0 : ∀ a, (![2, 0, 0] : Fin 3 → Nat) a + S1x1x1024.size a ≤ S16x1x1024.size a
  wordsbf16_S16x1x1024_S1x1x1024_2_0_0 : (Rect.unit (s := S16x1x1024) ![2, 0, 0] S1x1x1024.size inb_S16x1x1024_S1x1x1024_2_0_0).WholeWords (EltTy.packing .bf16)
  inb_S16_S1_3 : ∀ a, (![3] : Fin 1 → Nat) a + S1.size a ≤ S16.size a
  inb_S16x1x1024_S1x1x1024_3_0_0 : ∀ a, (![3, 0, 0] : Fin 3 → Nat) a + S1x1x1024.size a ≤ S16x1x1024.size a
  wordsbf16_S16x1x1024_S1x1x1024_3_0_0 : (Rect.unit (s := S16x1x1024) ![3, 0, 0] S1x1x1024.size inb_S16x1x1024_S1x1x1024_3_0_0).WholeWords (EltTy.packing .bf16)
  inb_S16_S1_4 : ∀ a, (![4] : Fin 1 → Nat) a + S1.size a ≤ S16.size a
  inb_S16x1x1024_S1x1x1024_4_0_0 : ∀ a, (![4, 0, 0] : Fin 3 → Nat) a + S1x1x1024.size a ≤ S16x1x1024.size a
  wordsbf16_S16x1x1024_S1x1x1024_4_0_0 : (Rect.unit (s := S16x1x1024) ![4, 0, 0] S1x1x1024.size inb_S16x1x1024_S1x1x1024_4_0_0).WholeWords (EltTy.packing .bf16)
  inb_S16_S1_5 : ∀ a, (![5] : Fin 1 → Nat) a + S1.size a ≤ S16.size a
  inb_S16x1x1024_S1x1x1024_5_0_0 : ∀ a, (![5, 0, 0] : Fin 3 → Nat) a + S1x1x1024.size a ≤ S16x1x1024.size a
  wordsbf16_S16x1x1024_S1x1x1024_5_0_0 : (Rect.unit (s := S16x1x1024) ![5, 0, 0] S1x1x1024.size inb_S16x1x1024_S1x1x1024_5_0_0).WholeWords (EltTy.packing .bf16)
  inb_S16_S1_6 : ∀ a, (![6] : Fin 1 → Nat) a + S1.size a ≤ S16.size a
  inb_S16x1x1024_S1x1x1024_6_0_0 : ∀ a, (![6, 0, 0] : Fin 3 → Nat) a + S1x1x1024.size a ≤ S16x1x1024.size a
  wordsbf16_S16x1x1024_S1x1x1024_6_0_0 : (Rect.unit (s := S16x1x1024) ![6, 0, 0] S1x1x1024.size inb_S16x1x1024_S1x1x1024_6_0_0).WholeWords (EltTy.packing .bf16)
  inb_S16_S1_7 : ∀ a, (![7] : Fin 1 → Nat) a + S1.size a ≤ S16.size a
  inb_S16x1x1024_S1x1x1024_7_0_0 : ∀ a, (![7, 0, 0] : Fin 3 → Nat) a + S1x1x1024.size a ≤ S16x1x1024.size a
  wordsbf16_S16x1x1024_S1x1x1024_7_0_0 : (Rect.unit (s := S16x1x1024) ![7, 0, 0] S1x1x1024.size inb_S16x1x1024_S1x1x1024_7_0_0).WholeWords (EltTy.packing .bf16)
  inb_S16_S1_8 : ∀ a, (![8] : Fin 1 → Nat) a + S1.size a ≤ S16.size a
  inb_S16x1x1024_S1x1x1024_8_0_0 : ∀ a, (![8, 0, 0] : Fin 3 → Nat) a + S1x1x1024.size a ≤ S16x1x1024.size a
  wordsbf16_S16x1x1024_S1x1x1024_8_0_0 : (Rect.unit (s := S16x1x1024) ![8, 0, 0] S1x1x1024.size inb_S16x1x1024_S1x1x1024_8_0_0).WholeWords (EltTy.packing .bf16)
  inb_S16_S1_9 : ∀ a, (![9] : Fin 1 → Nat) a + S1.size a ≤ S16.size a
  inb_S16x1x1024_S1x1x1024_9_0_0 : ∀ a, (![9, 0, 0] : Fin 3 → Nat) a + S1x1x1024.size a ≤ S16x1x1024.size a
  wordsbf16_S16x1x1024_S1x1x1024_9_0_0 : (Rect.unit (s := S16x1x1024) ![9, 0, 0] S1x1x1024.size inb_S16x1x1024_S1x1x1024_9_0_0).WholeWords (EltTy.packing .bf16)
  inb_S16_S1_10 : ∀ a, (![10] : Fin 1 → Nat) a + S1.size a ≤ S16.size a
  inb_S16x1x1024_S1x1x1024_10_0_0 : ∀ a, (![10, 0, 0] : Fin 3 → Nat) a + S1x1x1024.size a ≤ S16x1x1024.size a
  wordsbf16_S16x1x1024_S1x1x1024_10_0_0 : (Rect.unit (s := S16x1x1024) ![10, 0, 0] S1x1x1024.size inb_S16x1x1024_S1x1x1024_10_0_0).WholeWords (EltTy.packing .bf16)
  inb_S16_S1_11 : ∀ a, (![11] : Fin 1 → Nat) a + S1.size a ≤ S16.size a
  inb_S16x1x1024_S1x1x1024_11_0_0 : ∀ a, (![11, 0, 0] : Fin 3 → Nat) a + S1x1x1024.size a ≤ S16x1x1024.size a
  wordsbf16_S16x1x1024_S1x1x1024_11_0_0 : (Rect.unit (s := S16x1x1024) ![11, 0, 0] S1x1x1024.size inb_S16x1x1024_S1x1x1024_11_0_0).WholeWords (EltTy.packing .bf16)
  inb_S16_S1_12 : ∀ a, (![12] : Fin 1 → Nat) a + S1.size a ≤ S16.size a
  inb_S16x1x1024_S1x1x1024_12_0_0 : ∀ a, (![12, 0, 0] : Fin 3 → Nat) a + S1x1x1024.size a ≤ S16x1x1024.size a
  wordsbf16_S16x1x1024_S1x1x1024_12_0_0 : (Rect.unit (s := S16x1x1024) ![12, 0, 0] S1x1x1024.size inb_S16x1x1024_S1x1x1024_12_0_0).WholeWords (EltTy.packing .bf16)
  inb_S16_S1_13 : ∀ a, (![13] : Fin 1 → Nat) a + S1.size a ≤ S16.size a
  inb_S16x1x1024_S1x1x1024_13_0_0 : ∀ a, (![13, 0, 0] : Fin 3 → Nat) a + S1x1x1024.size a ≤ S16x1x1024.size a
  wordsbf16_S16x1x1024_S1x1x1024_13_0_0 : (Rect.unit (s := S16x1x1024) ![13, 0, 0] S1x1x1024.size inb_S16x1x1024_S1x1x1024_13_0_0).WholeWords (EltTy.packing .bf16)
  inb_S16_S1_14 : ∀ a, (![14] : Fin 1 → Nat) a + S1.size a ≤ S16.size a
  inb_S16x1x1024_S1x1x1024_14_0_0 : ∀ a, (![14, 0, 0] : Fin 3 → Nat) a + S1x1x1024.size a ≤ S16x1x1024.size a
  wordsbf16_S16x1x1024_S1x1x1024_14_0_0 : (Rect.unit (s := S16x1x1024) ![14, 0, 0] S1x1x1024.size inb_S16x1x1024_S1x1x1024_14_0_0).WholeWords (EltTy.packing .bf16)
  inb_S16_S1_15 : ∀ a, (![15] : Fin 1 → Nat) a + S1.size a ≤ S16.size a
  inb_S16x1x1024_S1x1x1024_15_0_0 : ∀ a, (![15, 0, 0] : Fin 3 → Nat) a + S1x1x1024.size a ≤ S16x1x1024.size a
  wordsbf16_S16x1x1024_S1x1x1024_15_0_0 : (Rect.unit (s := S16x1x1024) ![15, 0, 0] S1x1x1024.size inb_S16x1x1024_S1x1x1024_15_0_0).WholeWords (EltTy.packing .bf16)
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  shapeCasts_S1024_S1x1024 : S1024.ShapeCasts S1x1024
  hcc0_scratch1 : 2 + S16.numel ≤ 34
  hcc0_scratch2 : 18 + S16.numel ≤ 34
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  hstage0_0 : ∀ j, (stage0_0 j).IsWhole
  hstage0_1 : ∀ j, (stage0_1 j).IsWhole

variable [Facts₀]

abbrev cc0_scratch1 : DmaSems sig S16 := SemArray.consecutive 2 S16 hcc0_scratch1
abbrev cc0_scratch2 : DmaSems sig S16 := SemArray.consecutive 18 S16 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S32768x1024_S1024_d0 : S32768x1024.ReducesTo [0] S1024
  h_S_ : 0 < S_.numel
  bcast_S1024_S1x1024_1 : S1024.BroadcastsInDim S1x1024 (![1] : Fin 1 → Fin S1x1024.rank)

variable [Facts₀]

class Facts : Prop extends Facts₀ where

variable [Facts]
-- ==== Proof.KernelPf.Mesh.lean ====
/-
  The mesh of sixteen devices as a cyclic group: `add c k` is the device `k` places after `c`, `sub c k` the device
  `k` places before it. The kernel computes each peer as `(my + k) % 16` through a chain of word operations; decided
  over the sixteen devices, signal `k` and transfer `k` both address `add c k`.
-/
import proofs.«900914_g7700000000000915_dist_max_ax0_shard0_i_m2048_n1024_v7x_i16_bf16_1_alg».proof.Kernel
import proofs.«900914_g7700000000000915_dist_max_ax0_shard0_i_m2048_n1024_v7x_i16_bf16_1_alg».proof.Proof.Gen.Kernel

namespace Cert.Kernel.Pf

open Idealize.ShloMosaic Cert.Kernel Cert.Kernel.Gen

/-- The device `k` places after `c` on the ring of sixteen. -/
def add (c : Dev nD) (k : ℕ) : Dev nD := ⟨(c.val + k) % 16, Nat.mod_lt _ (by decide)⟩
/-- The device `k` places before `c`. -/
def sub (c : Dev nD) (k : ℕ) : Dev nD := ⟨(c.val + (16 - k % 16)) % 16, Nat.mod_lt _ (by decide)⟩

theorem add_val (c : Dev nD) (k : ℕ) : (add c k).val = (c.val + k) % 16 := rfl
theorem sub_val (c : Dev nD) (k : ℕ) : (sub c k).val = (c.val + (16 - k % 16)) % 16 := rfl

theorem add_sub (c : Dev nD) (k : ℕ) : add (sub c k) k = c := by
  apply Fin.ext; have hc : c.val < 16 := c.isLt; simp only [add_val, sub_val]; omega
theorem sub_add (c : Dev nD) (k : ℕ) : sub (add c k) k = c := by
  apply Fin.ext; have hc : c.val < 16 := c.isLt; simp only [add_val, sub_val]; omega
theorem add_zero (c : Dev nD) : add c 0 = c := by
  apply Fin.ext; have hc : c.val < 16 := c.isLt; simp only [add_val]; omega
theorem sub_zero (c : Dev nD) : sub c 0 = c := by
  apply Fin.ext; have hc : c.val < 16 := c.isLt; simp only [sub_val]; omega
/-- Going `k` forward is going `16 - k` back. -/
theorem add_eq_sub (c : Dev nD) (k : ℕ) (hk : k ≤ 16) : add c k = sub c (16 - k) := by
  apply Fin.ext; have hc : c.val < 16 := c.isLt; simp only [add_val, sub_val]; omega
theorem sub_eq_add (c : Dev nD) (k : ℕ) (hk : k ≤ 16) : sub c k = add c (16 - k) := by
  apply Fin.ext; have hc : c.val < 16 := c.isLt; simp only [add_val, sub_val]; omega
theorem add_inj_left (k : ℕ) {c c' : Dev nD} (h : add c k = add c' k) : c = c' := by
  rw [← sub_add c k, ← sub_add c' k, h]
theorem sub_inj_left (k : ℕ) {c c' : Dev nD} (h : sub c k = sub c' k) : c = c' := by
  rw [← add_sub c k, ← add_sub c' k, h]
/-- A device is not its own peer at a proper offset. -/
theorem add_ne_self (c : Dev nD) (k : ℕ) (h0 : 0 < k) (hk : k < 16) : add c k ≠ c := by
  intro h; have h1 : (c.val + k) % 16 = c.val := congrArg Fin.val h; have hc : c.val < 16 := c.isLt; omega

/-- The ring's rotation by `k`, as a permutation of the devices. -/
def rot (k : ℕ) : Dev nD ≃ Dev nD := ⟨fun c => add c k, fun c => sub c k, fun c => sub_add c k, fun c => add_sub c k⟩

theorem dev1_eq (c : Dev nD) : (⟨k0_dev1 c, k0_dev1_lt c⟩ : Dev nD) = add c 1 := Fin.ext ((by decide +kernel : ∀ c : Dev nD, k0_dev1 c = (c.val + 1) % 16) c)
theorem dev2_eq (c : Dev nD) : (⟨k0_dev2 c, k0_dev2_lt c⟩ : Dev nD) = add c 2 := Fin.ext ((by decide +kernel : ∀ c : Dev nD, k0_dev2 c = (c.val + 2) % 16) c)
theorem dev3_eq (c : Dev nD) : (⟨k0_dev3 c, k0_dev3_lt c⟩ : Dev nD) = add c 3 := Fin.ext ((by decide +kernel : ∀ c : Dev nD, k0_dev3 c = (c.val + 3) % 16) c)
theorem dev4_eq (c : Dev nD) : (⟨k0_dev4 c, k0_dev4_lt c⟩ : Dev nD) = add c 4 := Fin.ext ((by decide +kernel : ∀ c : Dev nD, k0_dev4 c = (c.val + 4) % 16) c)
theorem dev5_eq (c : Dev nD) : (⟨k0_dev5 c, k0_dev5_lt c⟩ : Dev nD) = add c 5 := Fin.ext ((by decide +kernel : ∀ c : Dev nD, k0_dev5 c = (c.val + 5) % 16) c)
theorem dev6_eq (c : Dev nD) : (⟨k0_dev6 c, k0_dev6_lt c⟩ : Dev nD) = add c 6 := Fin.ext ((by decide +kernel : ∀ c : Dev nD, k0_dev6 c = (c.val + 6) % 16) c)
theorem dev7_eq (c : Dev nD) : (⟨k0_dev7 c, k0_dev7_lt c⟩ : Dev nD) = add c 7 := Fin.ext ((by decide +kernel : ∀ c : Dev nD, k0_dev7 c = (c.val + 7) % 16) c)
theorem dev8_eq (c : Dev nD) : (⟨k0_dev8 c, k0_dev8_lt c⟩ : Dev nD) = add c 8 := Fin.ext ((by decide +kernel : ∀ c : Dev nD, k0_dev8 c = (c.val + 8) % 16) c)
theorem dev9_eq (c : Dev nD) : (⟨k0_dev9 c, k0_dev9_lt c⟩ : Dev nD) = add c 9 := Fin.ext ((by decide +kernel : ∀ c : Dev nD, k0_dev9 c = (c.val + 9) % 16) c)
theorem dev10_eq (c : Dev nD) : (⟨k0_dev10 c, k0_dev10_lt c⟩ : Dev nD) = add c 10 := Fin.ext ((by decide +kernel : ∀ c : Dev nD, k0_dev10 c = (c.val + 10) % 16) c)
theorem dev11_eq (c : Dev nD) : (⟨k0_dev11 c, k0_dev11_lt c⟩ : Dev nD) = add c 11 := Fin.ext ((by decide +kernel : ∀ c : Dev nD, k0_dev11 c = (c.val + 11) % 16) c)
theorem dev12_eq (c : Dev nD) : (⟨k0_dev12 c, k0_dev12_lt c⟩ : Dev nD) = add c 12 := Fin.ext ((by decide +kernel : ∀ c : Dev nD, k0_dev12 c = (c.val + 12) % 16) c)
theorem dev13_eq (c : Dev nD) : (⟨k0_dev13 c, k0_dev13_lt c⟩ : Dev nD) = add c 13 := Fin.ext ((by decide +kernel : ∀ c : Dev nD, k0_dev13 c = (c.val + 13) % 16) c)
theorem dev14_eq (c : Dev nD) : (⟨k0_dev14 c, k0_dev14_lt c⟩ : Dev nD) = add c 14 := Fin.ext ((by decide +kernel : ∀ c : Dev nD, k0_dev14 c = (c.val + 14) % 16) c)
theorem dev15_eq (c : Dev nD) : (⟨k0_dev15 c, k0_dev15_lt c⟩ : Dev nD) = add c 15 := Fin.ext ((by decide +kernel : ∀ c : Dev nD, k0_dev15 c = (c.val + 15) % 16) c)
theorem dev16_eq (c : Dev nD) : (⟨k0_dev16 c, k0_dev16_lt c⟩ : Dev nD) = add c 1 := Fin.ext ((by decide +kernel : ∀ c : Dev nD, k0_dev16 c = (c.val + 1) % 16) c)
theorem dev17_eq (c : Dev nD) : (⟨k0_dev17 c, k0_dev17_lt c⟩ : Dev nD) = add c 2 := Fin.ext ((by decide +kernel : ∀ c : Dev nD, k0_dev17 c = (c.val + 2) % 16) c)
theorem dev18_eq (c : Dev nD) : (⟨k0_dev18 c, k0_dev18_lt c⟩ : Dev nD) = add c 3 := Fin.ext ((by decide +kernel : ∀ c : Dev nD, k0_dev18 c = (c.val + 3) % 16) c)
theorem dev19_eq (c : Dev nD) : (⟨k0_dev19 c, k0_dev19_lt c⟩ : Dev nD) = add c 4 := Fin.ext ((by decide +kernel : ∀ c : Dev nD, k0_dev19 c = (c.val + 4) % 16) c)
theorem dev20_eq (c : Dev nD) : (⟨k0_dev20 c, k0_dev20_lt c⟩ : Dev nD) = add c 5 := Fin.ext ((by decide +kernel : ∀ c : Dev nD, k0_dev20 c = (c.val + 5) % 16) c)
theorem dev21_eq (c : Dev nD) : (⟨k0_dev21 c, k0_dev21_lt c⟩ : Dev nD) = add c 6 := Fin.ext ((by decide +kernel : ∀ c : Dev nD, k0_dev21 c = (c.val + 6) % 16) c)
theorem dev22_eq (c : Dev nD) : (⟨k0_dev22 c, k0_dev22_lt c⟩ : Dev nD) = add c 7 := Fin.ext ((by decide +kernel : ∀ c : Dev nD, k0_dev22 c = (c.val + 7) % 16) c)
theorem dev23_eq (c : Dev nD) : (⟨k0_dev23 c, k0_dev23_lt c⟩ : Dev nD) = add c 8 := Fin.ext ((by decide +kernel : ∀ c : Dev nD, k0_dev23 c = (c.val + 8) % 16) c)
theorem dev24_eq (c : Dev nD) : (⟨k0_dev24 c, k0_dev24_lt c⟩ : Dev nD) = add c 9 := Fin.ext ((by decide +kernel : ∀ c : Dev nD, k0_dev24 c = (c.val + 9) % 16) c)
theorem dev25_eq (c : Dev nD) : (⟨k0_dev25 c, k0_dev25_lt c⟩ : Dev nD) = add c 10 := Fin.ext ((by decide +kernel : ∀ c : Dev nD, k0_dev25 c = (c.val + 10) % 16) c)
theorem dev26_eq (c : Dev nD) : (⟨k0_dev26 c, k0_dev26_lt c⟩ : Dev nD) = add c 11 := Fin.ext ((by decide +kernel : ∀ c : Dev nD, k0_dev26 c = (c.val + 11) % 16) c)
theorem dev27_eq (c : Dev nD) : (⟨k0_dev27 c, k0_dev27_lt c⟩ : Dev nD) = add c 12 := Fin.ext ((by decide +kernel : ∀ c : Dev nD, k0_dev27 c = (c.val + 12) % 16) c)
theorem dev28_eq (c : Dev nD) : (⟨k0_dev28 c, k0_dev28_lt c⟩ : Dev nD) = add c 13 := Fin.ext ((by decide +kernel : ∀ c : Dev nD, k0_dev28 c = (c.val + 13) % 16) c)
theorem dev29_eq (c : Dev nD) : (⟨k0_dev29 c, k0_dev29_lt c⟩ : Dev nD) = add c 14 := Fin.ext ((by decide +kernel : ∀ c : Dev nD, k0_dev29 c = (c.val + 14) % 16) c)
theorem dev30_eq (c : Dev nD) : (⟨k0_dev30 c, k0_dev30_lt c⟩ : Dev nD) = add c 15 := Fin.ext ((by decide +kernel : ∀ c : Dev nD, k0_dev30 c = (c.val + 15) % 16) c)

end Cert.Kernel.Pf
-- ==== Proof.KernelPf.Out.lean ====
/-
  What each device ends with, as one pure term of the sixteen devices' input blocks: its own column maxima
  (`colmax`, the body's first payload) folded by the elementwise maximum with the column maxima of the devices
  1, 2, …, 15 places before it — the blocks that land in its receive slots 1, …, 15 —, widened back to f32.
-/
import proofs.«900914_g7700000000000915_dist_max_ax0_shard0_i_m2048_n1024_v7x_i16_bf16_1_alg».proof.Proof.Gen.Kernel.Skeleton
import proofs.«900914_g7700000000000915_dist_max_ax0_shard0_i_m2048_n1024_v7x_i16_bf16_1_alg».proof.Proof.KernelPf.Mesh

noncomputable section

namespace Cert.Kernel.Pf

open Idealize.ShloMosaic Cert.Kernel Cert.Kernel.Gen

variable {F : FTy → Type} [FloatOps F]

/-- A device's column maxima over its 2048 rows, narrowed to bf16 and laid out as one receive slot. -/
abbrev colmax (x : Vec F S2048x1024 .f32) : Vec F S1x1x1024 .bf16 := k0_pay2 x

/-- The maxima accumulated over the own slot and the fifteen receive slots `s 1 … s 15`, in slot order. -/
def accOf (s : ℕ → Vec F S1x1x1024 .bf16) : FVec F S1024 .bf16 :=
  k0_pay9 (k0_pay8 (k0_pay7 (k0_pay6 (k0_pay5 (k0_pay4 (k0_pay3 (s 0) (s 1)) (s 2) (s 3) (s 4)) (s 5) (s 6)) (s 7) (s 8) (s 9))
    (s 10) (s 11)) (s 12) (s 13)) (s 14) (s 15)

/-- The result block of device `c`, from every device's input block `X`: slot `k` holds the column maxima of the device
    `k` places before `c`. -/
def outOf (X : Dev nD → Vec F S2048x1024 .f32) (c : Dev nD) : Vec F S1x1024 .f32 :=
  k0_pay1 (k0_pay10 (accOf fun k => colmax (X (sub c k))))

end Cert.Kernel.Pf

end
-- ==== Proof.KernelPf.Slots.lean ====
/-
  The communication buffer: sixteen slots of 1024 bf16 lanes in one scratch buffer. Slot 0 is the device's own column
  maxima, the source of its fifteen transfers; slot `k` receives the maxima of the device `k` places before it. A slot is
  addressed three ways — by a vector load or store through the rectangle at row `k`, and by a transfer through the
  sliced, squeezed memref — and all three touch the same 1024 elements `slotSet k`; the sixteen sets tile the buffer.
  `rep v` is the buffer in which every slot holds `v`: what a slot's elements hold is stated against it.
-/
import proofs.«900914_g7700000000000915_dist_max_ax0_shard0_i_m2048_n1024_v7x_i16_bf16_1_alg».proof.Proof.Gen.Kernel.Launch
import proofs.«900914_g7700000000000915_dist_max_ax0_shard0_i_m2048_n1024_v7x_i16_bf16_1_alg».proof.Proof.KernelPf.Out
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.Kernel.Pf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The communication buffer, whole. -/
abbrev cM : Memref sig .tc .vmem S16x1x1024 .bf16 := Memref.whole cc0_scratch0

theorem slot_inb (k : ℕ) (hk : k < 16) : ∀ a, (![k, 0, 0] : Fin 3 → Nat) a + S1x1x1024.size a ≤ S16x1x1024.size a := by
  intro a; fin_cases a
  · show k + 1 ≤ 16; omega
  · show 0 + 1 ≤ 1; omega
  · show 0 + 1024 ≤ 1024; omega

/-- Row `k` of the buffer, as the rectangle the vector loads and stores go through. -/
abbrev slotR (k : ℕ) (hk : k < 16) : Rect S16x1x1024 := Rect.unit (s := S16x1x1024) ![k, 0, 0] S1x1x1024.size (slot_inb k hk)

/-- Row `k` as the memref a transfer reads or writes: sliced, then squeezed to 1 × 1024. -/
abbrev slotM (k : ℕ) (hk : k < 16) : Memref sig .tc .vmem S1x1024 .bf16 :=
  ((cM.slice (slotR k hk) (fun _ => rfl)).squeeze S1x1024 squeezes_S1x1x1024_S1x1024)

/-- The elements of slot `k` (of device `c`'s buffer). -/
def slotSet (c : Dev nD) (k : ℕ) (hk : k < 16) : Finset (Idx ((c : Thread nD τ).loc cc0_scratch0)) :=
  (cM.access (slotR k hk) : View sig .tc _ _ _).set

/-- The buffer every slot of which holds `v`. -/
def rep (c : Dev nD) (v : Vec F S1x1x1024 .bf16) : Buf (Elt F) ((c : Thread nD τ).loc cc0_scratch0) :=
  fun i => v (ValueIdx.ix3 (0 : Fin 1) (0 : Fin 1) (⟨(i 2).val, (i 2).isLt⟩ : Fin 1024))

theorem h0 : 0 < 16 := by decide

/-- The block's credit on a DMA semaphore: the same for every slot. -/
abbrev Nc : ℕ := (slotM 0 h0).view.dmaCredit

theorem Nc_pos : 0 < Nc := View.dmaCredit_pos _ (by decide)
theorem slot_credit (k : ℕ) (hk : k < 16) (sem : DmaSem sig) : (slotM k hk).view.amount (.dma sem) = Nc := rfl

/-- Slot `k` is the elements of the buffer whose first coordinate is `k`. -/
theorem mem_slotSet (c : Dev nD) (k : ℕ) (hk : k < 16) (i : Idx ((c : Thread nD τ).loc cc0_scratch0)) :
    i ∈ slotSet c k hk ↔ (i 0 : ℕ) = k := by
  unfold slotSet
  show i ∈ ((View.whole cc0_scratch0 : View sig .tc _ _ _).slice (slotR k hk)).set ↔ _
  rw [View.set_slice_whole, Rect.mem_set_unit]
  have h1 : ((i 1 : Fin 1) : ℕ) < 1 := (i 1).isLt
  have h2 : ((i 2 : Fin 1024) : ℕ) < 1024 := (i 2).isLt
  constructor
  · intro h
    have h0 : k ≤ (i 0 : ℕ) ∧ (i 0 : ℕ) < k + 1 := h (0 : Fin 3)
    omega
  · intro h a
    fin_cases a
    · show k ≤ (i 0 : ℕ) ∧ (i 0 : ℕ) < k + 1; omega
    · show 0 ≤ (i 1 : ℕ) ∧ (i 1 : ℕ) < 0 + 1; omega
    · show 0 ≤ (i 2 : ℕ) ∧ (i 2 : ℕ) < 0 + 1024; omega

/-- A transfer's view of slot `k` covers exactly the slot's elements. -/
theorem slotM_set (c : Dev nD) (k : ℕ) (hk : k < 16) : (slotM k hk).view.set = slotSet c k hk :=
  View.set_reshape _ _
/-- The sixteen slots tile the buffer. -/
theorem slots_cover (c : Dev nD) : (Finset.univ : Finset (Idx ((c : Thread nD τ).loc cc0_scratch0))) = (Finset.univ : Finset (Fin 16)).biUnion fun k => slotSet c k.val k.isLt := by
  ext i
  simp only [Finset.mem_univ, Finset.mem_biUnion, true_and, true_iff]
  exact ⟨(i 0 : Fin 16), (mem_slotSet c _ _ i).mpr rfl⟩
theorem slots_disjoint (c : Dev nD) (k k' : ℕ) (hk : k < 16) (hk' : k' < 16) (h : k ≠ k') : Disjoint (slotSet c k hk) (slotSet c k' hk') := by
  rw [Finset.disjoint_left]
  intro i hi hi'
  exact h (((mem_slotSet c k hk i).mp hi).symm.trans ((mem_slotSet c k' hk' i).mp hi'))
/-- A vector load of row `k` reads inside slot `k`; a full store of row `k` writes inside it. -/
theorem load_sub (c : Dev nD) (k : ℕ) (hk : k < 16) : cM.view.setOn (slotR k hk).toLoadRect.set ⊆ slotSet c k hk :=
  (View.set_slice (cM : Memref sig .tc .vmem S16x1x1024 .bf16).view (slotR k hk)).symm.subset
theorem store_sub (c : Dev nD) (k : ℕ) (hk : k < 16) : (cM.access (slotR k hk) : View sig .tc _ _ _).setOn Finset.univ ⊆ slotSet c k hk :=
  fun _ h => h
/-- A load of row `k` from a buffer that agrees with `rep v` on slot `k` reads `v`. -/
theorem load_rep (c : Dev nD) (k : ℕ) (hk : k < 16) (v : Vec F S1x1x1024 .bf16) (f : Buf (Elt F) ((c : Thread nD τ).loc cc0_scratch0))
    (hf : ∀ i ∈ slotSet c k hk, f i = rep c v i) : cM.view.readAt (Elt F) (slotR k hk).toLoadRect f = v := by
  funext x
  have hx0 : ((x 0 : Fin 1) : ℕ) = 0 := by have : ((x 0 : Fin 1) : ℕ) < 1 := (x 0).isLt; omega
  have hx1 : ((x 1 : Fin 1) : ℕ) = 0 := by have : ((x 1 : Fin 1) : ℕ) < 1 := (x 1).isLt; omega
  have hm : (slotR k hk).toLoadRect.idx x ∈ slotSet c k hk := (mem_slotSet c k hk _).mpr (by
    show k + 1 * ((x 0 : Fin 1) : ℕ) = k; omega)
  show f ((slotR k hk).toLoadRect.idx x) = v x
  rw [hf _ hm]
  unfold rep
  refine congrArg v ?_
  funext a
  match a with
  | ⟨0, _⟩ => exact Fin.ext hx0.symm
  | ⟨1, _⟩ => exact Fin.ext hx1.symm
  | ⟨2, _⟩ => exact Fin.ext ((Nat.zero_add _).trans (Nat.one_mul _))
/-- A full store of `w` into row `k` leaves slot `k` holding `w`. -/
theorem store_rep (c : Dev nD) (k : ℕ) (hk : k < 16) (w : Vec F S1x1x1024 .bf16) (f : Buf (Elt F) ((c : Thread nD τ).loc cc0_scratch0)) :
    ∀ i ∈ slotSet c k hk, ((cM.access (slotR k hk) : View sig .tc _ _ _).write (Elt F) f w Finset.univ) i = rep c w i := by
  intro i hi
  obtain ⟨y, rfl⟩ := View.exists_emb_of_mem_set (cM.access (slotR k hk) : View sig .tc _ _ _) hi
  rw [View.write_emb_of_mem _ _ (Finset.mem_univ y)]
  have hy0 : ((y 0 : Fin 1) : ℕ) = 0 := by have : ((y 0 : Fin 1) : ℕ) < 1 := (y 0).isLt; omega
  have hy1 : ((y 1 : Fin 1) : ℕ) = 0 := by have : ((y 1 : Fin 1) : ℕ) < 1 := (y 1).isLt; omega
  show w y = rep c w ((slotR k hk).emb y)
  unfold rep
  refine congrArg w ?_
  funext a
  match a with
  | ⟨0, _⟩ => exact Fin.ext hy0
  | ⟨1, _⟩ => exact Fin.ext hy1
  | ⟨2, _⟩ => exact Fin.ext ((Nat.zero_add _).trans (Nat.one_mul _)).symm
/-- A transfer of slot 0 of a buffer agreeing with `rep v` there, into slot `k` of device `c'`, leaves that slot holding `v`. -/
theorem land_rep (c c' : Dev nD) (k : ℕ) (hk : k < 16) (v : Vec F S1x1x1024 .bf16)
    (fs : Buf (Elt F) ((c : Thread nD τ).loc cc0_scratch0)) (fd : Buf (Elt F) ((c' : Thread nD τ).loc cc0_scratch0))
    (hfs : ∀ i ∈ slotSet c 0 h0, fs i = rep c v i) :
    ∀ i ∈ slotSet c' k hk, ((slotM k hk).view.write (Elt F) fd ((slotM 0 h0).view.read (Elt F) fs) Finset.univ) i = rep c' v i := by
  intro i hi
  rw [← slotM_set c' k hk] at hi
  obtain ⟨z, rfl⟩ := View.exists_emb_of_mem_set (slotM k hk).view hi
  rw [View.write_emb_of_mem _ _ (Finset.mem_univ z), View.read_apply]
  have hm : (slotM 0 h0).view.emb z ∈ slotSet c 0 h0 := by
    rw [← slotM_set c 0 h0]; exact View.emb_mem_set _ z
  rw [hfs _ hm]
  show rep c v ((slotM 0 h0).view.emb z) = rep c' v ((slotM k hk).view.emb z)
  unfold rep
  refine congrArg v ?_
  funext a
  match a with
  | ⟨0, _⟩ => rfl
  | ⟨1, _⟩ => rfl
  | ⟨2, _⟩ => exact Fin.ext rfl

/-- info: 'Cert.Kernel.Pf.land_rep' depends on axioms: [propext, Classical.choice, Quot.sound] -/
#guard_msgs in #print axioms land_rep

end Cert.Kernel.Pf

end
-- ==== Proof.KernelPf.Sched.lean ====
/-
  The protocol of the sixteen-device maximum, under the rounds discipline.
  Every device `c` owns 33 cells: its barrier cell (the entry handshake), and for each offset `k` a send cell and a
  receive cell (offset 0 is never used). One round each:
  * barrier cell of `c`: fifteen duties `d = 1 … 15` of one unit; duty `d` is paid by the device `d` places after `c`,
    and hands `c` that device's receive slot `d` (the slot `c`'s transfer `d` lands in) and that its receive cell `d` is open;
  * send cell `k` of `c`: one duty of the block's credit, paid by `c`'s own transfer `k`; it hands back the read share
    `k` of `c`'s slot 0;
  * receive cell `k` of `c`: one duty of the block's credit, paid by the transfer of the device `k` places before `c`;
    it hands `c` its slot `k` holding that device's column maxima.
  A device signals before it waits on its barrier, and transfers before it waits on any DMA cell: barrier cells sit at
  level 1, receive cells at level 2, everything else at 0, and every wait is below all that the waiter still owes.
-/
import proofs.«900914_g7700000000000915_dist_max_ax0_shard0_i_m2048_n1024_v7x_i16_bf16_1_alg».proof.Proof.KernelPf.Slots
import Idealize.ShloMosaic.Lib.Transfers

set_option maxRecDepth 16384

noncomputable section

namespace Cert.Kernel.Pf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Memrefs, semaphores, cells -/

abbrev xM : Memref sig .tc .vmem S2048x1024 .f32 := Memref.whole cc0_stg0_0
abbrev oM : Memref sig .tc .vmem S1x1024 .f32 := Memref.whole cc0_stg1_0

/-- The barrier semaphore of the collective (not scoped to the launch). -/
abbrev barS : Sem sig := (SemArray.scalar (sig.barrier 0 rfl) : Sems sig S_).sem
/-- Send semaphore `k` and receive semaphore `k`: entries `k` of the two scratch arrays of sixteen. -/
def sendQ (k : Fin 16) : DmaSem sig := ⟨2 + k.val, by have := k.isLt; show 2 + k.val < 34; omega⟩
def recvQ (k : Fin 16) : DmaSem sig := ⟨18 + k.val, by have := k.isLt; show 18 + k.val < 34; omega⟩

abbrev barCell (c : Dev nD) : GSem nD τ sig := ((c : Thread nD τ), .reg barS)
abbrev sendCell (c : Dev nD) (k : Fin 16) : GSem nD τ sig := ((c : Thread nD τ), .dma (sendQ k))
abbrev recvCell (c : Dev nD) (k : Fin 16) : GSem nD τ sig := ((c : Thread nD τ), .dma (recvQ k))

/-- Which offset a DMA semaphore of the two arrays belongs to. -/
def kOf (q : DmaSem sig) : Fin 16 := ⟨(q.val + 14) % 16, Nat.mod_lt _ (by decide)⟩
theorem kOf_send (k : Fin 16) : kOf (sendQ k) = k := by
  apply Fin.ext; have := k.isLt; show (2 + k.val + 14) % 16 = k.val; omega
theorem kOf_recv (k : Fin 16) : kOf (recvQ k) = k := by
  apply Fin.ext; have := k.isLt; show (18 + k.val + 14) % 16 = k.val; omega

/-- The cells of one device: its barrier cell, its send cells, its receive cells. -/
abbrev CK : Type := Option (Bool × Fin 16)
def csem : CK → SemLoc sig
  | none => .reg barS
  | some (false, k) => .dma (sendQ k)
  | some (true, k) => .dma (recvQ k)
abbrev kcell (ck : Dev nD × CK) : GSem nD τ sig := ((ck.1 : Thread nD τ), csem ck.2)
/-- The kernel's OWN (scoped) semaphores: the two arrays. -/
abbrev osem : Bool × Fin 16 → SemLoc sig := fun bk => csem (some bk)

/-! ## Contents -/

/-- Device `c`'s input block, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s column maxima, as one slot. -/
def mine (c : Dev nD) : Vec F S1x1x1024 .bf16 := colmax (xstg m ρ c)

/-- The kernel's result on device `c`. -/
def outAt (c : Dev nD) : (cc0_stg1_0 : Ref sig .tc).ty.Contents (Elt F) := outOf (fun d => xstg m ρ d) c

/-- Slot `k` of device `c`'s communication buffer, at share `q` and contents `f`. -/
def slotPts (c : Dev nD) (k : Fin 16) (q : PosShare TreeShare) (f : Buf (Elt F) ((c : Thread nD τ).loc cc0_scratch0)) : sProp 𝕄 :=
  ((c : Thread nD τ).loc cc0_scratch0) ↦[slotSet c k.val k.isLt]{q} f

omit [FloatOps F] in
instance slotPts_storable (c : Dev nD) (k : Fin 16) (q) (f) : BI.Storable (upEmb : UEmb _ 𝕄) (slotPts (F := F) c k q f) := by unfold slotPts; infer_instance

/-! ## The schedule -/

/-- Duty `d` of `c`'s barrier cell hands `c` the receive slot `d` of the device `d` places after it, and that its receive cell `d` is open. -/
def barPay (c : Dev nD) (d : Fin 16) : sProp 𝕄 :=
  iprop((∃ f, slotPts (add c d.val) d fullShare f) ∗ reached ER (recvCell (add c d.val) d) 0)
/-- The send cell `k` hands back read share `k` of the own slot 0. -/
def sendPay (c : Dev nD) (k : Fin 16) : sProp 𝕄 := slotPts c 0 (Transfers.shareTok fullShare 16 k) (rep c (mine m ρ c))
/-- The receive cell `k` hands over slot `k` holding the maxima of the device `k` places before. -/
def recvPay (c : Dev nD) (k : Fin 16) : sProp 𝕄 := slotPts c k fullShare (rep c (mine m ρ (sub c k.val)))

/-- One round, round 0. -/
def Rd : Rounds.Schedule (GSem nD τ sig) (Fin 16) 𝕄 where
  duties g r := if r = 0 ∧ g.1.2 = .tc then
      (match g.2 with
        | .reg _ => Finset.univ.erase 0
        | .dma q => if 2 ≤ q.val ∧ kOf q ≠ 0 then {0} else ∅)
    else ∅
  unitless _ := False
  amount g _ _ := match g.2 with
    | .reg _ => 1
    | .dma _ => Nc
  payload g _ d := match g.2 with
    | .reg _ => barPay g.1.1 d
    | .dma q => if q.val < 18 then sendPay m ρ g.1.1 (kOf q) else recvPay m ρ g.1.1 (kOf q)
  amount_pos g _ _ _ := by
    cases g.2 with
    | reg _ => exact Nat.one_pos
    | dma _ => exact Nc_pos

instance Rd_payload_storable (g : GSem nD τ sig) (r : ℕ) (d : Fin 16) :
    BI.Storable (upEmb : UEmb _ 𝕄) ((Rd (F := F) m ρ).payload g r d) := by
  show BI.Storable upEmb (match g.2 with
    | .reg _ => barPay g.1.1 d
    | .dma q => if q.val < 18 then sendPay m ρ g.1.1 (kOf q) else recvPay m ρ g.1.1 (kOf q))
  unfold barPay sendPay recvPay
  (repeat' split) <;> infer_instance

section Sched
variable (c : Dev nD) (k : Fin 16)

theorem duties_bar : (Rd (F := F) m ρ).duties (barCell c) 0 = Finset.univ.erase 0 := by dsimp only [Rd]; exact if_pos ⟨rfl, rfl⟩
theorem duties_send (hk : k ≠ 0) : (Rd (F := F) m ρ).duties (sendCell c k) 0 = {0} := by
  dsimp only [Rd]; rw [if_pos ⟨rfl, rfl⟩]; exact if_pos ⟨Nat.le_add_right 2 _, by rw [kOf_send]; exact hk⟩
theorem duties_recv (hk : k ≠ 0) : (Rd (F := F) m ρ).duties (recvCell c k) 0 = {0} := by
  dsimp only [Rd]; rw [if_pos ⟨rfl, rfl⟩]; exact if_pos ⟨Nat.le_trans (by decide) (Nat.le_add_right 18 _), by rw [kOf_recv]; exact hk⟩
theorem duties_send0 (r : ℕ) : (Rd (F := F) m ρ).duties (sendCell c 0) r = ∅ := by
  dsimp only [Rd]; split
  · exact if_neg fun h => h.2 (kOf_send 0)
  · rfl
theorem duties_recv0 (r : ℕ) : (Rd (F := F) m ρ).duties (recvCell c 0) r = ∅ := by
  dsimp only [Rd]; split
  · exact if_neg fun h => h.2 (kOf_recv 0)
  · rfl
theorem duties_later (g : GSem nD τ sig) : ∀ r, 1 ≤ r → (Rd (F := F) m ρ).duties g r = ∅ :=
  fun r hr => by dsimp only [Rd]; exact if_neg fun h => by omega

theorem amount_bar (d : Fin 16) : (Rd (F := F) m ρ).amount (barCell c) 0 d = 1 := rfl
theorem amount_send (d : Fin 16) : (Rd (F := F) m ρ).amount (sendCell c k) 0 d = Nc := rfl
theorem amount_recv (d : Fin 16) : (Rd (F := F) m ρ).amount (recvCell c k) 0 d = Nc := rfl

theorem expect_bar : (Rd (F := F) m ρ).expect (barCell c) 0 = 15 := by
  unfold Schedule.expect Schedule.amountOf
  rw [duties_bar, Finset.sum_congr rfl fun d _ => amount_bar m ρ c d, Finset.sum_const, smul_eq_mul, Nat.mul_one]
  decide
theorem expect_send (hk : k ≠ 0) : (Rd (F := F) m ρ).expect (sendCell c k) 0 = Nc := by
  unfold Schedule.expect Schedule.amountOf; rw [duties_send m ρ c k hk, Finset.sum_singleton, amount_send]
theorem expect_recv (hk : k ≠ 0) : (Rd (F := F) m ρ).expect (recvCell c k) 0 = Nc := by
  unfold Schedule.expect Schedule.amountOf; rw [duties_recv m ρ c k hk, Finset.sum_singleton, amount_recv]

theorem payload_bar (d : Fin 16) : (Rd (F := F) m ρ).payload (barCell c) 0 d = barPay c d := rfl
theorem payload_send (d : Fin 16) : (Rd (F := F) m ρ).payload (sendCell c k) 0 d = sendPay m ρ c k := by
  dsimp only [Rd]; rw [if_pos (show (sendQ k).val < 18 by have := k.isLt; show 2 + k.val < 18; omega), kOf_send]
theorem payload_recv (d : Fin 16) : (Rd (F := F) m ρ).payload (recvCell c k) 0 d = recvPay m ρ c k := by
  dsimp only [Rd]; rw [if_neg (show ¬ (recvQ k).val < 18 by show ¬ 18 + k.val < 18; omega), kOf_recv]

/-- The rest of the barrier cell's round, no duty taken: the fifteen peers' payloads. -/
theorem rest_bar : bigSep ((Rd (F := F) m ρ).duties (barCell c) 0 \ ∅) (fun d => (Rd (F := F) m ρ).payload (barCell c) 0 d)
    = bigSep (Finset.univ.erase (0 : Fin 16)) (fun d => barPay (F := F) c d) := by
  rw [Finset.sdiff_empty, duties_bar]; rfl
theorem rest_send (hk : k ≠ 0) : bigSep ((Rd (F := F) m ρ).duties (sendCell c k) 0 \ ∅) (fun d => (Rd (F := F) m ρ).payload (sendCell c k) 0 d) = sendPay m ρ c k := by
  rw [Finset.sdiff_empty, duties_send m ρ c k hk, bigSep_singleton, payload_send]
theorem rest_recv (hk : k ≠ 0) : bigSep ((Rd (F := F) m ρ).duties (recvCell c k) 0 \ ∅) (fun d => (Rd (F := F) m ρ).payload (recvCell c k) 0 d) = recvPay m ρ c k := by
  rw [Finset.sdiff_empty, duties_recv m ρ c k hk, bigSep_singleton, payload_recv]

end Sched

/-! ## What each device owes at launch; the levels -/

/-- The offset with `j` added makes sixteen. -/
def neg (j : Fin 16) : Fin 16 := ⟨(16 - j.val) % 16, Nat.mod_lt _ (by decide)⟩
/-- `k` as an offset, from a number below sixteen. -/
abbrev fk (k : ℕ) (hk : k < 16 := by decide) : Fin 16 := ⟨k, hk⟩

/-- A number as an offset on the ring. -/
def off (n : ℕ) : Fin 16 := ⟨n % 16, Nat.mod_lt _ (by decide)⟩

/-- The receive credits device `c` still owes before its transfers `16 - j, …, 15` … summed so that transfer 1 peels the LAST
    summand of `owedR c 15`, transfer 2 the last of `owedR c 14`, and so on down to `owedR c 0 = 0`. -/
def owedR (c : Dev nD) : ℕ → CellTallies nD τ sig Unit
  | 0 => 0
  | j + 1 => owedR c j + tallyAt (recvCell (add c (15 - j)) (off (15 - j))) () Nc
/-- The same for the barrier units owed on top of all the receive credits: signal 1 peels the last summand of `owedB c 15`. -/
def owedB (c : Dev nD) : ℕ → CellTallies nD τ sig Unit
  | 0 => owedR c 15
  | j + 1 => owedB c j + tallyAt (barCell (add c (15 - j))) () 1
/-- What device `c` owes at launch: one barrier unit to each peer and one block's credit to each peer's receive cell. -/
def O₀ (c : Dev nD) : CellTallies nD τ sig Unit := owedB c 15

def L (g : GSem nD τ sig) : Finset Unit := if g.1.2 = .tc then {()} else ∅
/-- Barrier cells at 1, receive cells at 2, everything else (staging, send) at 0. -/
def lv (g : GSem nD τ sig) (_ : Unit) : ℕ := match g.2 with
  | .reg _ => 1
  | .dma q => if 18 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## Ghost state -/

/-- Every cell's invariant, under the names `K` the launch allocated them at, and that round 0 of every cell is reached. -/
def records (K : Dev nD × CK → ℕ) : sProp 𝕄 :=
  iprop((bigSep Finset.univ fun ck : Dev nD × CK => cellInv ER (Rd m ρ) (K ck) (kcell ck))
    ∗ bigSep Finset.univ fun ck : Dev nD × CK => reached ER (kcell ck) 0)

instance records_persistent (K : Dev nD × CK → ℕ) : BI.Persistent (records m ρ K) := by unfold records; infer_instance

theorem inv_at (K : Dev nD × CK → ℕ) (ck : Dev nD × CK) : records m ρ K ⊢ cellInv ER (Rd m ρ) (K ck) (kcell ck) := by
  have h : (bigSep Finset.univ fun ck : Dev nD × CK => (cellInv ER (Rd m ρ) (K ck) (kcell ck) : sProp 𝕄)) ⊢ cellInv ER (Rd m ρ) (K ck) (kcell ck) :=
    bigSep_elim (Finset.mem_univ ck)
  unfold records; iintro ⟨H, -⟩; iapply h; iexact H
theorem reached_at (K : Dev nD × CK → ℕ) (ck : Dev nD × CK) : records m ρ K ⊢ (reached ER (kcell ck) 0 : sProp 𝕄) := by
  have h : (bigSep Finset.univ fun ck : Dev nD × CK => (reached ER (kcell ck) 0 : sProp 𝕄)) ⊢ reached ER (kcell ck) 0 :=
    bigSep_elim (Finset.mem_univ ck)
  unfold records; iintro ⟨-, H⟩; iapply h; iexact H

/-- The tokens of the duties device `c` pays: signal `j` pays duty `neg j` of the barrier cell of the device `j` places after it;
    transfer `k` pays its own send cell `k` and the receive cell `k` of the device `k` places after it. -/
def payToks (c : Dev nD) : sProp 𝕄 :=
  iprop((bigSep (Finset.univ.erase (0 : Fin 16)) fun j => dutyTok ER (barCell (add c j.val)) 0 (neg j))
    ∗ (bigSep (Finset.univ.erase (0 : Fin 16)) fun k => dutyTok ER (sendCell c k) 0 0)
    ∗ (bigSep (Finset.univ.erase (0 : Fin 16)) fun k => dutyTok ER (recvCell (add c k.val) k) 0 0))
/-- Device `c`'s positions at round 0 of its 33 cells. -/
def positions (c : Dev nD) : sProp 𝕄 := bigSep Finset.univ fun ck : CK => atPos ER (kcell (c, ck)) 0 ∅ 0
def linear (c : Dev nD) : sProp 𝕄 := iprop(positions (F := F) c ∗ payToks (F := F) c)

/-- The ghost state device `c` starts from. -/
def ghost (K : Dev nD × CK → ℕ) (c : Dev nD) : sProp 𝕄 := iprop(records m ρ K ∗ linear (F := F) c)

/-- The credit the launch deals device `c`: fifteen barrier units, and the block's credit on each receive cell. -/
def creds (c : Dev nD) : sProp 𝕄 :=
  iprop(cred (tallyAt (barCell c) () 15) ∗ bigSep (Finset.univ.erase (0 : Fin 16)) fun k => cred (tallyAt (recvCell c k) () Nc))

/-- What device `c`'s body starts from. -/
def start (c : Dev nD) : sProp 𝕄 := iprop((∃ K, ghost m ρ K c) ∗ creds (F := F) c ∗ levAts L lv)

/-- The communication buffer, whole, at some contents. -/
def scrAny (c : Dev nD) : sProp 𝕄 := iprop(∃ f : Buf (Elt F) ((c : Thread nD τ).loc cc0_scratch0), ((c : Thread nD τ).loc cc0_scratch0) ↦{fullShare} f)
/-- The kernel's own 32 semaphores at zero. -/
def ownZero (c : Dev nD) : sProp 𝕄 := bigSep Finset.univ fun bk : Bool × Fin 16 => semVal ((c : Thread nD τ), osem bk) 0

def Φ₀ (c : Dev nD) : sProp 𝕄 := iprop(start m ρ c ∗ scrAny (F := F) c)
def Φ₁ (c : Dev nD) : sProp 𝕄 := iprop(scrAny (F := F) c ∗ ownZero (F := F) c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

end Cert.Kernel.Pf

end
-- ==== Proof.KernelPf.BodySpec.lean ====
/-
  What one device's kernel body is entered with and what it leaves: the interface between the body's proof and the launch.
-/
import proofs.«900914_g7700000000000915_dist_max_ax0_shard0_i_m2048_n1024_v7x_i16_bf16_1_alg».proof.Proof.KernelPf.Sched

set_option maxRecDepth 16384

noncomputable section

namespace Cert.Kernel.Pf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A staging buffer held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition on device `c`, the cells' invariants under the names `K`: its ghost state, the launch's credit, the
    levels, the communication buffer at some contents, what it owes, and its two staging buffers as the pipeline fetched them. -/
def bodyPre (K : Dev nD × CK → ℕ) (c : Dev nD) : sProp 𝕄 :=
  iprop((ghost m ρ K c ∗ creds (F := F) c ∗ levAts L lv ∗ scrAny (F := F) c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What the body leaves: the communication buffer, its 32 own semaphores back at zero, nothing owed, the input staging
    buffer as found and the output staging buffer at the maximum over all sixteen devices. -/
def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

end Cert.Kernel.Pf

end
-- ==== Proof.KernelPf.Steps.lean ====
/-
  One lemma per kind of step of the sixteen-device maximum's body, each in weakest-precondition form: the signal of the
  entry handshake, the barrier wait, a transfer to the device `k` places on, the two waits of a transfer, the vector
  load of a slot, the store of the device's own maxima, and the closing of a cell no duty remains on.
-/
import proofs.«900914_g7700000000000915_dist_max_ax0_shard0_i_m2048_n1024_v7x_i16_bf16_1_alg».proof.Proof.KernelPf.BodySpec
import Idealize.ShloMosaic.Lib.Rounds
import Idealize.ShloMosaic.Rules.Step
import Idealize.ShloMosaic.Rules.Acct
import Idealize.ShloMosaic.Rules.Footprints
import Idealize.ShloMosaic.Rules.PointsTo

set_option maxRecDepth 16384

noncomputable section

namespace Cert.Kernel.Pf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

-- the schedule's tables, as the equations the executor reads a step's duty, amount and payload off
attribute [local sl_rounds] duties_bar duties_send duties_recv amount_bar amount_send amount_recv expect_bar expect_send expect_recv payload_bar payload_send payload_recv

/-! ## The ring's arithmetic at the offsets -/

theorem neg_ne_zero {j : Fin 16} (hj : j ≠ 0) : neg j ≠ 0 := by
  intro h
  have h1 : (16 - j.val) % 16 = 0 := congrArg Fin.val h
  have h2 : j.val ≠ 0 := fun h0 => hj (Fin.ext h0)
  have := j.isLt
  omega

/-- Going `j` on and then `neg j` on comes back. -/
theorem add_add_neg (c : Dev nD) (j : Fin 16) : add (add c j.val) (neg j).val = c := by
  apply Fin.ext
  have hc : c.val < 16 := c.isLt
  have hj : j.val < 16 := j.isLt
  show ((c.val + j.val) % 16 + (16 - j.val) % 16) % 16 = c.val
  omega

/-! ## The signal of the entry handshake -/

/-- Signal `j`: one unit on the barrier cell of the device `j` places on, paying its duty `neg j` with the device's own
    receive slot `neg j`. -/
theorem step_signal (K : Dev nD × CK → ℕ) (c : Dev nD) (j : Fin 16) (hj : j ≠ 0) (n : Dev nD) (hn : n = add c j.val)
    (O : CellTallies nD τ sig Unit) {W : Waits sig Unit}
    {α : Type} {Q : α → sProp 𝕄} {k : PUnit → Prog (TpuEff nD τ sig (Elt F) Λ₀ .tc) α} :
    iprop(records m ρ K ∗ dutyTok ER (barCell (add c j.val)) 0 (neg j) ∗ (∃ f, slotPts (F := F) c (neg j) fullShare f)
        ∗ owes (c : Thread nD τ) (O + tallyAt (barCell (add c j.val)) () 1) W)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  iintro ⟨#HR, Htok, Hslot, HO⟩ Hk
  ihave #HI := (show records m ρ K ⊢ cellInv ER (Rd m ρ) (K (add c j.val, none)) (barCell (add c j.val)) from inv_at m ρ K (add c j.val, none)) $$ HR
  ihave #Hr := (show records m ρ K ⊢ (reached ER (barCell (add c j.val)) 0 : sProp 𝕄) from reached_at m ρ K (add c j.val, none)) $$ HR
  ihave #Hrr := (show records m ρ K ⊢ (reached ER (recvCell c (neg j)) 0 : sProp 𝕄) from reached_at m ρ K (c, some (true, neg j))) $$ HR
  ihave Hpay : barPay (F := F) (add c j.val) (neg j) $$ [Hslot]
  · unfold barPay; rw [add_add_neg]
    isplitl [Hslot]; · iexact Hslot
    iexact Hrr
  sl_exec (disch := first | exact neg_ne_zero hj | rfl | decide)
  iapply Hk
  iexact HO
/-! ## The barrier wait -/

/-- What a device owes before its transfers is owed to receive cells only. -/
theorem owedR_pos {c : Dev nD} : ∀ (j : ℕ) {g : GSem nD τ sig} {u : Unit}, 0 < owedR c j g u → ∃ (d : Dev nD) (k : Fin 16), g = recvCell d k
  | 0, g, u, h => absurd h (Nat.lt_irrefl 0)
  | j + 1, g, u, h => by
    rcases Pipeline.add_pos_cases h with h1 | h2
    · exact owedR_pos j h1
    · rw [tallyAt_apply] at h2
      by_cases hh : g = recvCell (add c (15 - j)) (off (15 - j)) ∧ u = ()
      · exact ⟨_, _, hh.1⟩
      · rw [if_neg hh] at h2; exact absurd h2 (Nat.lt_irrefl 0)

omit [FloatOps F] in
/-- At its barrier wait a device owes receive credits only: receive cells sit above the barrier cells. -/
theorem mayWait_bar (c : Dev nD) :
    (levAts L lv : sProp 𝕄) ⊢ MayWait (c : Thread nD τ) (.reg barS) () (owedR c 15) :=
  MayOwe.of_cut (L := L) (lev := lv) 1
    (fun p hp => by rw [Finset.mem_singleton.mp hp, L_tc]; exact Finset.mem_singleton_self _)
    (fun g u hg => by obtain ⟨d, k, rfl⟩ := owedR_pos 15 hg; rw [L_tc]; exact Finset.mem_singleton_self _)
    (fun p hp => by rw [Finset.mem_singleton.mp hp]; exact le_refl _)
    (fun g u hg => by
      obtain ⟨d, k, rfl⟩ := owedR_pos 15 hg
      show 1 < (if 18 ≤ (recvQ k).val then 2 else 0)
      rw [if_pos (show 18 ≤ (recvQ k).val from Nat.le_add_right 18 k.val)]; decide)

/-- The barrier wait: fifteen units, for the fifteen peers' receive slots. -/
theorem step_barwait (K : Dev nD × CK → ℕ) (c : Dev nD) {W : Waits sig Unit}
    {α : Type} {Q : α → sProp 𝕄} {k : PUnit → Prog (TpuEff nD τ sig (Elt F) Λ₀ .tc) α} :
    iprop(records m ρ K ∗ cred (tallyAt (barCell c) () 15) ∗ owes (c : Thread nD τ) (owedR c 15) W ∗ levAts L lv
        ∗ atPos ER (barCell c) 0 ∅ 0)
      ⊢ iprop(((owes (c : Thread nD τ) (owedR c 15) (insert (SemLoc.reg barS, ()) W) ∗ atPos ER (barCell c) 1 ∅ 0
              ∗ bigSep (Finset.univ.erase (0 : Fin 16)) (fun d => barPay (F := F) c d))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 15) k) Q) := by
  iintro ⟨#HR, Hc, HO, #Hlev, Hat⟩ Hk
  ihave #HI := (show records m ρ K ⊢ cellInv ER (Rd m ρ) (K (c, none)) (barCell c) from inv_at m ρ K (c, none)) $$ HR
  ihave #HM := (mayWait_bar c) $$ Hlev
  sl_exec
  iapply Hk
  isplitl [HO]; · iexact HO
  isplitl [Hat]; · iexact Hat
  iapply (Entails.of_eq ((congrArg (fun S => bigSep S fun d => (Rd (F := F) m ρ).payload (barCell c) 0 d) (Finset.sdiff_empty).symm).trans (rest_bar m ρ c))) $$ [Hat_pay1]
  iexact Hat_pay1
/-! ## A transfer -/

/-- Transfer `k`: the device's slot 0 into slot `k` of the device `k` places on. The read share of slot 0 is the send
    cell's payload; the slot it lands in, now holding the sender's maxima, is the receive cell's. -/
theorem step_send (K : Dev nD × CK → ℕ) (c : Dev nD) (k : Fin 16) (hk : k ≠ 0) (n : Dev nD) (hn : n = add c k.val)
    (O : CellTallies nD τ sig Unit) {W : Waits sig Unit}
    (fd : Buf (Elt F) (((add c k.val : Dev nD) : Thread nD τ).loc cc0_scratch0))
    {hsc : (slotM k.val k.isLt : Memref sig (Dev.tc n : Thread nD τ).2.kind .vmem S1x1024 .bf16).view.ref.isScScratch = false}
    {hsrc : (slotM 0 h0 : Memref sig .tc .vmem S1x1024 .bf16).view.WordExact}
    {hdst : (slotM k.val k.isLt : Memref sig .tc .vmem S1x1024 .bf16).view.WordExact}
    {hsem : DmaTarget.Typed .vmem (.dma (recvQ k)) (.remote (Dev.tc n : Thread nD τ) (slotM k.val k.isLt) (.dma (sendQ k)) hsc)}
    {α : Type} {Q : α → sProp 𝕄} {kk : PUnit → Prog (TpuEff nD τ sig (Elt F) Λ₀ .tc) α} :
    iprop(records m ρ K ∗ slotPts c 0 (Transfers.shareTok fullShare 16 k) (rep c (mine m ρ c))
        ∗ slotPts (add c k.val) k fullShare fd
        ∗ owes (c : Thread nD τ) (O + tallyAt (recvCell (add c k.val) k) () Nc) W
        ∗ dutyTok ER (sendCell c k) 0 0 ∗ dutyTok ER (recvCell (add c k.val) k) 0 0)
      ⊢ iprop(((cred (tallyAt (sendCell c k) () Nc) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM 0 h0) (.remote (Dev.tc n : Thread nD τ) (slotM k.val k.isLt) (.dma (sendQ k)) hsc)
                (.dma (recvQ k)) hsrc hdst hsem) kk) Q) := by
  subst hn
  unfold slotPts
  iintro ⟨#HR, Hs, Hd, HO, Ht1, Ht2⟩
  iapply (Rounds.wp_send_pointsTo 𝒱₀ ER (Rd m ρ) (c : Thread nD τ) none (c' := (add c k.val : Thread nD τ))
      (src := slotM 0 h0) (dst := slotM k.val k.isLt) (sS := .dma (sendQ k)) (sem := .dma (recvQ k))
      (q := Transfers.shareTok fullShare 16 k) (fs := rep c (mine m ρ c)) (fd := fd)
      (κ₁ := K (c, some (false, k))) (κ₂ := K (add c k.val, some (true, k))) (r₁ := 0) (r₂ := 0) (d₁ := 0) (d₂ := 0)
      (by rw [duties_send m ρ c k hk]; exact Finset.mem_singleton_self _)
      (by rw [duties_recv m ρ (add c k.val) k hk]; exact Finset.mem_singleton_self _)
      () () Nc (slot_credit k.val k.isLt (recvQ k)) (amount_send m ρ c k 0) (amount_recv m ρ (add c k.val) k 0) O rfl (W := W)
      (by rw [payload_send, slotM_set c 0 h0]; exact BI.Entails.refl _)
      (by
        rw [payload_recv, slotM_set (add c k.val) k.val k.isLt]
        unfold recvPay slotPts
        rw [sub_add]
        exact Entails.of_eq (pointsTo_congr (land_rep c (add c k.val) k.val k.isLt (mine m ρ c) (rep c (mine m ρ c)) fd (fun _ _ => rfl)))))
    $$ [Hs Hd HO Ht1 Ht2]
  isplitr; · iapply (inv_at m ρ K (c, some (false, k))); iexact HR
  isplitr; · iapply (inv_at m ρ K (add c k.val, some (true, k))); iexact HR
  isplitl [Hs]; · rw [slotM_set c 0 h0]; iexact Hs
  isplitl [Hd]; · rw [slotM_set (add c k.val) k.val k.isLt]; iexact Hd
  isplitl [HO]; · iexact HO
  isplitl [Ht1]; · iexact Ht1
  isplitr; · iapply (reached_at m ρ K (c, some (false, k))); iexact HR
  isplitl [Ht2]; · iexact Ht2
  iapply (reached_at m ρ K (add c k.val, some (true, k))); iexact HR

/-! ## The two waits of a transfer -/

/-- Receive wait `k`: the block's credit, for the slot `k` holding the maxima of the device `k` places before. -/
theorem step_recvwait (K : Dev nD × CK → ℕ) (c : Dev nD) (k : Fin 16) (hk : k ≠ 0) {W : Waits sig Unit}
    {hs : (slotM 0 h0 : Memref sig .tc .vmem S1x1024 .bf16).view.WordExact}
    {hd : (slotM k.val k.isLt : Memref sig .tc .vmem S1x1024 .bf16).view.WordExact}
    {α : Type} {Q : α → sProp 𝕄} {kk : PUnit → Prog (TpuEff nD τ sig (Elt F) Λ₀ .tc) α} :
    iprop(records m ρ K ∗ cred (tallyAt (recvCell c k) () Nc) ∗ owes (c : Thread nD τ) 0 W ∗ atPos ER (recvCell c k) 0 ∅ 0)
      ⊢ iprop(((owes (c : Thread nD τ) 0 (insert (SemLoc.dma (recvQ k), ()) W) ∗ atPos ER (recvCell c k) 1 ∅ 0 ∗ recvPay m ρ c k)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (recvQ k) (slotM 0 h0) (slotM k.val k.isLt) hs hd) kk) Q) := by
  have he : (Rd (F := F) m ρ).expect (recvCell c k) 0 = Nc := expect_recv m ρ c k hk
  iintro ⟨#HR, Hc, HO, Hat⟩ Hk
  ihave #HI := (show records m ρ K ⊢ cellInv ER (Rd m ρ) (K (c, some (true, k))) (recvCell c k) from inv_at m ρ K (c, some (true, k))) $$ HR
  sl_exec (disch := first | exact hk | (rw [he]) | rfl | decide)
  iapply Hk
  isplitl [HO]; · iexact HO
  isplitl [Hat]; · iexact Hat
  iexact Hat_pay1

/-- Send wait `k`: the block's credit, for the read share `k` of the own slot 0. -/
theorem step_sendwait (K : Dev nD × CK → ℕ) (c : Dev nD) (k : Fin 16) (hk : k ≠ 0) {W : Waits sig Unit}
    {hs : (slotM k.val k.isLt : Memref sig .tc .vmem S1x1024 .bf16).view.WordExact}
    {hd : (slotM 0 h0 : Memref sig .tc .vmem S1x1024 .bf16).view.WordExact}
    {α : Type} {Q : α → sProp 𝕄} {kk : PUnit → Prog (TpuEff nD τ sig (Elt F) Λ₀ .tc) α} :
    iprop(records m ρ K ∗ cred (tallyAt (sendCell c k) () Nc) ∗ owes (c : Thread nD τ) 0 W ∗ atPos ER (sendCell c k) 0 ∅ 0)
      ⊢ iprop(((owes (c : Thread nD τ) 0 (insert (SemLoc.dma (sendQ k), ()) W) ∗ atPos ER (sendCell c k) 1 ∅ 0 ∗ sendPay m ρ c k)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (sendQ k) (slotM k.val k.isLt) (slotM 0 h0) hs hd) kk) Q) := by
  have he : (Rd (F := F) m ρ).expect (sendCell c k) 0 = Nc := expect_send m ρ c k hk
  iintro ⟨#HR, Hc, HO, Hat⟩ Hk
  ihave #HI := (show records m ρ K ⊢ cellInv ER (Rd m ρ) (K (c, some (false, k))) (sendCell c k) from inv_at m ρ K (c, some (false, k))) $$ HR
  sl_exec (disch := first | exact hk | (rw [he]) | rfl | decide)
  iapply Hk
  isplitl [HO]; · iexact HO
  isplitl [Hat]; · iexact Hat
  iexact Hat_pay1

/-! ## The vector load of a slot, the store of the own maxima -/

/-- A load of row `k` from a slot that agrees with `rep c v` reads `v`, at any share. -/
theorem step_load (c : Dev nD) (k : Fin 16) (q : PosShare TreeShare) (v : Vec F S1x1x1024 .bf16)
    (f : Buf (Elt F) ((c : Thread nD τ).loc cc0_scratch0)) (hf : ∀ i ∈ slotSet c k.val k.isLt, f i = rep c v i)
    {hl : (cM : Memref sig .tc .vmem S16x1x1024 .bf16).view.LoadsAt (slotR k.val k.isLt).toLoadRect}
    {α : Type} {Q : α → sProp 𝕄} {kk : Vec F S1x1x1024 .bf16 → Prog (TpuEff nD τ sig (Elt F) Λ₀ .tc) α} :
    slotPts c k q f
      ⊢ iprop((slotPts c k q f -∗ wp frame (wpE (defs₀ (F := F)) 𝒱₀ (c : Thread nD τ) none) Set.univ (kk v) Q)
          -∗ wp frame (wpE (defs₀ (F := F)) 𝒱₀ (c : Thread nD τ) none) Set.univ
              (.op (.load cM (slotR k.val k.isLt).toLoadRect hl) kk) Q) := by
  unfold slotPts
  rw [← load_rep c k.val k.isLt v f hf]
  exact wp_load 𝒱₀ (c : Thread nD τ) none Set.univ (m := cM) (r := (slotR k.val k.isLt).toLoadRect) (load_sub c k.val k.isLt)

/-- The full store of `w` into row 0 leaves slot 0 holding `w`. -/
theorem step_store0 (c : Dev nD) (w : Vec F S1x1x1024 .bf16) (f : Buf (Elt F) ((c : Thread nD τ).loc cc0_scratch0))
    {hx : ((cM : Memref sig .tc .vmem S16x1x1024 .bf16).access (slotR 0 h0) : View sig .tc _ _ _).Stores Finset.univ}
    {hm : (Finset.univ : Finset (slotR 0 h0).shape.Idx) = Finset.univ ∨ ∀ a, (slotR 0 h0).stride a = 1}
    {α : Type} {Q : α → sProp 𝕄} {kk : PUnit → Prog (TpuEff nD τ sig (Elt F) Λ₀ .tc) α} :
    slotPts c 0 fullShare f
      ⊢ iprop((slotPts c 0 fullShare (rep c w) -∗ wp frame (wpE (defs₀ (F := F)) 𝒱₀ (c : Thread nD τ) none) Set.univ (kk ⟨⟩) Q)
          -∗ wp frame (wpE (defs₀ (F := F)) 𝒱₀ (c : Thread nD τ) none) Set.univ
              (.op (.store cM (slotR 0 h0) w Finset.univ hx hm) kk) Q) := by
  unfold slotPts
  rw [← pointsTo_congr (store_rep c (0 : Fin 16).val (0 : Fin 16).isLt w f)]
  exact wp_store 𝒱₀ (c : Thread nD τ) none Set.univ (m := cM) (r := slotR 0 h0) (Mk := Finset.univ) (store_sub c 0 h0)

/-! ## Closing a cell -/

/-- A send cell no duty remains on — cell 0 from the start, the others after their one round — closes at zero. -/
theorem close_send (K : Dev nD × CK → ℕ) (c : Dev nD) (k : Fin 16) (R : ℕ) (hR : k = 0 ∨ 1 ≤ R) :
    iprop(records m ρ K ∗ atPos ER (sendCell c k) R ∅ 0) ⊢ (|={Set.univ}=> semVal (sendCell c k) 0 : sProp 𝕄) := by
  iintro ⟨#HR, Hat⟩
  iapply (Rounds.cell_close ER (Rd m ρ) (g := sendCell c k) (κ := K (c, some (false, k))) (Set.mem_univ _) (fun h => h) (R := R)
    (fun r hr => by
      rcases hR with rfl | h1
      · exact duties_send0 m ρ c r
      · exact duties_later m ρ (sendCell c k) r (Nat.le_trans h1 hr)))
  isplitr; · iapply (inv_at m ρ K (c, some (false, k))); iexact HR
  iexact Hat

/-- The same for a receive cell. -/
theorem close_recv (K : Dev nD × CK → ℕ) (c : Dev nD) (k : Fin 16) (R : ℕ) (hR : k = 0 ∨ 1 ≤ R) :
    iprop(records m ρ K ∗ atPos ER (recvCell c k) R ∅ 0) ⊢ (|={Set.univ}=> semVal (recvCell c k) 0 : sProp 𝕄) := by
  iintro ⟨#HR, Hat⟩
  iapply (Rounds.cell_close ER (Rd m ρ) (g := recvCell c k) (κ := K (c, some (true, k))) (Set.mem_univ _) (fun h => h) (R := R)
    (fun r hr => by
      rcases hR with rfl | h1
      · exact duties_recv0 m ρ c r
      · exact duties_later m ρ (recvCell c k) r (Nat.le_trans h1 hr)))
  isplitr; · iapply (inv_at m ρ K (c, some (true, k))); iexact HR
  iexact Hat

/-- info: 'Cert.Kernel.Pf.step_signal' depends on axioms: [propext, Classical.choice, Quot.sound] -/
#guard_msgs in #print axioms step_signal
/-- info: 'Cert.Kernel.Pf.step_barwait' depends on axioms: [propext, Classical.choice, Quot.sound] -/
#guard_msgs in #print axioms step_barwait
/-- info: 'Cert.Kernel.Pf.step_send' depends on axioms: [propext, Classical.choice, Quot.sound] -/
#guard_msgs in #print axioms step_send
/-- info: 'Cert.Kernel.Pf.step_recvwait' depends on axioms: [propext, Classical.choice, Quot.sound] -/
#guard_msgs in #print axioms step_recvwait
/-- info: 'Cert.Kernel.Pf.step_sendwait' depends on axioms: [propext, Classical.choice, Quot.sound] -/
#guard_msgs in #print axioms step_sendwait
/-- info: 'Cert.Kernel.Pf.step_load' depends on axioms: [propext, Classical.choice, Quot.sound] -/
#guard_msgs in #print axioms step_load
/-- info: 'Cert.Kernel.Pf.step_store0' depends on axioms: [propext, Classical.choice, Quot.sound] -/
#guard_msgs in #print axioms step_store0
/-- info: 'Cert.Kernel.Pf.close_send' depends on axioms: [propext, Classical.choice, Quot.sound] -/
#guard_msgs in #print axioms close_send
/-- info: 'Cert.Kernel.Pf.close_recv' depends on axioms: [propext, Classical.choice, Quot.sound] -/
#guard_msgs in #print axioms close_recv

end Cert.Kernel.Pf

end
-- ==== Proof.KernelPf.BodyA.lean ====
/-
  The entry handshake of the kernel body on one device, printed part by printed part: the fifteen signals, each handing
  the device one of this device's receive slots; then the load of the input block, the store of its column maxima into
  slot 0, and the wait for the fifteen peers' signals.
-/
import proofs.«900914_g7700000000000915_dist_max_ax0_shard0_i_m2048_n1024_v7x_i16_bf16_1_alg».proof.Proof.KernelPf.Steps

set_option maxRecDepth 16384

noncomputable section

namespace Cert.Kernel.Pf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem part1_spec (K : Dev nD × CK → ℕ) (c : Dev nD)  (W : Waits sig Unit)
    {Q : (Σ' (d0 : Dev nD) (v2 : BitVec 32) (v3 : Sems sig S_) (v30 : BitVec 32) (c16_i32_18 : BitVec 32), BitVec 1) → sProp 𝕄} :
    iprop(records m ρ K
        ∗ dutyTok ER (barCell (add c 1)) 0 (neg (fk 1)) ∗ (∃ f, slotPts (F := F) c (neg (fk 1)) fullShare f)
        ∗ dutyTok ER (barCell (add c 2)) 0 (neg (fk 2)) ∗ (∃ f, slotPts (F := F) c (neg (fk 2)) fullShare f)
        ∗ owes (c : Thread nD τ) (owedB c 15) W)
      ⊢ iprop((∀ r, iprop(owes (c : Thread nD τ) (owedB c 13) W ∗ ⌜r.1 = c ∧ r.2.2.1 = (SemArray.scalar (sig.barrier 0 rfl) : Sems sig S_)⌝) -∗ Q r)
          -∗ wp frame (wpE (defs₀ (F := F)) 𝒱₀ (c : Thread nD τ) none) Set.univ
              (k0_part1 (Memref.whole cc0_stg0_0) (Memref.isWhole_whole _) (Memref.whole cc0_stg1_0) (Memref.isWhole_whole _) (Memref.whole cc0_scratch0) (Memref.isWhole_whole _) cc0_scratch1 cc0_scratch2 ) Q) := by
  rw [k0_part1_eq_skeleton]; unfold k0_part1_skel
  simp only [semSignalWord, Prog.lift, Prog.bind_op, Prog.bind_ret, Prog.pure_eq_ret, wp_deviceId]
  iintro ⟨#HR, Ht1, Hs1, Ht2, Hs2, HO⟩ Hk
  iapply (step_signal m ρ K c (fk 1) (by decide) _ (dev1_eq c) (owedB c 14)) $$ [Ht1 Hs1 HO]
  · isplitr; · iexact HR
    isplitl [Ht1]; · iexact Ht1
    isplitl [Hs1]; · iexact Hs1
    iexact HO
  iintro HO
  iapply (step_signal m ρ K c (fk 2) (by decide) _ (dev2_eq c) (owedB c 13)) $$ [Ht2 Hs2 HO]
  · isplitr; · iexact HR
    isplitl [Ht2]; · iexact Ht2
    isplitl [Hs2]; · iexact Hs2
    iexact HO
  iintro HO
  rw [wp_ret]
  imodintro
  iapply Hk
  isplitl [HO]; · iexact HO
  ipureintro; exact ⟨rfl, rfl⟩

theorem part2_spec (K : Dev nD × CK → ℕ) (c : Dev nD) (v2 : BitVec 32) (v30 : BitVec 32) (c16_i32_18 : BitVec 32) (v31 : BitVec 1) (W : Waits sig Unit)
    {Q : (Σ' (v59 : BitVec 32) (v64 : BitVec 1), BitVec 32) → sProp 𝕄} :
    iprop(records m ρ K
        ∗ dutyTok ER (barCell (add c 3)) 0 (neg (fk 3)) ∗ (∃ f, slotPts (F := F) c (neg (fk 3)) fullShare f)
        ∗ dutyTok ER (barCell (add c 4)) 0 (neg (fk 4)) ∗ (∃ f, slotPts (F := F) c (neg (fk 4)) fullShare f)
        ∗ owes (c : Thread nD τ) (owedB c 13) W)
      ⊢ iprop((∀ r, owes (c : Thread nD τ) (owedB c 11) W -∗ Q r)
          -∗ wp frame (wpE (defs₀ (F := F)) 𝒱₀ (c : Thread nD τ) none) Set.univ
              (k0_part2 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl) : Sems sig S_) v30 c16_i32_18 v31) Q) := by
  rw [k0_part2_eq_skeleton]; unfold k0_part2_skel
  simp only [semSignalWord, Prog.lift, Prog.bind_op, Prog.bind_ret, Prog.pure_eq_ret]
  iintro ⟨#HR, Ht3, Hs3, Ht4, Hs4, HO⟩ Hk
  iapply (step_signal m ρ K c (fk 3) (by decide) _ (dev3_eq c) (owedB c 12)) $$ [Ht3 Hs3 HO]
  · isplitr; · iexact HR
    isplitl [Ht3]; · iexact Ht3
    isplitl [Hs3]; · iexact Hs3
    iexact HO
  iintro HO
  iapply (step_signal m ρ K c (fk 4) (by decide) _ (dev4_eq c) (owedB c 11)) $$ [Ht4 Hs4 HO]
  · isplitr; · iexact HR
    isplitl [Ht4]; · iexact Ht4
    isplitl [Hs4]; · iexact Hs4
    iexact HO
  iintro HO
  rw [wp_ret]
  imodintro
  iapply Hk
  iexact HO

theorem part3_spec (K : Dev nD × CK → ℕ) (c : Dev nD) (v2 : BitVec 32) (v59 : BitVec 32) (v64 : BitVec 1) (v65 : BitVec 32) (W : Waits sig Unit)
    {Q : (Σ' (v95 : BitVec 32) (c16_i32_63 : BitVec 32), BitVec 1) → sProp 𝕄} :
    iprop(records m ρ K
        ∗ dutyTok ER (barCell (add c 5)) 0 (neg (fk 5)) ∗ (∃ f, slotPts (F := F) c (neg (fk 5)) fullShare f)
        ∗ dutyTok ER (barCell (add c 6)) 0 (neg (fk 6)) ∗ (∃ f, slotPts (F := F) c (neg (fk 6)) fullShare f)
        ∗ dutyTok ER (barCell (add c 7)) 0 (neg (fk 7)) ∗ (∃ f, slotPts (F := F) c (neg (fk 7)) fullShare f)
        ∗ owes (c : Thread nD τ) (owedB c 11) W)
      ⊢ iprop((∀ r, owes (c : Thread nD τ) (owedB c 8) W -∗ Q r)
          -∗ wp frame (wpE (defs₀ (F := F)) 𝒱₀ (c : Thread nD τ) none) Set.univ
              (k0_part3 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl) : Sems sig S_) v59 v64 v65) Q) := by
  rw [k0_part3_eq_skeleton]; unfold k0_part3_skel
  simp only [semSignalWord, Prog.lift, Prog.bind_op, Prog.bind_ret, Prog.pure_eq_ret]
  iintro ⟨#HR, Ht5, Hs5, Ht6, Hs6, Ht7, Hs7, HO⟩ Hk
  iapply (step_signal m ρ K c (fk 5) (by decide) _ (dev5_eq c) (owedB c 10)) $$ [Ht5 Hs5 HO]
  · isplitr; · iexact HR
    isplitl [Ht5]; · iexact Ht5
    isplitl [Hs5]; · iexact Hs5
    iexact HO
  iintro HO
  iapply (step_signal m ρ K c (fk 6) (by decide) _ (dev6_eq c) (owedB c 9)) $$ [Ht6 Hs6 HO]
  · isplitr; · iexact HR
    isplitl [Ht6]; · iexact Ht6
    isplitl [Hs6]; · iexact Hs6
    iexact HO
  iintro HO
  iapply (step_signal m ρ K c (fk 7) (by decide) _ (dev7_eq c) (owedB c 8)) $$ [Ht7 Hs7 HO]
  · isplitr; · iexact HR
    isplitl [Ht7]; · iexact Ht7
    isplitl [Hs7]; · iexact Hs7
    iexact HO
  iintro HO
  rw [wp_ret]
  imodintro
  iapply Hk
  iexact HO

theorem part4_spec (K : Dev nD × CK → ℕ) (c : Dev nD) (v2 : BitVec 32) (v95 : BitVec 32) (c16_i32_63 : BitVec 32) (v96 : BitVec 1) (W : Waits sig Unit)
    {Q : (Σ' (v124 : BitVec 32) (v129 : BitVec 1), BitVec 32) → sProp 𝕄} :
    iprop(records m ρ K
        ∗ dutyTok ER (barCell (add c 8)) 0 (neg (fk 8)) ∗ (∃ f, slotPts (F := F) c (neg (fk 8)) fullShare f)
        ∗ dutyTok ER (barCell (add c 9)) 0 (neg (fk 9)) ∗ (∃ f, slotPts (F := F) c (neg (fk 9)) fullShare f)
        ∗ owes (c : Thread nD τ) (owedB c 8) W)
      ⊢ iprop((∀ r, owes (c : Thread nD τ) (owedB c 6) W -∗ Q r)
          -∗ wp frame (wpE (defs₀ (F := F)) 𝒱₀ (c : Thread nD τ) none) Set.univ
              (k0_part4 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl) : Sems sig S_) v95 c16_i32_63 v96) Q) := by
  rw [k0_part4_eq_skeleton]; unfold k0_part4_skel
  simp only [semSignalWord, Prog.lift, Prog.bind_op, Prog.bind_ret, Prog.pure_eq_ret]
  iintro ⟨#HR, Ht8, Hs8, Ht9, Hs9, HO⟩ Hk
  iapply (step_signal m ρ K c (fk 8) (by decide) _ (dev8_eq c) (owedB c 7)) $$ [Ht8 Hs8 HO]
  · isplitr; · iexact HR
    isplitl [Ht8]; · iexact Ht8
    isplitl [Hs8]; · iexact Hs8
    iexact HO
  iintro HO
  iapply (step_signal m ρ K c (fk 9) (by decide) _ (dev9_eq c) (owedB c 6)) $$ [Ht9 Hs9 HO]
  · isplitr; · iexact HR
    isplitl [Ht9]; · iexact Ht9
    isplitl [Hs9]; · iexact Hs9
    iexact HO
  iintro HO
  rw [wp_ret]
  imodintro
  iapply Hk
  iexact HO

theorem part5_spec (K : Dev nD × CK → ℕ) (c : Dev nD) (v2 : BitVec 32) (v124 : BitVec 32) (v129 : BitVec 1) (v130 : BitVec 32) (W : Waits sig Unit)
    {Q : (Σ' (v160 : BitVec 32) (c16_i32_108 : BitVec 32), BitVec 1) → sProp 𝕄} :
    iprop(records m ρ K
        ∗ dutyTok ER (barCell (add c 10)) 0 (neg (fk 10)) ∗ (∃ f, slotPts (F := F) c (neg (fk 10)) fullShare f)
        ∗ dutyTok ER (barCell (add c 11)) 0 (neg (fk 11)) ∗ (∃ f, slotPts (F := F) c (neg (fk 11)) fullShare f)
        ∗ dutyTok ER (barCell (add c 12)) 0 (neg (fk 12)) ∗ (∃ f, slotPts (F := F) c (neg (fk 12)) fullShare f)
        ∗ owes (c : Thread nD τ) (owedB c 6) W)
      ⊢ iprop((∀ r, owes (c : Thread nD τ) (owedB c 3) W -∗ Q r)
          -∗ wp frame (wpE (defs₀ (F := F)) 𝒱₀ (c : Thread nD τ) none) Set.univ
              (k0_part5 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl) : Sems sig S_) v124 v129 v130) Q) := by
  rw [k0_part5_eq_skeleton]; unfold k0_part5_skel
  simp only [semSignalWord, Prog.lift, Prog.bind_op, Prog.bind_ret, Prog.pure_eq_ret]
  iintro ⟨#HR, Ht10, Hs10, Ht11, Hs11, Ht12, Hs12, HO⟩ Hk
  iapply (step_signal m ρ K c (fk 10) (by decide) _ (dev10_eq c) (owedB c 5)) $$ [Ht10 Hs10 HO]
  · isplitr; · iexact HR
    isplitl [Ht10]; · iexact Ht10
    isplitl [Hs10]; · iexact Hs10
    iexact HO
  iintro HO
  iapply (step_signal m ρ K c (fk 11) (by decide) _ (dev11_eq c) (owedB c 4)) $$ [Ht11 Hs11 HO]
  · isplitr; · iexact HR
    isplitl [Ht11]; · iexact Ht11
    isplitl [Hs11]; · iexact Hs11
    iexact HO
  iintro HO
  iapply (step_signal m ρ K c (fk 12) (by decide) _ (dev12_eq c) (owedB c 3)) $$ [Ht12 Hs12 HO]
  · isplitr; · iexact HR
    isplitl [Ht12]; · iexact Ht12
    isplitl [Hs12]; · iexact Hs12
    iexact HO
  iintro HO
  rw [wp_ret]
  imodintro
  iapply Hk
  iexact HO

theorem part6_spec (K : Dev nD × CK → ℕ) (c : Dev nD) (v2 : BitVec 32) (v160 : BitVec 32) (c16_i32_108 : BitVec 32) (v161 : BitVec 1) (W : Waits sig Unit)
    {Q : (Σ' (v189 : BitVec 32) (v194 : BitVec 1), BitVec 32) → sProp 𝕄} :
    iprop(records m ρ K
        ∗ dutyTok ER (barCell (add c 13)) 0 (neg (fk 13)) ∗ (∃ f, slotPts (F := F) c (neg (fk 13)) fullShare f)
        ∗ dutyTok ER (barCell (add c 14)) 0 (neg (fk 14)) ∗ (∃ f, slotPts (F := F) c (neg (fk 14)) fullShare f)
        ∗ owes (c : Thread nD τ) (owedB c 3) W)
      ⊢ iprop((∀ r, owes (c : Thread nD τ) (owedB c 1) W -∗ Q r)
          -∗ wp frame (wpE (defs₀ (F := F)) 𝒱₀ (c : Thread nD τ) none) Set.univ
              (k0_part6 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl) : Sems sig S_) v160 c16_i32_108 v161) Q) := by
  rw [k0_part6_eq_skeleton]; unfold k0_part6_skel
  simp only [semSignalWord, Prog.lift, Prog.bind_op, Prog.bind_ret, Prog.pure_eq_ret]
  iintro ⟨#HR, Ht13, Hs13, Ht14, Hs14, HO⟩ Hk
  iapply (step_signal m ρ K c (fk 13) (by decide) _ (dev13_eq c) (owedB c 2)) $$ [Ht13 Hs13 HO]
  · isplitr; · iexact HR
    isplitl [Ht13]; · iexact Ht13
    isplitl [Hs13]; · iexact Hs13
    iexact HO
  iintro HO
  iapply (step_signal m ρ K c (fk 14) (by decide) _ (dev14_eq c) (owedB c 1)) $$ [Ht14 Hs14 HO]
  · isplitr; · iexact HR
    isplitl [Ht14]; · iexact Ht14
    isplitl [Hs14]; · iexact Hs14
    iexact HO
  iintro HO
  rw [wp_ret]
  imodintro
  iapply Hk
  iexact HO

theorem part7_spec (K : Dev nD × CK → ℕ) (c : Dev nD) (v2 : BitVec 32) (v189 : BitVec 32) (v194 : BitVec 1) (v195 : BitVec 32) (W : Waits sig Unit)
    {Q : (BitVec 32) → sProp 𝕄} :
    iprop(records m ρ K ∗ levAts L lv
        ∗ dutyTok ER (barCell (add c 15)) 0 (neg (fk 15)) ∗ (∃ f, slotPts (F := F) c (neg (fk 15)) fullShare f)
        ∗ (((c : Thread nD τ).loc cc0_stg0_0) ↦{fullShare} xstg m ρ c)
        ∗ (∃ f, slotPts (F := F) c 0 fullShare f)
        ∗ cred (tallyAt (barCell c) () 15) ∗ atPos ER (barCell c) 0 ∅ 0
        ∗ owes (c : Thread nD τ) (owedB c 1) W)
      ⊢ iprop((∀ r, iprop((((c : Thread nD τ).loc cc0_stg0_0) ↦{fullShare} xstg m ρ c)
            ∗ slotPts c 0 fullShare (rep c (mine m ρ c))
            ∗ atPos ER (barCell c) 1 ∅ 0
            ∗ bigSep (Finset.univ.erase (0 : Fin 16)) (fun d => barPay (F := F) c d)
            ∗ ∃ W', owes (c : Thread nD τ) (owedR c 15) W') -∗ Q r)
          -∗ wp frame (wpE (defs₀ (F := F)) 𝒱₀ (c : Thread nD τ) none) Set.univ
              (k0_part7 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl) : Sems sig S_) v189 v194 v195) Q) := by
  rw [k0_part7_eq_skeleton]; unfold k0_part7_skel
  simp only [semSignalWord, semWaitWord, Prog.lift, Prog.bind_op, Prog.bind_ret, Prog.pure_eq_ret]
  iintro ⟨#HR, #Hlev, Ht15, Hs15, Hx, ⟨%f0, H0⟩, Hc, Hat, HO⟩ Hk
  iapply (step_signal m ρ K c (fk 15) (by decide) _ (dev15_eq c) (owedB c 0)) $$ [Ht15 Hs15 HO]
  · isplitr; · iexact HR
    isplitl [Ht15]; · iexact Ht15
    isplitl [Hs15]; · iexact Hs15
    iexact HO
  iintro HO
  -- the load of the input block reads the staging buffer's contents
  iapply (wp_load 𝒱₀ (c : Thread nD τ) none Set.univ (m := xM) (Finset.subset_univ _)) $$ [Hx]
  · iexact Hx
  iintro Hx
  have hv : (xM : Memref sig .tc .vmem S2048x1024 .f32).view.readAt (Elt F)
      (Rect.unit (s := S2048x1024) ![0, 0] S2048x1024.size inb_S2048x1024_S2048x1024_0_0).toLoadRect (xstg m ρ c) = xstg m ρ c :=
    Memref.readAt_unit_zero (Elt F) (cc0_stg0_0 : Ref sig .tc) (off := ![0, 0]) (by funext a; fin_cases a <;> rfl)
      inb_S2048x1024_S2048x1024_0_0 (xstg m ρ c)
  rw [hv]
  -- the load of slot 0 before the store: its value is not used
  unfold slotPts
  iapply (wp_load 𝒱₀ (c : Thread nD τ) none Set.univ (m := cM) (r := (slotR 0 h0).toLoadRect) (load_sub c 0 h0)) $$ [H0]
  · iexact H0
  iintro H0
  iapply (step_store0 c (k0_pay2 (xstg m ρ c)) f0) $$ [H0]
  · unfold slotPts; iexact H0
  iintro H0
  iapply (step_barwait m ρ K c) $$ [Hc HO Hat]
  · isplitr; · iexact HR
    isplitl [Hc]; · iexact Hc
    isplitl [HO]; · iexact HO
    isplitr; · iexact Hlev
    iexact Hat
  iintro ⟨HO, Hat, Hpay⟩
  rw [wp_ret]
  imodintro
  iapply Hk
  isplitl [Hx]; · iexact Hx
  isplitl [H0]; · unfold slotPts mine; iexact H0
  isplitl [Hat]; · iexact Hat
  isplitl [Hpay]; · iexact Hpay
  iexists _; iexact HO

/-- info: 'Cert.Kernel.Pf.part7_spec' depends on axioms: [propext, Classical.choice, Quot.sound] -/
#guard_msgs in #print axioms part7_spec

end Cert.Kernel.Pf

end
-- ==== Proof.KernelPf.Open.lean ====
/-
  The body's precondition opened into the single resources its proof consumes one by one, and the resources it ends
  with closed back into its postcondition. A family over the fifteen proper offsets is written as the chain over the
  list 1, …, 15; a device's 33 cells are its barrier cell, sixteen send cells and sixteen receive cells; the
  communication buffer is its sixteen slots.
-/
import proofs.«900914_g7700000000000915_dist_max_ax0_shard0_i_m2048_n1024_v7x_i16_bf16_1_alg».proof.Proof.KernelPf.BodySpec

set_option maxRecDepth 16384

noncomputable section

namespace Cert.Kernel.Pf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The fifteen proper offsets, in order. -/
abbrev E15 : List (Fin 16) := [1,2,3,4,5,6,7,8,9,10,11,12,13,14,15]
theorem bigSep_E (Φ : Fin 16 → sProp 𝕄) : bigSep (Finset.univ.erase (0 : Fin 16)) Φ = bigSepL E15 Φ :=
  bigSep_eq_bigSepL_of_eq E15 (by decide) (by decide) Φ
theorem bigSep_F16 (Φ : Fin 16 → sProp 𝕄) : bigSep Finset.univ Φ = iprop(Φ 0 ∗ bigSepL E15 Φ) := by
  rw [bigSep_univ_split (0 : Fin 16), bigSep_E]; rfl
theorem bigSep_CK (Φ : CK → sProp 𝕄) : bigSep Finset.univ Φ = iprop(Φ none ∗ (bigSep Finset.univ fun k : Fin 16 => Φ (some (false, k))) ∗ bigSep Finset.univ fun k : Fin 16 => Φ (some (true, k))) := by
  have he : (Finset.univ : Finset CK).erase none = (Finset.univ : Finset (Bool × Fin 16)).map ⟨some, Option.some_injective _⟩ := by
    ext x; cases x <;> simp
  rw [bigSep_univ_split (none : CK), he, bigSep_map, bigSep_univ_prod,
    bigSep_univ_eq_bigSepL [false, true] (by decide) (by decide)]
  rfl
theorem scr_split (c : Dev nD) (f : Buf (Elt F) ((c : Thread nD τ).loc cc0_scratch0)) : (((c : Thread nD τ).loc cc0_scratch0) ↦{fullShare} f : sProp 𝕄) ⊣⊢ bigSep Finset.univ fun k : Fin 16 => slotPts c k fullShare f := by
  have hd : ∀ t ∈ (Finset.univ : Finset (Fin 16)), ∀ t' ∈ (Finset.univ : Finset (Fin 16)), t ≠ t' →
      Disjoint (slotSet c t.val t.isLt) (slotSet c t'.val t'.isLt) :=
    fun t _ t' _ h => slots_disjoint c t.val t'.val t.isLt t'.isLt fun e => h (Fin.ext e)
  have e : (((c : Thread nD τ).loc cc0_scratch0) ↦{fullShare} f : sProp 𝕄) = bigSep Finset.univ fun k : Fin 16 => slotPts c k fullShare f := by
    rw [slots_cover c, pointsTo_biUnion _ _ hd]; rfl
  rw [e]
theorem scr_join (c : Dev nD) : (bigSep Finset.univ fun k : Fin 16 => iprop(∃ f, slotPts (F := F) c k fullShare f)) ⊢ scrAny (F := F) c := by
  have hd : ∀ t ∈ (Finset.univ : Finset (Fin 16)), ∀ t' ∈ (Finset.univ : Finset (Fin 16)), t ≠ t' →
      Disjoint (slotSet c t.val t.isLt) (slotSet c t'.val t'.isLt) :=
    fun t _ t' _ h => slots_disjoint c t.val t'.val t.isLt t'.isLt fun e => h (Fin.ext e)
  unfold scrAny
  iintro H
  ihave H := (BI.bigSep_exists_pi (Finset.univ : Finset (Fin 16)) (fun k f => slotPts (F := F) c k fullShare f)) $$ H
  icases H with ⟨%y, H⟩
  unfold slotPts
  ihave H := (pointsTo_biUnion_join (q := fullShare) (Finset.univ : Finset (Fin 16)) (fun k : Fin 16 => slotSet c k.val k.isLt) y (y 0) hd) $$ H
  icases H with ⟨%g, -, H⟩
  iexists g
  rw [slots_cover c]
  iexact H
/-- The whole communication buffer is its slot 0 and its fifteen other slots, each at some contents. -/
theorem scr_open (c : Dev nD) (f : Buf (Elt F) ((c : Thread nD τ).loc cc0_scratch0)) :
    (((c : Thread nD τ).loc cc0_scratch0) ↦{fullShare} f : sProp 𝕄)
      ⊢ iprop((∃ f, slotPts c 0 fullShare f) ∗ bigSepL E15 fun k => iprop(∃ f, slotPts (F := F) c k fullShare f)) := by
  have hm : (bigSep (Finset.univ.erase (0 : Fin 16)) fun k => slotPts c k fullShare f)
      ⊢ bigSep (Finset.univ.erase (0 : Fin 16)) fun k => iprop(∃ f, slotPts (F := F) c k fullShare f) :=
    bigSep_mono fun k _ => (show (slotPts (F := F) c k fullShare f) ⊢ iprop(∃ f, slotPts (F := F) c k fullShare f) from by
      iintro H; iexists f; iexact H)
  rw [← bigSep_E]
  refine (scr_split c f).1.trans ?_
  rw [bigSep_univ_at _ (0 : Fin 16)]
  iintro ⟨H0, H⟩
  isplitl [H0]
  · iexists f; iexact H0
  · iapply hm; iexact H
def opened (K : Dev nD × CK → ℕ) (c : Dev nD) (W : Waits sig Unit) : sProp 𝕄 := iprop(records m ρ K ∗ levAts L lv ∗ atPos ER (barCell c) 0 ∅ 0 ∗ (bigSep Finset.univ fun k : Fin 16 => atPos ER (sendCell c k) 0 ∅ 0) ∗ (bigSep Finset.univ fun k : Fin 16 => atPos ER (recvCell c k) 0 ∅ 0) ∗ (bigSepL E15 fun j => dutyTok ER (barCell (add c j.val)) 0 (neg j)) ∗ (bigSepL E15 fun k => dutyTok ER (sendCell c k) 0 0) ∗ (bigSepL E15 fun k => dutyTok ER (recvCell (add c k.val) k) 0 0) ∗ cred (tallyAt (barCell c) () 15) ∗ (bigSepL E15 fun k => cred (tallyAt (recvCell c k) () Nc)) ∗ (∃ f, slotPts c 0 fullShare f) ∗ (bigSepL E15 fun k => iprop(∃ f, slotPts c k fullShare f)) ∗ owes (c : Thread nD τ) (O₀ c) W ∗ (((c : Thread nD τ).loc cc0_stg0_0) ↦{fullShare} xstg m ρ c) ∗ (∃ g, ((c : Thread nD τ).loc cc0_stg1_0) ↦{fullShare} g))
theorem body_open (K : Dev nD × CK → ℕ) (c : Dev nD) : bodyPre m ρ K c ⊢ iprop(∃ W, opened m ρ K c W) := by
  have hpos : positions (F := F) c = iprop(atPos ER (barCell c) 0 ∅ 0 ∗ (bigSep Finset.univ fun k : Fin 16 => atPos ER (sendCell c k) 0 ∅ 0)
      ∗ bigSep Finset.univ fun k : Fin 16 => atPos ER (recvCell c k) 0 ∅ 0) := by
    unfold positions; rw [bigSep_CK]; rfl
  have hpay : payToks (F := F) c = iprop((bigSepL E15 fun j => dutyTok ER (barCell (add c j.val)) 0 (neg j))
      ∗ (bigSepL E15 fun k => dutyTok ER (sendCell c k) 0 0) ∗ (bigSepL E15 fun k => dutyTok ER (recvCell (add c k.val) k) 0 0)) := by
    unfold payToks; rw [bigSep_E, bigSep_E, bigSep_E]
  have hcred : creds (F := F) c = iprop(cred (tallyAt (barCell c) () 15) ∗ (bigSepL E15 fun k => cred (tallyAt (recvCell c k) () Nc))) := by
    unfold creds; rw [bigSep_E]
  unfold bodyPre ghost linear
  rw [hpos, hpay, hcred]
  unfold scrAny Dat.owesAt Pipeline.owesWithin
  iintro ⟨⟨⟨Hrec, ⟨HatB, HatS, HatR⟩, ⟨HtB, HtS, HtR⟩⟩, ⟨HcB, HcR⟩, Hlev, ⟨%f0, Hscr⟩⟩, ⟨%W, -, HO⟩, ⟨%d0, %g0, %hg0, Hx⟩, ⟨%d1, %g1, -, Hout⟩⟩
  have hx : g0 = xstg m ρ c := by rw [hg0]; unfold Dat.before; rw [if_pos (show (cfg0.win 0).fetch t₀ = true from rfl)]; rfl
  subst hx
  iexists W
  unfold opened
  ihave Hscr := (scr_open c f0) $$ Hscr
  icases Hscr with ⟨Hs0, Hs⟩
  rw [show (dats m ρ 0 c).owed t₀.castSucc = O₀ c from rfl]
  isplitl [Hrec]; · iexact Hrec
  isplitl [Hlev]; · iexact Hlev
  isplitl [HatB]; · iexact HatB
  isplitl [HatS]; · iexact HatS
  isplitl [HatR]; · iexact HatR
  isplitl [HtB]; · iexact HtB
  isplitl [HtS]; · iexact HtS
  isplitl [HtR]; · iexact HtR
  isplitl [HcB]; · iexact HcB
  isplitl [HcR]; · iexact HcR
  isplitl [Hs0]; · iexact Hs0
  isplitl [Hs]; · iexact Hs
  isplitl [HO]; · iexact HO
  isplitl [Hx]; · iexact Hx
  iexists g1; iexact Hout
def closing (c : Dev nD) (W : Waits sig Unit) : sProp 𝕄 := iprop((bigSep Finset.univ fun k : Fin 16 => iprop(∃ f, slotPts (F := F) c k fullShare f)) ∗ (bigSep Finset.univ fun bk : Bool × Fin 16 => semVal ((c : Thread nD τ), osem bk) 0) ∗ owes (c : Thread nD τ) 0 W ∗ (((c : Thread nD τ).loc cc0_stg0_0) ↦{fullShare} xstg m ρ c) ∗ (((c : Thread nD τ).loc cc0_stg1_0) ↦{fullShare} outAt m ρ c))
theorem body_close (c : Dev nD) (W : Waits sig Unit) : closing m ρ c W ⊢ bodyPost m ρ c := by
  unfold closing bodyPost Φ₁ ownZero Dat.owesAt Pipeline.owesWithin
  rw [show (dats m ρ 0 c).owed t₀.succ = 0 from rfl]
  iintro ⟨Hs, Hz, HO, Hx, Hout⟩
  isplitl [Hs Hz]
  · isplitl [Hs]
    · iapply (scr_join c); iexact Hs
    iexact Hz
  isplitl [HO]
  · iexists W; isplitr; · ipureintro; exact fun _ _ => Or.inl trivial
    iexact HO
  isplitl [Hx]
  · iexists _; isplitr; · (ipureintro; rfl)
    iexact Hx
  iexists _; isplitr; · (ipureintro; rfl)
  iexact Hout

/-- info: 'Cert.Kernel.Pf.body_open' depends on axioms: [propext, Classical.choice, Quot.sound] -/
#guard_msgs in #print axioms body_open
/-- info: 'Cert.Kernel.Pf.body_close' depends on axioms: [propext, Classical.choice, Quot.sound] -/
#guard_msgs in #print axioms body_close

end Cert.Kernel.Pf

end
-- ==== Proof.KernelPf.BodyB.lean ====
/-
  The transfers of the sixteen-device maximum's body, part by part: transfers 1 to 15 to the devices 1 to 15 places on,
  and the first two receive waits with the loads of the own slot and of slot 1 that start the running maximum.
-/
import proofs.«900914_g7700000000000915_dist_max_ax0_shard0_i_m2048_n1024_v7x_i16_bf16_1_alg».proof.Proof.KernelPf.Steps
import proofs.«900914_g7700000000000915_dist_max_ax0_shard0_i_m2048_n1024_v7x_i16_bf16_1_alg».proof.Proof.KernelPf.Open

set_option maxRecDepth 16384

noncomputable section

namespace Cert.Kernel.Pf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Part 8: transfers 1 and 2. -/
theorem part8_spec (K : Dev nD × CK → ℕ) (c : Dev nD) (v2 : BitVec 32) (W : Waits sig Unit)
    {Q : (Σ' (v237 : BitVec 32), BitVec 32) → sProp 𝕄} :
    iprop(records m ρ K
        ∗ slotPts c 0 (Transfers.shareTok fullShare 16 (fk 1)) (rep c (mine m ρ c)) ∗ (∃ fd, slotPts (F := F) (add c 1) (fk 1) fullShare fd)
        ∗ dutyTok ER (sendCell c (fk 1)) 0 0 ∗ dutyTok ER (recvCell (add c 1) (fk 1)) 0 0
        ∗ slotPts c 0 (Transfers.shareTok fullShare 16 (fk 2)) (rep c (mine m ρ c)) ∗ (∃ fd, slotPts (F := F) (add c 2) (fk 2) fullShare fd)
        ∗ dutyTok ER (sendCell c (fk 2)) 0 0 ∗ dutyTok ER (recvCell (add c 2) (fk 2)) 0 0
        ∗ owes (c : Thread nD τ) (owedR c 15) W)
      ⊢ iprop((∀ r, (cred (tallyAt (sendCell c (fk 1)) () Nc) ∗ cred (tallyAt (sendCell c (fk 2)) () Nc)
              ∗ owes (c : Thread nD τ) (owedR c 13) W) -∗ Q r)
          -∗ wp frame (wpE (defs₀ (F := F)) 𝒱₀ (c : Thread nD τ) none) Set.univ
              (k0_part8 (Memref.whole cc0_stg0_0) (Memref.isWhole_whole _) (Memref.whole cc0_stg1_0) (Memref.isWhole_whole _)
                (Memref.whole cc0_scratch0) (Memref.isWhole_whole _) cc0_scratch1 cc0_scratch2 c v2) Q) := by
  rw [k0_part8_eq_skeleton]; unfold k0_part8_skel
  simp only [Prog.lift, Prog.bind_op, Prog.bind_ret, Prog.pure_eq_ret]
  iintro ⟨#HR, Hs1, ⟨%fd1, Hd1⟩, Ha1, Hb1, Hs2, ⟨%fd2, Hd2⟩, Ha2, Hb2, HO⟩ Hk
  iapply (step_send m ρ K c (fk 1) (by decide) _ (dev16_eq c) (owedR c 14) fd1) $$ [Hs1 Hd1 HO Ha1 Hb1]
  · isplitr; · iexact HR
    isplitl [Hs1]; · iexact Hs1
    isplitl [Hd1]; · iexact Hd1
    isplitl [HO]; · iexact HO
    isplitl [Ha1]; · iexact Ha1
    iexact Hb1
  iintro ⟨Hc1, HO⟩
  iapply (step_send m ρ K c (fk 2) (by decide) _ (dev17_eq c) (owedR c 13) fd2) $$ [Hs2 Hd2 HO Ha2 Hb2]
  · isplitr; · iexact HR
    isplitl [Hs2]; · iexact Hs2
    isplitl [Hd2]; · iexact Hd2
    isplitl [HO]; · iexact HO
    isplitl [Ha2]; · iexact Ha2
    iexact Hb2
  iintro ⟨Hc2, HO⟩
  rw [wp_ret]; imodintro
  iapply Hk
  isplitl [Hc1]; · iexact Hc1
  isplitl [Hc2]; · iexact Hc2
  iexact HO

/-- Part 9: transfers 3 and 4. -/
theorem part9_spec (K : Dev nD × CK → ℕ) (c : Dev nD) (v2 v258 : BitVec 32) (W : Waits sig Unit)
    {Q : BitVec 32 → sProp 𝕄} :
    iprop(records m ρ K
        ∗ slotPts c 0 (Transfers.shareTok fullShare 16 (fk 3)) (rep c (mine m ρ c)) ∗ (∃ fd, slotPts (F := F) (add c 3) (fk 3) fullShare fd)
        ∗ dutyTok ER (sendCell c (fk 3)) 0 0 ∗ dutyTok ER (recvCell (add c 3) (fk 3)) 0 0
        ∗ slotPts c 0 (Transfers.shareTok fullShare 16 (fk 4)) (rep c (mine m ρ c)) ∗ (∃ fd, slotPts (F := F) (add c 4) (fk 4) fullShare fd)
        ∗ dutyTok ER (sendCell c (fk 4)) 0 0 ∗ dutyTok ER (recvCell (add c 4) (fk 4)) 0 0
        ∗ owes (c : Thread nD τ) (owedR c 13) W)
      ⊢ iprop((∀ r, (cred (tallyAt (sendCell c (fk 3)) () Nc) ∗ cred (tallyAt (sendCell c (fk 4)) () Nc)
              ∗ owes (c : Thread nD τ) (owedR c 11) W) -∗ Q r)
          -∗ wp frame (wpE (defs₀ (F := F)) 𝒱₀ (c : Thread nD τ) none) Set.univ
              (k0_part9 (Memref.whole cc0_stg0_0) (Memref.isWhole_whole _) (Memref.whole cc0_stg1_0) (Memref.isWhole_whole _)
                (Memref.whole cc0_scratch0) (Memref.isWhole_whole _) cc0_scratch1 cc0_scratch2 c v2 v258) Q) := by
  rw [k0_part9_eq_skeleton]; unfold k0_part9_skel
  simp only [Prog.lift, Prog.bind_op, Prog.bind_ret, Prog.pure_eq_ret]
  iintro ⟨#HR, Hs3, ⟨%fd3, Hd3⟩, Ha3, Hb3, Hs4, ⟨%fd4, Hd4⟩, Ha4, Hb4, HO⟩ Hk
  iapply (step_send m ρ K c (fk 3) (by decide) _ (dev18_eq c) (owedR c 12) fd3) $$ [Hs3 Hd3 HO Ha3 Hb3]
  · isplitr; · iexact HR
    isplitl [Hs3]; · iexact Hs3
    isplitl [Hd3]; · iexact Hd3
    isplitl [HO]; · iexact HO
    isplitl [Ha3]; · iexact Ha3
    iexact Hb3
  iintro ⟨Hc3, HO⟩
  iapply (step_send m ρ K c (fk 4) (by decide) _ (dev19_eq c) (owedR c 11) fd4) $$ [Hs4 Hd4 HO Ha4 Hb4]
  · isplitr; · iexact HR
    isplitl [Hs4]; · iexact Hs4
    isplitl [Hd4]; · iexact Hd4
    isplitl [HO]; · iexact HO
    isplitl [Ha4]; · iexact Ha4
    iexact Hb4
  iintro ⟨Hc4, HO⟩
  rw [wp_ret]; imodintro
  iapply Hk
  isplitl [Hc3]; · iexact Hc3
  isplitl [Hc4]; · iexact Hc4
  iexact HO

/-- Part 10: transfer 5. -/
theorem part10_spec (K : Dev nD × CK → ℕ) (c : Dev nD) (v2 : BitVec 32) (W : Waits sig Unit)
    {Q : (Σ' (v300 : BitVec 32), BitVec 32) → sProp 𝕄} :
    iprop(records m ρ K
        ∗ slotPts c 0 (Transfers.shareTok fullShare 16 (fk 5)) (rep c (mine m ρ c)) ∗ (∃ fd, slotPts (F := F) (add c 5) (fk 5) fullShare fd)
        ∗ dutyTok ER (sendCell c (fk 5)) 0 0 ∗ dutyTok ER (recvCell (add c 5) (fk 5)) 0 0
        ∗ owes (c : Thread nD τ) (owedR c 11) W)
      ⊢ iprop((∀ r, (cred (tallyAt (sendCell c (fk 5)) () Nc)
              ∗ owes (c : Thread nD τ) (owedR c 10) W) -∗ Q r)
          -∗ wp frame (wpE (defs₀ (F := F)) 𝒱₀ (c : Thread nD τ) none) Set.univ
              (k0_part10 (Memref.whole cc0_stg0_0) (Memref.isWhole_whole _) (Memref.whole cc0_stg1_0) (Memref.isWhole_whole _)
                (Memref.whole cc0_scratch0) (Memref.isWhole_whole _) cc0_scratch1 cc0_scratch2 c v2) Q) := by
  rw [k0_part10_eq_skeleton]; unfold k0_part10_skel
  simp only [Prog.lift, Prog.bind_op, Prog.bind_ret, Prog.pure_eq_ret]
  iintro ⟨#HR, Hs5, ⟨%fd5, Hd5⟩, Ha5, Hb5, HO⟩ Hk
  iapply (step_send m ρ K c (fk 5) (by decide) _ (dev20_eq c) (owedR c 10) fd5) $$ [Hs5 Hd5 HO Ha5 Hb5]
  · isplitr; · iexact HR
    isplitl [Hs5]; · iexact Hs5
    isplitl [Hd5]; · iexact Hd5
    isplitl [HO]; · iexact HO
    isplitl [Ha5]; · iexact Ha5
    iexact Hb5
  iintro ⟨Hc5, HO⟩
  rw [wp_ret]; imodintro
  iapply Hk
  isplitl [Hc5]; · iexact Hc5
  iexact HO

/-- Part 11: transfers 6 and 7. -/
theorem part11_spec (K : Dev nD × CK → ℕ) (c : Dev nD) (v2 v321 : BitVec 32) (W : Waits sig Unit)
    {Q : (Σ' (v342 : BitVec 32) (v353 : BitVec 32), BitVec 32) → sProp 𝕄} :
    iprop(records m ρ K
        ∗ slotPts c 0 (Transfers.shareTok fullShare 16 (fk 6)) (rep c (mine m ρ c)) ∗ (∃ fd, slotPts (F := F) (add c 6) (fk 6) fullShare fd)
        ∗ dutyTok ER (sendCell c (fk 6)) 0 0 ∗ dutyTok ER (recvCell (add c 6) (fk 6)) 0 0
        ∗ slotPts c 0 (Transfers.shareTok fullShare 16 (fk 7)) (rep c (mine m ρ c)) ∗ (∃ fd, slotPts (F := F) (add c 7) (fk 7) fullShare fd)
        ∗ dutyTok ER (sendCell c (fk 7)) 0 0 ∗ dutyTok ER (recvCell (add c 7) (fk 7)) 0 0
        ∗ owes (c : Thread nD τ) (owedR c 10) W)
      ⊢ iprop((∀ r, (cred (tallyAt (sendCell c (fk 6)) () Nc) ∗ cred (tallyAt (sendCell c (fk 7)) () Nc)
              ∗ owes (c : Thread nD τ) (owedR c 8) W) -∗ Q r)
          -∗ wp frame (wpE (defs₀ (F := F)) 𝒱₀ (c : Thread nD τ) none) Set.univ
              (k0_part11 (Memref.whole cc0_stg0_0) (Memref.isWhole_whole _) (Memref.whole cc0_stg1_0) (Memref.isWhole_whole _)
                (Memref.whole cc0_scratch0) (Memref.isWhole_whole _) cc0_scratch1 cc0_scratch2 c v2 v321) Q) := by
  rw [k0_part11_eq_skeleton]; unfold k0_part11_skel
  simp only [Prog.lift, Prog.bind_op, Prog.bind_ret, Prog.pure_eq_ret]
  iintro ⟨#HR, Hs6, ⟨%fd6, Hd6⟩, Ha6, Hb6, Hs7, ⟨%fd7, Hd7⟩, Ha7, Hb7, HO⟩ Hk
  iapply (step_send m ρ K c (fk 6) (by decide) _ (dev21_eq c) (owedR c 9) fd6) $$ [Hs6 Hd6 HO Ha6 Hb6]
  · isplitr; · iexact HR
    isplitl [Hs6]; · iexact Hs6
    isplitl [Hd6]; · iexact Hd6
    isplitl [HO]; · iexact HO
    isplitl [Ha6]; · iexact Ha6
    iexact Hb6
  iintro ⟨Hc6, HO⟩
  iapply (step_send m ρ K c (fk 7) (by decide) _ (dev22_eq c) (owedR c 8) fd7) $$ [Hs7 Hd7 HO Ha7 Hb7]
  · isplitr; · iexact HR
    isplitl [Hs7]; · iexact Hs7
    isplitl [Hd7]; · iexact Hd7
    isplitl [HO]; · iexact HO
    isplitl [Ha7]; · iexact Ha7
    iexact Hb7
  iintro ⟨Hc7, HO⟩
  rw [wp_ret]; imodintro
  iapply Hk
  isplitl [Hc6]; · iexact Hc6
  isplitl [Hc7]; · iexact Hc7
  iexact HO

/-- Part 12: transfer 8. -/
theorem part12_spec (K : Dev nD × CK → ℕ) (c : Dev nD) (v2 v353 c16_i32_260 : BitVec 32) (W : Waits sig Unit)
    {Q : (Σ' (v363 : BitVec 32) (v384 : BitVec 32), BitVec 32) → sProp 𝕄} :
    iprop(records m ρ K
        ∗ slotPts c 0 (Transfers.shareTok fullShare 16 (fk 8)) (rep c (mine m ρ c)) ∗ (∃ fd, slotPts (F := F) (add c 8) (fk 8) fullShare fd)
        ∗ dutyTok ER (sendCell c (fk 8)) 0 0 ∗ dutyTok ER (recvCell (add c 8) (fk 8)) 0 0
        ∗ owes (c : Thread nD τ) (owedR c 8) W)
      ⊢ iprop((∀ r, (cred (tallyAt (sendCell c (fk 8)) () Nc)
              ∗ owes (c : Thread nD τ) (owedR c 7) W) -∗ Q r)
          -∗ wp frame (wpE (defs₀ (F := F)) 𝒱₀ (c : Thread nD τ) none) Set.univ
              (k0_part12 (Memref.whole cc0_stg0_0) (Memref.isWhole_whole _) (Memref.whole cc0_stg1_0) (Memref.isWhole_whole _)
                (Memref.whole cc0_scratch0) (Memref.isWhole_whole _) cc0_scratch1 cc0_scratch2 c v2 v353 c16_i32_260) Q) := by
  rw [k0_part12_eq_skeleton]; unfold k0_part12_skel
  simp only [Prog.lift, Prog.bind_op, Prog.bind_ret, Prog.pure_eq_ret]
  iintro ⟨#HR, Hs8, ⟨%fd8, Hd8⟩, Ha8, Hb8, HO⟩ Hk
  iapply (step_send m ρ K c (fk 8) (by decide) _ (dev23_eq c) (owedR c 7) fd8) $$ [Hs8 Hd8 HO Ha8 Hb8]
  · isplitr; · iexact HR
    isplitl [Hs8]; · iexact Hs8
    isplitl [Hd8]; · iexact Hd8
    isplitl [HO]; · iexact HO
    isplitl [Ha8]; · iexact Ha8
    iexact Hb8
  iintro ⟨Hc8, HO⟩
  rw [wp_ret]; imodintro
  iapply Hk
  isplitl [Hc8]; · iexact Hc8
  iexact HO

/-- Part 13: transfers 9 and 10. -/
theorem part13_spec (K : Dev nD × CK → ℕ) (c : Dev nD) (v2 v385 : BitVec 32) (W : Waits sig Unit)
    {Q : (Σ' (v405 : BitVec 32) (v416 : BitVec 32) (c16_i32_311 : BitVec 32) (v417 : BitVec 1), BitVec 32) → sProp 𝕄} :
    iprop(records m ρ K
        ∗ slotPts c 0 (Transfers.shareTok fullShare 16 (fk 9)) (rep c (mine m ρ c)) ∗ (∃ fd, slotPts (F := F) (add c 9) (fk 9) fullShare fd)
        ∗ dutyTok ER (sendCell c (fk 9)) 0 0 ∗ dutyTok ER (recvCell (add c 9) (fk 9)) 0 0
        ∗ slotPts c 0 (Transfers.shareTok fullShare 16 (fk 10)) (rep c (mine m ρ c)) ∗ (∃ fd, slotPts (F := F) (add c 10) (fk 10) fullShare fd)
        ∗ dutyTok ER (sendCell c (fk 10)) 0 0 ∗ dutyTok ER (recvCell (add c 10) (fk 10)) 0 0
        ∗ owes (c : Thread nD τ) (owedR c 7) W)
      ⊢ iprop((∀ r, (cred (tallyAt (sendCell c (fk 9)) () Nc) ∗ cred (tallyAt (sendCell c (fk 10)) () Nc)
              ∗ owes (c : Thread nD τ) (owedR c 5) W) -∗ Q r)
          -∗ wp frame (wpE (defs₀ (F := F)) 𝒱₀ (c : Thread nD τ) none) Set.univ
              (k0_part13 (Memref.whole cc0_stg0_0) (Memref.isWhole_whole _) (Memref.whole cc0_stg1_0) (Memref.isWhole_whole _)
                (Memref.whole cc0_scratch0) (Memref.isWhole_whole _) cc0_scratch1 cc0_scratch2 c v2 v385) Q) := by
  rw [k0_part13_eq_skeleton]; unfold k0_part13_skel
  simp only [Prog.lift, Prog.bind_op, Prog.bind_ret, Prog.pure_eq_ret]
  iintro ⟨#HR, Hs9, ⟨%fd9, Hd9⟩, Ha9, Hb9, Hs10, ⟨%fd10, Hd10⟩, Ha10, Hb10, HO⟩ Hk
  iapply (step_send m ρ K c (fk 9) (by decide) _ (dev24_eq c) (owedR c 6) fd9) $$ [Hs9 Hd9 HO Ha9 Hb9]
  · isplitr; · iexact HR
    isplitl [Hs9]; · iexact Hs9
    isplitl [Hd9]; · iexact Hd9
    isplitl [HO]; · iexact HO
    isplitl [Ha9]; · iexact Ha9
    iexact Hb9
  iintro ⟨Hc9, HO⟩
  iapply (step_send m ρ K c (fk 10) (by decide) _ (dev25_eq c) (owedR c 5) fd10) $$ [Hs10 Hd10 HO Ha10 Hb10]
  · isplitr; · iexact HR
    isplitl [Hs10]; · iexact Hs10
    isplitl [Hd10]; · iexact Hd10
    isplitl [HO]; · iexact HO
    isplitl [Ha10]; · iexact Ha10
    iexact Hb10
  iintro ⟨Hc10, HO⟩
  rw [wp_ret]; imodintro
  iapply Hk
  isplitl [Hc9]; · iexact Hc9
  isplitl [Hc10]; · iexact Hc10
  iexact HO

/-- Part 14: transfer 11. -/
theorem part14_spec (K : Dev nD × CK → ℕ) (c : Dev nD) (v2 v416 c16_i32_311 : BitVec 32) (v417 : BitVec 1) (c1_i32_313 : BitVec 32) (W : Waits sig Unit)
    {Q : (Σ' (v426 : BitVec 32), BitVec 32) → sProp 𝕄} :
    iprop(records m ρ K
        ∗ slotPts c 0 (Transfers.shareTok fullShare 16 (fk 11)) (rep c (mine m ρ c)) ∗ (∃ fd, slotPts (F := F) (add c 11) (fk 11) fullShare fd)
        ∗ dutyTok ER (sendCell c (fk 11)) 0 0 ∗ dutyTok ER (recvCell (add c 11) (fk 11)) 0 0
        ∗ owes (c : Thread nD τ) (owedR c 5) W)
      ⊢ iprop((∀ r, (cred (tallyAt (sendCell c (fk 11)) () Nc)
              ∗ owes (c : Thread nD τ) (owedR c 4) W) -∗ Q r)
          -∗ wp frame (wpE (defs₀ (F := F)) 𝒱₀ (c : Thread nD τ) none) Set.univ
              (k0_part14 (Memref.whole cc0_stg0_0) (Memref.isWhole_whole _) (Memref.whole cc0_stg1_0) (Memref.isWhole_whole _)
                (Memref.whole cc0_scratch0) (Memref.isWhole_whole _) cc0_scratch1 cc0_scratch2 c v2 v416 c16_i32_311 v417 c1_i32_313) Q) := by
  rw [k0_part14_eq_skeleton]; unfold k0_part14_skel
  simp only [Prog.lift, Prog.bind_op, Prog.bind_ret, Prog.pure_eq_ret]
  iintro ⟨#HR, Hs11, ⟨%fd11, Hd11⟩, Ha11, Hb11, HO⟩ Hk
  iapply (step_send m ρ K c (fk 11) (by decide) _ (dev26_eq c) (owedR c 4) fd11) $$ [Hs11 Hd11 HO Ha11 Hb11]
  · isplitr; · iexact HR
    isplitl [Hs11]; · iexact Hs11
    isplitl [Hd11]; · iexact Hd11
    isplitl [HO]; · iexact HO
    isplitl [Ha11]; · iexact Ha11
    iexact Hb11
  iintro ⟨Hc11, HO⟩
  rw [wp_ret]; imodintro
  iapply Hk
  isplitl [Hc11]; · iexact Hc11
  iexact HO

/-- Part 15: transfers 12 and 13. -/
theorem part15_spec (K : Dev nD × CK → ℕ) (c : Dev nD) (v2 : BitVec 32) (W : Waits sig Unit)
    {Q : (Σ' (v468 : BitVec 32) (v481 : BitVec 32) (v482 : BitVec 32), BitVec 32) → sProp 𝕄} :
    iprop(records m ρ K
        ∗ slotPts c 0 (Transfers.shareTok fullShare 16 (fk 12)) (rep c (mine m ρ c)) ∗ (∃ fd, slotPts (F := F) (add c 12) (fk 12) fullShare fd)
        ∗ dutyTok ER (sendCell c (fk 12)) 0 0 ∗ dutyTok ER (recvCell (add c 12) (fk 12)) 0 0
        ∗ slotPts c 0 (Transfers.shareTok fullShare 16 (fk 13)) (rep c (mine m ρ c)) ∗ (∃ fd, slotPts (F := F) (add c 13) (fk 13) fullShare fd)
        ∗ dutyTok ER (sendCell c (fk 13)) 0 0 ∗ dutyTok ER (recvCell (add c 13) (fk 13)) 0 0
        ∗ owes (c : Thread nD τ) (owedR c 4) W)
      ⊢ iprop((∀ r, (cred (tallyAt (sendCell c (fk 12)) () Nc) ∗ cred (tallyAt (sendCell c (fk 13)) () Nc)
              ∗ owes (c : Thread nD τ) (owedR c 2) W) -∗ Q r)
          -∗ wp frame (wpE (defs₀ (F := F)) 𝒱₀ (c : Thread nD τ) none) Set.univ
              (k0_part15 (Memref.whole cc0_stg0_0) (Memref.isWhole_whole _) (Memref.whole cc0_stg1_0) (Memref.isWhole_whole _)
                (Memref.whole cc0_scratch0) (Memref.isWhole_whole _) cc0_scratch1 cc0_scratch2 c v2) Q) := by
  rw [k0_part15_eq_skeleton]; unfold k0_part15_skel
  simp only [Prog.lift, Prog.bind_op, Prog.bind_ret, Prog.pure_eq_ret]
  iintro ⟨#HR, Hs12, ⟨%fd12, Hd12⟩, Ha12, Hb12, Hs13, ⟨%fd13, Hd13⟩, Ha13, Hb13, HO⟩ Hk
  iapply (step_send m ρ K c (fk 12) (by decide) _ (dev27_eq c) (owedR c 3) fd12) $$ [Hs12 Hd12 HO Ha12 Hb12]
  · isplitr; · iexact HR
    isplitl [Hs12]; · iexact Hs12
    isplitl [Hd12]; · iexact Hd12
    isplitl [HO]; · iexact HO
    isplitl [Ha12]; · iexact Ha12
    iexact Hb12
  iintro ⟨Hc12, HO⟩
  iapply (step_send m ρ K c (fk 13) (by decide) _ (dev28_eq c) (owedR c 2) fd13) $$ [Hs13 Hd13 HO Ha13 Hb13]
  · isplitr; · iexact HR
    isplitl [Hs13]; · iexact Hs13
    isplitl [Hd13]; · iexact Hd13
    isplitl [HO]; · iexact HO
    isplitl [Ha13]; · iexact Ha13
    iexact Hb13
  iintro ⟨Hc13, HO⟩
  rw [wp_ret]; imodintro
  iapply Hk
  isplitl [Hc12]; · iexact Hc12
  isplitl [Hc13]; · iexact Hc13
  iexact HO

/-- Part 16: transfer 14. -/
theorem part16_spec (K : Dev nD × CK → ℕ) (c : Dev nD) (v2 v481 v482 c0_i32_365 : BitVec 32) (W : Waits sig Unit)
    {Q : (Σ' (v489 : BitVec 32), BitVec 32) → sProp 𝕄} :
    iprop(records m ρ K
        ∗ slotPts c 0 (Transfers.shareTok fullShare 16 (fk 14)) (rep c (mine m ρ c)) ∗ (∃ fd, slotPts (F := F) (add c 14) (fk 14) fullShare fd)
        ∗ dutyTok ER (sendCell c (fk 14)) 0 0 ∗ dutyTok ER (recvCell (add c 14) (fk 14)) 0 0
        ∗ owes (c : Thread nD τ) (owedR c 2) W)
      ⊢ iprop((∀ r, (cred (tallyAt (sendCell c (fk 14)) () Nc)
              ∗ owes (c : Thread nD τ) (owedR c 1) W) -∗ Q r)
          -∗ wp frame (wpE (defs₀ (F := F)) 𝒱₀ (c : Thread nD τ) none) Set.univ
              (k0_part16 (Memref.whole cc0_stg0_0) (Memref.isWhole_whole _) (Memref.whole cc0_stg1_0) (Memref.isWhole_whole _)
                (Memref.whole cc0_scratch0) (Memref.isWhole_whole _) cc0_scratch1 cc0_scratch2 c v2 v481 v482 c0_i32_365) Q) := by
  rw [k0_part16_eq_skeleton]; unfold k0_part16_skel
  simp only [Prog.lift, Prog.bind_op, Prog.bind_ret, Prog.pure_eq_ret]
  iintro ⟨#HR, Hs14, ⟨%fd14, Hd14⟩, Ha14, Hb14, HO⟩ Hk
  iapply (step_send m ρ K c (fk 14) (by decide) _ (dev29_eq c) (owedR c 1) fd14) $$ [Hs14 Hd14 HO Ha14 Hb14]
  · isplitr; · iexact HR
    isplitl [Hs14]; · iexact Hs14
    isplitl [Hd14]; · iexact Hd14
    isplitl [HO]; · iexact HO
    isplitl [Ha14]; · iexact Ha14
    iexact Hb14
  iintro ⟨Hc14, HO⟩
  rw [wp_ret]; imodintro
  iapply Hk
  isplitl [Hc14]; · iexact Hc14
  iexact HO

/-- Part 17: transfer 15, the load of the own slot, receive wait 1 and the load of slot 1, receive wait 2. -/
theorem part17_spec (K : Dev nD × CK → ℕ) (c : Dev nD) (v216 v237 : BitVec 32) (W : Waits sig Unit)
    {Q : FVec F S1024 .bf16 → sProp 𝕄} :
    iprop(records m ρ K
        ∗ slotPts c 0 (Transfers.shareTok fullShare 16 (fk 15)) (rep c (mine m ρ c)) ∗ (∃ fd, slotPts (F := F) (add c 15) (fk 15) fullShare fd)
        ∗ dutyTok ER (sendCell c (fk 15)) 0 0 ∗ dutyTok ER (recvCell (add c 15) (fk 15)) 0 0
        ∗ slotPts c 0 (Transfers.shareDrop fullShare 16) (rep c (mine m ρ c))
        ∗ cred (tallyAt (recvCell c (fk 1)) () Nc) ∗ atPos ER (recvCell c (fk 1)) 0 ∅ 0
        ∗ cred (tallyAt (recvCell c (fk 2)) () Nc) ∗ atPos ER (recvCell c (fk 2)) 0 ∅ 0
        ∗ owes (c : Thread nD τ) (owedR c 1) W)
      ⊢ iprop((∀ r, (cred (tallyAt (sendCell c (fk 15)) () Nc)
              ∗ slotPts c 0 (Transfers.shareDrop fullShare 16) (rep c (mine m ρ c))
              ∗ atPos ER (recvCell c (fk 1)) 1 ∅ 0 ∗ recvPay m ρ c (fk 1)
              ∗ atPos ER (recvCell c (fk 2)) 1 ∅ 0 ∗ recvPay m ρ c (fk 2)
              ∗ (∃ W', owes (c : Thread nD τ) 0 W')
              ∗ ⌜r = k0_pay3 (mine m ρ c) (mine m ρ (sub c 1))⌝) -∗ Q r)
          -∗ wp frame (wpE (defs₀ (F := F)) 𝒱₀ (c : Thread nD τ) none) Set.univ
              (k0_part17 (Memref.whole cc0_stg0_0) (Memref.isWhole_whole _) (Memref.whole cc0_stg1_0) (Memref.isWhole_whole _)
                (Memref.whole cc0_scratch0) (Memref.isWhole_whole _) cc0_scratch1 cc0_scratch2 c v216 v237) Q) := by
  rw [k0_part17_eq_skeleton]; unfold k0_part17_skel
  simp only [Prog.lift, Prog.bind_op, Prog.bind_ret, Prog.pure_eq_ret]
  have e1 : recvPay m ρ c (fk 1) = slotPts c (fk 1) fullShare (rep c (mine m ρ (sub c 1))) := rfl
  iintro ⟨#HR, Hs15, ⟨%fd15, Hd15⟩, Ha15, Hb15, H0, Hq1, Hp1, Hq2, Hp2, HO⟩ Hk
  iapply (step_send m ρ K c (fk 15) (by decide) _ (dev30_eq c) (owedR c 0) fd15) $$ [Hs15 Hd15 HO Ha15 Hb15]
  · isplitr; · iexact HR
    isplitl [Hs15]; · iexact Hs15
    isplitl [Hd15]; · iexact Hd15
    isplitl [HO]; · iexact HO
    isplitl [Ha15]; · iexact Ha15
    iexact Hb15
  iintro ⟨Hc15, HO⟩
  -- the load of the own slot, through what the fifteen read shares leave of it
  iapply (step_load c 0 (Transfers.shareDrop fullShare 16) (mine m ρ c) (rep c (mine m ρ c)) (fun _ _ => rfl)) $$ H0
  iintro H0
  -- receive wait 1, nothing owed any more
  iapply (step_recvwait m ρ K c (fk 1) (by decide) (W := W)) $$ [Hq1 HO Hp1]
  · isplitr; · iexact HR
    isplitl [Hq1]; · iexact Hq1
    isplitl [HO]; · iexact HO
    iexact Hp1
  iintro ⟨HO, Hp1, Hr1⟩
  -- the load of slot 1, which now holds the maxima of the device one place before
  ihave Hr1 := (Entails.of_eq e1) $$ Hr1
  iapply (step_load c (fk 1 (by decide)) fullShare (mine m ρ (sub c 1)) (rep c (mine m ρ (sub c 1))) (fun _ _ => rfl)) $$ [Hr1]
  · iexact Hr1
  iintro Hr1
  ihave Hr1 := (Entails.of_eq e1.symm) $$ Hr1
  -- receive wait 2
  iapply (step_recvwait m ρ K c (fk 2) (by decide)) $$ [Hq2 HO Hp2]
  · isplitr; · iexact HR
    isplitl [Hq2]; · iexact Hq2
    isplitl [HO]; · iexact HO
    iexact Hp2
  iintro ⟨HO, Hp2, Hr2⟩
  rw [wp_ret]; imodintro
  iapply Hk
  isplitl [Hc15]; · iexact Hc15
  isplitl [H0]; · iexact H0
  isplitl [Hp1]; · iexact Hp1
  isplitl [Hr1]; · iexact Hr1
  isplitl [Hp2]; · iexact Hp2
  isplitl [Hr2]; · iexact Hr2
  isplitl [HO]; · iexists _; iexact HO
  ipureintro; rfl

/-- info: 'Cert.Kernel.Pf.part8_spec' depends on axioms: [propext, Classical.choice, Quot.sound] -/
#guard_msgs in #print axioms part8_spec
/-- info: 'Cert.Kernel.Pf.part9_spec' depends on axioms: [propext, Classical.choice, Quot.sound] -/
#guard_msgs in #print axioms part9_spec
/-- info: 'Cert.Kernel.Pf.part10_spec' depends on axioms: [propext, Classical.choice, Quot.sound] -/
#guard_msgs in #print axioms part10_spec
/-- info: 'Cert.Kernel.Pf.part11_spec' depends on axioms: [propext, Classical.choice, Quot.sound] -/
#guard_msgs in #print axioms part11_spec
/-- info: 'Cert.Kernel.Pf.part12_spec' depends on axioms: [propext, Classical.choice, Quot.sound] -/
#guard_msgs in #print axioms part12_spec
/-- info: 'Cert.Kernel.Pf.part13_spec' depends on axioms: [propext, Classical.choice, Quot.sound] -/
#guard_msgs in #print axioms part13_spec
/-- info: 'Cert.Kernel.Pf.part14_spec' depends on axioms: [propext, Classical.choice, Quot.sound] -/
#guard_msgs in #print axioms part14_spec
/-- info: 'Cert.Kernel.Pf.part15_spec' depends on axioms: [propext, Classical.choice, Quot.sound] -/
#guard_msgs in #print axioms part15_spec
/-- info: 'Cert.Kernel.Pf.part16_spec' depends on axioms: [propext, Classical.choice, Quot.sound] -/
#guard_msgs in #print axioms part16_spec
/-- info: 'Cert.Kernel.Pf.part17_spec' depends on axioms: [propext, Classical.choice, Quot.sound] -/
#guard_msgs in #print axioms part17_spec

end Cert.Kernel.Pf

end
-- ==== Proof.KernelPf.BodyC.lean ====
/-
  The middle and the end of the kernel body on one device, printed part by printed part: the receive waits 3, …, 15,
  each followed by the load of the slot it filled — the maxima of the device that many places before —, folded into the
  running maximum; then the fifteen send waits, each handing back one read share of the device's own slot 0.
-/
import proofs.«900914_g7700000000000915_dist_max_ax0_shard0_i_m2048_n1024_v7x_i16_bf16_1_alg».proof.Proof.KernelPf.Steps
import proofs.«900914_g7700000000000915_dist_max_ax0_shard0_i_m2048_n1024_v7x_i16_bf16_1_alg».proof.Proof.KernelPf.Open

set_option maxRecDepth 16384

noncomputable section

namespace Cert.Kernel.Pf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The load of slot 2, then the receive waits 3 and 4, each followed by the load of its slot. -/
theorem part18_spec (K : Dev nD × CK → ℕ) (c : Dev nD) (v258 : BitVec 32) (v279 : BitVec 32) (v300 : BitVec 32) (v533 : FVec F S1024 .bf16) (W : Waits sig Unit)
    {Q : (Σ' (v566 : FVec F S1024 .bf16), BitVec 32) → sProp 𝕄} :
    iprop(records m ρ K
        ∗ recvPay m ρ c (fk 2)
        ∗ cred (tallyAt (recvCell c (fk 3)) () Nc) ∗ atPos ER (recvCell c (fk 3)) 0 ∅ 0
        ∗ cred (tallyAt (recvCell c (fk 4)) () Nc) ∗ atPos ER (recvCell c (fk 4)) 0 ∅ 0
        ∗ owes (c : Thread nD τ) 0 W)
      ⊢ iprop((∀ r, iprop(recvPay m ρ c (fk 2)
            ∗ atPos ER (recvCell c (fk 3)) 1 ∅ 0 ∗ recvPay m ρ c (fk 3)
            ∗ atPos ER (recvCell c (fk 4)) 1 ∅ 0 ∗ recvPay m ρ c (fk 4)
            ∗ (∃ W', owes (c : Thread nD τ) 0 W')
            ∗ ⌜r.1 = k0_pay4 v533 (mine m ρ (sub c 2)) (mine m ρ (sub c 3)) (mine m ρ (sub c 4))⌝) -∗ Q r)
          -∗ wp frame (wpE (defs₀ (F := F)) 𝒱₀ (c : Thread nD τ) none) Set.univ
              (k0_part18 (Memref.whole cc0_stg0_0) (Memref.isWhole_whole _) (Memref.whole cc0_stg1_0) (Memref.isWhole_whole _) (Memref.whole cc0_scratch0) (Memref.isWhole_whole _) cc0_scratch1 cc0_scratch2 v258 v279 v300 v533) Q) := by
  rw [k0_part18_eq_skeleton]; unfold k0_part18_skel
  simp only [Prog.lift, Prog.bind_op, Prog.bind_ret, Prog.pure_eq_ret]
  unfold recvPay
  iintro ⟨#HR, Hp2, Hc3, Ha3, Hc4, Ha4, HO⟩ Hk
  -- the load of slot 2: the maxima of the device 2 places before
  iapply (step_load c (fk 2) fullShare (mine m ρ (sub c 2)) (rep c (mine m ρ (sub c 2))) (fun _ _ => rfl)) $$ [Hp2]
  · iexact Hp2
  iintro Hp2
  -- the receive wait 3
  iapply (step_recvwait m ρ K c (fk 3) (by decide)) $$ [Hc3 HO Ha3]
  · isplitr; · iexact HR
    isplitl [Hc3]; · iexact Hc3
    isplitl [HO]; · iexact HO
    iexact Ha3
  iintro ⟨HO, Ha3, Hp3⟩
  unfold recvPay
  -- the load of slot 3: the maxima of the device 3 places before
  iapply (step_load c (fk 3) fullShare (mine m ρ (sub c 3)) (rep c (mine m ρ (sub c 3))) (fun _ _ => rfl)) $$ [Hp3]
  · iexact Hp3
  iintro Hp3
  -- the receive wait 4
  iapply (step_recvwait m ρ K c (fk 4) (by decide)) $$ [Hc4 HO Ha4]
  · isplitr; · iexact HR
    isplitl [Hc4]; · iexact Hc4
    isplitl [HO]; · iexact HO
    iexact Ha4
  iintro ⟨HO, Ha4, Hp4⟩
  unfold recvPay
  -- the load of slot 4: the maxima of the device 4 places before
  iapply (step_load c (fk 4) fullShare (mine m ρ (sub c 4)) (rep c (mine m ρ (sub c 4))) (fun _ _ => rfl)) $$ [Hp4]
  · iexact Hp4
  iintro Hp4
  rw [wp_ret]
  imodintro
  iapply Hk
  isplitl [Hp2]; · iexact Hp2
  isplitl [Ha3]; · iexact Ha3
  isplitl [Hp3]; · iexact Hp3
  isplitl [Ha4]; · iexact Ha4
  isplitl [Hp4]; · iexact Hp4
  isplitl [HO]; · iexists _; iexact HO
  ipureintro; rfl

/-- The receive waits 5 and 6, each followed by the load of its slot. -/
theorem part19_spec (K : Dev nD × CK → ℕ) (c : Dev nD) (v321 : BitVec 32) (v342 : BitVec 32) (v566 : FVec F S1024 .bf16) (v567 : BitVec 32) (W : Waits sig Unit)
    {Q : (FVec F S1024 .bf16) → sProp 𝕄} :
    iprop(records m ρ K
        ∗ cred (tallyAt (recvCell c (fk 5)) () Nc) ∗ atPos ER (recvCell c (fk 5)) 0 ∅ 0
        ∗ cred (tallyAt (recvCell c (fk 6)) () Nc) ∗ atPos ER (recvCell c (fk 6)) 0 ∅ 0
        ∗ owes (c : Thread nD τ) 0 W)
      ⊢ iprop((∀ r, iprop(atPos ER (recvCell c (fk 5)) 1 ∅ 0 ∗ recvPay m ρ c (fk 5)
            ∗ atPos ER (recvCell c (fk 6)) 1 ∅ 0 ∗ recvPay m ρ c (fk 6)
            ∗ (∃ W', owes (c : Thread nD τ) 0 W')
            ∗ ⌜r = k0_pay5 v566 (mine m ρ (sub c 5)) (mine m ρ (sub c 6))⌝) -∗ Q r)
          -∗ wp frame (wpE (defs₀ (F := F)) 𝒱₀ (c : Thread nD τ) none) Set.univ
              (k0_part19 (Memref.whole cc0_stg0_0) (Memref.isWhole_whole _) (Memref.whole cc0_stg1_0) (Memref.isWhole_whole _) (Memref.whole cc0_scratch0) (Memref.isWhole_whole _) cc0_scratch1 cc0_scratch2 v321 v342 v566 v567) Q) := by
  rw [k0_part19_eq_skeleton]; unfold k0_part19_skel
  simp only [Prog.lift, Prog.bind_op, Prog.bind_ret, Prog.pure_eq_ret]
  unfold recvPay
  iintro ⟨#HR, Hc5, Ha5, Hc6, Ha6, HO⟩ Hk
  -- the receive wait 5
  iapply (step_recvwait m ρ K c (fk 5) (by decide)) $$ [Hc5 HO Ha5]
  · isplitr; · iexact HR
    isplitl [Hc5]; · iexact Hc5
    isplitl [HO]; · iexact HO
    iexact Ha5
  iintro ⟨HO, Ha5, Hp5⟩
  unfold recvPay
  -- the load of slot 5: the maxima of the device 5 places before
  iapply (step_load c (fk 5) fullShare (mine m ρ (sub c 5)) (rep c (mine m ρ (sub c 5))) (fun _ _ => rfl)) $$ [Hp5]
  · iexact Hp5
  iintro Hp5
  -- the receive wait 6
  iapply (step_recvwait m ρ K c (fk 6) (by decide)) $$ [Hc6 HO Ha6]
  · isplitr; · iexact HR
    isplitl [Hc6]; · iexact Hc6
    isplitl [HO]; · iexact HO
    iexact Ha6
  iintro ⟨HO, Ha6, Hp6⟩
  unfold recvPay
  -- the load of slot 6: the maxima of the device 6 places before
  iapply (step_load c (fk 6) fullShare (mine m ρ (sub c 6)) (rep c (mine m ρ (sub c 6))) (fun _ _ => rfl)) $$ [Hp6]
  · iexact Hp6
  iintro Hp6
  rw [wp_ret]
  imodintro
  iapply Hk
  isplitl [Ha5]; · iexact Ha5
  isplitl [Hp5]; · iexact Hp5
  isplitl [Ha6]; · iexact Ha6
  isplitl [Hp6]; · iexact Hp6
  isplitl [HO]; · iexists _; iexact HO
  ipureintro; rfl

/-- The receive waits 7, 8 and 9, each followed by the load of its slot. -/
theorem part20_spec (K : Dev nD × CK → ℕ) (c : Dev nD) (v363 : BitVec 32) (v384 : BitVec 32) (v588 : FVec F S1024 .bf16) (W : Waits sig Unit)
    {Q : (FVec F S1024 .bf16) → sProp 𝕄} :
    iprop(records m ρ K
        ∗ cred (tallyAt (recvCell c (fk 7)) () Nc) ∗ atPos ER (recvCell c (fk 7)) 0 ∅ 0
        ∗ cred (tallyAt (recvCell c (fk 8)) () Nc) ∗ atPos ER (recvCell c (fk 8)) 0 ∅ 0
        ∗ cred (tallyAt (recvCell c (fk 9)) () Nc) ∗ atPos ER (recvCell c (fk 9)) 0 ∅ 0
        ∗ owes (c : Thread nD τ) 0 W)
      ⊢ iprop((∀ r, iprop(atPos ER (recvCell c (fk 7)) 1 ∅ 0 ∗ recvPay m ρ c (fk 7)
            ∗ atPos ER (recvCell c (fk 8)) 1 ∅ 0 ∗ recvPay m ρ c (fk 8)
            ∗ atPos ER (recvCell c (fk 9)) 1 ∅ 0 ∗ recvPay m ρ c (fk 9)
            ∗ (∃ W', owes (c : Thread nD τ) 0 W')
            ∗ ⌜r = k0_pay6 v588 (mine m ρ (sub c 7)) (mine m ρ (sub c 8)) (mine m ρ (sub c 9))⌝) -∗ Q r)
          -∗ wp frame (wpE (defs₀ (F := F)) 𝒱₀ (c : Thread nD τ) none) Set.univ
              (k0_part20 (Memref.whole cc0_stg0_0) (Memref.isWhole_whole _) (Memref.whole cc0_stg1_0) (Memref.isWhole_whole _) (Memref.whole cc0_scratch0) (Memref.isWhole_whole _) cc0_scratch1 cc0_scratch2 v363 v384 v588) Q) := by
  rw [k0_part20_eq_skeleton]; unfold k0_part20_skel
  simp only [Prog.lift, Prog.bind_op, Prog.bind_ret, Prog.pure_eq_ret]
  unfold recvPay
  iintro ⟨#HR, Hc7, Ha7, Hc8, Ha8, Hc9, Ha9, HO⟩ Hk
  -- the receive wait 7
  iapply (step_recvwait m ρ K c (fk 7) (by decide)) $$ [Hc7 HO Ha7]
  · isplitr; · iexact HR
    isplitl [Hc7]; · iexact Hc7
    isplitl [HO]; · iexact HO
    iexact Ha7
  iintro ⟨HO, Ha7, Hp7⟩
  unfold recvPay
  -- the load of slot 7: the maxima of the device 7 places before
  iapply (step_load c (fk 7) fullShare (mine m ρ (sub c 7)) (rep c (mine m ρ (sub c 7))) (fun _ _ => rfl)) $$ [Hp7]
  · iexact Hp7
  iintro Hp7
  -- the receive wait 8
  iapply (step_recvwait m ρ K c (fk 8) (by decide)) $$ [Hc8 HO Ha8]
  · isplitr; · iexact HR
    isplitl [Hc8]; · iexact Hc8
    isplitl [HO]; · iexact HO
    iexact Ha8
  iintro ⟨HO, Ha8, Hp8⟩
  unfold recvPay
  -- the load of slot 8: the maxima of the device 8 places before
  iapply (step_load c (fk 8) fullShare (mine m ρ (sub c 8)) (rep c (mine m ρ (sub c 8))) (fun _ _ => rfl)) $$ [Hp8]
  · iexact Hp8
  iintro Hp8
  -- the receive wait 9
  iapply (step_recvwait m ρ K c (fk 9) (by decide)) $$ [Hc9 HO Ha9]
  · isplitr; · iexact HR
    isplitl [Hc9]; · iexact Hc9
    isplitl [HO]; · iexact HO
    iexact Ha9
  iintro ⟨HO, Ha9, Hp9⟩
  unfold recvPay
  -- the load of slot 9: the maxima of the device 9 places before
  iapply (step_load c (fk 9) fullShare (mine m ρ (sub c 9)) (rep c (mine m ρ (sub c 9))) (fun _ _ => rfl)) $$ [Hp9]
  · iexact Hp9
  iintro Hp9
  rw [wp_ret]
  imodintro
  iapply Hk
  isplitl [Ha7]; · iexact Ha7
  isplitl [Hp7]; · iexact Hp7
  isplitl [Ha8]; · iexact Ha8
  isplitl [Hp8]; · iexact Hp8
  isplitl [Ha9]; · iexact Ha9
  isplitl [Hp9]; · iexact Hp9
  isplitl [HO]; · iexists _; iexact HO
  ipureintro; rfl

/-- The receive waits 10 and 11, each followed by the load of its slot. -/
theorem part21_spec (K : Dev nD × CK → ℕ) (c : Dev nD) (v405 : BitVec 32) (v426 : BitVec 32) (v447 : BitVec 32) (v621 : FVec F S1024 .bf16) (W : Waits sig Unit)
    {Q : (FVec F S1024 .bf16) → sProp 𝕄} :
    iprop(records m ρ K
        ∗ cred (tallyAt (recvCell c (fk 10)) () Nc) ∗ atPos ER (recvCell c (fk 10)) 0 ∅ 0
        ∗ cred (tallyAt (recvCell c (fk 11)) () Nc) ∗ atPos ER (recvCell c (fk 11)) 0 ∅ 0
        ∗ owes (c : Thread nD τ) 0 W)
      ⊢ iprop((∀ r, iprop(atPos ER (recvCell c (fk 10)) 1 ∅ 0 ∗ recvPay m ρ c (fk 10)
            ∗ atPos ER (recvCell c (fk 11)) 1 ∅ 0 ∗ recvPay m ρ c (fk 11)
            ∗ (∃ W', owes (c : Thread nD τ) 0 W')
            ∗ ⌜r = k0_pay7 v621 (mine m ρ (sub c 10)) (mine m ρ (sub c 11))⌝) -∗ Q r)
          -∗ wp frame (wpE (defs₀ (F := F)) 𝒱₀ (c : Thread nD τ) none) Set.univ
              (k0_part21 (Memref.whole cc0_stg0_0) (Memref.isWhole_whole _) (Memref.whole cc0_stg1_0) (Memref.isWhole_whole _) (Memref.whole cc0_scratch0) (Memref.isWhole_whole _) cc0_scratch1 cc0_scratch2 v405 v426 v447 v621) Q) := by
  rw [k0_part21_eq_skeleton]; unfold k0_part21_skel
  simp only [Prog.lift, Prog.bind_op, Prog.bind_ret, Prog.pure_eq_ret]
  unfold recvPay
  iintro ⟨#HR, Hc10, Ha10, Hc11, Ha11, HO⟩ Hk
  -- the receive wait 10
  iapply (step_recvwait m ρ K c (fk 10) (by decide)) $$ [Hc10 HO Ha10]
  · isplitr; · iexact HR
    isplitl [Hc10]; · iexact Hc10
    isplitl [HO]; · iexact HO
    iexact Ha10
  iintro ⟨HO, Ha10, Hp10⟩
  unfold recvPay
  -- the load of slot 10: the maxima of the device 10 places before
  iapply (step_load c (fk 10) fullShare (mine m ρ (sub c 10)) (rep c (mine m ρ (sub c 10))) (fun _ _ => rfl)) $$ [Hp10]
  · iexact Hp10
  iintro Hp10
  -- the receive wait 11
  iapply (step_recvwait m ρ K c (fk 11) (by decide)) $$ [Hc11 HO Ha11]
  · isplitr; · iexact HR
    isplitl [Hc11]; · iexact Hc11
    isplitl [HO]; · iexact HO
    iexact Ha11
  iintro ⟨HO, Ha11, Hp11⟩
  unfold recvPay
  -- the load of slot 11: the maxima of the device 11 places before
  iapply (step_load c (fk 11) fullShare (mine m ρ (sub c 11)) (rep c (mine m ρ (sub c 11))) (fun _ _ => rfl)) $$ [Hp11]
  · iexact Hp11
  iintro Hp11
  rw [wp_ret]
  imodintro
  iapply Hk
  isplitl [Ha10]; · iexact Ha10
  isplitl [Hp10]; · iexact Hp10
  isplitl [Ha11]; · iexact Ha11
  isplitl [Hp11]; · iexact Hp11
  isplitl [HO]; · iexists _; iexact HO
  ipureintro; rfl

/-- The receive waits 12 and 13, each followed by the load of its slot, then the receive wait 14. -/
theorem part22_spec (K : Dev nD × CK → ℕ) (c : Dev nD) (v468 : BitVec 32) (v489 : BitVec 32) (v643 : FVec F S1024 .bf16) (W : Waits sig Unit)
    {Q : (FVec F S1024 .bf16) → sProp 𝕄} :
    iprop(records m ρ K
        ∗ cred (tallyAt (recvCell c (fk 12)) () Nc) ∗ atPos ER (recvCell c (fk 12)) 0 ∅ 0
        ∗ cred (tallyAt (recvCell c (fk 13)) () Nc) ∗ atPos ER (recvCell c (fk 13)) 0 ∅ 0
        ∗ cred (tallyAt (recvCell c (fk 14)) () Nc) ∗ atPos ER (recvCell c (fk 14)) 0 ∅ 0
        ∗ owes (c : Thread nD τ) 0 W)
      ⊢ iprop((∀ r, iprop(atPos ER (recvCell c (fk 12)) 1 ∅ 0 ∗ recvPay m ρ c (fk 12)
            ∗ atPos ER (recvCell c (fk 13)) 1 ∅ 0 ∗ recvPay m ρ c (fk 13)
            ∗ atPos ER (recvCell c (fk 14)) 1 ∅ 0 ∗ recvPay m ρ c (fk 14)
            ∗ (∃ W', owes (c : Thread nD τ) 0 W')
            ∗ ⌜r = k0_pay8 v643 (mine m ρ (sub c 12)) (mine m ρ (sub c 13))⌝) -∗ Q r)
          -∗ wp frame (wpE (defs₀ (F := F)) 𝒱₀ (c : Thread nD τ) none) Set.univ
              (k0_part22 (Memref.whole cc0_stg0_0) (Memref.isWhole_whole _) (Memref.whole cc0_stg1_0) (Memref.isWhole_whole _) (Memref.whole cc0_scratch0) (Memref.isWhole_whole _) cc0_scratch1 cc0_scratch2 v468 v489 v643) Q) := by
  rw [k0_part22_eq_skeleton]; unfold k0_part22_skel
  simp only [Prog.lift, Prog.bind_op, Prog.bind_ret, Prog.pure_eq_ret]
  unfold recvPay
  iintro ⟨#HR, Hc12, Ha12, Hc13, Ha13, Hc14, Ha14, HO⟩ Hk
  -- the receive wait 12
  iapply (step_recvwait m ρ K c (fk 12) (by decide)) $$ [Hc12 HO Ha12]
  · isplitr; · iexact HR
    isplitl [Hc12]; · iexact Hc12
    isplitl [HO]; · iexact HO
    iexact Ha12
  iintro ⟨HO, Ha12, Hp12⟩
  unfold recvPay
  -- the load of slot 12: the maxima of the device 12 places before
  iapply (step_load c (fk 12) fullShare (mine m ρ (sub c 12)) (rep c (mine m ρ (sub c 12))) (fun _ _ => rfl)) $$ [Hp12]
  · iexact Hp12
  iintro Hp12
  -- the receive wait 13
  iapply (step_recvwait m ρ K c (fk 13) (by decide)) $$ [Hc13 HO Ha13]
  · isplitr; · iexact HR
    isplitl [Hc13]; · iexact Hc13
    isplitl [HO]; · iexact HO
    iexact Ha13
  iintro ⟨HO, Ha13, Hp13⟩
  unfold recvPay
  -- the load of slot 13: the maxima of the device 13 places before
  iapply (step_load c (fk 13) fullShare (mine m ρ (sub c 13)) (rep c (mine m ρ (sub c 13))) (fun _ _ => rfl)) $$ [Hp13]
  · iexact Hp13
  iintro Hp13
  -- the receive wait 14
  iapply (step_recvwait m ρ K c (fk 14) (by decide)) $$ [Hc14 HO Ha14]
  · isplitr; · iexact HR
    isplitl [Hc14]; · iexact Hc14
    isplitl [HO]; · iexact HO
    iexact Ha14
  iintro ⟨HO, Ha14, Hp14⟩
  unfold recvPay
  rw [wp_ret]
  imodintro
  iapply Hk
  isplitl [Ha12]; · iexact Ha12
  isplitl [Hp12]; · iexact Hp12
  isplitl [Ha13]; · iexact Ha13
  isplitl [Hp13]; · iexact Hp13
  isplitl [Ha14]; · iexact Ha14
  isplitl [Hp14]; · iexact Hp14
  isplitl [HO]; · iexists _; iexact HO
  ipureintro; rfl

/-- The load of slot 14, the receive wait 15 and the load of its slot, then the send wait 1. -/
theorem part23_spec (K : Dev nD × CK → ℕ) (c : Dev nD) (v510 : BitVec 32) (v665 : FVec F S1024 .bf16) (W : Waits sig Unit)
    {Q : (FVec F S1024 .bf16) → sProp 𝕄} :
    iprop(records m ρ K
        ∗ recvPay m ρ c (fk 14)
        ∗ cred (tallyAt (recvCell c (fk 15)) () Nc) ∗ atPos ER (recvCell c (fk 15)) 0 ∅ 0
        ∗ cred (tallyAt (sendCell c (fk 1)) () Nc) ∗ atPos ER (sendCell c (fk 1)) 0 ∅ 0
        ∗ owes (c : Thread nD τ) 0 W)
      ⊢ iprop((∀ r, iprop(recvPay m ρ c (fk 14)
            ∗ atPos ER (recvCell c (fk 15)) 1 ∅ 0 ∗ recvPay m ρ c (fk 15)
            ∗ atPos ER (sendCell c (fk 1)) 1 ∅ 0 ∗ sendPay m ρ c (fk 1)
            ∗ (∃ W', owes (c : Thread nD τ) 0 W')
            ∗ ⌜r = k0_pay9 v665 (mine m ρ (sub c 14)) (mine m ρ (sub c 15))⌝) -∗ Q r)
          -∗ wp frame (wpE (defs₀ (F := F)) 𝒱₀ (c : Thread nD τ) none) Set.univ
              (k0_part23 (Memref.whole cc0_stg0_0) (Memref.isWhole_whole _) (Memref.whole cc0_stg1_0) (Memref.isWhole_whole _) (Memref.whole cc0_scratch0) (Memref.isWhole_whole _) cc0_scratch1 cc0_scratch2 v510 v665) Q) := by
  rw [k0_part23_eq_skeleton]; unfold k0_part23_skel
  simp only [Prog.lift, Prog.bind_op, Prog.bind_ret, Prog.pure_eq_ret]
  unfold recvPay
  iintro ⟨#HR, Hp14, Hc15, Ha15, Hcs1, Has1, HO⟩ Hk
  -- the load of slot 14: the maxima of the device 14 places before
  iapply (step_load c (fk 14) fullShare (mine m ρ (sub c 14)) (rep c (mine m ρ (sub c 14))) (fun _ _ => rfl)) $$ [Hp14]
  · iexact Hp14
  iintro Hp14
  -- the receive wait 15
  iapply (step_recvwait m ρ K c (fk 15) (by decide)) $$ [Hc15 HO Ha15]
  · isplitr; · iexact HR
    isplitl [Hc15]; · iexact Hc15
    isplitl [HO]; · iexact HO
    iexact Ha15
  iintro ⟨HO, Ha15, Hp15⟩
  unfold recvPay
  -- the load of slot 15: the maxima of the device 15 places before
  iapply (step_load c (fk 15) fullShare (mine m ρ (sub c 15)) (rep c (mine m ρ (sub c 15))) (fun _ _ => rfl)) $$ [Hp15]
  · iexact Hp15
  iintro Hp15
  -- the send wait 1
  iapply (step_sendwait m ρ K c (fk 1) (by decide)) $$ [Hcs1 HO Has1]
  · isplitr; · iexact HR
    isplitl [Hcs1]; · iexact Hcs1
    isplitl [HO]; · iexact HO
    iexact Has1
  iintro ⟨HO, Has1, Hps1⟩
  rw [wp_ret]
  imodintro
  iapply Hk
  isplitl [Hp14]; · iexact Hp14
  isplitl [Ha15]; · iexact Ha15
  isplitl [Hp15]; · iexact Hp15
  isplitl [Has1]; · iexact Has1
  isplitl [Hps1]; · iexact Hps1
  isplitl [HO]; · iexists _; iexact HO
  ipureintro; rfl

/-- The send waits 2 to 5. -/
theorem part24_spec (K : Dev nD × CK → ℕ) (c : Dev nD)  (W : Waits sig Unit)
    {Q : PUnit → sProp 𝕄} :
    iprop(records m ρ K
        ∗ cred (tallyAt (sendCell c (fk 2)) () Nc) ∗ atPos ER (sendCell c (fk 2)) 0 ∅ 0
        ∗ cred (tallyAt (sendCell c (fk 3)) () Nc) ∗ atPos ER (sendCell c (fk 3)) 0 ∅ 0
        ∗ cred (tallyAt (sendCell c (fk 4)) () Nc) ∗ atPos ER (sendCell c (fk 4)) 0 ∅ 0
        ∗ cred (tallyAt (sendCell c (fk 5)) () Nc) ∗ atPos ER (sendCell c (fk 5)) 0 ∅ 0
        ∗ owes (c : Thread nD τ) 0 W)
      ⊢ iprop((∀ r, iprop(atPos ER (sendCell c (fk 2)) 1 ∅ 0 ∗ sendPay m ρ c (fk 2)
            ∗ atPos ER (sendCell c (fk 3)) 1 ∅ 0 ∗ sendPay m ρ c (fk 3)
            ∗ atPos ER (sendCell c (fk 4)) 1 ∅ 0 ∗ sendPay m ρ c (fk 4)
            ∗ atPos ER (sendCell c (fk 5)) 1 ∅ 0 ∗ sendPay m ρ c (fk 5)
            ∗ (∃ W', owes (c : Thread nD τ) 0 W')) -∗ Q r)
          -∗ wp frame (wpE (defs₀ (F := F)) 𝒱₀ (c : Thread nD τ) none) Set.univ
              (k0_part24 (Memref.whole cc0_stg0_0) (Memref.isWhole_whole _) (Memref.whole cc0_stg1_0) (Memref.isWhole_whole _) (Memref.whole cc0_scratch0) (Memref.isWhole_whole _) cc0_scratch1 cc0_scratch2 ) Q) := by
  rw [k0_part24_eq_skeleton]; unfold k0_part24_skel
  simp only [Prog.lift, Prog.bind_op, Prog.bind_ret, Prog.pure_eq_ret]
  iintro ⟨#HR, Hcs2, Has2, Hcs3, Has3, Hcs4, Has4, Hcs5, Has5, HO⟩ Hk
  -- the send wait 2
  iapply (step_sendwait m ρ K c (fk 2) (by decide)) $$ [Hcs2 HO Has2]
  · isplitr; · iexact HR
    isplitl [Hcs2]; · iexact Hcs2
    isplitl [HO]; · iexact HO
    iexact Has2
  iintro ⟨HO, Has2, Hps2⟩
  -- the send wait 3
  iapply (step_sendwait m ρ K c (fk 3) (by decide)) $$ [Hcs3 HO Has3]
  · isplitr; · iexact HR
    isplitl [Hcs3]; · iexact Hcs3
    isplitl [HO]; · iexact HO
    iexact Has3
  iintro ⟨HO, Has3, Hps3⟩
  -- the send wait 4
  iapply (step_sendwait m ρ K c (fk 4) (by decide)) $$ [Hcs4 HO Has4]
  · isplitr; · iexact HR
    isplitl [Hcs4]; · iexact Hcs4
    isplitl [HO]; · iexact HO
    iexact Has4
  iintro ⟨HO, Has4, Hps4⟩
  -- the send wait 5
  iapply (step_sendwait m ρ K c (fk 5) (by decide)) $$ [Hcs5 HO Has5]
  · isplitr; · iexact HR
    isplitl [Hcs5]; · iexact Hcs5
    isplitl [HO]; · iexact HO
    iexact Has5
  iintro ⟨HO, Has5, Hps5⟩
  rw [wp_ret]
  imodintro
  iapply Hk
  isplitl [Has2]; · iexact Has2
  isplitl [Hps2]; · iexact Hps2
  isplitl [Has3]; · iexact Has3
  isplitl [Hps3]; · iexact Hps3
  isplitl [Has4]; · iexact Has4
  isplitl [Hps4]; · iexact Hps4
  isplitl [Has5]; · iexact Has5
  isplitl [Hps5]; · iexact Hps5
  iexists _; iexact HO

/-- The send waits 6 to 9. -/
theorem part25_spec (K : Dev nD × CK → ℕ) (c : Dev nD)  (W : Waits sig Unit)
    {Q : PUnit → sProp 𝕄} :
    iprop(records m ρ K
        ∗ cred (tallyAt (sendCell c (fk 6)) () Nc) ∗ atPos ER (sendCell c (fk 6)) 0 ∅ 0
        ∗ cred (tallyAt (sendCell c (fk 7)) () Nc) ∗ atPos ER (sendCell c (fk 7)) 0 ∅ 0
        ∗ cred (tallyAt (sendCell c (fk 8)) () Nc) ∗ atPos ER (sendCell c (fk 8)) 0 ∅ 0
        ∗ cred (tallyAt (sendCell c (fk 9)) () Nc) ∗ atPos ER (sendCell c (fk 9)) 0 ∅ 0
        ∗ owes (c : Thread nD τ) 0 W)
      ⊢ iprop((∀ r, iprop(atPos ER (sendCell c (fk 6)) 1 ∅ 0 ∗ sendPay m ρ c (fk 6)
            ∗ atPos ER (sendCell c (fk 7)) 1 ∅ 0 ∗ sendPay m ρ c (fk 7)
            ∗ atPos ER (sendCell c (fk 8)) 1 ∅ 0 ∗ sendPay m ρ c (fk 8)
            ∗ atPos ER (sendCell c (fk 9)) 1 ∅ 0 ∗ sendPay m ρ c (fk 9)
            ∗ (∃ W', owes (c : Thread nD τ) 0 W')) -∗ Q r)
          -∗ wp frame (wpE (defs₀ (F := F)) 𝒱₀ (c : Thread nD τ) none) Set.univ
              (k0_part25 (Memref.whole cc0_stg0_0) (Memref.isWhole_whole _) (Memref.whole cc0_stg1_0) (Memref.isWhole_whole _) (Memref.whole cc0_scratch0) (Memref.isWhole_whole _) cc0_scratch1 cc0_scratch2 ) Q) := by
  rw [k0_part25_eq_skeleton]; unfold k0_part25_skel
  simp only [Prog.lift, Prog.bind_op, Prog.bind_ret, Prog.pure_eq_ret]
  iintro ⟨#HR, Hcs6, Has6, Hcs7, Has7, Hcs8, Has8, Hcs9, Has9, HO⟩ Hk
  -- the send wait 6
  iapply (step_sendwait m ρ K c (fk 6) (by decide)) $$ [Hcs6 HO Has6]
  · isplitr; · iexact HR
    isplitl [Hcs6]; · iexact Hcs6
    isplitl [HO]; · iexact HO
    iexact Has6
  iintro ⟨HO, Has6, Hps6⟩
  -- the send wait 7
  iapply (step_sendwait m ρ K c (fk 7) (by decide)) $$ [Hcs7 HO Has7]
  · isplitr; · iexact HR
    isplitl [Hcs7]; · iexact Hcs7
    isplitl [HO]; · iexact HO
    iexact Has7
  iintro ⟨HO, Has7, Hps7⟩
  -- the send wait 8
  iapply (step_sendwait m ρ K c (fk 8) (by decide)) $$ [Hcs8 HO Has8]
  · isplitr; · iexact HR
    isplitl [Hcs8]; · iexact Hcs8
    isplitl [HO]; · iexact HO
    iexact Has8
  iintro ⟨HO, Has8, Hps8⟩
  -- the send wait 9
  iapply (step_sendwait m ρ K c (fk 9) (by decide)) $$ [Hcs9 HO Has9]
  · isplitr; · iexact HR
    isplitl [Hcs9]; · iexact Hcs9
    isplitl [HO]; · iexact HO
    iexact Has9
  iintro ⟨HO, Has9, Hps9⟩
  rw [wp_ret]
  imodintro
  iapply Hk
  isplitl [Has6]; · iexact Has6
  isplitl [Hps6]; · iexact Hps6
  isplitl [Has7]; · iexact Has7
  isplitl [Hps7]; · iexact Hps7
  isplitl [Has8]; · iexact Has8
  isplitl [Hps8]; · iexact Hps8
  isplitl [Has9]; · iexact Has9
  isplitl [Hps9]; · iexact Hps9
  iexists _; iexact HO

/-- The send waits 10 to 13. -/
theorem part26_spec (K : Dev nD × CK → ℕ) (c : Dev nD)  (W : Waits sig Unit)
    {Q : PUnit → sProp 𝕄} :
    iprop(records m ρ K
        ∗ cred (tallyAt (sendCell c (fk 10)) () Nc) ∗ atPos ER (sendCell c (fk 10)) 0 ∅ 0
        ∗ cred (tallyAt (sendCell c (fk 11)) () Nc) ∗ atPos ER (sendCell c (fk 11)) 0 ∅ 0
        ∗ cred (tallyAt (sendCell c (fk 12)) () Nc) ∗ atPos ER (sendCell c (fk 12)) 0 ∅ 0
        ∗ cred (tallyAt (sendCell c (fk 13)) () Nc) ∗ atPos ER (sendCell c (fk 13)) 0 ∅ 0
        ∗ owes (c : Thread nD τ) 0 W)
      ⊢ iprop((∀ r, iprop(atPos ER (sendCell c (fk 10)) 1 ∅ 0 ∗ sendPay m ρ c (fk 10)
            ∗ atPos ER (sendCell c (fk 11)) 1 ∅ 0 ∗ sendPay m ρ c (fk 11)
            ∗ atPos ER (sendCell c (fk 12)) 1 ∅ 0 ∗ sendPay m ρ c (fk 12)
            ∗ atPos ER (sendCell c (fk 13)) 1 ∅ 0 ∗ sendPay m ρ c (fk 13)
            ∗ (∃ W', owes (c : Thread nD τ) 0 W')) -∗ Q r)
          -∗ wp frame (wpE (defs₀ (F := F)) 𝒱₀ (c : Thread nD τ) none) Set.univ
              (k0_part26 (Memref.whole cc0_stg0_0) (Memref.isWhole_whole _) (Memref.whole cc0_stg1_0) (Memref.isWhole_whole _) (Memref.whole cc0_scratch0) (Memref.isWhole_whole _) cc0_scratch1 cc0_scratch2 ) Q) := by
  rw [k0_part26_eq_skeleton]; unfold k0_part26_skel
  simp only [Prog.lift, Prog.bind_op, Prog.bind_ret, Prog.pure_eq_ret]
  iintro ⟨#HR, Hcs10, Has10, Hcs11, Has11, Hcs12, Has12, Hcs13, Has13, HO⟩ Hk
  -- the send wait 10
  iapply (step_sendwait m ρ K c (fk 10) (by decide)) $$ [Hcs10 HO Has10]
  · isplitr; · iexact HR
    isplitl [Hcs10]; · iexact Hcs10
    isplitl [HO]; · iexact HO
    iexact Has10
  iintro ⟨HO, Has10, Hps10⟩
  -- the send wait 11
  iapply (step_sendwait m ρ K c (fk 11) (by decide)) $$ [Hcs11 HO Has11]
  · isplitr; · iexact HR
    isplitl [Hcs11]; · iexact Hcs11
    isplitl [HO]; · iexact HO
    iexact Has11
  iintro ⟨HO, Has11, Hps11⟩
  -- the send wait 12
  iapply (step_sendwait m ρ K c (fk 12) (by decide)) $$ [Hcs12 HO Has12]
  · isplitr; · iexact HR
    isplitl [Hcs12]; · iexact Hcs12
    isplitl [HO]; · iexact HO
    iexact Has12
  iintro ⟨HO, Has12, Hps12⟩
  -- the send wait 13
  iapply (step_sendwait m ρ K c (fk 13) (by decide)) $$ [Hcs13 HO Has13]
  · isplitr; · iexact HR
    isplitl [Hcs13]; · iexact Hcs13
    isplitl [HO]; · iexact HO
    iexact Has13
  iintro ⟨HO, Has13, Hps13⟩
  rw [wp_ret]
  imodintro
  iapply Hk
  isplitl [Has10]; · iexact Has10
  isplitl [Hps10]; · iexact Hps10
  isplitl [Has11]; · iexact Has11
  isplitl [Hps11]; · iexact Hps11
  isplitl [Has12]; · iexact Has12
  isplitl [Hps12]; · iexact Hps12
  isplitl [Has13]; · iexact Has13
  isplitl [Hps13]; · iexact Hps13
  iexists _; iexact HO

/-- info: 'Cert.Kernel.Pf.part18_spec' depends on axioms: [propext, Classical.choice, Quot.sound] -/
#guard_msgs in #print axioms part18_spec
/-- info: 'Cert.Kernel.Pf.part26_spec' depends on axioms: [propext, Classical.choice, Quot.sound] -/
#guard_msgs in #print axioms part26_spec

end Cert.Kernel.Pf

end
-- ==== Proof.KernelPf.Finish.lean ====
/-
  The end of the body: the kernel's 32 own cells closed at zero, the read shares of slot 0 put back together, every slot
  at some contents, and the whole regrouped into what the body's postcondition is made from.
-/
import proofs.«900914_g7700000000000915_dist_max_ax0_shard0_i_m2048_n1024_v7x_i16_bf16_1_alg».proof.Proof.KernelPf.Steps
import proofs.«900914_g7700000000000915_dist_max_ax0_shard0_i_m2048_n1024_v7x_i16_bf16_1_alg».proof.Proof.KernelPf.Open

set_option maxRecDepth 16384

noncomputable section

namespace Cert.Kernel.Pf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The read shares of slot 0 -/

/-- Slot 0 held whole is what sixteen read shares leave of it, and the sixteen shares. -/
theorem share_split (c : Dev nD) (f : Buf (Elt F) ((c : Thread nD τ).loc cc0_scratch0)) :
    slotPts (F := F) c 0 fullShare f
      ⊢ iprop(slotPts c 0 (Transfers.shareDrop fullShare 16) f ∗ slotPts c 0 (Transfers.shareTok fullShare 16 0) f
          ∗ bigSepL E15 fun k => slotPts c 0 (Transfers.shareTok fullShare 16 k) f) := by
  unfold slotPts
  refine (Transfers.pointsTo_toks_split fullShare 16).trans ?_
  rw [bigSep_F16]

/-- And back. -/
theorem share_join (c : Dev nD) (f : Buf (Elt F) ((c : Thread nD τ).loc cc0_scratch0)) :
    iprop(slotPts c 0 (Transfers.shareDrop fullShare 16) f ∗ slotPts c 0 (Transfers.shareTok fullShare 16 0) f
        ∗ bigSepL E15 fun k => slotPts c 0 (Transfers.shareTok fullShare 16 k) f)
      ⊢ slotPts (F := F) c 0 fullShare f := by
  unfold slotPts
  refine BI.Entails.trans ?_ (Transfers.pointsTo_toks_join fullShare 16)
  rw [bigSep_F16]
  exact BI.Entails.refl _

/-! ## Updates over a family, under a persistent fact -/

/-- Per-summand updates that each use a persistent fact combine into one update of the whole family. -/
theorem bigSep_fupd_with {I : Type} [DecidableEq I] (S : Finset I) {R : sProp 𝕄} [BI.Persistent R] {Φ Ψ : I → sProp 𝕄}
    (h : ∀ i ∈ S, iprop(R ∗ Φ i) ⊢ iprop(|={Set.univ}=> Ψ i)) :
    iprop(R ∗ bigSep S Φ) ⊢ iprop(|={Set.univ}=> bigSep S Ψ) := by
  induction S using Finset.induction_on with
  | empty =>
    rw [bigSep_empty, bigSep_empty]
    iintro -; imodintro; iempintro
  | insert i S hi ih =>
    have e1 : bigSep (insert i S) Φ = iprop(Φ i ∗ bigSep S Φ) := bigSep_insert hi
    have e2 : bigSep (insert i S) Ψ = iprop(Ψ i ∗ bigSep S Ψ) := bigSep_insert hi
    rw [e1, e2]
    iintro ⟨#HR, Hi, HS⟩
    imod (h i (Finset.mem_insert_self i S)) $$ [Hi] with Hi
    · isplitr; · iexact HR
      iexact Hi
    imod (ih fun j hj => h j (Finset.mem_insert_of_mem hj)) $$ [HS] with HS
    · isplitr; · iexact HR
      iexact HS
    imodintro
    isplitl [Hi]; · iexact Hi
    iexact HS

/-- The kernel's 32 own semaphores are its sixteen send and its sixteen receive semaphores. -/
theorem ownZero_split (c : Dev nD) :
    (bigSep Finset.univ fun bk : Bool × Fin 16 => (semVal ((c : Thread nD τ), osem bk) 0 : sProp 𝕄))
      = iprop((bigSep Finset.univ fun k : Fin 16 => semVal (sendCell c k) 0) ∗ bigSep Finset.univ fun k : Fin 16 => semVal (recvCell c k) 0) := by
  rw [bigSep_univ_prod, bigSep_univ_eq_bigSepL [false, true] (by decide) (by decide)]
  rfl

/-! ## The end of the body -/

/-- Every own cell closed, slot 0 whole again, the other slots as their transfers left them: the body's last state. -/
theorem finish (K : Dev nD × CK → ℕ) (c : Dev nD) (W : Waits sig Unit) :
    iprop(records m ρ K
        ∗ atPos ER (sendCell c 0) 0 ∅ 0 ∗ (bigSepL E15 fun k => atPos ER (sendCell c k) 1 ∅ 0)
        ∗ atPos ER (recvCell c 0) 0 ∅ 0 ∗ (bigSepL E15 fun k => atPos ER (recvCell c k) 1 ∅ 0)
        ∗ slotPts c 0 (Transfers.shareDrop fullShare 16) (rep c (mine m ρ c)) ∗ slotPts c 0 (Transfers.shareTok fullShare 16 0) (rep c (mine m ρ c))
        ∗ (bigSepL E15 fun k => sendPay m ρ c k)
        ∗ (bigSepL E15 fun k => recvPay m ρ c k)
        ∗ owes (c : Thread nD τ) 0 W
        ∗ (((c : Thread nD τ).loc cc0_stg0_0) ↦{fullShare} xstg m ρ c)
        ∗ (((c : Thread nD τ).loc cc0_stg1_0) ↦{fullShare} outAt m ρ c))
      ⊢ iprop(|={Set.univ}=> closing m ρ c W) := by
  have hS := bigSep_fupd_with (F := F) (R := records m ρ K) (Finset.univ.erase (0 : Fin 16))
    (Φ := fun k => atPos ER (sendCell c k) 1 ∅ 0) (Ψ := fun k => semVal (sendCell c k) 0)
    (fun k _ => close_send m ρ K c k 1 (Or.inr le_rfl))
  have hR := bigSep_fupd_with (F := F) (R := records m ρ K) (Finset.univ.erase (0 : Fin 16))
    (Φ := fun k => atPos ER (recvCell c k) 1 ∅ 0) (Ψ := fun k => semVal (recvCell c k) 0)
    (fun k _ => close_recv m ρ K c k 1 (Or.inr le_rfl))
  have hslots : (bigSep (Finset.univ.erase (0 : Fin 16)) fun k => recvPay m ρ c k)
      ⊢ bigSep (Finset.univ.erase (0 : Fin 16)) fun k => iprop(∃ f, slotPts (F := F) c k fullShare f) :=
    bigSep_mono fun k _ => (show recvPay m ρ c k ⊢ iprop(∃ f, slotPts (F := F) c k fullShare f) from by
      unfold recvPay; iintro H; iexists _; iexact H)
  rw [← bigSep_E (fun k => atPos ER (sendCell c k) 1 ∅ 0), ← bigSep_E (fun k => atPos ER (recvCell c k) 1 ∅ 0),
    ← bigSep_E (fun k => recvPay m ρ c k)]
  unfold sendPay
  iintro ⟨#HR, A0, AS, B0, BS, Hd, Ht0, HSP, HRP, HO, Hx, Hout⟩
  imod (close_send m ρ K c 0 0 (Or.inl rfl)) $$ [A0] with V0
  · isplitr; · iexact HR
    iexact A0
  imod hS $$ [AS] with VS
  · isplitr; · iexact HR
    iexact AS
  imod (close_recv m ρ K c 0 0 (Or.inl rfl)) $$ [B0] with U0
  · isplitr; · iexact HR
    iexact B0
  imod hR $$ [BS] with US
  · isplitr; · iexact HR
    iexact BS
  imodintro
  unfold closing
  rw [ownZero_split, bigSep_univ_at (fun k : Fin 16 => iprop(∃ f, slotPts (F := F) c k fullShare f)) 0,
    bigSep_univ_at (fun k : Fin 16 => (semVal (sendCell c k) 0 : sProp 𝕄)) 0,
    bigSep_univ_at (fun k : Fin 16 => (semVal (recvCell c k) 0 : sProp 𝕄)) 0]
  isplitl [Hd Ht0 HSP HRP]
  · isplitl [Hd Ht0 HSP]
    · iexists (rep c (mine m ρ c))
      iapply (share_join c (rep c (mine m ρ c)))
      isplitl [Hd]; · iexact Hd
      isplitl [Ht0]; · iexact Ht0
      iexact HSP
    · iapply hslots; iexact HRP
  isplitl [V0 VS U0 US]
  · isplitl [V0 VS]
    · isplitl [V0]; · iexact V0
      iexact VS
    · isplitl [U0]; · iexact U0
      iexact US
  isplitl [HO]; · iexact HO
  isplitl [Hx]; · iexact Hx
  iexact Hout

/-- info: 'Cert.Kernel.Pf.share_split' depends on axioms: [propext, Classical.choice, Quot.sound] -/
#guard_msgs in #print axioms share_split
/-- info: 'Cert.Kernel.Pf.share_join' depends on axioms: [propext, Classical.choice, Quot.sound] -/
#guard_msgs in #print axioms share_join
/-- info: 'Cert.Kernel.Pf.finish' depends on axioms: [propext, Classical.choice, Quot.sound] -/
#guard_msgs in #print axioms finish

end Cert.Kernel.Pf

end
-- ==== Proof.KernelPf.Body.lean ====
/-
  The kernel body on one device, run from its precondition to its postcondition: the precondition opened into its single
  resources, the printed parts applied in order — the fifteen signals and the barrier wait, the fifteen transfers of the
  own column maxima, the fifteen receive waits with the loads that fold the peers' maxima in, the fifteen send waits —, the
  result stored, the device's own cells closed and the postcondition put together.
-/
import proofs.«900914_g7700000000000915_dist_max_ax0_shard0_i_m2048_n1024_v7x_i16_bf16_1_alg».proof.Proof.KernelPf.BodyA
import proofs.«900914_g7700000000000915_dist_max_ax0_shard0_i_m2048_n1024_v7x_i16_bf16_1_alg».proof.Proof.KernelPf.BodyB
import proofs.«900914_g7700000000000915_dist_max_ax0_shard0_i_m2048_n1024_v7x_i16_bf16_1_alg».proof.Proof.KernelPf.BodyC
import proofs.«900914_g7700000000000915_dist_max_ax0_shard0_i_m2048_n1024_v7x_i16_bf16_1_alg».proof.Proof.KernelPf.Open
import proofs.«900914_g7700000000000915_dist_max_ax0_shard0_i_m2048_n1024_v7x_i16_bf16_1_alg».proof.Proof.KernelPf.Finish

set_option maxRecDepth 16384

noncomputable section

namespace Cert.Kernel.Pf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- The chain over the fifteen proper offsets, written out. -/
theorem bigSepL_E15 (Φ : Fin 16 → sProp 𝕄) : bigSepL E15 Φ
    = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := rfl

theorem sound_body (K : Dev nD × CK → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  iintro ⟨Hpre, Hk⟩
  icases (body_open m ρ K c) $$ Hpre with ⟨%W, Hop⟩
  unfold opened
  rw [bigSep_F16 (fun k : Fin 16 => atPos ER (sendCell c k) 0 ∅ 0), bigSep_F16 (fun k : Fin 16 => atPos ER (recvCell c k) 0 ∅ 0)]
  simp only [bigSepL_E15]
  icases Hop with ⟨#HR, #Hlev, Hatb, ⟨HpS0, HpS1, HpS2, HpS3, HpS4, HpS5, HpS6, HpS7, HpS8, HpS9, HpS10, HpS11, HpS12, HpS13, HpS14, HpS15⟩, ⟨HpR0, HpR1, HpR2, HpR3, HpR4, HpR5, HpR6, HpR7, HpR8, HpR9, HpR10, HpR11, HpR12, HpR13, HpR14, HpR15⟩, ⟨HtB1, HtB2, HtB3, HtB4, HtB5, HtB6, HtB7, HtB8, HtB9, HtB10, HtB11, HtB12, HtB13, HtB14, HtB15⟩, ⟨HtS1, HtS2, HtS3, HtS4, HtS5, HtS6, HtS7, HtS8, HtS9, HtS10, HtS11, HtS12, HtS13, HtS14, HtS15⟩, ⟨HtR1, HtR2, HtR3, HtR4, HtR5, HtR6, HtR7, HtR8, HtR9, HtR10, HtR11, HtR12, HtR13, HtR14, HtR15⟩, Hcb, ⟨HcR1, HcR2, HcR3, HcR4, HcR5, HcR6, HcR7, HcR8, HcR9, HcR10, HcR11, HcR12, HcR13, HcR14, HcR15⟩, Hs0, ⟨Hs1, Hs2, Hs3, Hs4, Hs5, Hs6, Hs7, Hs8, Hs9, Hs10, Hs11, Hs12, Hs13, Hs14, Hs15⟩, HO, Hx, ⟨%g0, Hy⟩⟩
  simp only [cc0_body_eq_skeleton]; unfold cc0_body_skel
  simp only [k0_part27_eq_skeleton]; unfold k0_part27_skel
  simp only [wp_bind]
  iapply (part1_spec m ρ K c W) $$ [HtB1 Hs15 HtB2 Hs14 HO]
  · isplitr; · iexact HR
    isplitl [HtB1]; · iexact HtB1
    isplitl [Hs15]; · iexact Hs15
    isplitl [HtB2]; · iexact HtB2
    isplitl [Hs14]; · iexact Hs14
    iexact HO
  iintro %r1 ⟨HO, %hr1⟩
  simp only [hr1.1, hr1.2]
  iapply (part2_spec m ρ K c _ _ _ _ W) $$ [HtB3 Hs13 HtB4 Hs12 HO]
  · isplitr; · iexact HR
    isplitl [HtB3]; · iexact HtB3
    isplitl [Hs13]; · iexact Hs13
    isplitl [HtB4]; · iexact HtB4
    isplitl [Hs12]; · iexact Hs12
    iexact HO
  iintro %r2 HO
  iapply (part3_spec m ρ K c _ _ _ _ W) $$ [HtB5 Hs11 HtB6 Hs10 HtB7 Hs9 HO]
  · isplitr; · iexact HR
    isplitl [HtB5]; · iexact HtB5
    isplitl [Hs11]; · iexact Hs11
    isplitl [HtB6]; · iexact HtB6
    isplitl [Hs10]; · iexact Hs10
    isplitl [HtB7]; · iexact HtB7
    isplitl [Hs9]; · iexact Hs9
    iexact HO
  iintro %r3 HO
  iapply (part4_spec m ρ K c _ _ _ _ W) $$ [HtB8 Hs8 HtB9 Hs7 HO]
  · isplitr; · iexact HR
    isplitl [HtB8]; · iexact HtB8
    isplitl [Hs8]; · iexact Hs8
    isplitl [HtB9]; · iexact HtB9
    isplitl [Hs7]; · iexact Hs7
    iexact HO
  iintro %r4 HO
  iapply (part5_spec m ρ K c _ _ _ _ W) $$ [HtB10 Hs6 HtB11 Hs5 HtB12 Hs4 HO]
  · isplitr; · iexact HR
    isplitl [HtB10]; · iexact HtB10
    isplitl [Hs6]; · iexact Hs6
    isplitl [HtB11]; · iexact HtB11
    isplitl [Hs5]; · iexact Hs5
    isplitl [HtB12]; · iexact HtB12
    isplitl [Hs4]; · iexact Hs4
    iexact HO
  iintro %r5 HO
  iapply (part6_spec m ρ K c _ _ _ _ W) $$ [HtB13 Hs3 HtB14 Hs2 HO]
  · isplitr; · iexact HR
    isplitl [HtB13]; · iexact HtB13
    isplitl [Hs3]; · iexact Hs3
    isplitl [HtB14]; · iexact HtB14
    isplitl [Hs2]; · iexact Hs2
    iexact HO
  iintro %r6 HO
  iapply (part7_spec m ρ K c _ _ _ _ W) $$ [HtB15 Hs1 Hx Hs0 Hcb Hatb HO]
  · isplitr; · iexact HR
    isplitr; · iexact Hlev
    isplitl [HtB15]; · iexact HtB15
    isplitl [Hs1]; · iexact Hs1
    isplitl [Hx]; · iexact Hx
    isplitl [Hs0]; · iexact Hs0
    isplitl [Hcb]; · iexact Hcb
    isplitl [Hatb]; · iexact Hatb
    iexact HO
  iintro %r7 ⟨Hx, H0, Hatb, Hbar, ⟨%W1, HO⟩⟩
  -- what the barrier handed over: each peer's receive slot for this device
  simp only [bigSep_E, bigSepL_E15]
  unfold barPay
  icases Hbar with ⟨⟨Hp1, -⟩, ⟨Hp2, -⟩, ⟨Hp3, -⟩, ⟨Hp4, -⟩, ⟨Hp5, -⟩, ⟨Hp6, -⟩, ⟨Hp7, -⟩, ⟨Hp8, -⟩, ⟨Hp9, -⟩, ⟨Hp10, -⟩, ⟨Hp11, -⟩, ⟨Hp12, -⟩, ⟨Hp13, -⟩, ⟨Hp14, -⟩, ⟨Hp15, -⟩⟩
  -- the own maxima in slot 0: one read share per transfer, the remainder for the loads
  icases (share_split c (rep c (mine m ρ c))) $$ H0 with ⟨H0r, H0t0, H0t⟩
  simp only [bigSepL_E15]
  icases H0t with ⟨H0t1, H0t2, H0t3, H0t4, H0t5, H0t6, H0t7, H0t8, H0t9, H0t10, H0t11, H0t12, H0t13, H0t14, H0t15⟩
  iapply (part8_spec m ρ K c _ _) $$ [H0t1 Hp1 HtS1 HtR1 H0t2 Hp2 HtS2 HtR2 HO]
  · isplitr; · iexact HR
    isplitl [H0t1]; · iexact H0t1
    isplitl [Hp1]; · iexact Hp1
    isplitl [HtS1]; · iexact HtS1
    isplitl [HtR1]; · iexact HtR1
    isplitl [H0t2]; · iexact H0t2
    isplitl [Hp2]; · iexact Hp2
    isplitl [HtS2]; · iexact HtS2
    isplitl [HtR2]; · iexact HtR2
    iexact HO
  iintro %r8 ⟨HcS1, HcS2, HO⟩
  iapply (part9_spec m ρ K c _ _ _) $$ [H0t3 Hp3 HtS3 HtR3 H0t4 Hp4 HtS4 HtR4 HO]
  · isplitr; · iexact HR
    isplitl [H0t3]; · iexact H0t3
    isplitl [Hp3]; · iexact Hp3
    isplitl [HtS3]; · iexact HtS3
    isplitl [HtR3]; · iexact HtR3
    isplitl [H0t4]; · iexact H0t4
    isplitl [Hp4]; · iexact Hp4
    isplitl [HtS4]; · iexact HtS4
    isplitl [HtR4]; · iexact HtR4
    iexact HO
  iintro %r9 ⟨HcS3, HcS4, HO⟩
  iapply (part10_spec m ρ K c _ _) $$ [H0t5 Hp5 HtS5 HtR5 HO]
  · isplitr; · iexact HR
    isplitl [H0t5]; · iexact H0t5
    isplitl [Hp5]; · iexact Hp5
    isplitl [HtS5]; · iexact HtS5
    isplitl [HtR5]; · iexact HtR5
    iexact HO
  iintro %r10 ⟨HcS5, HO⟩
  iapply (part11_spec m ρ K c _ _ _) $$ [H0t6 Hp6 HtS6 HtR6 H0t7 Hp7 HtS7 HtR7 HO]
  · isplitr; · iexact HR
    isplitl [H0t6]; · iexact H0t6
    isplitl [Hp6]; · iexact Hp6
    isplitl [HtS6]; · iexact HtS6
    isplitl [HtR6]; · iexact HtR6
    isplitl [H0t7]; · iexact H0t7
    isplitl [Hp7]; · iexact Hp7
    isplitl [HtS7]; · iexact HtS7
    isplitl [HtR7]; · iexact HtR7
    iexact HO
  iintro %r11 ⟨HcS6, HcS7, HO⟩
  iapply (part12_spec m ρ K c _ _ _ _) $$ [H0t8 Hp8 HtS8 HtR8 HO]
  · isplitr; · iexact HR
    isplitl [H0t8]; · iexact H0t8
    isplitl [Hp8]; · iexact Hp8
    isplitl [HtS8]; · iexact HtS8
    isplitl [HtR8]; · iexact HtR8
    iexact HO
  iintro %r12 ⟨HcS8, HO⟩
  iapply (part13_spec m ρ K c _ _ _) $$ [H0t9 Hp9 HtS9 HtR9 H0t10 Hp10 HtS10 HtR10 HO]
  · isplitr; · iexact HR
    isplitl [H0t9]; · iexact H0t9
    isplitl [Hp9]; · iexact Hp9
    isplitl [HtS9]; · iexact HtS9
    isplitl [HtR9]; · iexact HtR9
    isplitl [H0t10]; · iexact H0t10
    isplitl [Hp10]; · iexact Hp10
    isplitl [HtS10]; · iexact HtS10
    isplitl [HtR10]; · iexact HtR10
    iexact HO
  iintro %r13 ⟨HcS9, HcS10, HO⟩
  iapply (part14_spec m ρ K c _ _ _ _ _ _) $$ [H0t11 Hp11 HtS11 HtR11 HO]
  · isplitr; · iexact HR
    isplitl [H0t11]; · iexact H0t11
    isplitl [Hp11]; · iexact Hp11
    isplitl [HtS11]; · iexact HtS11
    isplitl [HtR11]; · iexact HtR11
    iexact HO
  iintro %r14 ⟨HcS11, HO⟩
  iapply (part15_spec m ρ K c _ _) $$ [H0t12 Hp12 HtS12 HtR12 H0t13 Hp13 HtS13 HtR13 HO]
  · isplitr; · iexact HR
    isplitl [H0t12]; · iexact H0t12
    isplitl [Hp12]; · iexact Hp12
    isplitl [HtS12]; · iexact HtS12
    isplitl [HtR12]; · iexact HtR12
    isplitl [H0t13]; · iexact H0t13
    isplitl [Hp13]; · iexact Hp13
    isplitl [HtS13]; · iexact HtS13
    isplitl [HtR13]; · iexact HtR13
    iexact HO
  iintro %r15 ⟨HcS12, HcS13, HO⟩
  iapply (part16_spec m ρ K c _ _ _ _ _) $$ [H0t14 Hp14 HtS14 HtR14 HO]
  · isplitr; · iexact HR
    isplitl [H0t14]; · iexact H0t14
    isplitl [Hp14]; · iexact Hp14
    isplitl [HtS14]; · iexact HtS14
    isplitl [HtR14]; · iexact HtR14
    iexact HO
  iintro %r16 ⟨HcS14, HO⟩
  iapply (part17_spec m ρ K c _ _ _) $$ [H0t15 Hp15 HtS15 HtR15 H0r HcR1 HpR1 HcR2 HpR2 HO]
  · isplitr; · iexact HR
    isplitl [H0t15]; · iexact H0t15
    isplitl [Hp15]; · iexact Hp15
    isplitl [HtS15]; · iexact HtS15
    isplitl [HtR15]; · iexact HtR15
    isplitl [H0r]; · iexact H0r
    isplitl [HcR1]; · iexact HcR1
    isplitl [HpR1]; · iexact HpR1
    isplitl [HcR2]; · iexact HcR2
    isplitl [HpR2]; · iexact HpR2
    iexact HO
  iintro %r17 ⟨HcS15, H0r, HpR1, Hrp1, HpR2, Hrp2, ⟨%W2, HO⟩, %hr17⟩
  iapply (part18_spec m ρ K c _ _ _ _ _) $$ [Hrp2 HcR3 HpR3 HcR4 HpR4 HO]
  · isplitr; · iexact HR
    isplitl [Hrp2]; · iexact Hrp2
    isplitl [HcR3]; · iexact HcR3
    isplitl [HpR3]; · iexact HpR3
    isplitl [HcR4]; · iexact HcR4
    isplitl [HpR4]; · iexact HpR4
    iexact HO
  iintro %r18 ⟨Hrp2, HpR3, Hrp3, HpR4, Hrp4, ⟨%W3, HO⟩, %hr18⟩
  iapply (part19_spec m ρ K c _ _ _ _ _) $$ [HcR5 HpR5 HcR6 HpR6 HO]
  · isplitr; · iexact HR
    isplitl [HcR5]; · iexact HcR5
    isplitl [HpR5]; · iexact HpR5
    isplitl [HcR6]; · iexact HcR6
    isplitl [HpR6]; · iexact HpR6
    iexact HO
  iintro %r19 ⟨HpR5, Hrp5, HpR6, Hrp6, ⟨%W4, HO⟩, %hr19⟩
  iapply (part20_spec m ρ K c _ _ _ _) $$ [HcR7 HpR7 HcR8 HpR8 HcR9 HpR9 HO]
  · isplitr; · iexact HR
    isplitl [HcR7]; · iexact HcR7
    isplitl [HpR7]; · iexact HpR7
    isplitl [HcR8]; · iexact HcR8
    isplitl [HpR8]; · iexact HpR8
    isplitl [HcR9]; · iexact HcR9
    isplitl [HpR9]; · iexact HpR9
    iexact HO
  iintro %r20 ⟨HpR7, Hrp7, HpR8, Hrp8, HpR9, Hrp9, ⟨%W5, HO⟩, %hr20⟩
  iapply (part21_spec m ρ K c _ _ _ _ _) $$ [HcR10 HpR10 HcR11 HpR11 HO]
  · isplitr; · iexact HR
    isplitl [HcR10]; · iexact HcR10
    isplitl [HpR10]; · iexact HpR10
    isplitl [HcR11]; · iexact HcR11
    isplitl [HpR11]; · iexact HpR11
    iexact HO
  iintro %r21 ⟨HpR10, Hrp10, HpR11, Hrp11, ⟨%W6, HO⟩, %hr21⟩
  iapply (part22_spec m ρ K c _ _ _ _) $$ [HcR12 HpR12 HcR13 HpR13 HcR14 HpR14 HO]
  · isplitr; · iexact HR
    isplitl [HcR12]; · iexact HcR12
    isplitl [HpR12]; · iexact HpR12
    isplitl [HcR13]; · iexact HcR13
    isplitl [HpR13]; · iexact HpR13
    isplitl [HcR14]; · iexact HcR14
    isplitl [HpR14]; · iexact HpR14
    iexact HO
  iintro %r22 ⟨HpR12, Hrp12, HpR13, Hrp13, HpR14, Hrp14, ⟨%W7, HO⟩, %hr22⟩
  iapply (part23_spec m ρ K c _ _ _) $$ [Hrp14 HcR15 HpR15 HcS1 HpS1 HO]
  · isplitr; · iexact HR
    isplitl [Hrp14]; · iexact Hrp14
    isplitl [HcR15]; · iexact HcR15
    isplitl [HpR15]; · iexact HpR15
    isplitl [HcS1]; · iexact HcS1
    isplitl [HpS1]; · iexact HpS1
    iexact HO
  iintro %r23 ⟨Hrp14, HpR15, Hrp15, HpS1, Hsp1, ⟨%W8, HO⟩, %hr23⟩
  iapply (part24_spec m ρ K c _) $$ [HcS2 HpS2 HcS3 HpS3 HcS4 HpS4 HcS5 HpS5 HO]
  · isplitr; · iexact HR
    isplitl [HcS2]; · iexact HcS2
    isplitl [HpS2]; · iexact HpS2
    isplitl [HcS3]; · iexact HcS3
    isplitl [HpS3]; · iexact HpS3
    isplitl [HcS4]; · iexact HcS4
    isplitl [HpS4]; · iexact HpS4
    isplitl [HcS5]; · iexact HcS5
    isplitl [HpS5]; · iexact HpS5
    iexact HO
  iintro %r24 ⟨HpS2, Hsp2, HpS3, Hsp3, HpS4, Hsp4, HpS5, Hsp5, ⟨%W9, HO⟩⟩
  iapply (part25_spec m ρ K c _) $$ [HcS6 HpS6 HcS7 HpS7 HcS8 HpS8 HcS9 HpS9 HO]
  · isplitr; · iexact HR
    isplitl [HcS6]; · iexact HcS6
    isplitl [HpS6]; · iexact HpS6
    isplitl [HcS7]; · iexact HcS7
    isplitl [HpS7]; · iexact HpS7
    isplitl [HcS8]; · iexact HcS8
    isplitl [HpS8]; · iexact HpS8
    isplitl [HcS9]; · iexact HcS9
    isplitl [HpS9]; · iexact HpS9
    iexact HO
  iintro %r25 ⟨HpS6, Hsp6, HpS7, Hsp7, HpS8, Hsp8, HpS9, Hsp9, ⟨%W10, HO⟩⟩
  iapply (part26_spec m ρ K c _) $$ [HcS10 HpS10 HcS11 HpS11 HcS12 HpS12 HcS13 HpS13 HO]
  · isplitr; · iexact HR
    isplitl [HcS10]; · iexact HcS10
    isplitl [HpS10]; · iexact HpS10
    isplitl [HcS11]; · iexact HcS11
    isplitl [HpS11]; · iexact HpS11
    isplitl [HcS12]; · iexact HcS12
    isplitl [HpS12]; · iexact HpS12
    isplitl [HcS13]; · iexact HcS13
    isplitl [HpS13]; · iexact HpS13
    iexact HO
  iintro %r26 ⟨HpS10, Hsp10, HpS11, Hsp11, HpS12, Hsp12, HpS13, Hsp13, ⟨%W11, HO⟩⟩
  -- the last two send waits, the load of the output block (its value is not used), the store of the result
  simp only [Prog.lift, Prog.pure_eq_ret, wp_ret]
  iapply (step_sendwait m ρ K c (fk 14) (by decide)) $$ [HcS14 HO HpS14]
  · isplitr; · iexact HR
    isplitl [HcS14]; · iexact HcS14
    isplitl [HO]; · iexact HO
    iexact HpS14
  iintro ⟨HO, HpS14, Hsp14⟩
  simp only [wp_ret]
  imodintro
  iapply (step_sendwait m ρ K c (fk 15) (by decide)) $$ [HcS15 HO HpS15]
  · isplitr; · iexact HR
    isplitl [HcS15]; · iexact HcS15
    isplitl [HO]; · iexact HO
    iexact HpS15
  iintro ⟨HO, HpS15, Hsp15⟩
  simp only [wp_ret]
  imodintro
  iapply (wp_load 𝒱₀ (c : Thread nD τ) none Set.univ (m := oM) (Finset.subset_univ _)) $$ [Hy]
  · iexact Hy
  iintro Hy
  simp only [wp_ret]
  imodintro
  imodintro
  iapply (wp_store 𝒱₀ (c : Thread nD τ) none Set.univ (m := oM) (Finset.subset_univ _)) $$ [Hy]
  · iexact Hy
  iintro Hy
  simp only [wp_ret]
  -- what the output staging buffer now holds is the maximum over the sixteen devices' blocks
  have hw : (oM.access (Rect.unit (s := S1x1024) ![0, 0] S1x1024.size inb_S1x1024_S1x1024_0_0) : View sig .tc _ _ _).write (Elt F) g0
      (k0_pay1 (k0_pay10 r23)) Finset.univ = outAt m ρ c := by
    refine Eq.trans (Memref.write_access_unit_zero_univ (Elt F) (cc0_stg1_0 : Ref sig .tc) (off := ![0, 0])
      (by funext a; fin_cases a <;> rfl) inb_S1x1024_S1x1024_0_0 g0 _) ?_
    rw [hr23, hr22, hr21, hr20, hr19, hr18, hr17]
    unfold outAt outOf accOf mine
    simp only [Cert.Kernel.Pf.sub_zero]
  simp only [hw]
  -- the 32 own cells close at zero, slot 0's shares rejoin
  imod (finish m ρ K c _) $$ [HpS0 HpS1 HpS2 HpS3 HpS4 HpS5 HpS6 HpS7 HpS8 HpS9 HpS10 HpS11 HpS12 HpS13 HpS14 HpS15 HpR0 HpR1 HpR2 HpR3 HpR4 HpR5 HpR6 HpR7 HpR8 HpR9 HpR10 HpR11 HpR12 HpR13 HpR14 HpR15 H0r H0t0 Hsp1 Hsp2 Hsp3 Hsp4 Hsp5 Hsp6 Hsp7 Hsp8 Hsp9 Hsp10 Hsp11 Hsp12 Hsp13 Hsp14 Hsp15 Hrp1 Hrp2 Hrp3 Hrp4 Hrp5 Hrp6 Hrp7 Hrp8 Hrp9 Hrp10 Hrp11 Hrp12 Hrp13 Hrp14 Hrp15 HO Hx Hy] with Hcl
  · simp only [bigSepL_E15]
    isplitr; · iexact HR
    isplitl [HpS0]; · iexact HpS0
    isplitl [HpS1 HpS2 HpS3 HpS4 HpS5 HpS6 HpS7 HpS8 HpS9 HpS10 HpS11 HpS12 HpS13 HpS14 HpS15]
    · isplitl [HpS1]; · iexact HpS1
      isplitl [HpS2]; · iexact HpS2
      isplitl [HpS3]; · iexact HpS3
      isplitl [HpS4]; · iexact HpS4
      isplitl [HpS5]; · iexact HpS5
      isplitl [HpS6]; · iexact HpS6
      isplitl [HpS7]; · iexact HpS7
      isplitl [HpS8]; · iexact HpS8
      isplitl [HpS9]; · iexact HpS9
      isplitl [HpS10]; · iexact HpS10
      isplitl [HpS11]; · iexact HpS11
      isplitl [HpS12]; · iexact HpS12
      isplitl [HpS13]; · iexact HpS13
      isplitl [HpS14]; · iexact HpS14
      iexact HpS15
    isplitl [HpR0]; · iexact HpR0
    isplitl [HpR1 HpR2 HpR3 HpR4 HpR5 HpR6 HpR7 HpR8 HpR9 HpR10 HpR11 HpR12 HpR13 HpR14 HpR15]
    · isplitl [HpR1]; · iexact HpR1
      isplitl [HpR2]; · iexact HpR2
      isplitl [HpR3]; · iexact HpR3
      isplitl [HpR4]; · iexact HpR4
      isplitl [HpR5]; · iexact HpR5
      isplitl [HpR6]; · iexact HpR6
      isplitl [HpR7]; · iexact HpR7
      isplitl [HpR8]; · iexact HpR8
      isplitl [HpR9]; · iexact HpR9
      isplitl [HpR10]; · iexact HpR10
      isplitl [HpR11]; · iexact HpR11
      isplitl [HpR12]; · iexact HpR12
      isplitl [HpR13]; · iexact HpR13
      isplitl [HpR14]; · iexact HpR14
      iexact HpR15
    isplitl [H0r]; · iexact H0r
    isplitl [H0t0]; · iexact H0t0
    isplitl [Hsp1 Hsp2 Hsp3 Hsp4 Hsp5 Hsp6 Hsp7 Hsp8 Hsp9 Hsp10 Hsp11 Hsp12 Hsp13 Hsp14 Hsp15]
    · isplitl [Hsp1]; · iexact Hsp1
      isplitl [Hsp2]; · iexact Hsp2
      isplitl [Hsp3]; · iexact Hsp3
      isplitl [Hsp4]; · iexact Hsp4
      isplitl [Hsp5]; · iexact Hsp5
      isplitl [Hsp6]; · iexact Hsp6
      isplitl [Hsp7]; · iexact Hsp7
      isplitl [Hsp8]; · iexact Hsp8
      isplitl [Hsp9]; · iexact Hsp9
      isplitl [Hsp10]; · iexact Hsp10
      isplitl [Hsp11]; · iexact Hsp11
      isplitl [Hsp12]; · iexact Hsp12
      isplitl [Hsp13]; · iexact Hsp13
      isplitl [Hsp14]; · iexact Hsp14
      iexact Hsp15
    isplitl [Hrp1 Hrp2 Hrp3 Hrp4 Hrp5 Hrp6 Hrp7 Hrp8 Hrp9 Hrp10 Hrp11 Hrp12 Hrp13 Hrp14 Hrp15]
    · isplitl [Hrp1]; · iexact Hrp1
      isplitl [Hrp2]; · iexact Hrp2
      isplitl [Hrp3]; · iexact Hrp3
      isplitl [Hrp4]; · iexact Hrp4
      isplitl [Hrp5]; · iexact Hrp5
      isplitl [Hrp6]; · iexact Hrp6
      isplitl [Hrp7]; · iexact Hrp7
      isplitl [Hrp8]; · iexact Hrp8
      isplitl [Hrp9]; · iexact Hrp9
      isplitl [Hrp10]; · iexact Hrp10
      isplitl [Hrp11]; · iexact Hrp11
      isplitl [Hrp12]; · iexact Hrp12
      isplitl [Hrp13]; · iexact Hrp13
      isplitl [Hrp14]; · iexact Hrp14
      iexact Hrp15
    isplitl [HO]; · iexact HO
    isplitl [Hx]; · iexact Hx
    iexact Hy
  imodintro
  imodintro
  iapply Hk
  iapply (body_close m ρ c _)
  iexact Hcl

/-- info: 'Cert.Kernel.Pf.sound_body' depends on axioms: [propext, Classical.choice, Quot.sound] -/
#guard_msgs in #print axioms sound_body

end Cert.Kernel.Pf

end
-- ==== Proof.KernelPf.Launch.lean ====
/-
  The launch: the sixteen devices' bodies, each proved from its own ghost state and launch credit, put together into
  a run of the whole program. The launch element funds the 33 cells of every device and mints one token per duty;
  the global step opens every cell's invariant at once (the barrier semaphore is not scoped to the launch, so its
  counter arrives with the kernel's own 32) and deals each token to the device that pays the duty, around the ring;
  the launch credit on each barrier cell sums to fifteen units and on each receive cell to one block's credit.
-/
import proofs.«900914_g7700000000000915_dist_max_ax0_shard0_i_m2048_n1024_v7x_i16_bf16_1_alg».proof.Proof.KernelPf.Body
import proofs.«900914_g7700000000000915_dist_max_ax0_shard0_i_m2048_n1024_v7x_i16_bf16_1_alg».proof.Proof.Gen.Kernel.Frame
import Idealize.ShloMosaic.Lib.Pipeline.Launch
import Idealize.ShloMosaic.Lib.Pipeline.Kit
import Idealize.ShloMosaic.Lib.Tactic

set_option maxRecDepth 16384

noncomputable section

namespace Cert.Kernel.Pf

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

/-- The obligation's precondition on device `c`, named. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- The library's body obligation on device `c`. -/
theorem body_obligation (m : (ℓ : Loc nD τ sig) → Buf (Elt F) ℓ) (ρ : Dev nD → PrngReg) (c : Dev nD) :
    BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-! ## The launch -/

theorem ownSemFacts : Pipeline.OwnSemFacts cfg0.spec osem := by decide

theorem share_eq (m : (ℓ : Loc nD τ sig) → Buf (Elt F) ℓ) (ρ : Dev nD → PrngReg) (c : Dev nD) (w : Fin cfg0.W) : (dats m ρ 0 c).share w = fullShare := by unfold Dat.share; split <;> rfl

/-! ### Iterated conjunctions: small regrouping facts -/

section BigSep
variable {M : Type} [URA M]

/-- A family over an optional index: the member at `none`, and the members at `some a`. -/
theorem bigSep_option {α : Type} [Fintype α] [DecidableEq α] (Φ : Option α → sProp M) :
    bigSep Finset.univ Φ = iprop(Φ none ∗ bigSep Finset.univ fun a => Φ (some a)) := by
  rw [bigSep_univ_at Φ none,
    show (Finset.univ.erase (none : Option α)) = Finset.univ.map Function.Embedding.some from by
      ext x; cases x <;> simp,
    bigSep_map]
  rfl

/-- Iterated conjunctions over two sets commute. -/
theorem bigSep_comm {α β : Type} (s : Finset α) (t : Finset β) (Φ : α → β → sProp M) :
    bigSep s (fun a => bigSep t fun b => Φ a b) = bigSep t fun b => bigSep s fun a => Φ a b := by
  classical
  induction t using Finset.induction_on with
  | empty => simp only [bigSep_empty]; exact bigSep_emp_const s
  | insert b t hb ih =>
    rw [bigSep_insert hb, ← ih, ← bigSep_sep]
    exact bigSep_congr fun a _ => bigSep_insert hb

theorem bigSep_fin3 (Φ : Fin 3 → sProp M) : bigSep Finset.univ Φ = iprop(Φ 0 ∗ Φ 1 ∗ Φ 2) :=
  bigSep_univ_eq_bigSepL [0, 1, 2] (by decide) (by decide) Φ

end BigSep

/-! ### The cells and the tokens the launch element is taken at -/

theorem sendQ_val (k : Fin 16) : (sendQ k).val = 2 + k.val := rfl
theorem recvQ_val (k : Fin 16) : (recvQ k).val = 18 + k.val := rfl
theorem sendQ_injective : Function.Injective sendQ := fun k k' h => by rw [← kOf_send k, ← kOf_send k', h]
theorem recvQ_injective : Function.Injective recvQ := fun k k' h => by rw [← kOf_recv k, ← kOf_recv k', h]
theorem send_ne_recv (k k' : Fin 16) : sendQ k ≠ recvQ k' := fun h => by
  have h1 := congrArg Fin.val h; rw [sendQ_val, recvQ_val] at h1; have := k.isLt; omega
theorem reg_ne_dma (s : Sem sig) (q : DmaSem sig) : (SemLoc.reg s : SemLoc sig) ≠ .dma q := fun h => by cases h

theorem csem_injective : Function.Injective csem := by
  intro a b h
  rcases a with _ | ⟨_ | _, k⟩ <;> rcases b with _ | ⟨_ | _, k'⟩
  · rfl
  · exact absurd h (reg_ne_dma _ _)
  · exact absurd h (reg_ne_dma _ _)
  · exact absurd h.symm (reg_ne_dma _ _)
  · rw [sendQ_injective (SemLoc.dma.inj h)]
  · exact absurd (SemLoc.dma.inj h) (send_ne_recv k k')
  · exact absurd h.symm (reg_ne_dma _ _)
  · exact absurd (SemLoc.dma.inj h).symm (send_ne_recv k' k)
  · rw [recvQ_injective (SemLoc.dma.inj h)]

theorem kcell_injective : Function.Injective (kcell : Dev nD × CK → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- Every device's 33 cells. -/
def ringCells : Finset (GSem nD τ sig) := Finset.univ.map ⟨kcell, kcell_injective⟩

/-- A proper offset. -/
abbrev Off : Type := {j : Fin 16 // j ≠ 0}

/-- The duty tokens as minted, per device and proper offset `j`: duty `j` of the barrier cell, the one duty of send
    cell `j`, the one duty of receive cell `j`. -/
def tokOf (x : Dev nD × Fin 3 × Off) : GSem nD τ sig × ℕ × Fin 16 := match x.2.1 with
  | 0 => (barCell x.1, 0, x.2.2.1)
  | 1 => (sendCell x.1 x.2.2.1, 0, 0)
  | 2 => (recvCell x.1 x.2.2.1, 0, 0)

theorem tokOf_injective : Function.Injective tokOf := by
  rintro ⟨c, i, j⟩ ⟨c', i', j'⟩ h
  have h1 : c = c' := by
    have := congrArg (fun x : GSem nD τ sig × ℕ × Fin 16 => x.1.1.1) h
    fin_cases i <;> fin_cases i' <;> exact this
  subst h1
  have hs := congrArg (fun x : GSem nD τ sig × ℕ × Fin 16 => x.1.2) h
  have hd := congrArg (fun x : GSem nD τ sig × ℕ × Fin 16 => x.2.2) h
  fin_cases i <;> fin_cases i'
  · have : j = j' := Subtype.ext hd
    rw [this]
  · exact absurd hs (reg_ne_dma _ _)
  · exact absurd hs (reg_ne_dma _ _)
  · exact absurd hs.symm (reg_ne_dma _ _)
  · have : j = j' := Subtype.ext (sendQ_injective (SemLoc.dma.inj hs))
    rw [this]
  · exact absurd (SemLoc.dma.inj hs) (send_ne_recv _ _)
  · exact absurd hs.symm (reg_ne_dma _ _)
  · exact absurd (SemLoc.dma.inj hs).symm (send_ne_recv _ _)
  · have : j = j' := Subtype.ext (recvQ_injective (SemLoc.dma.inj hs))
    rw [this]

def ringToks : Finset (GSem nD τ sig × ℕ × Fin 16) := Finset.univ.map ⟨tokOf, tokOf_injective⟩

/-- The launch element: the pipeline's staging cells, and the protocol's cells and tokens. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep (Finset.univ.erase (0 : Fin 16)) fun d => dutyTok ER (barCell c) 0 d)
    ∗ (bigSep (Finset.univ.erase (0 : Fin 16)) fun k => dutyTok ER (sendCell c k) 0 0)
    ∗ (bigSep (Finset.univ.erase (0 : Fin 16)) fun k => dutyTok ER (recvCell c k) 0 0))

/-- What the launch element deals device `c`. -/
def G (c : Dev nD) : sProp 𝕄 :=
  iprop((bigSep Finset.univ fun ck : CK => roundState ER (Rd m ρ) (kcell (c, ck)) 0)
    ∗ (bigSep Finset.univ fun ck : CK => iprop(atPos ER (kcell (c, ck)) 0 ∅ 0 ∗ reached ER (kcell (c, ck)) 0)) ∗ toks (F := F) c)

/-- What the global step makes of it. -/
def G' (c : Dev nD) : sProp 𝕄 := iprop(∃ K, ghost m ρ K c)

theorem fund_ring (m : (ℓ : Loc nD τ sig) → Buf (Elt F) ℓ) (ρ : Dev nD → PrngReg) :
    BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun ck : CK => Φ (kcell (c, ck)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    refine bigSep_congr fun c _ => ?_
    rw [bigSep_univ_prod, bigSep_fin3]
    unfold toks
    rw [← bigSep_subtype_ne (0 : Fin 16) (fun d => (dutyTok ER (barCell c) 0 d : sProp 𝕄)),
      ← bigSep_subtype_ne (0 : Fin 16) (fun k => (dutyTok ER (sendCell c k) 0 0 : sProp 𝕄)),
      ← bigSep_subtype_ne (0 : Fin 16) (fun k => (dutyTok ER (recvCell c k) 0 0 : sProp 𝕄))]
    rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The global step: every cell's invariant, and the tokens dealt around the ring -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The 33 counters of device `c` at zero: the kernel's own 32 and the barrier semaphore's. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun ck : CK => semVal (kcell (c, ck)) 0 : sProp 𝕄) := by
  rw [unscopedSems0_eq, bigSep_option]
  iintro ⟨HS, HB⟩
  isplitl [HB]; · iexact HB
  unfold Pipeline.ownSems0; iexact HS

theorem core_alloc (m : (ℓ : Loc nD τ sig) → Buf (Elt F) ℓ) (ρ : Dev nD → PrngReg) (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun ck : CK => iprop(∃ κ : ℕ, cellInv ER (Rd m ρ) κ (kcell (c, ck))))
          ∗ (bigSep Finset.univ fun ck : CK => iprop(atPos ER (kcell (c, ck)) 0 ∅ 0 ∗ reached ER (kcell (c, ck)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun ck : CK => semVal (kcell (c, ck)) 0) ∗ bigSep Finset.univ fun ck : CK => roundState ER (Rd m ρ) (kcell (c, ck)) 0)
      ⊢ (|={Set.univ}=> bigSep Finset.univ fun ck : CK => iprop(∃ κ : ℕ, cellInv ER (Rd m ρ) κ (kcell (c, ck))) : sProp 𝕄) from by
        rw [← bigSep_sep']
        exact (bigSep_mono fun ck _ => (Rounds.body_intro ER (Rd m ρ) (kcell (c, ck))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (m : (ℓ : Loc nD τ sig) → Buf (Elt F) ℓ) (ρ : Dev nD → PrngReg) (K : Dev nD × CK → ℕ) (c : Dev nD) :
    iprop(records m ρ K ∗ linear (F := F) c) ⊢ G' m ρ c := by
  unfold G' ghost
  iintro H; iexists K; iexact H

theorem neg_injective : Function.Injective neg := by decide
theorem neg_erase : (Finset.univ.erase (0 : Fin 16)).map ⟨neg, neg_injective⟩ = Finset.univ.erase (0 : Fin 16) := by decide

/-- The tokens dealt around the ring: duty `neg j` of a barrier cell and the duty of receive cell `j` go `j` devices down,
    to the device that pays them; a send cell's stays. -/
theorem toks_around : (bigSep Finset.univ fun c : Dev nD => (toks (F := F) c : sProp 𝕄)) ⊢ bigSep Finset.univ fun c : Dev nD => payToks (F := F) c := by
  have hbar : (bigSep Finset.univ fun c : Dev nD => bigSep (Finset.univ.erase (0 : Fin 16)) fun d => (dutyTok ER (barCell c) 0 d : sProp 𝕄))
      = bigSep Finset.univ fun c : Dev nD => bigSep (Finset.univ.erase (0 : Fin 16)) fun j => (dutyTok ER (barCell (add c j.val)) 0 (neg j) : sProp 𝕄) := by
    rw [bigSep_comm, bigSep_comm (Finset.univ : Finset (Dev nD)) (Finset.univ.erase (0 : Fin 16)) (fun c j => (dutyTok ER (barCell (add c j.val)) 0 (neg j) : sProp 𝕄))]
    conv_lhs => rw [← neg_erase, bigSep_map]
    exact bigSep_congr fun j _ => bigSep_univ_equiv (rot j.val) (fun c : Dev nD => (dutyTok ER (barCell c) 0 (neg j) : sProp 𝕄))
  have hrecv : (bigSep Finset.univ fun c : Dev nD => bigSep (Finset.univ.erase (0 : Fin 16)) fun k => (dutyTok ER (recvCell c k) 0 0 : sProp 𝕄))
      = bigSep Finset.univ fun c : Dev nD => bigSep (Finset.univ.erase (0 : Fin 16)) fun k => (dutyTok ER (recvCell (add c k.val) k) 0 0 : sProp 𝕄) := by
    rw [bigSep_comm, bigSep_comm (Finset.univ : Finset (Dev nD)) (Finset.univ.erase (0 : Fin 16)) (fun c k => (dutyTok ER (recvCell (add c k.val) k) 0 0 : sProp 𝕄))]
    exact bigSep_congr fun k _ => bigSep_univ_equiv (rot k.val) (fun c : Dev nD => (dutyTok ER (recvCell c k) 0 0 : sProp 𝕄))
  unfold toks payToks
  rw [bigSep_sep', bigSep_sep', bigSep_sep', bigSep_sep', hbar, hrecv]

theorem regroup (m : (ℓ : Loc nD τ sig) → Buf (Elt F) ℓ) (ρ : Dev nD → PrngReg) :
    (bigSep Finset.univ fun c : Dev nD => iprop((bigSep Finset.univ fun ck : CK => iprop(∃ κ : ℕ, cellInv ER (Rd m ρ) κ (kcell (c, ck))))
          ∗ (bigSep Finset.univ fun ck : CK => iprop(atPos ER (kcell (c, ck)) 0 ∅ 0 ∗ reached ER (kcell (c, ck)) 0)) ∗ toks (F := F) c) : sProp 𝕄)
      ⊢ bigSep Finset.univ (G' m ρ) := by
  rw [bigSep_sep', bigSep_sep', ← bigSep_univ_prod (fun ck : Dev nD × CK => iprop(∃ κ : ℕ, cellInv ER (Rd m ρ) κ (kcell ck))),
    bigSep_congr (s := Finset.univ) (fun (c : Dev nD) _ => bigSep_sep' Finset.univ (fun ck : CK => (atPos ER (kcell (c, ck)) 0 ∅ 0 : sProp 𝕄)) (fun ck => reached ER (kcell (c, ck)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => positions (F := F) c) (fun c => payToks (F := F) c)).symm)
    isplitl [Hat]; · iexact Hat
    iexact Htk

/-- The global step: own AND unscoped semaphores of every device at once. -/
theorem glob (m : (ℓ : Loc nD τ sig) → Buf (Elt F) ℓ) (ρ : Dev nD → PrngReg) :
    (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- Device `d`'s dues, one by one: the block's credit to receive cell `15 - j` of the device `15 - j` places after it, and
    one unit to that device's barrier cell. -/
def dueR (j : ℕ) (d : Dev nD) : CellTallies nD τ sig Unit := tallyAt (recvCell (add d (15 - j)) (off (15 - j))) () Nc
def dueB (j : ℕ) (d : Dev nD) : CellTallies nD τ sig Unit := tallyAt (barCell (add d (15 - j))) () 1

theorem owedR_eq (d : Dev nD) (n : ℕ) : owedR d n = ∑ j ∈ Finset.range n, dueR j d := by
  induction n with
  | zero => rfl
  | succ n ih => rw [Finset.sum_range_succ, ← ih]; rfl
theorem owedB_eq (d : Dev nD) (n : ℕ) : owedB d n = (∑ j ∈ Finset.range 15, dueR j d) + ∑ j ∈ Finset.range n, dueB j d := by
  induction n with
  | zero => rw [Finset.sum_range_zero, _root_.add_zero, ← owedR_eq]; rfl
  | succ n ih => rw [Finset.sum_range_succ (fun j => dueB j d) n, ← _root_.add_assoc, ← ih]; rfl
/-- What a device owes at launch, as two sums over its fifteen peers. -/
theorem O₀_eq : (O₀ : Dev nD → CellTallies nD τ sig Unit) = fun d => (∑ j ∈ Finset.range 15, dueR j d) + ∑ j ∈ Finset.range 15, dueB j d :=
  funext fun d => owedB_eq d 15

theorem sum_tallyAt_const (g : GSem nD τ sig) (n a : ℕ) :
    (∑ _j ∈ Finset.range n, (tallyAt g () a : CellTallies nD τ sig Unit)) = tallyAt g () (n * a) := by
  induction n with
  | zero => rw [Finset.sum_range_zero, Nat.zero_mul, tallyAt_zero]
  | succ n ih => rw [Finset.sum_range_succ, ih, tallyAt_add, Nat.succ_mul]

theorem off_image : (Finset.range 15).image (fun j => off (15 - j)) = Finset.univ.erase (0 : Fin 16) := by decide
theorem off_injOn : Set.InjOn (fun j => off (15 - j)) (Finset.range 15 : Finset ℕ) := by
  intro a ha b hb h
  have ha' := Finset.mem_range.mp (Finset.mem_coe.mp ha)
  have hb' := Finset.mem_range.mp (Finset.mem_coe.mp hb)
  have h1 : (15 - a) % 16 = (15 - b) % 16 := congrArg Fin.val h
  omega

/-- The launch credit of device `c`: its fifteen peers each owe its barrier cell a unit, and the peer `k` places before it
    owes its receive cell `k` the block's credit. -/
theorem creds_intro (c : Dev nD) : (Pipeline.launchCred O₀ c : sProp 𝕄) ⊢ creds (F := F) c := by
  have hB : (bigSep (Finset.range 15) fun j => (Pipeline.launchCred (dueB j) c : sProp 𝕄)) ⊢ cred (tallyAt (barCell c) () 15) := by
    refine (bigSep_mono fun j _ => Pipeline.launchCred_tallyAt (.reg barS) (fun d => add d (15 - j)) (fun d => sub d (15 - j))
      (fun d => add_sub d _) (fun d => sub_add d _) () 1 c).trans ?_
    rw [← Pipeline.cred_finsetSum, sum_tallyAt_const]
    exact BI.Entails.refl _
  have hR : (bigSep (Finset.range 15) fun j => (Pipeline.launchCred (dueR j) c : sProp 𝕄))
      ⊢ bigSep (Finset.univ.erase (0 : Fin 16)) fun k => cred (tallyAt (recvCell c k) () Nc) := by
    refine (bigSep_mono fun j _ => Pipeline.launchCred_tallyAt (.dma (recvQ (off (15 - j)))) (fun d => add d (15 - j)) (fun d => sub d (15 - j))
      (fun d => add_sub d _) (fun d => sub_add d _) () Nc c).trans ?_
    rw [← off_image, bigSep_image_of_injOn off_injOn]
    exact BI.Entails.refl _
  rw [O₀_eq, Pipeline.launchCred_add, Pipeline.launchCred_sum, Pipeline.launchCred_sum]
  unfold creds
  iintro ⟨HR, HB⟩
  isplitl [HB]
  · iapply hB; iexact HB
  · iapply hR; iexact HR

/-! ### The levels -/

/-- Whatever a device owes at launch it owes to a barrier cell or a receive cell of a TensorCore: a cell above level 0. -/
theorem O₀_pos {c : Dev nD} {g : GSem nD τ sig} {u : Unit} (h : 0 < O₀ c g u) : g.1.2 = .tc ∧ 0 < lv g u := by
  rw [O₀_eq] at h
  rcases Pipeline.add_pos_cases h with h | h
  · obtain ⟨j, -, hj⟩ := Pipeline.sum_pos_exists h
    obtain ⟨rfl, -⟩ := Pipeline.tallyAt_pos hj
    refine ⟨rfl, ?_⟩
    show 0 < (if 18 ≤ (recvQ (off (15 - j))).val then 2 else 0)
    rw [if_pos (by rw [recvQ_val]; omega)]; decide
  · obtain ⟨j, -, hj⟩ := Pipeline.sum_pos_exists h
    obtain ⟨rfl, -⟩ := Pipeline.tallyAt_pos hj
    exact ⟨rfl, Nat.one_pos⟩

/-- A wait on a staging semaphore (level 0) is below everything a device owes at launch. -/
theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0
      (fun p hp => by rw [Finset.mem_singleton.mp hp, L_tc]; exact Finset.mem_singleton_self _)
      (fun g u hg => by unfold L; rw [if_pos (O₀_pos hg).1]; exact Finset.mem_singleton_self _)
      (fun p hp => by
        rw [Finset.mem_singleton.mp hp]
        show (if 18 ≤ q.val then 2 else 0) ≤ 0
        rw [if_neg (by omega)])
      (fun g u hg => (O₀_pos hg).2)
  · rw [MayWait_zero]; iintro -; iempintro

theorem waits (m : (ℓ : Loc nD τ sig) → Buf (Elt F) ℓ) (ρ : Dev nD → PrngReg) (c : Dev nD) :
    (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The theorem's side conditions -/

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (m : (ℓ : Loc nD τ sig) → Buf (Elt F) ℓ) (ρ : Dev nD → PrngReg) (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrAny
  iintro ⟨Hs, -, Hr⟩
  isplitl [Hs]; · iexact Hs
  iexact Hr

theorem phi1_exit (m : (ℓ : Loc nD τ sig) → Buf (Elt F) ℓ) (ρ : Dev nD → PrngReg) (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁ scrAny ownZero Pipeline.ownSems0
  iintro ⟨Hr, Hz⟩
  isplitr; · iempintro
  isplitl [Hz]; · iexact Hz
  iexact Hr

/-! ### The run -/

/-- At the compiled mesh of sixteen devices, for any float values, from any memory with zero counters: every weakly fair
    execution of the program — the sixteen kernels handshaking on the barrier semaphore, then each sending its column
    maxima to its fifteen peers — terminates, and every final state has each window's array at the contents the proof
    data computes. -/
theorem run_main (m : (ℓ : Loc nD τ sig) → Buf (Elt F) ℓ) (ρ : Dev nD → PrngReg) :
    θ_run defs (onTc (τ := τ) (main (F := F))) (s₀ m ρ)
      (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ### The result arrays -/

/-- Window 0 is its whole array: the staged input block of a device is its argument array. -/
theorem xstg_eq (m : (ℓ : Loc nD τ sig) → Buf (Elt F) ℓ) (ρ : Dev nD → PrngReg) (c : Dev nD) :
    xstg m ρ c = m ((c.tc : Thread nD τ).loc main_arg0) := by
  unfold xstg
  exact Memref.read_access_unit_zero (Elt F) main_arg0 (funext fun a => Nat.zero_mul _) _ _

/-- The result array after the one write-back: what the body left in the output staging buffer. -/
theorem final_out (m : (ℓ : Loc nD τ sig) → Buf (Elt F) ℓ) (ρ : Dev nD → PrngReg) (c : Dev nD) :
    (dats m ρ 0 c).arrAt (1 : Fin 2) cfg0.N = outAt m ρ c := by
  have h1 := (dats m ρ 0 c).arrAt_succ (1 : Fin 2) t₀
  rw [flush0_1 t₀, if_pos rfl] at h1
  have h3 : ((cfg0.win 1).blk t₀).view.read (Elt F) ((dats m ρ 0 c).arrAt 1 (↑t₀ + 1)) = (dats m ρ 0 c).arrAt 1 (↑t₀ + 1) :=
    Memref.read_access_unit_zero (Elt F) main_v1 (funext fun a => Nat.zero_mul _) _ _
  have h2 := View.read_write_univ (v := ((cfg0.win 1).blk t₀).view) (Val := Elt F) ((dats m ρ 0 c).arrAt 1 ↑t₀) ((dats m ρ 0 c).flushed 1 t₀)
  show (dats m ρ 0 c).arrAt 1 (↑t₀ + 1) = _
  rw [← h3, h1, h2]
  rfl

/-- At the compiled mesh of sixteen devices, for any float values, from any memory with zero counters: every weakly fair
    execution terminates, and in every final state each device's result array holds the maximum over all sixteen input
    blocks, as the pure term `outOf` of the devices' argument arrays, and its argument array is unchanged. -/
theorem run (m : (ℓ : Loc nD τ sig) → Buf (Elt F) ℓ) (ρ : Dev nD → PrngReg) :
    θ_run defs (onTc (τ := τ) (main (F := F))) ⟨m, fun _ => 0, ρ⟩
      (fun r => ∀ c : Dev nD, r.2.mem ((c.tc : Thread nD τ).loc main_v1) = outOf (fun d => m ((d.tc : Thread nD τ).loc main_arg0)) c
        ∧ r.2.mem ((c.tc : Thread nD τ).loc main_arg0) = m ((c.tc : Thread nD τ).loc main_arg0)) :=
  (θ_run defs _ _).mono (fun r h c =>
    ⟨(h c (1 : Fin 2)).trans ((final_out m ρ c).trans (by
        unfold outAt
        rw [show (fun d => xstg m ρ d) = fun d : Dev nD => m ((d.tc : Thread nD τ).loc main_arg0) from funext fun d => xstg_eq m ρ d])),
      (h c (0 : Fin 2)).trans ((dats m ρ 0 c).arrAt_in (0 : Fin 2) rfl _)⟩) (run_main m ρ)

end Cert.Kernel.Pf

end
-- ==== Proof.KernelIdealPf.Mesh.lean ====
/-
  The mesh of sixteen devices as a cyclic group: `add c k` is the device `k` places after `c`, `sub c k` the device
  `k` places before it. The kernel computes each peer as `(my + k) % 16` through a chain of word operations; decided
  over the sixteen devices, signal `k` and transfer `k` both address `add c k`.
-/
import proofs.«900914_g7700000000000915_dist_max_ax0_shard0_i_m2048_n1024_v7x_i16_bf16_1_alg».proof.KernelIdeal
import proofs.«900914_g7700000000000915_dist_max_ax0_shard0_i_m2048_n1024_v7x_i16_bf16_1_alg».proof.Proof.Gen.KernelIdeal

namespace Cert.KernelIdeal.Pf

open Idealize.ShloMosaic Cert.KernelIdeal Cert.KernelIdeal.Gen

/-- The device `k` places after `c` on the ring of sixteen. -/
def add (c : Dev nD) (k : ℕ) : Dev nD := ⟨(c.val + k) % 16, Nat.mod_lt _ (by decide)⟩
/-- The device `k` places before `c`. -/
def sub (c : Dev nD) (k : ℕ) : Dev nD := ⟨(c.val + (16 - k % 16)) % 16, Nat.mod_lt _ (by decide)⟩

theorem add_val (c : Dev nD) (k : ℕ) : (add c k).val = (c.val + k) % 16 := rfl
theorem sub_val (c : Dev nD) (k : ℕ) : (sub c k).val = (c.val + (16 - k % 16)) % 16 := rfl

theorem add_sub (c : Dev nD) (k : ℕ) : add (sub c k) k = c := by
  apply Fin.ext; have hc : c.val < 16 := c.isLt; simp only [add_val, sub_val]; omega
theorem sub_add (c : Dev nD) (k : ℕ) : sub (add c k) k = c := by
  apply Fin.ext; have hc : c.val < 16 := c.isLt; simp only [add_val, sub_val]; omega
theorem add_zero (c : Dev nD) : add c 0 = c := by
  apply Fin.ext; have hc : c.val < 16 := c.isLt; simp only [add_val]; omega
theorem sub_zero (c : Dev nD) : sub c 0 = c := by
  apply Fin.ext; have hc : c.val < 16 := c.isLt; simp only [sub_val]; omega
/-- Going `k` forward is going `16 - k` back. -/
theorem add_eq_sub (c : Dev nD) (k : ℕ) (hk : k ≤ 16) : add c k = sub c (16 - k) := by
  apply Fin.ext; have hc : c.val < 16 := c.isLt; simp only [add_val, sub_val]; omega
theorem sub_eq_add (c : Dev nD) (k : ℕ) (hk : k ≤ 16) : sub c k = add c (16 - k) := by
  apply Fin.ext; have hc : c.val < 16 := c.isLt; simp only [add_val, sub_val]; omega
theorem add_inj_left (k : ℕ) {c c' : Dev nD} (h : add c k = add c' k) : c = c' := by
  rw [← sub_add c k, ← sub_add c' k, h]
theorem sub_inj_left (k : ℕ) {c c' : Dev nD} (h : sub c k = sub c' k) : c = c' := by
  rw [← add_sub c k, ← add_sub c' k, h]
/-- A device is not its own peer at a proper offset. -/
theorem add_ne_self (c : Dev nD) (k : ℕ) (h0 : 0 < k) (hk : k < 16) : add c k ≠ c := by
  intro h; have h1 : (c.val + k) % 16 = c.val := congrArg Fin.val h; have hc : c.val < 16 := c.isLt; omega

/-- The ring's rotation by `k`, as a permutation of the devices. -/
def rot (k : ℕ) : Dev nD ≃ Dev nD := ⟨fun c => add c k, fun c => sub c k, fun c => sub_add c k, fun c => add_sub c k⟩

theorem dev1_eq (c : Dev nD) : (⟨k0_dev1 c, k0_dev1_lt c⟩ : Dev nD) = add c 1 := Fin.ext ((by decide +kernel : ∀ c : Dev nD, k0_dev1 c = (c.val + 1) % 16) c)
theorem dev2_eq (c : Dev nD) : (⟨k0_dev2 c, k0_dev2_lt c⟩ : Dev nD) = add c 2 := Fin.ext ((by decide +kernel : ∀ c : Dev nD, k0_dev2 c = (c.val + 2) % 16) c)
theorem dev3_eq (c : Dev nD) : (⟨k0_dev3 c, k0_dev3_lt c⟩ : Dev nD) = add c 3 := Fin.ext ((by decide +kernel : ∀ c : Dev nD, k0_dev3 c = (c.val + 3) % 16) c)
theorem dev4_eq (c : Dev nD) : (⟨k0_dev4 c, k0_dev4_lt c⟩ : Dev nD) = add c 4 := Fin.ext ((by decide +kernel : ∀ c : Dev nD, k0_dev4 c = (c.val + 4) % 16) c)
theorem dev5_eq (c : Dev nD) : (⟨k0_dev5 c, k0_dev5_lt c⟩ : Dev nD) = add c 5 := Fin.ext ((by decide +kernel : ∀ c : Dev nD, k0_dev5 c = (c.val + 5) % 16) c)
theorem dev6_eq (c : Dev nD) : (⟨k0_dev6 c, k0_dev6_lt c⟩ : Dev nD) = add c 6 := Fin.ext ((by decide +kernel : ∀ c : Dev nD, k0_dev6 c = (c.val + 6) % 16) c)
theorem dev7_eq (c : Dev nD) : (⟨k0_dev7 c, k0_dev7_lt c⟩ : Dev nD) = add c 7 := Fin.ext ((by decide +kernel : ∀ c : Dev nD, k0_dev7 c = (c.val + 7) % 16) c)
theorem dev8_eq (c : Dev nD) : (⟨k0_dev8 c, k0_dev8_lt c⟩ : Dev nD) = add c 8 := Fin.ext ((by decide +kernel : ∀ c : Dev nD, k0_dev8 c = (c.val + 8) % 16) c)
theorem dev9_eq (c : Dev nD) : (⟨k0_dev9 c, k0_dev9_lt c⟩ : Dev nD) = add c 9 := Fin.ext ((by decide +kernel : ∀ c : Dev nD, k0_dev9 c = (c.val + 9) % 16) c)
theorem dev10_eq (c : Dev nD) : (⟨k0_dev10 c, k0_dev10_lt c⟩ : Dev nD) = add c 10 := Fin.ext ((by decide +kernel : ∀ c : Dev nD, k0_dev10 c = (c.val + 10) % 16) c)
theorem dev11_eq (c : Dev nD) : (⟨k0_dev11 c, k0_dev11_lt c⟩ : Dev nD) = add c 11 := Fin.ext ((by decide +kernel : ∀ c : Dev nD, k0_dev11 c = (c.val + 11) % 16) c)
theorem dev12_eq (c : Dev nD) : (⟨k0_dev12 c, k0_dev12_lt c⟩ : Dev nD) = add c 12 := Fin.ext ((by decide +kernel : ∀ c : Dev nD, k0_dev12 c = (c.val + 12) % 16) c)
theorem dev13_eq (c : Dev nD) : (⟨k0_dev13 c, k0_dev13_lt c⟩ : Dev nD) = add c 13 := Fin.ext ((by decide +kernel : ∀ c : Dev nD, k0_dev13 c = (c.val + 13) % 16) c)
theorem dev14_eq (c : Dev nD) : (⟨k0_dev14 c, k0_dev14_lt c⟩ : Dev nD) = add c 14 := Fin.ext ((by decide +kernel : ∀ c : Dev nD, k0_dev14 c = (c.val + 14) % 16) c)
theorem dev15_eq (c : Dev nD) : (⟨k0_dev15 c, k0_dev15_lt c⟩ : Dev nD) = add c 15 := Fin.ext ((by decide +kernel : ∀ c : Dev nD, k0_dev15 c = (c.val + 15) % 16) c)
theorem dev16_eq (c : Dev nD) : (⟨k0_dev16 c, k0_dev16_lt c⟩ : Dev nD) = add c 1 := Fin.ext ((by decide +kernel : ∀ c : Dev nD, k0_dev16 c = (c.val + 1) % 16) c)
theorem dev17_eq (c : Dev nD) : (⟨k0_dev17 c, k0_dev17_lt c⟩ : Dev nD) = add c 2 := Fin.ext ((by decide +kernel : ∀ c : Dev nD, k0_dev17 c = (c.val + 2) % 16) c)
theorem dev18_eq (c : Dev nD) : (⟨k0_dev18 c, k0_dev18_lt c⟩ : Dev nD) = add c 3 := Fin.ext ((by decide +kernel : ∀ c : Dev nD, k0_dev18 c = (c.val + 3) % 16) c)
theorem dev19_eq (c : Dev nD) : (⟨k0_dev19 c, k0_dev19_lt c⟩ : Dev nD) = add c 4 := Fin.ext ((by decide +kernel : ∀ c : Dev nD, k0_dev19 c = (c.val + 4) % 16) c)
theorem dev20_eq (c : Dev nD) : (⟨k0_dev20 c, k0_dev20_lt c⟩ : Dev nD) = add c 5 := Fin.ext ((by decide +kernel : ∀ c : Dev nD, k0_dev20 c = (c.val + 5) % 16) c)
theorem dev21_eq (c : Dev nD) : (⟨k0_dev21 c, k0_dev21_lt c⟩ : Dev nD) = add c 6 := Fin.ext ((by decide +kernel : ∀ c : Dev nD, k0_dev21 c = (c.val + 6) % 16) c)
theorem dev22_eq (c : Dev nD) : (⟨k0_dev22 c, k0_dev22_lt c⟩ : Dev nD) = add c 7 := Fin.ext ((by decide +kernel : ∀ c : Dev nD, k0_dev22 c = (c.val + 7) % 16) c)
theorem dev23_eq (c : Dev nD) : (⟨k0_dev23 c, k0_dev23_lt c⟩ : Dev nD) = add c 8 := Fin.ext ((by decide +kernel : ∀ c : Dev nD, k0_dev23 c = (c.val + 8) % 16) c)
theorem dev24_eq (c : Dev nD) : (⟨k0_dev24 c, k0_dev24_lt c⟩ : Dev nD) = add c 9 := Fin.ext ((by decide +kernel : ∀ c : Dev nD, k0_dev24 c = (c.val + 9) % 16) c)
theorem dev25_eq (c : Dev nD) : (⟨k0_dev25 c, k0_dev25_lt c⟩ : Dev nD) = add c 10 := Fin.ext ((by decide +kernel : ∀ c : Dev nD, k0_dev25 c = (c.val + 10) % 16) c)
theorem dev26_eq (c : Dev nD) : (⟨k0_dev26 c, k0_dev26_lt c⟩ : Dev nD) = add c 11 := Fin.ext ((by decide +kernel : ∀ c : Dev nD, k0_dev26 c = (c.val + 11) % 16) c)
theorem dev27_eq (c : Dev nD) : (⟨k0_dev27 c, k0_dev27_lt c⟩ : Dev nD) = add c 12 := Fin.ext ((by decide +kernel : ∀ c : Dev nD, k0_dev27 c = (c.val + 12) % 16) c)
theorem dev28_eq (c : Dev nD) : (⟨k0_dev28 c, k0_dev28_lt c⟩ : Dev nD) = add c 13 := Fin.ext ((by decide +kernel : ∀ c : Dev nD, k0_dev28 c = (c.val + 13) % 16) c)
theorem dev29_eq (c : Dev nD) : (⟨k0_dev29 c, k0_dev29_lt c⟩ : Dev nD) = add c 14 := Fin.ext ((by decide +kernel : ∀ c : Dev nD, k0_dev29 c = (c.val + 14) % 16) c)
theorem dev30_eq (c : Dev nD) : (⟨k0_dev30 c, k0_dev30_lt c⟩ : Dev nD) = add c 15 := Fin.ext ((by decide +kernel : ∀ c : Dev nD, k0_dev30 c = (c.val + 15) % 16) c)

end Cert.KernelIdeal.Pf
-- ==== Proof.KernelIdealPf.Out.lean ====
/-
  What each device ends with, as one pure term of the sixteen devices' input blocks: its own column maxima
  (`colmax`, the body's first payload) folded by the elementwise maximum with the column maxima of the devices
  1, 2, …, 15 places before it — the blocks that land in its receive slots 1, …, 15 —, widened back to f32.
-/
import proofs.«900914_g7700000000000915_dist_max_ax0_shard0_i_m2048_n1024_v7x_i16_bf16_1_alg».proof.Proof.Gen.KernelIdeal.Skeleton
import proofs.«900914_g7700000000000915_dist_max_ax0_shard0_i_m2048_n1024_v7x_i16_bf16_1_alg».proof.Proof.KernelIdealPf.Mesh

noncomputable section

namespace Cert.KernelIdeal.Pf

open Idealize.ShloMosaic Cert.KernelIdeal Cert.KernelIdeal.Gen

variable {F : FTy → Type} [FloatOps F]

/-- A device's column maxima over its 2048 rows, narrowed to bf16 and laid out as one receive slot. -/
abbrev colmax (x : Vec F S2048x1024 .f32) : Vec F S1x1x1024 .bf16 := k0_pay2 x

/-- The maxima accumulated over the own slot and the fifteen receive slots `s 1 … s 15`, in slot order. -/
def accOf (s : ℕ → Vec F S1x1x1024 .bf16) : FVec F S1024 .bf16 :=
  k0_pay9 (k0_pay8 (k0_pay7 (k0_pay6 (k0_pay5 (k0_pay4 (k0_pay3 (s 0) (s 1)) (s 2) (s 3) (s 4)) (s 5) (s 6)) (s 7) (s 8) (s 9))
    (s 10) (s 11)) (s 12) (s 13)) (s 14) (s 15)

/-- The result block of device `c`, from every device's input block `X`: slot `k` holds the column maxima of the device
    `k` places before `c`. -/
def outOf (X : Dev nD → Vec F S2048x1024 .f32) (c : Dev nD) : Vec F S1x1024 .f32 :=
  k0_pay1 (k0_pay10 (accOf fun k => colmax (X (sub c k))))

end Cert.KernelIdeal.Pf

end
-- ==== Proof.KernelIdealPf.Slots.lean ====
/-
  The communication buffer: sixteen slots of 1024 bf16 lanes in one scratch buffer. Slot 0 is the device's own column
  maxima, the source of its fifteen transfers; slot `k` receives the maxima of the device `k` places before it. A slot is
  addressed three ways — by a vector load or store through the rectangle at row `k`, and by a transfer through the
  sliced, squeezed memref — and all three touch the same 1024 elements `slotSet k`; the sixteen sets tile the buffer.
  `rep v` is the buffer in which every slot holds `v`: what a slot's elements hold is stated against it.
-/
import proofs.«900914_g7700000000000915_dist_max_ax0_shard0_i_m2048_n1024_v7x_i16_bf16_1_alg».proof.Proof.Gen.KernelIdeal.Launch
import proofs.«900914_g7700000000000915_dist_max_ax0_shard0_i_m2048_n1024_v7x_i16_bf16_1_alg».proof.Proof.KernelIdealPf.Out
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The communication buffer, whole. -/
abbrev cM : Memref sig .tc .vmem S16x1x1024 .bf16 := Memref.whole cc0_scratch0

theorem slot_inb (k : ℕ) (hk : k < 16) : ∀ a, (![k, 0, 0] : Fin 3 → Nat) a + S1x1x1024.size a ≤ S16x1x1024.size a := by
  intro a; fin_cases a
  · show k + 1 ≤ 16; omega
  · show 0 + 1 ≤ 1; omega
  · show 0 + 1024 ≤ 1024; omega

/-- Row `k` of the buffer, as the rectangle the vector loads and stores go through. -/
abbrev slotR (k : ℕ) (hk : k < 16) : Rect S16x1x1024 := Rect.unit (s := S16x1x1024) ![k, 0, 0] S1x1x1024.size (slot_inb k hk)

/-- Row `k` as the memref a transfer reads or writes: sliced, then squeezed to 1 × 1024. -/
abbrev slotM (k : ℕ) (hk : k < 16) : Memref sig .tc .vmem S1x1024 .bf16 :=
  ((cM.slice (slotR k hk) (fun _ => rfl)).squeeze S1x1024 squeezes_S1x1x1024_S1x1024)

/-- The elements of slot `k` (of device `c`'s buffer). -/
def slotSet (c : Dev nD) (k : ℕ) (hk : k < 16) : Finset (Idx ((c : Thread nD τ).loc cc0_scratch0)) :=
  (cM.access (slotR k hk) : View sig .tc _ _ _).set

/-- The buffer every slot of which holds `v`. -/
def rep (c : Dev nD) (v : Vec F S1x1x1024 .bf16) : Buf (Elt F) ((c : Thread nD τ).loc cc0_scratch0) :=
  fun i => v (ValueIdx.ix3 (0 : Fin 1) (0 : Fin 1) (⟨(i 2).val, (i 2).isLt⟩ : Fin 1024))

theorem h0 : 0 < 16 := by decide

/-- The block's credit on a DMA semaphore: the same for every slot. -/
abbrev Nc : ℕ := (slotM 0 h0).view.dmaCredit

theorem Nc_pos : 0 < Nc := View.dmaCredit_pos _ (by decide)
theorem slot_credit (k : ℕ) (hk : k < 16) (sem : DmaSem sig) : (slotM k hk).view.amount (.dma sem) = Nc := rfl

/-- Slot `k` is the elements of the buffer whose first coordinate is `k`. -/
theorem mem_slotSet (c : Dev nD) (k : ℕ) (hk : k < 16) (i : Idx ((c : Thread nD τ).loc cc0_scratch0)) :
    i ∈ slotSet c k hk ↔ (i 0 : ℕ) = k := by
  unfold slotSet
  show i ∈ ((View.whole cc0_scratch0 : View sig .tc _ _ _).slice (slotR k hk)).set ↔ _
  rw [View.set_slice_whole, Rect.mem_set_unit]
  have h1 : ((i 1 : Fin 1) : ℕ) < 1 := (i 1).isLt
  have h2 : ((i 2 : Fin 1024) : ℕ) < 1024 := (i 2).isLt
  constructor
  · intro h
    have h0 : k ≤ (i 0 : ℕ) ∧ (i 0 : ℕ) < k + 1 := h (0 : Fin 3)
    omega
  · intro h a
    fin_cases a
    · show k ≤ (i 0 : ℕ) ∧ (i 0 : ℕ) < k + 1; omega
    · show 0 ≤ (i 1 : ℕ) ∧ (i 1 : ℕ) < 0 + 1; omega
    · show 0 ≤ (i 2 : ℕ) ∧ (i 2 : ℕ) < 0 + 1024; omega

/-- A transfer's view of slot `k` covers exactly the slot's elements. -/
theorem slotM_set (c : Dev nD) (k : ℕ) (hk : k < 16) : (slotM k hk).view.set = slotSet c k hk :=
  View.set_reshape _ _
/-- The sixteen slots tile the buffer. -/
theorem slots_cover (c : Dev nD) : (Finset.univ : Finset (Idx ((c : Thread nD τ).loc cc0_scratch0))) = (Finset.univ : Finset (Fin 16)).biUnion fun k => slotSet c k.val k.isLt := by
  ext i
  simp only [Finset.mem_univ, Finset.mem_biUnion, true_and, true_iff]
  exact ⟨(i 0 : Fin 16), (mem_slotSet c _ _ i).mpr rfl⟩
theorem slots_disjoint (c : Dev nD) (k k' : ℕ) (hk : k < 16) (hk' : k' < 16) (h : k ≠ k') : Disjoint (slotSet c k hk) (slotSet c k' hk') := by
  rw [Finset.disjoint_left]
  intro i hi hi'
  exact h (((mem_slotSet c k hk i).mp hi).symm.trans ((mem_slotSet c k' hk' i).mp hi'))
/-- A vector load of row `k` reads inside slot `k`; a full store of row `k` writes inside it. -/
theorem load_sub (c : Dev nD) (k : ℕ) (hk : k < 16) : cM.view.setOn (slotR k hk).toLoadRect.set ⊆ slotSet c k hk :=
  (View.set_slice (cM : Memref sig .tc .vmem S16x1x1024 .bf16).view (slotR k hk)).symm.subset
theorem store_sub (c : Dev nD) (k : ℕ) (hk : k < 16) : (cM.access (slotR k hk) : View sig .tc _ _ _).setOn Finset.univ ⊆ slotSet c k hk :=
  fun _ h => h
/-- A load of row `k` from a buffer that agrees with `rep v` on slot `k` reads `v`. -/
theorem load_rep (c : Dev nD) (k : ℕ) (hk : k < 16) (v : Vec F S1x1x1024 .bf16) (f : Buf (Elt F) ((c : Thread nD τ).loc cc0_scratch0))
    (hf : ∀ i ∈ slotSet c k hk, f i = rep c v i) : cM.view.readAt (Elt F) (slotR k hk).toLoadRect f = v := by
  funext x
  have hx0 : ((x 0 : Fin 1) : ℕ) = 0 := by have : ((x 0 : Fin 1) : ℕ) < 1 := (x 0).isLt; omega
  have hx1 : ((x 1 : Fin 1) : ℕ) = 0 := by have : ((x 1 : Fin 1) : ℕ) < 1 := (x 1).isLt; omega
  have hm : (slotR k hk).toLoadRect.idx x ∈ slotSet c k hk := (mem_slotSet c k hk _).mpr (by
    show k + 1 * ((x 0 : Fin 1) : ℕ) = k; omega)
  show f ((slotR k hk).toLoadRect.idx x) = v x
  rw [hf _ hm]
  unfold rep
  refine congrArg v ?_
  funext a
  match a with
  | ⟨0, _⟩ => exact Fin.ext hx0.symm
  | ⟨1, _⟩ => exact Fin.ext hx1.symm
  | ⟨2, _⟩ => exact Fin.ext ((Nat.zero_add _).trans (Nat.one_mul _))
/-- A full store of `w` into row `k` leaves slot `k` holding `w`. -/
theorem store_rep (c : Dev nD) (k : ℕ) (hk : k < 16) (w : Vec F S1x1x1024 .bf16) (f : Buf (Elt F) ((c : Thread nD τ).loc cc0_scratch0)) :
    ∀ i ∈ slotSet c k hk, ((cM.access (slotR k hk) : View sig .tc _ _ _).write (Elt F) f w Finset.univ) i = rep c w i := by
  intro i hi
  obtain ⟨y, rfl⟩ := View.exists_emb_of_mem_set (cM.access (slotR k hk) : View sig .tc _ _ _) hi
  rw [View.write_emb_of_mem _ _ (Finset.mem_univ y)]
  have hy0 : ((y 0 : Fin 1) : ℕ) = 0 := by have : ((y 0 : Fin 1) : ℕ) < 1 := (y 0).isLt; omega
  have hy1 : ((y 1 : Fin 1) : ℕ) = 0 := by have : ((y 1 : Fin 1) : ℕ) < 1 := (y 1).isLt; omega
  show w y = rep c w ((slotR k hk).emb y)
  unfold rep
  refine congrArg w ?_
  funext a
  match a with
  | ⟨0, _⟩ => exact Fin.ext hy0
  | ⟨1, _⟩ => exact Fin.ext hy1
  | ⟨2, _⟩ => exact Fin.ext ((Nat.zero_add _).trans (Nat.one_mul _)).symm
/-- A transfer of slot 0 of a buffer agreeing with `rep v` there, into slot `k` of device `c'`, leaves that slot holding `v`. -/
theorem land_rep (c c' : Dev nD) (k : ℕ) (hk : k < 16) (v : Vec F S1x1x1024 .bf16)
    (fs : Buf (Elt F) ((c : Thread nD τ).loc cc0_scratch0)) (fd : Buf (Elt F) ((c' : Thread nD τ).loc cc0_scratch0))
    (hfs : ∀ i ∈ slotSet c 0 h0, fs i = rep c v i) :
    ∀ i ∈ slotSet c' k hk, ((slotM k hk).view.write (Elt F) fd ((slotM 0 h0).view.read (Elt F) fs) Finset.univ) i = rep c' v i := by
  intro i hi
  rw [← slotM_set c' k hk] at hi
  obtain ⟨z, rfl⟩ := View.exists_emb_of_mem_set (slotM k hk).view hi
  rw [View.write_emb_of_mem _ _ (Finset.mem_univ z), View.read_apply]
  have hm : (slotM 0 h0).view.emb z ∈ slotSet c 0 h0 := by
    rw [← slotM_set c 0 h0]; exact View.emb_mem_set _ z
  rw [hfs _ hm]
  show rep c v ((slotM 0 h0).view.emb z) = rep c' v ((slotM k hk).view.emb z)
  unfold rep
  refine congrArg v ?_
  funext a
  match a with
  | ⟨0, _⟩ => rfl
  | ⟨1, _⟩ => rfl
  | ⟨2, _⟩ => exact Fin.ext rfl

/-- info: 'Cert.KernelIdeal.Pf.land_rep' depends on axioms: [propext, Classical.choice, Quot.sound] -/
#guard_msgs in #print axioms land_rep

end Cert.KernelIdeal.Pf

end
-- ==== Proof.KernelIdealPf.Sched.lean ====
/-
  The protocol of the sixteen-device maximum, under the rounds discipline.
  Every device `c` owns 33 cells: its barrier cell (the entry handshake), and for each offset `k` a send cell and a
  receive cell (offset 0 is never used). One round each:
  * barrier cell of `c`: fifteen duties `d = 1 … 15` of one unit; duty `d` is paid by the device `d` places after `c`,
    and hands `c` that device's receive slot `d` (the slot `c`'s transfer `d` lands in) and that its receive cell `d` is open;
  * send cell `k` of `c`: one duty of the block's credit, paid by `c`'s own transfer `k`; it hands back the read share
    `k` of `c`'s slot 0;
  * receive cell `k` of `c`: one duty of the block's credit, paid by the transfer of the device `k` places before `c`;
    it hands `c` its slot `k` holding that device's column maxima.
  A device signals before it waits on its barrier, and transfers before it waits on any DMA cell: barrier cells sit at
  level 1, receive cells at level 2, everything else at 0, and every wait is below all that the waiter still owes.
-/
import proofs.«900914_g7700000000000915_dist_max_ax0_shard0_i_m2048_n1024_v7x_i16_bf16_1_alg».proof.Proof.KernelIdealPf.Slots
import Idealize.ShloMosaic.Lib.Transfers

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Memrefs, semaphores, cells -/

abbrev xM : Memref sig .tc .vmem S2048x1024 .f32 := Memref.whole cc0_stg0_0
abbrev oM : Memref sig .tc .vmem S1x1024 .f32 := Memref.whole cc0_stg1_0

/-- The barrier semaphore of the collective (not scoped to the launch). -/
abbrev barS : Sem sig := (SemArray.scalar (sig.barrier 0 rfl) : Sems sig S_).sem
/-- Send semaphore `k` and receive semaphore `k`: entries `k` of the two scratch arrays of sixteen. -/
def sendQ (k : Fin 16) : DmaSem sig := ⟨2 + k.val, by have := k.isLt; show 2 + k.val < 34; omega⟩
def recvQ (k : Fin 16) : DmaSem sig := ⟨18 + k.val, by have := k.isLt; show 18 + k.val < 34; omega⟩

abbrev barCell (c : Dev nD) : GSem nD τ sig := ((c : Thread nD τ), .reg barS)
abbrev sendCell (c : Dev nD) (k : Fin 16) : GSem nD τ sig := ((c : Thread nD τ), .dma (sendQ k))
abbrev recvCell (c : Dev nD) (k : Fin 16) : GSem nD τ sig := ((c : Thread nD τ), .dma (recvQ k))

/-- Which offset a DMA semaphore of the two arrays belongs to. -/
def kOf (q : DmaSem sig) : Fin 16 := ⟨(q.val + 14) % 16, Nat.mod_lt _ (by decide)⟩
theorem kOf_send (k : Fin 16) : kOf (sendQ k) = k := by
  apply Fin.ext; have := k.isLt; show (2 + k.val + 14) % 16 = k.val; omega
theorem kOf_recv (k : Fin 16) : kOf (recvQ k) = k := by
  apply Fin.ext; have := k.isLt; show (18 + k.val + 14) % 16 = k.val; omega

/-- The cells of one device: its barrier cell, its send cells, its receive cells. -/
abbrev CK : Type := Option (Bool × Fin 16)
def csem : CK → SemLoc sig
  | none => .reg barS
  | some (false, k) => .dma (sendQ k)
  | some (true, k) => .dma (recvQ k)
abbrev kcell (ck : Dev nD × CK) : GSem nD τ sig := ((ck.1 : Thread nD τ), csem ck.2)
/-- The kernel's OWN (scoped) semaphores: the two arrays. -/
abbrev osem : Bool × Fin 16 → SemLoc sig := fun bk => csem (some bk)

/-! ## Contents -/

/-- Device `c`'s input block, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s column maxima, as one slot. -/
def mine (c : Dev nD) : Vec F S1x1x1024 .bf16 := colmax (xstg m ρ c)

/-- The kernel's result on device `c`. -/
def outAt (c : Dev nD) : (cc0_stg1_0 : Ref sig .tc).ty.Contents (Elt F) := outOf (fun d => xstg m ρ d) c

/-- Slot `k` of device `c`'s communication buffer, at share `q` and contents `f`. -/
def slotPts (c : Dev nD) (k : Fin 16) (q : PosShare TreeShare) (f : Buf (Elt F) ((c : Thread nD τ).loc cc0_scratch0)) : sProp 𝕄 :=
  ((c : Thread nD τ).loc cc0_scratch0) ↦[slotSet c k.val k.isLt]{q} f

omit [FloatOps F] in
instance slotPts_storable (c : Dev nD) (k : Fin 16) (q) (f) : BI.Storable (upEmb : UEmb _ 𝕄) (slotPts (F := F) c k q f) := by unfold slotPts; infer_instance

/-! ## The schedule -/

/-- Duty `d` of `c`'s barrier cell hands `c` the receive slot `d` of the device `d` places after it, and that its receive cell `d` is open. -/
def barPay (c : Dev nD) (d : Fin 16) : sProp 𝕄 :=
  iprop((∃ f, slotPts (add c d.val) d fullShare f) ∗ reached ER (recvCell (add c d.val) d) 0)
/-- The send cell `k` hands back read share `k` of the own slot 0. -/
def sendPay (c : Dev nD) (k : Fin 16) : sProp 𝕄 := slotPts c 0 (Transfers.shareTok fullShare 16 k) (rep c (mine m ρ c))
/-- The receive cell `k` hands over slot `k` holding the maxima of the device `k` places before. -/
def recvPay (c : Dev nD) (k : Fin 16) : sProp 𝕄 := slotPts c k fullShare (rep c (mine m ρ (sub c k.val)))

/-- One round, round 0. -/
def Rd : Rounds.Schedule (GSem nD τ sig) (Fin 16) 𝕄 where
  duties g r := if r = 0 ∧ g.1.2 = .tc then
      (match g.2 with
        | .reg _ => Finset.univ.erase 0
        | .dma q => if 2 ≤ q.val ∧ kOf q ≠ 0 then {0} else ∅)
    else ∅
  unitless _ := False
  amount g _ _ := match g.2 with
    | .reg _ => 1
    | .dma _ => Nc
  payload g _ d := match g.2 with
    | .reg _ => barPay g.1.1 d
    | .dma q => if q.val < 18 then sendPay m ρ g.1.1 (kOf q) else recvPay m ρ g.1.1 (kOf q)
  amount_pos g _ _ _ := by
    cases g.2 with
    | reg _ => exact Nat.one_pos
    | dma _ => exact Nc_pos

instance Rd_payload_storable (g : GSem nD τ sig) (r : ℕ) (d : Fin 16) :
    BI.Storable (upEmb : UEmb _ 𝕄) ((Rd (F := F) m ρ).payload g r d) := by
  show BI.Storable upEmb (match g.2 with
    | .reg _ => barPay g.1.1 d
    | .dma q => if q.val < 18 then sendPay m ρ g.1.1 (kOf q) else recvPay m ρ g.1.1 (kOf q))
  unfold barPay sendPay recvPay
  (repeat' split) <;> infer_instance

section Sched
variable (c : Dev nD) (k : Fin 16)

theorem duties_bar : (Rd (F := F) m ρ).duties (barCell c) 0 = Finset.univ.erase 0 := by dsimp only [Rd]; exact if_pos ⟨rfl, rfl⟩
theorem duties_send (hk : k ≠ 0) : (Rd (F := F) m ρ).duties (sendCell c k) 0 = {0} := by
  dsimp only [Rd]; rw [if_pos ⟨rfl, rfl⟩]; exact if_pos ⟨Nat.le_add_right 2 _, by rw [kOf_send]; exact hk⟩
theorem duties_recv (hk : k ≠ 0) : (Rd (F := F) m ρ).duties (recvCell c k) 0 = {0} := by
  dsimp only [Rd]; rw [if_pos ⟨rfl, rfl⟩]; exact if_pos ⟨Nat.le_trans (by decide) (Nat.le_add_right 18 _), by rw [kOf_recv]; exact hk⟩
theorem duties_send0 (r : ℕ) : (Rd (F := F) m ρ).duties (sendCell c 0) r = ∅ := by
  dsimp only [Rd]; split
  · exact if_neg fun h => h.2 (kOf_send 0)
  · rfl
theorem duties_recv0 (r : ℕ) : (Rd (F := F) m ρ).duties (recvCell c 0) r = ∅ := by
  dsimp only [Rd]; split
  · exact if_neg fun h => h.2 (kOf_recv 0)
  · rfl
theorem duties_later (g : GSem nD τ sig) : ∀ r, 1 ≤ r → (Rd (F := F) m ρ).duties g r = ∅ :=
  fun r hr => by dsimp only [Rd]; exact if_neg fun h => by omega

theorem amount_bar (d : Fin 16) : (Rd (F := F) m ρ).amount (barCell c) 0 d = 1 := rfl
theorem amount_send (d : Fin 16) : (Rd (F := F) m ρ).amount (sendCell c k) 0 d = Nc := rfl
theorem amount_recv (d : Fin 16) : (Rd (F := F) m ρ).amount (recvCell c k) 0 d = Nc := rfl

theorem expect_bar : (Rd (F := F) m ρ).expect (barCell c) 0 = 15 := by
  unfold Schedule.expect Schedule.amountOf
  rw [duties_bar, Finset.sum_congr rfl fun d _ => amount_bar m ρ c d, Finset.sum_const, smul_eq_mul, Nat.mul_one]
  decide
theorem expect_send (hk : k ≠ 0) : (Rd (F := F) m ρ).expect (sendCell c k) 0 = Nc := by
  unfold Schedule.expect Schedule.amountOf; rw [duties_send m ρ c k hk, Finset.sum_singleton, amount_send]
theorem expect_recv (hk : k ≠ 0) : (Rd (F := F) m ρ).expect (recvCell c k) 0 = Nc := by
  unfold Schedule.expect Schedule.amountOf; rw [duties_recv m ρ c k hk, Finset.sum_singleton, amount_recv]

theorem payload_bar (d : Fin 16) : (Rd (F := F) m ρ).payload (barCell c) 0 d = barPay c d := rfl
theorem payload_send (d : Fin 16) : (Rd (F := F) m ρ).payload (sendCell c k) 0 d = sendPay m ρ c k := by
  dsimp only [Rd]; rw [if_pos (show (sendQ k).val < 18 by have := k.isLt; show 2 + k.val < 18; omega), kOf_send]
theorem payload_recv (d : Fin 16) : (Rd (F := F) m ρ).payload (recvCell c k) 0 d = recvPay m ρ c k := by
  dsimp only [Rd]; rw [if_neg (show ¬ (recvQ k).val < 18 by show ¬ 18 + k.val < 18; omega), kOf_recv]

/-- The rest of the barrier cell's round, no duty taken: the fifteen peers' payloads. -/
theorem rest_bar : bigSep ((Rd (F := F) m ρ).duties (barCell c) 0 \ ∅) (fun d => (Rd (F := F) m ρ).payload (barCell c) 0 d)
    = bigSep (Finset.univ.erase (0 : Fin 16)) (fun d => barPay (F := F) c d) := by
  rw [Finset.sdiff_empty, duties_bar]; rfl
theorem rest_send (hk : k ≠ 0) : bigSep ((Rd (F := F) m ρ).duties (sendCell c k) 0 \ ∅) (fun d => (Rd (F := F) m ρ).payload (sendCell c k) 0 d) = sendPay m ρ c k := by
  rw [Finset.sdiff_empty, duties_send m ρ c k hk, bigSep_singleton, payload_send]
theorem rest_recv (hk : k ≠ 0) : bigSep ((Rd (F := F) m ρ).duties (recvCell c k) 0 \ ∅) (fun d => (Rd (F := F) m ρ).payload (recvCell c k) 0 d) = recvPay m ρ c k := by
  rw [Finset.sdiff_empty, duties_recv m ρ c k hk, bigSep_singleton, payload_recv]

end Sched

/-! ## What each device owes at launch; the levels -/

/-- The offset with `j` added makes sixteen. -/
def neg (j : Fin 16) : Fin 16 := ⟨(16 - j.val) % 16, Nat.mod_lt _ (by decide)⟩
/-- `k` as an offset, from a number below sixteen. -/
abbrev fk (k : ℕ) (hk : k < 16 := by decide) : Fin 16 := ⟨k, hk⟩

/-- A number as an offset on the ring. -/
def off (n : ℕ) : Fin 16 := ⟨n % 16, Nat.mod_lt _ (by decide)⟩

/-- The receive credits device `c` still owes before its transfers `16 - j, …, 15` … summed so that transfer 1 peels the LAST
    summand of `owedR c 15`, transfer 2 the last of `owedR c 14`, and so on down to `owedR c 0 = 0`. -/
def owedR (c : Dev nD) : ℕ → CellTallies nD τ sig Unit
  | 0 => 0
  | j + 1 => owedR c j + tallyAt (recvCell (add c (15 - j)) (off (15 - j))) () Nc
/-- The same for the barrier units owed on top of all the receive credits: signal 1 peels the last summand of `owedB c 15`. -/
def owedB (c : Dev nD) : ℕ → CellTallies nD τ sig Unit
  | 0 => owedR c 15
  | j + 1 => owedB c j + tallyAt (barCell (add c (15 - j))) () 1
/-- What device `c` owes at launch: one barrier unit to each peer and one block's credit to each peer's receive cell. -/
def O₀ (c : Dev nD) : CellTallies nD τ sig Unit := owedB c 15

def L (g : GSem nD τ sig) : Finset Unit := if g.1.2 = .tc then {()} else ∅
/-- Barrier cells at 1, receive cells at 2, everything else (staging, send) at 0. -/
def lv (g : GSem nD τ sig) (_ : Unit) : ℕ := match g.2 with
  | .reg _ => 1
  | .dma q => if 18 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## Ghost state -/

/-- Every cell's invariant, under the names `K` the launch allocated them at, and that round 0 of every cell is reached. -/
def records (K : Dev nD × CK → ℕ) : sProp 𝕄 :=
  iprop((bigSep Finset.univ fun ck : Dev nD × CK => cellInv ER (Rd m ρ) (K ck) (kcell ck))
    ∗ bigSep Finset.univ fun ck : Dev nD × CK => reached ER (kcell ck) 0)

instance records_persistent (K : Dev nD × CK → ℕ) : BI.Persistent (records m ρ K) := by unfold records; infer_instance

theorem inv_at (K : Dev nD × CK → ℕ) (ck : Dev nD × CK) : records m ρ K ⊢ cellInv ER (Rd m ρ) (K ck) (kcell ck) := by
  have h : (bigSep Finset.univ fun ck : Dev nD × CK => (cellInv ER (Rd m ρ) (K ck) (kcell ck) : sProp 𝕄)) ⊢ cellInv ER (Rd m ρ) (K ck) (kcell ck) :=
    bigSep_elim (Finset.mem_univ ck)
  unfold records; iintro ⟨H, -⟩; iapply h; iexact H
theorem reached_at (K : Dev nD × CK → ℕ) (ck : Dev nD × CK) : records m ρ K ⊢ (reached ER (kcell ck) 0 : sProp 𝕄) := by
  have h : (bigSep Finset.univ fun ck : Dev nD × CK => (reached ER (kcell ck) 0 : sProp 𝕄)) ⊢ reached ER (kcell ck) 0 :=
    bigSep_elim (Finset.mem_univ ck)
  unfold records; iintro ⟨-, H⟩; iapply h; iexact H

/-- The tokens of the duties device `c` pays: signal `j` pays duty `neg j` of the barrier cell of the device `j` places after it;
    transfer `k` pays its own send cell `k` and the receive cell `k` of the device `k` places after it. -/
def payToks (c : Dev nD) : sProp 𝕄 :=
  iprop((bigSep (Finset.univ.erase (0 : Fin 16)) fun j => dutyTok ER (barCell (add c j.val)) 0 (neg j))
    ∗ (bigSep (Finset.univ.erase (0 : Fin 16)) fun k => dutyTok ER (sendCell c k) 0 0)
    ∗ (bigSep (Finset.univ.erase (0 : Fin 16)) fun k => dutyTok ER (recvCell (add c k.val) k) 0 0))
/-- Device `c`'s positions at round 0 of its 33 cells. -/
def positions (c : Dev nD) : sProp 𝕄 := bigSep Finset.univ fun ck : CK => atPos ER (kcell (c, ck)) 0 ∅ 0
def linear (c : Dev nD) : sProp 𝕄 := iprop(positions (F := F) c ∗ payToks (F := F) c)

/-- The ghost state device `c` starts from. -/
def ghost (K : Dev nD × CK → ℕ) (c : Dev nD) : sProp 𝕄 := iprop(records m ρ K ∗ linear (F := F) c)

/-- The credit the launch deals device `c`: fifteen barrier units, and the block's credit on each receive cell. -/
def creds (c : Dev nD) : sProp 𝕄 :=
  iprop(cred (tallyAt (barCell c) () 15) ∗ bigSep (Finset.univ.erase (0 : Fin 16)) fun k => cred (tallyAt (recvCell c k) () Nc))

/-- What device `c`'s body starts from. -/
def start (c : Dev nD) : sProp 𝕄 := iprop((∃ K, ghost m ρ K c) ∗ creds (F := F) c ∗ levAts L lv)

/-- The communication buffer, whole, at some contents. -/
def scrAny (c : Dev nD) : sProp 𝕄 := iprop(∃ f : Buf (Elt F) ((c : Thread nD τ).loc cc0_scratch0), ((c : Thread nD τ).loc cc0_scratch0) ↦{fullShare} f)
/-- The kernel's own 32 semaphores at zero. -/
def ownZero (c : Dev nD) : sProp 𝕄 := bigSep Finset.univ fun bk : Bool × Fin 16 => semVal ((c : Thread nD τ), osem bk) 0

def Φ₀ (c : Dev nD) : sProp 𝕄 := iprop(start m ρ c ∗ scrAny (F := F) c)
def Φ₁ (c : Dev nD) : sProp 𝕄 := iprop(scrAny (F := F) c ∗ ownZero (F := F) c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

end Cert.KernelIdeal.Pf

end
-- ==== Proof.KernelIdealPf.BodySpec.lean ====
/-
  What one device's kernel body is entered with and what it leaves: the interface between the body's proof and the launch.
-/
import proofs.«900914_g7700000000000915_dist_max_ax0_shard0_i_m2048_n1024_v7x_i16_bf16_1_alg».proof.Proof.KernelIdealPf.Sched

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A staging buffer held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition on device `c`, the cells' invariants under the names `K`: its ghost state, the launch's credit, the
    levels, the communication buffer at some contents, what it owes, and its two staging buffers as the pipeline fetched them. -/
def bodyPre (K : Dev nD × CK → ℕ) (c : Dev nD) : sProp 𝕄 :=
  iprop((ghost m ρ K c ∗ creds (F := F) c ∗ levAts L lv ∗ scrAny (F := F) c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What the body leaves: the communication buffer, its 32 own semaphores back at zero, nothing owed, the input staging
    buffer as found and the output staging buffer at the maximum over all sixteen devices. -/
def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

end Cert.KernelIdeal.Pf

end
-- ==== Proof.KernelIdealPf.Steps.lean ====
/-
  One lemma per kind of step of the sixteen-device maximum's body, each in weakest-precondition form: the signal of the
  entry handshake, the barrier wait, a transfer to the device `k` places on, the two waits of a transfer, the vector
  load of a slot, the store of the device's own maxima, and the closing of a cell no duty remains on.
-/
import proofs.«900914_g7700000000000915_dist_max_ax0_shard0_i_m2048_n1024_v7x_i16_bf16_1_alg».proof.Proof.KernelIdealPf.BodySpec
import Idealize.ShloMosaic.Lib.Rounds
import Idealize.ShloMosaic.Rules.Step
import Idealize.ShloMosaic.Rules.Acct
import Idealize.ShloMosaic.Rules.Footprints
import Idealize.ShloMosaic.Rules.PointsTo

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

-- the schedule's tables, as the equations the executor reads a step's duty, amount and payload off
attribute [local sl_rounds] duties_bar duties_send duties_recv amount_bar amount_send amount_recv expect_bar expect_send expect_recv payload_bar payload_send payload_recv

/-! ## The ring's arithmetic at the offsets -/

theorem neg_ne_zero {j : Fin 16} (hj : j ≠ 0) : neg j ≠ 0 := by
  intro h
  have h1 : (16 - j.val) % 16 = 0 := congrArg Fin.val h
  have h2 : j.val ≠ 0 := fun h0 => hj (Fin.ext h0)
  have := j.isLt
  omega

/-- Going `j` on and then `neg j` on comes back. -/
theorem add_add_neg (c : Dev nD) (j : Fin 16) : add (add c j.val) (neg j).val = c := by
  apply Fin.ext
  have hc : c.val < 16 := c.isLt
  have hj : j.val < 16 := j.isLt
  show ((c.val + j.val) % 16 + (16 - j.val) % 16) % 16 = c.val
  omega

/-! ## The signal of the entry handshake -/

/-- Signal `j`: one unit on the barrier cell of the device `j` places on, paying its duty `neg j` with the device's own
    receive slot `neg j`. -/
theorem step_signal (K : Dev nD × CK → ℕ) (c : Dev nD) (j : Fin 16) (hj : j ≠ 0) (n : Dev nD) (hn : n = add c j.val)
    (O : CellTallies nD τ sig Unit) {W : Waits sig Unit}
    {α : Type} {Q : α → sProp 𝕄} {k : PUnit → Prog (TpuEff nD τ sig (Elt F) Λ₀ .tc) α} :
    iprop(records m ρ K ∗ dutyTok ER (barCell (add c j.val)) 0 (neg j) ∗ (∃ f, slotPts (F := F) c (neg j) fullShare f)
        ∗ owes (c : Thread nD τ) (O + tallyAt (barCell (add c j.val)) () 1) W)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  iintro ⟨#HR, Htok, Hslot, HO⟩ Hk
  ihave #HI := (show records m ρ K ⊢ cellInv ER (Rd m ρ) (K (add c j.val, none)) (barCell (add c j.val)) from inv_at m ρ K (add c j.val, none)) $$ HR
  ihave #Hr := (show records m ρ K ⊢ (reached ER (barCell (add c j.val)) 0 : sProp 𝕄) from reached_at m ρ K (add c j.val, none)) $$ HR
  ihave #Hrr := (show records m ρ K ⊢ (reached ER (recvCell c (neg j)) 0 : sProp 𝕄) from reached_at m ρ K (c, some (true, neg j))) $$ HR
  ihave Hpay : barPay (F := F) (add c j.val) (neg j) $$ [Hslot]
  · unfold barPay; rw [add_add_neg]
    isplitl [Hslot]; · iexact Hslot
    iexact Hrr
  sl_exec (disch := first | exact neg_ne_zero hj | rfl | decide)
  iapply Hk
  iexact HO
/-! ## The barrier wait -/

/-- What a device owes before its transfers is owed to receive cells only. -/
theorem owedR_pos {c : Dev nD} : ∀ (j : ℕ) {g : GSem nD τ sig} {u : Unit}, 0 < owedR c j g u → ∃ (d : Dev nD) (k : Fin 16), g = recvCell d k
  | 0, g, u, h => absurd h (Nat.lt_irrefl 0)
  | j + 1, g, u, h => by
    rcases Pipeline.add_pos_cases h with h1 | h2
    · exact owedR_pos j h1
    · rw [tallyAt_apply] at h2
      by_cases hh : g = recvCell (add c (15 - j)) (off (15 - j)) ∧ u = ()
      · exact ⟨_, _, hh.1⟩
      · rw [if_neg hh] at h2; exact absurd h2 (Nat.lt_irrefl 0)

omit [FloatOps F] in
/-- At its barrier wait a device owes receive credits only: receive cells sit above the barrier cells. -/
theorem mayWait_bar (c : Dev nD) :
    (levAts L lv : sProp 𝕄) ⊢ MayWait (c : Thread nD τ) (.reg barS) () (owedR c 15) :=
  MayOwe.of_cut (L := L) (lev := lv) 1
    (fun p hp => by rw [Finset.mem_singleton.mp hp, L_tc]; exact Finset.mem_singleton_self _)
    (fun g u hg => by obtain ⟨d, k, rfl⟩ := owedR_pos 15 hg; rw [L_tc]; exact Finset.mem_singleton_self _)
    (fun p hp => by rw [Finset.mem_singleton.mp hp]; exact le_refl _)
    (fun g u hg => by
      obtain ⟨d, k, rfl⟩ := owedR_pos 15 hg
      show 1 < (if 18 ≤ (recvQ k).val then 2 else 0)
      rw [if_pos (show 18 ≤ (recvQ k).val from Nat.le_add_right 18 k.val)]; decide)

/-- The barrier wait: fifteen units, for the fifteen peers' receive slots. -/
theorem step_barwait (K : Dev nD × CK → ℕ) (c : Dev nD) {W : Waits sig Unit}
    {α : Type} {Q : α → sProp 𝕄} {k : PUnit → Prog (TpuEff nD τ sig (Elt F) Λ₀ .tc) α} :
    iprop(records m ρ K ∗ cred (tallyAt (barCell c) () 15) ∗ owes (c : Thread nD τ) (owedR c 15) W ∗ levAts L lv
        ∗ atPos ER (barCell c) 0 ∅ 0)
      ⊢ iprop(((owes (c : Thread nD τ) (owedR c 15) (insert (SemLoc.reg barS, ()) W) ∗ atPos ER (barCell c) 1 ∅ 0
              ∗ bigSep (Finset.univ.erase (0 : Fin 16)) (fun d => barPay (F := F) c d))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 15) k) Q) := by
  iintro ⟨#HR, Hc, HO, #Hlev, Hat⟩ Hk
  ihave #HI := (show records m ρ K ⊢ cellInv ER (Rd m ρ) (K (c, none)) (barCell c) from inv_at m ρ K (c, none)) $$ HR
  ihave #HM := (mayWait_bar c) $$ Hlev
  sl_exec
  iapply Hk
  isplitl [HO]; · iexact HO
  isplitl [Hat]; · iexact Hat
  iapply (Entails.of_eq ((congrArg (fun S => bigSep S fun d => (Rd (F := F) m ρ).payload (barCell c) 0 d) (Finset.sdiff_empty).symm).trans (rest_bar m ρ c))) $$ [Hat_pay1]
  iexact Hat_pay1
/-! ## A transfer -/

/-- Transfer `k`: the device's slot 0 into slot `k` of the device `k` places on. The read share of slot 0 is the send
    cell's payload; the slot it lands in, now holding the sender's maxima, is the receive cell's. -/
theorem step_send (K : Dev nD × CK → ℕ) (c : Dev nD) (k : Fin 16) (hk : k ≠ 0) (n : Dev nD) (hn : n = add c k.val)
    (O : CellTallies nD τ sig Unit) {W : Waits sig Unit}
    (fd : Buf (Elt F) (((add c k.val : Dev nD) : Thread nD τ).loc cc0_scratch0))
    {hsc : (slotM k.val k.isLt : Memref sig (Dev.tc n : Thread nD τ).2.kind .vmem S1x1024 .bf16).view.ref.isScScratch = false}
    {hsrc : (slotM 0 h0 : Memref sig .tc .vmem S1x1024 .bf16).view.WordExact}
    {hdst : (slotM k.val k.isLt : Memref sig .tc .vmem S1x1024 .bf16).view.WordExact}
    {hsem : DmaTarget.Typed .vmem (.dma (recvQ k)) (.remote (Dev.tc n : Thread nD τ) (slotM k.val k.isLt) (.dma (sendQ k)) hsc)}
    {α : Type} {Q : α → sProp 𝕄} {kk : PUnit → Prog (TpuEff nD τ sig (Elt F) Λ₀ .tc) α} :
    iprop(records m ρ K ∗ slotPts c 0 (Transfers.shareTok fullShare 16 k) (rep c (mine m ρ c))
        ∗ slotPts (add c k.val) k fullShare fd
        ∗ owes (c : Thread nD τ) (O + tallyAt (recvCell (add c k.val) k) () Nc) W
        ∗ dutyTok ER (sendCell c k) 0 0 ∗ dutyTok ER (recvCell (add c k.val) k) 0 0)
      ⊢ iprop(((cred (tallyAt (sendCell c k) () Nc) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM 0 h0) (.remote (Dev.tc n : Thread nD τ) (slotM k.val k.isLt) (.dma (sendQ k)) hsc)
                (.dma (recvQ k)) hsrc hdst hsem) kk) Q) := by
  subst hn
  unfold slotPts
  iintro ⟨#HR, Hs, Hd, HO, Ht1, Ht2⟩
  iapply (Rounds.wp_send_pointsTo 𝒱₀ ER (Rd m ρ) (c : Thread nD τ) none (c' := (add c k.val : Thread nD τ))
      (src := slotM 0 h0) (dst := slotM k.val k.isLt) (sS := .dma (sendQ k)) (sem := .dma (recvQ k))
      (q := Transfers.shareTok fullShare 16 k) (fs := rep c (mine m ρ c)) (fd := fd)
      (κ₁ := K (c, some (false, k))) (κ₂ := K (add c k.val, some (true, k))) (r₁ := 0) (r₂ := 0) (d₁ := 0) (d₂ := 0)
      (by rw [duties_send m ρ c k hk]; exact Finset.mem_singleton_self _)
      (by rw [duties_recv m ρ (add c k.val) k hk]; exact Finset.mem_singleton_self _)
      () () Nc (slot_credit k.val k.isLt (recvQ k)) (amount_send m ρ c k 0) (amount_recv m ρ (add c k.val) k 0) O rfl (W := W)
      (by rw [payload_send, slotM_set c 0 h0]; exact BI.Entails.refl _)
      (by
        rw [payload_recv, slotM_set (add c k.val) k.val k.isLt]
        unfold recvPay slotPts
        rw [sub_add]
        exact Entails.of_eq (pointsTo_congr (land_rep c (add c k.val) k.val k.isLt (mine m ρ c) (rep c (mine m ρ c)) fd (fun _ _ => rfl)))))
    $$ [Hs Hd HO Ht1 Ht2]
  isplitr; · iapply (inv_at m ρ K (c, some (false, k))); iexact HR
  isplitr; · iapply (inv_at m ρ K (add c k.val, some (true, k))); iexact HR
  isplitl [Hs]; · rw [slotM_set c 0 h0]; iexact Hs
  isplitl [Hd]; · rw [slotM_set (add c k.val) k.val k.isLt]; iexact Hd
  isplitl [HO]; · iexact HO
  isplitl [Ht1]; · iexact Ht1
  isplitr; · iapply (reached_at m ρ K (c, some (false, k))); iexact HR
  isplitl [Ht2]; · iexact Ht2
  iapply (reached_at m ρ K (add c k.val, some (true, k))); iexact HR

/-! ## The two waits of a transfer -/

/-- Receive wait `k`: the block's credit, for the slot `k` holding the maxima of the device `k` places before. -/
theorem step_recvwait (K : Dev nD × CK → ℕ) (c : Dev nD) (k : Fin 16) (hk : k ≠ 0) {W : Waits sig Unit}
    {hs : (slotM 0 h0 : Memref sig .tc .vmem S1x1024 .bf16).view.WordExact}
    {hd : (slotM k.val k.isLt : Memref sig .tc .vmem S1x1024 .bf16).view.WordExact}
    {α : Type} {Q : α → sProp 𝕄} {kk : PUnit → Prog (TpuEff nD τ sig (Elt F) Λ₀ .tc) α} :
    iprop(records m ρ K ∗ cred (tallyAt (recvCell c k) () Nc) ∗ owes (c : Thread nD τ) 0 W ∗ atPos ER (recvCell c k) 0 ∅ 0)
      ⊢ iprop(((owes (c : Thread nD τ) 0 (insert (SemLoc.dma (recvQ k), ()) W) ∗ atPos ER (recvCell c k) 1 ∅ 0 ∗ recvPay m ρ c k)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (recvQ k) (slotM 0 h0) (slotM k.val k.isLt) hs hd) kk) Q) := by
  have he : (Rd (F := F) m ρ).expect (recvCell c k) 0 = Nc := expect_recv m ρ c k hk
  iintro ⟨#HR, Hc, HO, Hat⟩ Hk
  ihave #HI := (show records m ρ K ⊢ cellInv ER (Rd m ρ) (K (c, some (true, k))) (recvCell c k) from inv_at m ρ K (c, some (true, k))) $$ HR
  sl_exec (disch := first | exact hk | (rw [he]) | rfl | decide)
  iapply Hk
  isplitl [HO]; · iexact HO
  isplitl [Hat]; · iexact Hat
  iexact Hat_pay1

/-- Send wait `k`: the block's credit, for the read share `k` of the own slot 0. -/
theorem step_sendwait (K : Dev nD × CK → ℕ) (c : Dev nD) (k : Fin 16) (hk : k ≠ 0) {W : Waits sig Unit}
    {hs : (slotM k.val k.isLt : Memref sig .tc .vmem S1x1024 .bf16).view.WordExact}
    {hd : (slotM 0 h0 : Memref sig .tc .vmem S1x1024 .bf16).view.WordExact}
    {α : Type} {Q : α → sProp 𝕄} {kk : PUnit → Prog (TpuEff nD τ sig (Elt F) Λ₀ .tc) α} :
    iprop(records m ρ K ∗ cred (tallyAt (sendCell c k) () Nc) ∗ owes (c : Thread nD τ) 0 W ∗ atPos ER (sendCell c k) 0 ∅ 0)
      ⊢ iprop(((owes (c : Thread nD τ) 0 (insert (SemLoc.dma (sendQ k), ()) W) ∗ atPos ER (sendCell c k) 1 ∅ 0 ∗ sendPay m ρ c k)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (sendQ k) (slotM k.val k.isLt) (slotM 0 h0) hs hd) kk) Q) := by
  have he : (Rd (F := F) m ρ).expect (sendCell c k) 0 = Nc := expect_send m ρ c k hk
  iintro ⟨#HR, Hc, HO, Hat⟩ Hk
  ihave #HI := (show records m ρ K ⊢ cellInv ER (Rd m ρ) (K (c, some (false, k))) (sendCell c k) from inv_at m ρ K (c, some (false, k))) $$ HR
  sl_exec (disch := first | exact hk | (rw [he]) | rfl | decide)
  iapply Hk
  isplitl [HO]; · iexact HO
  isplitl [Hat]; · iexact Hat
  iexact Hat_pay1

/-! ## The vector load of a slot, the store of the own maxima -/

/-- A load of row `k` from a slot that agrees with `rep c v` reads `v`, at any share. -/
theorem step_load (c : Dev nD) (k : Fin 16) (q : PosShare TreeShare) (v : Vec F S1x1x1024 .bf16)
    (f : Buf (Elt F) ((c : Thread nD τ).loc cc0_scratch0)) (hf : ∀ i ∈ slotSet c k.val k.isLt, f i = rep c v i)
    {hl : (cM : Memref sig .tc .vmem S16x1x1024 .bf16).view.LoadsAt (slotR k.val k.isLt).toLoadRect}
    {α : Type} {Q : α → sProp 𝕄} {kk : Vec F S1x1x1024 .bf16 → Prog (TpuEff nD τ sig (Elt F) Λ₀ .tc) α} :
    slotPts c k q f
      ⊢ iprop((slotPts c k q f -∗ wp frame (wpE (defs₀ (F := F)) 𝒱₀ (c : Thread nD τ) none) Set.univ (kk v) Q)
          -∗ wp frame (wpE (defs₀ (F := F)) 𝒱₀ (c : Thread nD τ) none) Set.univ
              (.op (.load cM (slotR k.val k.isLt).toLoadRect hl) kk) Q) := by
  unfold slotPts
  rw [← load_rep c k.val k.isLt v f hf]
  exact wp_load 𝒱₀ (c : Thread nD τ) none Set.univ (m := cM) (r := (slotR k.val k.isLt).toLoadRect) (load_sub c k.val k.isLt)

/-- The full store of `w` into row 0 leaves slot 0 holding `w`. -/
theorem step_store0 (c : Dev nD) (w : Vec F S1x1x1024 .bf16) (f : Buf (Elt F) ((c : Thread nD τ).loc cc0_scratch0))
    {hx : ((cM : Memref sig .tc .vmem S16x1x1024 .bf16).access (slotR 0 h0) : View sig .tc _ _ _).Stores Finset.univ}
    {hm : (Finset.univ : Finset (slotR 0 h0).shape.Idx) = Finset.univ ∨ ∀ a, (slotR 0 h0).stride a = 1}
    {α : Type} {Q : α → sProp 𝕄} {kk : PUnit → Prog (TpuEff nD τ sig (Elt F) Λ₀ .tc) α} :
    slotPts c 0 fullShare f
      ⊢ iprop((slotPts c 0 fullShare (rep c w) -∗ wp frame (wpE (defs₀ (F := F)) 𝒱₀ (c : Thread nD τ) none) Set.univ (kk ⟨⟩) Q)
          -∗ wp frame (wpE (defs₀ (F := F)) 𝒱₀ (c : Thread nD τ) none) Set.univ
              (.op (.store cM (slotR 0 h0) w Finset.univ hx hm) kk) Q) := by
  unfold slotPts
  rw [← pointsTo_congr (store_rep c (0 : Fin 16).val (0 : Fin 16).isLt w f)]
  exact wp_store 𝒱₀ (c : Thread nD τ) none Set.univ (m := cM) (r := slotR 0 h0) (Mk := Finset.univ) (store_sub c 0 h0)

/-! ## Closing a cell -/

/-- A send cell no duty remains on — cell 0 from the start, the others after their one round — closes at zero. -/
theorem close_send (K : Dev nD × CK → ℕ) (c : Dev nD) (k : Fin 16) (R : ℕ) (hR : k = 0 ∨ 1 ≤ R) :
    iprop(records m ρ K ∗ atPos ER (sendCell c k) R ∅ 0) ⊢ (|={Set.univ}=> semVal (sendCell c k) 0 : sProp 𝕄) := by
  iintro ⟨#HR, Hat⟩
  iapply (Rounds.cell_close ER (Rd m ρ) (g := sendCell c k) (κ := K (c, some (false, k))) (Set.mem_univ _) (fun h => h) (R := R)
    (fun r hr => by
      rcases hR with rfl | h1
      · exact duties_send0 m ρ c r
      · exact duties_later m ρ (sendCell c k) r (Nat.le_trans h1 hr)))
  isplitr; · iapply (inv_at m ρ K (c, some (false, k))); iexact HR
  iexact Hat

/-- The same for a receive cell. -/
theorem close_recv (K : Dev nD × CK → ℕ) (c : Dev nD) (k : Fin 16) (R : ℕ) (hR : k = 0 ∨ 1 ≤ R) :
    iprop(records m ρ K ∗ atPos ER (recvCell c k) R ∅ 0) ⊢ (|={Set.univ}=> semVal (recvCell c k) 0 : sProp 𝕄) := by
  iintro ⟨#HR, Hat⟩
  iapply (Rounds.cell_close ER (Rd m ρ) (g := recvCell c k) (κ := K (c, some (true, k))) (Set.mem_univ _) (fun h => h) (R := R)
    (fun r hr => by
      rcases hR with rfl | h1
      · exact duties_recv0 m ρ c r
      · exact duties_later m ρ (recvCell c k) r (Nat.le_trans h1 hr)))
  isplitr; · iapply (inv_at m ρ K (c, some (true, k))); iexact HR
  iexact Hat

/-- info: 'Cert.KernelIdeal.Pf.step_signal' depends on axioms: [propext, Classical.choice, Quot.sound] -/
#guard_msgs in #print axioms step_signal
/-- info: 'Cert.KernelIdeal.Pf.step_barwait' depends on axioms: [propext, Classical.choice, Quot.sound] -/
#guard_msgs in #print axioms step_barwait
/-- info: 'Cert.KernelIdeal.Pf.step_send' depends on axioms: [propext, Classical.choice, Quot.sound] -/
#guard_msgs in #print axioms step_send
/-- info: 'Cert.KernelIdeal.Pf.step_recvwait' depends on axioms: [propext, Classical.choice, Quot.sound] -/
#guard_msgs in #print axioms step_recvwait
/-- info: 'Cert.KernelIdeal.Pf.step_sendwait' depends on axioms: [propext, Classical.choice, Quot.sound] -/
#guard_msgs in #print axioms step_sendwait
/-- info: 'Cert.KernelIdeal.Pf.step_load' depends on axioms: [propext, Classical.choice, Quot.sound] -/
#guard_msgs in #print axioms step_load
/-- info: 'Cert.KernelIdeal.Pf.step_store0' depends on axioms: [propext, Classical.choice, Quot.sound] -/
#guard_msgs in #print axioms step_store0
/-- info: 'Cert.KernelIdeal.Pf.close_send' depends on axioms: [propext, Classical.choice, Quot.sound] -/
#guard_msgs in #print axioms close_send
/-- info: 'Cert.KernelIdeal.Pf.close_recv' depends on axioms: [propext, Classical.choice, Quot.sound] -/
#guard_msgs in #print axioms close_recv

end Cert.KernelIdeal.Pf

end
-- ==== Proof.KernelIdealPf.BodyA.lean ====
/-
  The entry handshake of the kernel body on one device, printed part by printed part: the fifteen signals, each handing
  the device one of this device's receive slots; then the load of the input block, the store of its column maxima into
  slot 0, and the wait for the fifteen peers' signals.
-/
import proofs.«900914_g7700000000000915_dist_max_ax0_shard0_i_m2048_n1024_v7x_i16_bf16_1_alg».proof.Proof.KernelIdealPf.Steps

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem part1_spec (K : Dev nD × CK → ℕ) (c : Dev nD)  (W : Waits sig Unit)
    {Q : (Σ' (d0 : Dev nD) (v2 : BitVec 32) (v3 : Sems sig S_) (v30 : BitVec 32) (c16_i32_18 : BitVec 32), BitVec 1) → sProp 𝕄} :
    iprop(records m ρ K
        ∗ dutyTok ER (barCell (add c 1)) 0 (neg (fk 1)) ∗ (∃ f, slotPts (F := F) c (neg (fk 1)) fullShare f)
        ∗ dutyTok ER (barCell (add c 2)) 0 (neg (fk 2)) ∗ (∃ f, slotPts (F := F) c (neg (fk 2)) fullShare f)
        ∗ owes (c : Thread nD τ) (owedB c 15) W)
      ⊢ iprop((∀ r, iprop(owes (c : Thread nD τ) (owedB c 13) W ∗ ⌜r.1 = c ∧ r.2.2.1 = (SemArray.scalar (sig.barrier 0 rfl) : Sems sig S_)⌝) -∗ Q r)
          -∗ wp frame (wpE (defs₀ (F := F)) 𝒱₀ (c : Thread nD τ) none) Set.univ
              (k0_part1 (Memref.whole cc0_stg0_0) (Memref.isWhole_whole _) (Memref.whole cc0_stg1_0) (Memref.isWhole_whole _) (Memref.whole cc0_scratch0) (Memref.isWhole_whole _) cc0_scratch1 cc0_scratch2 ) Q) := by
  rw [k0_part1_eq_skeleton]; unfold k0_part1_skel
  simp only [semSignalWord, Prog.lift, Prog.bind_op, Prog.bind_ret, Prog.pure_eq_ret, wp_deviceId]
  iintro ⟨#HR, Ht1, Hs1, Ht2, Hs2, HO⟩ Hk
  iapply (step_signal m ρ K c (fk 1) (by decide) _ (dev1_eq c) (owedB c 14)) $$ [Ht1 Hs1 HO]
  · isplitr; · iexact HR
    isplitl [Ht1]; · iexact Ht1
    isplitl [Hs1]; · iexact Hs1
    iexact HO
  iintro HO
  iapply (step_signal m ρ K c (fk 2) (by decide) _ (dev2_eq c) (owedB c 13)) $$ [Ht2 Hs2 HO]
  · isplitr; · iexact HR
    isplitl [Ht2]; · iexact Ht2
    isplitl [Hs2]; · iexact Hs2
    iexact HO
  iintro HO
  rw [wp_ret]
  imodintro
  iapply Hk
  isplitl [HO]; · iexact HO
  ipureintro; exact ⟨rfl, rfl⟩

theorem part2_spec (K : Dev nD × CK → ℕ) (c : Dev nD) (v2 : BitVec 32) (v30 : BitVec 32) (c16_i32_18 : BitVec 32) (v31 : BitVec 1) (W : Waits sig Unit)
    {Q : (Σ' (v59 : BitVec 32) (v64 : BitVec 1), BitVec 32) → sProp 𝕄} :
    iprop(records m ρ K
        ∗ dutyTok ER (barCell (add c 3)) 0 (neg (fk 3)) ∗ (∃ f, slotPts (F := F) c (neg (fk 3)) fullShare f)
        ∗ dutyTok ER (barCell (add c 4)) 0 (neg (fk 4)) ∗ (∃ f, slotPts (F := F) c (neg (fk 4)) fullShare f)
        ∗ owes (c : Thread nD τ) (owedB c 13) W)
      ⊢ iprop((∀ r, owes (c : Thread nD τ) (owedB c 11) W -∗ Q r)
          -∗ wp frame (wpE (defs₀ (F := F)) 𝒱₀ (c : Thread nD τ) none) Set.univ
              (k0_part2 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl) : Sems sig S_) v30 c16_i32_18 v31) Q) := by
  rw [k0_part2_eq_skeleton]; unfold k0_part2_skel
  simp only [semSignalWord, Prog.lift, Prog.bind_op, Prog.bind_ret, Prog.pure_eq_ret]
  iintro ⟨#HR, Ht3, Hs3, Ht4, Hs4, HO⟩ Hk
  iapply (step_signal m ρ K c (fk 3) (by decide) _ (dev3_eq c) (owedB c 12)) $$ [Ht3 Hs3 HO]
  · isplitr; · iexact HR
    isplitl [Ht3]; · iexact Ht3
    isplitl [Hs3]; · iexact Hs3
    iexact HO
  iintro HO
  iapply (step_signal m ρ K c (fk 4) (by decide) _ (dev4_eq c) (owedB c 11)) $$ [Ht4 Hs4 HO]
  · isplitr; · iexact HR
    isplitl [Ht4]; · iexact Ht4
    isplitl [Hs4]; · iexact Hs4
    iexact HO
  iintro HO
  rw [wp_ret]
  imodintro
  iapply Hk
  iexact HO

theorem part3_spec (K : Dev nD × CK → ℕ) (c : Dev nD) (v2 : BitVec 32) (v59 : BitVec 32) (v64 : BitVec 1) (v65 : BitVec 32) (W : Waits sig Unit)
    {Q : (Σ' (v95 : BitVec 32) (c16_i32_63 : BitVec 32), BitVec 1) → sProp 𝕄} :
    iprop(records m ρ K
        ∗ dutyTok ER (barCell (add c 5)) 0 (neg (fk 5)) ∗ (∃ f, slotPts (F := F) c (neg (fk 5)) fullShare f)
        ∗ dutyTok ER (barCell (add c 6)) 0 (neg (fk 6)) ∗ (∃ f, slotPts (F := F) c (neg (fk 6)) fullShare f)
        ∗ dutyTok ER (barCell (add c 7)) 0 (neg (fk 7)) ∗ (∃ f, slotPts (F := F) c (neg (fk 7)) fullShare f)
        ∗ owes (c : Thread nD τ) (owedB c 11) W)
      ⊢ iprop((∀ r, owes (c : Thread nD τ) (owedB c 8) W -∗ Q r)
          -∗ wp frame (wpE (defs₀ (F := F)) 𝒱₀ (c : Thread nD τ) none) Set.univ
              (k0_part3 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl) : Sems sig S_) v59 v64 v65) Q) := by
  rw [k0_part3_eq_skeleton]; unfold k0_part3_skel
  simp only [semSignalWord, Prog.lift, Prog.bind_op, Prog.bind_ret, Prog.pure_eq_ret]
  iintro ⟨#HR, Ht5, Hs5, Ht6, Hs6, Ht7, Hs7, HO⟩ Hk
  iapply (step_signal m ρ K c (fk 5) (by decide) _ (dev5_eq c) (owedB c 10)) $$ [Ht5 Hs5 HO]
  · isplitr; · iexact HR
    isplitl [Ht5]; · iexact Ht5
    isplitl [Hs5]; · iexact Hs5
    iexact HO
  iintro HO
  iapply (step_signal m ρ K c (fk 6) (by decide) _ (dev6_eq c) (owedB c 9)) $$ [Ht6 Hs6 HO]
  · isplitr; · iexact HR
    isplitl [Ht6]; · iexact Ht6
    isplitl [Hs6]; · iexact Hs6
    iexact HO
  iintro HO
  iapply (step_signal m ρ K c (fk 7) (by decide) _ (dev7_eq c) (owedB c 8)) $$ [Ht7 Hs7 HO]
  · isplitr; · iexact HR
    isplitl [Ht7]; · iexact Ht7
    isplitl [Hs7]; · iexact Hs7
    iexact HO
  iintro HO
  rw [wp_ret]
  imodintro
  iapply Hk
  iexact HO

theorem part4_spec (K : Dev nD × CK → ℕ) (c : Dev nD) (v2 : BitVec 32) (v95 : BitVec 32) (c16_i32_63 : BitVec 32) (v96 : BitVec 1) (W : Waits sig Unit)
    {Q : (Σ' (v124 : BitVec 32) (v129 : BitVec 1), BitVec 32) → sProp 𝕄} :
    iprop(records m ρ K
        ∗ dutyTok ER (barCell (add c 8)) 0 (neg (fk 8)) ∗ (∃ f, slotPts (F := F) c (neg (fk 8)) fullShare f)
        ∗ dutyTok ER (barCell (add c 9)) 0 (neg (fk 9)) ∗ (∃ f, slotPts (F := F) c (neg (fk 9)) fullShare f)
        ∗ owes (c : Thread nD τ) (owedB c 8) W)
      ⊢ iprop((∀ r, owes (c : Thread nD τ) (owedB c 6) W -∗ Q r)
          -∗ wp frame (wpE (defs₀ (F := F)) 𝒱₀ (c : Thread nD τ) none) Set.univ
              (k0_part4 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl) : Sems sig S_) v95 c16_i32_63 v96) Q) := by
  rw [k0_part4_eq_skeleton]; unfold k0_part4_skel
  simp only [semSignalWord, Prog.lift, Prog.bind_op, Prog.bind_ret, Prog.pure_eq_ret]
  iintro ⟨#HR, Ht8, Hs8, Ht9, Hs9, HO⟩ Hk
  iapply (step_signal m ρ K c (fk 8) (by decide) _ (dev8_eq c) (owedB c 7)) $$ [Ht8 Hs8 HO]
  · isplitr; · iexact HR
    isplitl [Ht8]; · iexact Ht8
    isplitl [Hs8]; · iexact Hs8
    iexact HO
  iintro HO
  iapply (step_signal m ρ K c (fk 9) (by decide) _ (dev9_eq c) (owedB c 6)) $$ [Ht9 Hs9 HO]
  · isplitr; · iexact HR
    isplitl [Ht9]; · iexact Ht9
    isplitl [Hs9]; · iexact Hs9
    iexact HO
  iintro HO
  rw [wp_ret]
  imodintro
  iapply Hk
  iexact HO

theorem part5_spec (K : Dev nD × CK → ℕ) (c : Dev nD) (v2 : BitVec 32) (v124 : BitVec 32) (v129 : BitVec 1) (v130 : BitVec 32) (W : Waits sig Unit)
    {Q : (Σ' (v160 : BitVec 32) (c16_i32_108 : BitVec 32), BitVec 1) → sProp 𝕄} :
    iprop(records m ρ K
        ∗ dutyTok ER (barCell (add c 10)) 0 (neg (fk 10)) ∗ (∃ f, slotPts (F := F) c (neg (fk 10)) fullShare f)
        ∗ dutyTok ER (barCell (add c 11)) 0 (neg (fk 11)) ∗ (∃ f, slotPts (F := F) c (neg (fk 11)) fullShare f)
        ∗ dutyTok ER (barCell (add c 12)) 0 (neg (fk 12)) ∗ (∃ f, slotPts (F := F) c (neg (fk 12)) fullShare f)
        ∗ owes (c : Thread nD τ) (owedB c 6) W)
      ⊢ iprop((∀ r, owes (c : Thread nD τ) (owedB c 3) W -∗ Q r)
          -∗ wp frame (wpE (defs₀ (F := F)) 𝒱₀ (c : Thread nD τ) none) Set.univ
              (k0_part5 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl) : Sems sig S_) v124 v129 v130) Q) := by
  rw [k0_part5_eq_skeleton]; unfold k0_part5_skel
  simp only [semSignalWord, Prog.lift, Prog.bind_op, Prog.bind_ret, Prog.pure_eq_ret]
  iintro ⟨#HR, Ht10, Hs10, Ht11, Hs11, Ht12, Hs12, HO⟩ Hk
  iapply (step_signal m ρ K c (fk 10) (by decide) _ (dev10_eq c) (owedB c 5)) $$ [Ht10 Hs10 HO]
  · isplitr; · iexact HR
    isplitl [Ht10]; · iexact Ht10
    isplitl [Hs10]; · iexact Hs10
    iexact HO
  iintro HO
  iapply (step_signal m ρ K c (fk 11) (by decide) _ (dev11_eq c) (owedB c 4)) $$ [Ht11 Hs11 HO]
  · isplitr; · iexact HR
    isplitl [Ht11]; · iexact Ht11
    isplitl [Hs11]; · iexact Hs11
    iexact HO
  iintro HO
  iapply (step_signal m ρ K c (fk 12) (by decide) _ (dev12_eq c) (owedB c 3)) $$ [Ht12 Hs12 HO]
  · isplitr; · iexact HR
    isplitl [Ht12]; · iexact Ht12
    isplitl [Hs12]; · iexact Hs12
    iexact HO
  iintro HO
  rw [wp_ret]
  imodintro
  iapply Hk
  iexact HO

theorem part6_spec (K : Dev nD × CK → ℕ) (c : Dev nD) (v2 : BitVec 32) (v160 : BitVec 32) (c16_i32_108 : BitVec 32) (v161 : BitVec 1) (W : Waits sig Unit)
    {Q : (Σ' (v189 : BitVec 32) (v194 : BitVec 1), BitVec 32) → sProp 𝕄} :
    iprop(records m ρ K
        ∗ dutyTok ER (barCell (add c 13)) 0 (neg (fk 13)) ∗ (∃ f, slotPts (F := F) c (neg (fk 13)) fullShare f)
        ∗ dutyTok ER (barCell (add c 14)) 0 (neg (fk 14)) ∗ (∃ f, slotPts (F := F) c (neg (fk 14)) fullShare f)
        ∗ owes (c : Thread nD τ) (owedB c 3) W)
      ⊢ iprop((∀ r, owes (c : Thread nD τ) (owedB c 1) W -∗ Q r)
          -∗ wp frame (wpE (defs₀ (F := F)) 𝒱₀ (c : Thread nD τ) none) Set.univ
              (k0_part6 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl) : Sems sig S_) v160 c16_i32_108 v161) Q) := by
  rw [k0_part6_eq_skeleton]; unfold k0_part6_skel
  simp only [semSignalWord, Prog.lift, Prog.bind_op, Prog.bind_ret, Prog.pure_eq_ret]
  iintro ⟨#HR, Ht13, Hs13, Ht14, Hs14, HO⟩ Hk
  iapply (step_signal m ρ K c (fk 13) (by decide) _ (dev13_eq c) (owedB c 2)) $$ [Ht13 Hs13 HO]
  · isplitr; · iexact HR
    isplitl [Ht13]; · iexact Ht13
    isplitl [Hs13]; · iexact Hs13
    iexact HO
  iintro HO
  iapply (step_signal m ρ K c (fk 14) (by decide) _ (dev14_eq c) (owedB c 1)) $$ [Ht14 Hs14 HO]
  · isplitr; · iexact HR
    isplitl [Ht14]; · iexact Ht14
    isplitl [Hs14]; · iexact Hs14
    iexact HO
  iintro HO
  rw [wp_ret]
  imodintro
  iapply Hk
  iexact HO

theorem part7_spec (K : Dev nD × CK → ℕ) (c : Dev nD) (v2 : BitVec 32) (v189 : BitVec 32) (v194 : BitVec 1) (v195 : BitVec 32) (W : Waits sig Unit)
    {Q : (BitVec 32) → sProp 𝕄} :
    iprop(records m ρ K ∗ levAts L lv
        ∗ dutyTok ER (barCell (add c 15)) 0 (neg (fk 15)) ∗ (∃ f, slotPts (F := F) c (neg (fk 15)) fullShare f)
        ∗ (((c : Thread nD τ).loc cc0_stg0_0) ↦{fullShare} xstg m ρ c)
        ∗ (∃ f, slotPts (F := F) c 0 fullShare f)
        ∗ cred (tallyAt (barCell c) () 15) ∗ atPos ER (barCell c) 0 ∅ 0
        ∗ owes (c : Thread nD τ) (owedB c 1) W)
      ⊢ iprop((∀ r, iprop((((c : Thread nD τ).loc cc0_stg0_0) ↦{fullShare} xstg m ρ c)
            ∗ slotPts c 0 fullShare (rep c (mine m ρ c))
            ∗ atPos ER (barCell c) 1 ∅ 0
            ∗ bigSep (Finset.univ.erase (0 : Fin 16)) (fun d => barPay (F := F) c d)
            ∗ ∃ W', owes (c : Thread nD τ) (owedR c 15) W') -∗ Q r)
          -∗ wp frame (wpE (defs₀ (F := F)) 𝒱₀ (c : Thread nD τ) none) Set.univ
              (k0_part7 (Memref.whole cc0_stg0_0) (Memref.isWhole_whole _) (Memref.whole cc0_stg1_0) (Memref.isWhole_whole _) (Memref.whole cc0_scratch0) (Memref.isWhole_whole _) cc0_scratch1 cc0_scratch2 c v2 (SemArray.scalar (sig.barrier 0 rfl) : Sems sig S_) v189 v194 v195) Q) := by
  rw [k0_part7_eq_skeleton]; unfold k0_part7_skel
  simp only [semSignalWord, semWaitWord, Prog.lift, Prog.bind_op, Prog.bind_ret, Prog.pure_eq_ret]
  iintro ⟨#HR, #Hlev, Ht15, Hs15, Hx, ⟨%f0, H0⟩, Hc, Hat, HO⟩ Hk
  iapply (step_signal m ρ K c (fk 15) (by decide) _ (dev15_eq c) (owedB c 0)) $$ [Ht15 Hs15 HO]
  · isplitr; · iexact HR
    isplitl [Ht15]; · iexact Ht15
    isplitl [Hs15]; · iexact Hs15
    iexact HO
  iintro HO
  -- the load of the input block reads the staging buffer's contents
  iapply (wp_load 𝒱₀ (c : Thread nD τ) none Set.univ (m := xM) (Finset.subset_univ _)) $$ [Hx]
  · iexact Hx
  iintro Hx
  have hv : (xM : Memref sig .tc .vmem S2048x1024 .f32).view.readAt (Elt F)
      (Rect.unit (s := S2048x1024) ![0, 0] S2048x1024.size inb_S2048x1024_S2048x1024_0_0).toLoadRect (xstg m ρ c) = xstg m ρ c :=
    Memref.readAt_unit_zero (Elt F) (cc0_stg0_0 : Ref sig .tc) (off := ![0, 0]) (by funext a; fin_cases a <;> rfl)
      inb_S2048x1024_S2048x1024_0_0 (xstg m ρ c)
  rw [hv]
  -- the load of slot 0 before the store: its value is not used
  unfold slotPts
  iapply (wp_load 𝒱₀ (c : Thread nD τ) none Set.univ (m := cM) (r := (slotR 0 h0).toLoadRect) (load_sub c 0 h0)) $$ [H0]
  · iexact H0
  iintro H0
  iapply (step_store0 c (k0_pay2 (xstg m ρ c)) f0) $$ [H0]
  · unfold slotPts; iexact H0
  iintro H0
  iapply (step_barwait m ρ K c) $$ [Hc HO Hat]
  · isplitr; · iexact HR
    isplitl [Hc]; · iexact Hc
    isplitl [HO]; · iexact HO
    isplitr; · iexact Hlev
    iexact Hat
  iintro ⟨HO, Hat, Hpay⟩
  rw [wp_ret]
  imodintro
  iapply Hk
  isplitl [Hx]; · iexact Hx
  isplitl [H0]; · unfold slotPts mine; iexact H0
  isplitl [Hat]; · iexact Hat
  isplitl [Hpay]; · iexact Hpay
  iexists _; iexact HO

/-- info: 'Cert.KernelIdeal.Pf.part7_spec' depends on axioms: [propext, Classical.choice, Quot.sound] -/
#guard_msgs in #print axioms part7_spec

end Cert.KernelIdeal.Pf

end
-- ==== Proof.KernelIdealPf.Open.lean ====
/-
  The body's precondition opened into the single resources its proof consumes one by one, and the resources it ends
  with closed back into its postcondition. A family over the fifteen proper offsets is written as the chain over the
  list 1, …, 15; a device's 33 cells are its barrier cell, sixteen send cells and sixteen receive cells; the
  communication buffer is its sixteen slots.
-/
import proofs.«900914_g7700000000000915_dist_max_ax0_shard0_i_m2048_n1024_v7x_i16_bf16_1_alg».proof.Proof.KernelIdealPf.BodySpec

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The fifteen proper offsets, in order. -/
abbrev E15 : List (Fin 16) := [1,2,3,4,5,6,7,8,9,10,11,12,13,14,15]
theorem bigSep_E (Φ : Fin 16 → sProp 𝕄) : bigSep (Finset.univ.erase (0 : Fin 16)) Φ = bigSepL E15 Φ :=
  bigSep_eq_bigSepL_of_eq E15 (by decide) (by decide) Φ
theorem bigSep_F16 (Φ : Fin 16 → sProp 𝕄) : bigSep Finset.univ Φ = iprop(Φ 0 ∗ bigSepL E15 Φ) := by
  rw [bigSep_univ_split (0 : Fin 16), bigSep_E]; rfl
theorem bigSep_CK (Φ : CK → sProp 𝕄) : bigSep Finset.univ Φ = iprop(Φ none ∗ (bigSep Finset.univ fun k : Fin 16 => Φ (some (false, k))) ∗ bigSep Finset.univ fun k : Fin 16 => Φ (some (true, k))) := by
  have he : (Finset.univ : Finset CK).erase none = (Finset.univ : Finset (Bool × Fin 16)).map ⟨some, Option.some_injective _⟩ := by
    ext x; cases x <;> simp
  rw [bigSep_univ_split (none : CK), he, bigSep_map, bigSep_univ_prod,
    bigSep_univ_eq_bigSepL [false, true] (by decide) (by decide)]
  rfl
theorem scr_split (c : Dev nD) (f : Buf (Elt F) ((c : Thread nD τ).loc cc0_scratch0)) : (((c : Thread nD τ).loc cc0_scratch0) ↦{fullShare} f : sProp 𝕄) ⊣⊢ bigSep Finset.univ fun k : Fin 16 => slotPts c k fullShare f := by
  have hd : ∀ t ∈ (Finset.univ : Finset (Fin 16)), ∀ t' ∈ (Finset.univ : Finset (Fin 16)), t ≠ t' →
      Disjoint (slotSet c t.val t.isLt) (slotSet c t'.val t'.isLt) :=
    fun t _ t' _ h => slots_disjoint c t.val t'.val t.isLt t'.isLt fun e => h (Fin.ext e)
  have e : (((c : Thread nD τ).loc cc0_scratch0) ↦{fullShare} f : sProp 𝕄) = bigSep Finset.univ fun k : Fin 16 => slotPts c k fullShare f := by
    rw [slots_cover c, pointsTo_biUnion _ _ hd]; rfl
  rw [e]
theorem scr_join (c : Dev nD) : (bigSep Finset.univ fun k : Fin 16 => iprop(∃ f, slotPts (F := F) c k fullShare f)) ⊢ scrAny (F := F) c := by
  have hd : ∀ t ∈ (Finset.univ : Finset (Fin 16)), ∀ t' ∈ (Finset.univ : Finset (Fin 16)), t ≠ t' →
      Disjoint (slotSet c t.val t.isLt) (slotSet c t'.val t'.isLt) :=
    fun t _ t' _ h => slots_disjoint c t.val t'.val t.isLt t'.isLt fun e => h (Fin.ext e)
  unfold scrAny
  iintro H
  ihave H := (BI.bigSep_exists_pi (Finset.univ : Finset (Fin 16)) (fun k f => slotPts (F := F) c k fullShare f)) $$ H
  icases H with ⟨%y, H⟩
  unfold slotPts
  ihave H := (pointsTo_biUnion_join (q := fullShare) (Finset.univ : Finset (Fin 16)) (fun k : Fin 16 => slotSet c k.val k.isLt) y (y 0) hd) $$ H
  icases H with ⟨%g, -, H⟩
  iexists g
  rw [slots_cover c]
  iexact H
/-- The whole communication buffer is its slot 0 and its fifteen other slots, each at some contents. -/
theorem scr_open (c : Dev nD) (f : Buf (Elt F) ((c : Thread nD τ).loc cc0_scratch0)) :
    (((c : Thread nD τ).loc cc0_scratch0) ↦{fullShare} f : sProp 𝕄)
      ⊢ iprop((∃ f, slotPts c 0 fullShare f) ∗ bigSepL E15 fun k => iprop(∃ f, slotPts (F := F) c k fullShare f)) := by
  have hm : (bigSep (Finset.univ.erase (0 : Fin 16)) fun k => slotPts c k fullShare f)
      ⊢ bigSep (Finset.univ.erase (0 : Fin 16)) fun k => iprop(∃ f, slotPts (F := F) c k fullShare f) :=
    bigSep_mono fun k _ => (show (slotPts (F := F) c k fullShare f) ⊢ iprop(∃ f, slotPts (F := F) c k fullShare f) from by
      iintro H; iexists f; iexact H)
  rw [← bigSep_E]
  refine (scr_split c f).1.trans ?_
  rw [bigSep_univ_at _ (0 : Fin 16)]
  iintro ⟨H0, H⟩
  isplitl [H0]
  · iexists f; iexact H0
  · iapply hm; iexact H
def opened (K : Dev nD × CK → ℕ) (c : Dev nD) (W : Waits sig Unit) : sProp 𝕄 := iprop(records m ρ K ∗ levAts L lv ∗ atPos ER (barCell c) 0 ∅ 0 ∗ (bigSep Finset.univ fun k : Fin 16 => atPos ER (sendCell c k) 0 ∅ 0) ∗ (bigSep Finset.univ fun k : Fin 16 => atPos ER (recvCell c k) 0 ∅ 0) ∗ (bigSepL E15 fun j => dutyTok ER (barCell (add c j.val)) 0 (neg j)) ∗ (bigSepL E15 fun k => dutyTok ER (sendCell c k) 0 0) ∗ (bigSepL E15 fun k => dutyTok ER (recvCell (add c k.val) k) 0 0) ∗ cred (tallyAt (barCell c) () 15) ∗ (bigSepL E15 fun k => cred (tallyAt (recvCell c k) () Nc)) ∗ (∃ f, slotPts c 0 fullShare f) ∗ (bigSepL E15 fun k => iprop(∃ f, slotPts c k fullShare f)) ∗ owes (c : Thread nD τ) (O₀ c) W ∗ (((c : Thread nD τ).loc cc0_stg0_0) ↦{fullShare} xstg m ρ c) ∗ (∃ g, ((c : Thread nD τ).loc cc0_stg1_0) ↦{fullShare} g))
theorem body_open (K : Dev nD × CK → ℕ) (c : Dev nD) : bodyPre m ρ K c ⊢ iprop(∃ W, opened m ρ K c W) := by
  have hpos : positions (F := F) c = iprop(atPos ER (barCell c) 0 ∅ 0 ∗ (bigSep Finset.univ fun k : Fin 16 => atPos ER (sendCell c k) 0 ∅ 0)
      ∗ bigSep Finset.univ fun k : Fin 16 => atPos ER (recvCell c k) 0 ∅ 0) := by
    unfold positions; rw [bigSep_CK]; rfl
  have hpay : payToks (F := F) c = iprop((bigSepL E15 fun j => dutyTok ER (barCell (add c j.val)) 0 (neg j))
      ∗ (bigSepL E15 fun k => dutyTok ER (sendCell c k) 0 0) ∗ (bigSepL E15 fun k => dutyTok ER (recvCell (add c k.val) k) 0 0)) := by
    unfold payToks; rw [bigSep_E, bigSep_E, bigSep_E]
  have hcred : creds (F := F) c = iprop(cred (tallyAt (barCell c) () 15) ∗ (bigSepL E15 fun k => cred (tallyAt (recvCell c k) () Nc))) := by
    unfold creds; rw [bigSep_E]
  unfold bodyPre ghost linear
  rw [hpos, hpay, hcred]
  unfold scrAny Dat.owesAt Pipeline.owesWithin
  iintro ⟨⟨⟨Hrec, ⟨HatB, HatS, HatR⟩, ⟨HtB, HtS, HtR⟩⟩, ⟨HcB, HcR⟩, Hlev, ⟨%f0, Hscr⟩⟩, ⟨%W, -, HO⟩, ⟨%d0, %g0, %hg0, Hx⟩, ⟨%d1, %g1, -, Hout⟩⟩
  have hx : g0 = xstg m ρ c := by rw [hg0]; unfold Dat.before; rw [if_pos (show (cfg0.win 0).fetch t₀ = true from rfl)]; rfl
  subst hx
  iexists W
  unfold opened
  ihave Hscr := (scr_open c f0) $$ Hscr
  icases Hscr with ⟨Hs0, Hs⟩
  rw [show (dats m ρ 0 c).owed t₀.castSucc = O₀ c from rfl]
  isplitl [Hrec]; · iexact Hrec
  isplitl [Hlev]; · iexact Hlev
  isplitl [HatB]; · iexact HatB
  isplitl [HatS]; · iexact HatS
  isplitl [HatR]; · iexact HatR
  isplitl [HtB]; · iexact HtB
  isplitl [HtS]; · iexact HtS
  isplitl [HtR]; · iexact HtR
  isplitl [HcB]; · iexact HcB
  isplitl [HcR]; · iexact HcR
  isplitl [Hs0]; · iexact Hs0
  isplitl [Hs]; · iexact Hs
  isplitl [HO]; · iexact HO
  isplitl [Hx]; · iexact Hx
  iexists g1; iexact Hout
def closing (c : Dev nD) (W : Waits sig Unit) : sProp 𝕄 := iprop((bigSep Finset.univ fun k : Fin 16 => iprop(∃ f, slotPts (F := F) c k fullShare f)) ∗ (bigSep Finset.univ fun bk : Bool × Fin 16 => semVal ((c : Thread nD τ), osem bk) 0) ∗ owes (c : Thread nD τ) 0 W ∗ (((c : Thread nD τ).loc cc0_stg0_0) ↦{fullShare} xstg m ρ c) ∗ (((c : Thread nD τ).loc cc0_stg1_0) ↦{fullShare} outAt m ρ c))
theorem body_close (c : Dev nD) (W : Waits sig Unit) : closing m ρ c W ⊢ bodyPost m ρ c := by
  unfold closing bodyPost Φ₁ ownZero Dat.owesAt Pipeline.owesWithin
  rw [show (dats m ρ 0 c).owed t₀.succ = 0 from rfl]
  iintro ⟨Hs, Hz, HO, Hx, Hout⟩
  isplitl [Hs Hz]
  · isplitl [Hs]
    · iapply (scr_join c); iexact Hs
    iexact Hz
  isplitl [HO]
  · iexists W; isplitr; · ipureintro; exact fun _ _ => Or.inl trivial
    iexact HO
  isplitl [Hx]
  · iexists _; isplitr; · (ipureintro; rfl)
    iexact Hx
  iexists _; isplitr; · (ipureintro; rfl)
  iexact Hout

/-- info: 'Cert.KernelIdeal.Pf.body_open' depends on axioms: [propext, Classical.choice, Quot.sound] -/
#guard_msgs in #print axioms body_open
/-- info: 'Cert.KernelIdeal.Pf.body_close' depends on axioms: [propext, Classical.choice, Quot.sound] -/
#guard_msgs in #print axioms body_close

end Cert.KernelIdeal.Pf

end
-- ==== Proof.KernelIdealPf.BodyB.lean ====
/-
  The transfers of the sixteen-device maximum's body, part by part: transfers 1 to 15 to the devices 1 to 15 places on,
  and the first two receive waits with the loads of the own slot and of slot 1 that start the running maximum.
-/
import proofs.«900914_g7700000000000915_dist_max_ax0_shard0_i_m2048_n1024_v7x_i16_bf16_1_alg».proof.Proof.KernelIdealPf.Steps
import proofs.«900914_g7700000000000915_dist_max_ax0_shard0_i_m2048_n1024_v7x_i16_bf16_1_alg».proof.Proof.KernelIdealPf.Open

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Part 8: transfers 1 and 2. -/
theorem part8_spec (K : Dev nD × CK → ℕ) (c : Dev nD) (v2 : BitVec 32) (W : Waits sig Unit)
    {Q : (Σ' (v237 : BitVec 32), BitVec 32) → sProp 𝕄} :
    iprop(records m ρ K
        ∗ slotPts c 0 (Transfers.shareTok fullShare 16 (fk 1)) (rep c (mine m ρ c)) ∗ (∃ fd, slotPts (F := F) (add c 1) (fk 1) fullShare fd)
        ∗ dutyTok ER (sendCell c (fk 1)) 0 0 ∗ dutyTok ER (recvCell (add c 1) (fk 1)) 0 0
        ∗ slotPts c 0 (Transfers.shareTok fullShare 16 (fk 2)) (rep c (mine m ρ c)) ∗ (∃ fd, slotPts (F := F) (add c 2) (fk 2) fullShare fd)
        ∗ dutyTok ER (sendCell c (fk 2)) 0 0 ∗ dutyTok ER (recvCell (add c 2) (fk 2)) 0 0
        ∗ owes (c : Thread nD τ) (owedR c 15) W)
      ⊢ iprop((∀ r, (cred (tallyAt (sendCell c (fk 1)) () Nc) ∗ cred (tallyAt (sendCell c (fk 2)) () Nc)
              ∗ owes (c : Thread nD τ) (owedR c 13) W) -∗ Q r)
          -∗ wp frame (wpE (defs₀ (F := F)) 𝒱₀ (c : Thread nD τ) none) Set.univ
              (k0_part8 (Memref.whole cc0_stg0_0) (Memref.isWhole_whole _) (Memref.whole cc0_stg1_0) (Memref.isWhole_whole _)
                (Memref.whole cc0_scratch0) (Memref.isWhole_whole _) cc0_scratch1 cc0_scratch2 c v2) Q) := by
  rw [k0_part8_eq_skeleton]; unfold k0_part8_skel
  simp only [Prog.lift, Prog.bind_op, Prog.bind_ret, Prog.pure_eq_ret]
  iintro ⟨#HR, Hs1, ⟨%fd1, Hd1⟩, Ha1, Hb1, Hs2, ⟨%fd2, Hd2⟩, Ha2, Hb2, HO⟩ Hk
  iapply (step_send m ρ K c (fk 1) (by decide) _ (dev16_eq c) (owedR c 14) fd1) $$ [Hs1 Hd1 HO Ha1 Hb1]
  · isplitr; · iexact HR
    isplitl [Hs1]; · iexact Hs1
    isplitl [Hd1]; · iexact Hd1
    isplitl [HO]; · iexact HO
    isplitl [Ha1]; · iexact Ha1
    iexact Hb1
  iintro ⟨Hc1, HO⟩
  iapply (step_send m ρ K c (fk 2) (by decide) _ (dev17_eq c) (owedR c 13) fd2) $$ [Hs2 Hd2 HO Ha2 Hb2]
  · isplitr; · iexact HR
    isplitl [Hs2]; · iexact Hs2
    isplitl [Hd2]; · iexact Hd2
    isplitl [HO]; · iexact HO
    isplitl [Ha2]; · iexact Ha2
    iexact Hb2
  iintro ⟨Hc2, HO⟩
  rw [wp_ret]; imodintro
  iapply Hk
  isplitl [Hc1]; · iexact Hc1
  isplitl [Hc2]; · iexact Hc2
  iexact HO

/-- Part 9: transfers 3 and 4. -/
theorem part9_spec (K : Dev nD × CK → ℕ) (c : Dev nD) (v2 v258 : BitVec 32) (W : Waits sig Unit)
    {Q : BitVec 32 → sProp 𝕄} :
    iprop(records m ρ K
        ∗ slotPts c 0 (Transfers.shareTok fullShare 16 (fk 3)) (rep c (mine m ρ c)) ∗ (∃ fd, slotPts (F := F) (add c 3) (fk 3) fullShare fd)
        ∗ dutyTok ER (sendCell c (fk 3)) 0 0 ∗ dutyTok ER (recvCell (add c 3) (fk 3)) 0 0
        ∗ slotPts c 0 (Transfers.shareTok fullShare 16 (fk 4)) (rep c (mine m ρ c)) ∗ (∃ fd, slotPts (F := F) (add c 4) (fk 4) fullShare fd)
        ∗ dutyTok ER (sendCell c (fk 4)) 0 0 ∗ dutyTok ER (recvCell (add c 4) (fk 4)) 0 0
        ∗ owes (c : Thread nD τ) (owedR c 13) W)
      ⊢ iprop((∀ r, (cred (tallyAt (sendCell c (fk 3)) () Nc) ∗ cred (tallyAt (sendCell c (fk 4)) () Nc)
              ∗ owes (c : Thread nD τ) (owedR c 11) W) -∗ Q r)
          -∗ wp frame (wpE (defs₀ (F := F)) 𝒱₀ (c : Thread nD τ) none) Set.univ
              (k0_part9 (Memref.whole cc0_stg0_0) (Memref.isWhole_whole _) (Memref.whole cc0_stg1_0) (Memref.isWhole_whole _)
                (Memref.whole cc0_scratch0) (Memref.isWhole_whole _) cc0_scratch1 cc0_scratch2 c v2 v258) Q) := by
  rw [k0_part9_eq_skeleton]; unfold k0_part9_skel
  simp only [Prog.lift, Prog.bind_op, Prog.bind_ret, Prog.pure_eq_ret]
  iintro ⟨#HR, Hs3, ⟨%fd3, Hd3⟩, Ha3, Hb3, Hs4, ⟨%fd4, Hd4⟩, Ha4, Hb4, HO⟩ Hk
  iapply (step_send m ρ K c (fk 3) (by decide) _ (dev18_eq c) (owedR c 12) fd3) $$ [Hs3 Hd3 HO Ha3 Hb3]
  · isplitr; · iexact HR
    isplitl [Hs3]; · iexact Hs3
    isplitl [Hd3]; · iexact Hd3
    isplitl [HO]; · iexact HO
    isplitl [Ha3]; · iexact Ha3
    iexact Hb3
  iintro ⟨Hc3, HO⟩
  iapply (step_send m ρ K c (fk 4) (by decide) _ (dev19_eq c) (owedR c 11) fd4) $$ [Hs4 Hd4 HO Ha4 Hb4]
  · isplitr; · iexact HR
    isplitl [Hs4]; · iexact Hs4
    isplitl [Hd4]; · iexact Hd4
    isplitl [HO]; · iexact HO
    isplitl [Ha4]; · iexact Ha4
    iexact Hb4
  iintro ⟨Hc4, HO⟩
  rw [wp_ret]; imodintro
  iapply Hk
  isplitl [Hc3]; · iexact Hc3
  isplitl [Hc4]; · iexact Hc4
  iexact HO

/-- Part 10: transfer 5. -/
theorem part10_spec (K : Dev nD × CK → ℕ) (c : Dev nD) (v2 : BitVec 32) (W : Waits sig Unit)
    {Q : (Σ' (v300 : BitVec 32), BitVec 32) → sProp 𝕄} :
    iprop(records m ρ K
        ∗ slotPts c 0 (Transfers.shareTok fullShare 16 (fk 5)) (rep c (mine m ρ c)) ∗ (∃ fd, slotPts (F := F) (add c 5) (fk 5) fullShare fd)
        ∗ dutyTok ER (sendCell c (fk 5)) 0 0 ∗ dutyTok ER (recvCell (add c 5) (fk 5)) 0 0
        ∗ owes (c : Thread nD τ) (owedR c 11) W)
      ⊢ iprop((∀ r, (cred (tallyAt (sendCell c (fk 5)) () Nc)
              ∗ owes (c : Thread nD τ) (owedR c 10) W) -∗ Q r)
          -∗ wp frame (wpE (defs₀ (F := F)) 𝒱₀ (c : Thread nD τ) none) Set.univ
              (k0_part10 (Memref.whole cc0_stg0_0) (Memref.isWhole_whole _) (Memref.whole cc0_stg1_0) (Memref.isWhole_whole _)
                (Memref.whole cc0_scratch0) (Memref.isWhole_whole _) cc0_scratch1 cc0_scratch2 c v2) Q) := by
  rw [k0_part10_eq_skeleton]; unfold k0_part10_skel
  simp only [Prog.lift, Prog.bind_op, Prog.bind_ret, Prog.pure_eq_ret]
  iintro ⟨#HR, Hs5, ⟨%fd5, Hd5⟩, Ha5, Hb5, HO⟩ Hk
  iapply (step_send m ρ K c (fk 5) (by decide) _ (dev20_eq c) (owedR c 10) fd5) $$ [Hs5 Hd5 HO Ha5 Hb5]
  · isplitr; · iexact HR
    isplitl [Hs5]; · iexact Hs5
    isplitl [Hd5]; · iexact Hd5
    isplitl [HO]; · iexact HO
    isplitl [Ha5]; · iexact Ha5
    iexact Hb5
  iintro ⟨Hc5, HO⟩
  rw [wp_ret]; imodintro
  iapply Hk
  isplitl [Hc5]; · iexact Hc5
  iexact HO

/-- Part 11: transfers 6 and 7. -/
theorem part11_spec (K : Dev nD × CK → ℕ) (c : Dev nD) (v2 v321 : BitVec 32) (W : Waits sig Unit)
    {Q : (Σ' (v342 : BitVec 32) (v353 : BitVec 32), BitVec 32) → sProp 𝕄} :
    iprop(records m ρ K
        ∗ slotPts c 0 (Transfers.shareTok fullShare 16 (fk 6)) (rep c (mine m ρ c)) ∗ (∃ fd, slotPts (F := F) (add c 6) (fk 6) fullShare fd)
        ∗ dutyTok ER (sendCell c (fk 6)) 0 0 ∗ dutyTok ER (recvCell (add c 6) (fk 6)) 0 0
        ∗ slotPts c 0 (Transfers.shareTok fullShare 16 (fk 7)) (rep c (mine m ρ c)) ∗ (∃ fd, slotPts (F := F) (add c 7) (fk 7) fullShare fd)
        ∗ dutyTok ER (sendCell c (fk 7)) 0 0 ∗ dutyTok ER (recvCell (add c 7) (fk 7)) 0 0
        ∗ owes (c : Thread nD τ) (owedR c 10) W)
      ⊢ iprop((∀ r, (cred (tallyAt (sendCell c (fk 6)) () Nc) ∗ cred (tallyAt (sendCell c (fk 7)) () Nc)
              ∗ owes (c : Thread nD τ) (owedR c 8) W) -∗ Q r)
          -∗ wp frame (wpE (defs₀ (F := F)) 𝒱₀ (c : Thread nD τ) none) Set.univ
              (k0_part11 (Memref.whole cc0_stg0_0) (Memref.isWhole_whole _) (Memref.whole cc0_stg1_0) (Memref.isWhole_whole _)
                (Memref.whole cc0_scratch0) (Memref.isWhole_whole _) cc0_scratch1 cc0_scratch2 c v2 v321) Q) := by
  rw [k0_part11_eq_skeleton]; unfold k0_part11_skel
  simp only [Prog.lift, Prog.bind_op, Prog.bind_ret, Prog.pure_eq_ret]
  iintro ⟨#HR, Hs6, ⟨%fd6, Hd6⟩, Ha6, Hb6, Hs7, ⟨%fd7, Hd7⟩, Ha7, Hb7, HO⟩ Hk
  iapply (step_send m ρ K c (fk 6) (by decide) _ (dev21_eq c) (owedR c 9) fd6) $$ [Hs6 Hd6 HO Ha6 Hb6]
  · isplitr; · iexact HR
    isplitl [Hs6]; · iexact Hs6
    isplitl [Hd6]; · iexact Hd6
    isplitl [HO]; · iexact HO
    isplitl [Ha6]; · iexact Ha6
    iexact Hb6
  iintro ⟨Hc6, HO⟩
  iapply (step_send m ρ K c (fk 7) (by decide) _ (dev22_eq c) (owedR c 8) fd7) $$ [Hs7 Hd7 HO Ha7 Hb7]
  · isplitr; · iexact HR
    isplitl [Hs7]; · iexact Hs7
    isplitl [Hd7]; · iexact Hd7
    isplitl [HO]; · iexact HO
    isplitl [Ha7]; · iexact Ha7
    iexact Hb7
  iintro ⟨Hc7, HO⟩
  rw [wp_ret]; imodintro
  iapply Hk
  isplitl [Hc6]; · iexact Hc6
  isplitl [Hc7]; · iexact Hc7
  iexact HO

/-- Part 12: transfer 8. -/
theorem part12_spec (K : Dev nD × CK → ℕ) (c : Dev nD) (v2 v353 c16_i32_260 : BitVec 32) (W : Waits sig Unit)
    {Q : (Σ' (v363 : BitVec 32) (v384 : BitVec 32), BitVec 32) → sProp 𝕄} :
    iprop(records m ρ K
        ∗ slotPts c 0 (Transfers.shareTok fullShare 16 (fk 8)) (rep c (mine m ρ c)) ∗ (∃ fd, slotPts (F := F) (add c 8) (fk 8) fullShare fd)
        ∗ dutyTok ER (sendCell c (fk 8)) 0 0 ∗ dutyTok ER (recvCell (add c 8) (fk 8)) 0 0
        ∗ owes (c : Thread nD τ) (owedR c 8) W)
      ⊢ iprop((∀ r, (cred (tallyAt (sendCell c (fk 8)) () Nc)
              ∗ owes (c : Thread nD τ) (owedR c 7) W) -∗ Q r)
          -∗ wp frame (wpE (defs₀ (F := F)) 𝒱₀ (c : Thread nD τ) none) Set.univ
              (k0_part12 (Memref.whole cc0_stg0_0) (Memref.isWhole_whole _) (Memref.whole cc0_stg1_0) (Memref.isWhole_whole _)
                (Memref.whole cc0_scratch0) (Memref.isWhole_whole _) cc0_scratch1 cc0_scratch2 c v2 v353 c16_i32_260) Q) := by
  rw [k0_part12_eq_skeleton]; unfold k0_part12_skel
  simp only [Prog.lift, Prog.bind_op, Prog.bind_ret, Prog.pure_eq_ret]
  iintro ⟨#HR, Hs8, ⟨%fd8, Hd8⟩, Ha8, Hb8, HO⟩ Hk
  iapply (step_send m ρ K c (fk 8) (by decide) _ (dev23_eq c) (owedR c 7) fd8) $$ [Hs8 Hd8 HO Ha8 Hb8]
  · isplitr; · iexact HR
    isplitl [Hs8]; · iexact Hs8
    isplitl [Hd8]; · iexact Hd8
    isplitl [HO]; · iexact HO
    isplitl [Ha8]; · iexact Ha8
    iexact Hb8
  iintro ⟨Hc8, HO⟩
  rw [wp_ret]; imodintro
  iapply Hk
  isplitl [Hc8]; · iexact Hc8
  iexact HO

/-- Part 13: transfers 9 and 10. -/
theorem part13_spec (K : Dev nD × CK → ℕ) (c : Dev nD) (v2 v385 : BitVec 32) (W : Waits sig Unit)
    {Q : (Σ' (v405 : BitVec 32) (v416 : BitVec 32) (c16_i32_311 : BitVec 32) (v417 : BitVec 1), BitVec 32) → sProp 𝕄} :
    iprop(records m ρ K
        ∗ slotPts c 0 (Transfers.shareTok fullShare 16 (fk 9)) (rep c (mine m ρ c)) ∗ (∃ fd, slotPts (F := F) (add c 9) (fk 9) fullShare fd)
        ∗ dutyTok ER (sendCell c (fk 9)) 0 0 ∗ dutyTok ER (recvCell (add c 9) (fk 9)) 0 0
        ∗ slotPts c 0 (Transfers.shareTok fullShare 16 (fk 10)) (rep c (mine m ρ c)) ∗ (∃ fd, slotPts (F := F) (add c 10) (fk 10) fullShare fd)
        ∗ dutyTok ER (sendCell c (fk 10)) 0 0 ∗ dutyTok ER (recvCell (add c 10) (fk 10)) 0 0
        ∗ owes (c : Thread nD τ) (owedR c 7) W)
      ⊢ iprop((∀ r, (cred (tallyAt (sendCell c (fk 9)) () Nc) ∗ cred (tallyAt (sendCell c (fk 10)) () Nc)
              ∗ owes (c : Thread nD τ) (owedR c 5) W) -∗ Q r)
          -∗ wp frame (wpE (defs₀ (F := F)) 𝒱₀ (c : Thread nD τ) none) Set.univ
              (k0_part13 (Memref.whole cc0_stg0_0) (Memref.isWhole_whole _) (Memref.whole cc0_stg1_0) (Memref.isWhole_whole _)
                (Memref.whole cc0_scratch0) (Memref.isWhole_whole _) cc0_scratch1 cc0_scratch2 c v2 v385) Q) := by
  rw [k0_part13_eq_skeleton]; unfold k0_part13_skel
  simp only [Prog.lift, Prog.bind_op, Prog.bind_ret, Prog.pure_eq_ret]
  iintro ⟨#HR, Hs9, ⟨%fd9, Hd9⟩, Ha9, Hb9, Hs10, ⟨%fd10, Hd10⟩, Ha10, Hb10, HO⟩ Hk
  iapply (step_send m ρ K c (fk 9) (by decide) _ (dev24_eq c) (owedR c 6) fd9) $$ [Hs9 Hd9 HO Ha9 Hb9]
  · isplitr; · iexact HR
    isplitl [Hs9]; · iexact Hs9
    isplitl [Hd9]; · iexact Hd9
    isplitl [HO]; · iexact HO
    isplitl [Ha9]; · iexact Ha9
    iexact Hb9
  iintro ⟨Hc9, HO⟩
  iapply (step_send m ρ K c (fk 10) (by decide) _ (dev25_eq c) (owedR c 5) fd10) $$ [Hs10 Hd10 HO Ha10 Hb10]
  · isplitr; · iexact HR
    isplitl [Hs10]; · iexact Hs10
    isplitl [Hd10]; · iexact Hd10
    isplitl [HO]; · iexact HO
    isplitl [Ha10]; · iexact Ha10
    iexact Hb10
  iintro ⟨Hc10, HO⟩
  rw [wp_ret]; imodintro
  iapply Hk
  isplitl [Hc9]; · iexact Hc9
  isplitl [Hc10]; · iexact Hc10
  iexact HO

/-- Part 14: transfer 11. -/
theorem part14_spec (K : Dev nD × CK → ℕ) (c : Dev nD) (v2 v416 c16_i32_311 : BitVec 32) (v417 : BitVec 1) (c1_i32_313 : BitVec 32) (W : Waits sig Unit)
    {Q : (Σ' (v426 : BitVec 32), BitVec 32) → sProp 𝕄} :
    iprop(records m ρ K
        ∗ slotPts c 0 (Transfers.shareTok fullShare 16 (fk 11)) (rep c (mine m ρ c)) ∗ (∃ fd, slotPts (F := F) (add c 11) (fk 11) fullShare fd)
        ∗ dutyTok ER (sendCell c (fk 11)) 0 0 ∗ dutyTok ER (recvCell (add c 11) (fk 11)) 0 0
        ∗ owes (c : Thread nD τ) (owedR c 5) W)
      ⊢ iprop((∀ r, (cred (tallyAt (sendCell c (fk 11)) () Nc)
              ∗ owes (c : Thread nD τ) (owedR c 4) W) -∗ Q r)
          -∗ wp frame (wpE (defs₀ (F := F)) 𝒱₀ (c : Thread nD τ) none) Set.univ
              (k0_part14 (Memref.whole cc0_stg0_0) (Memref.isWhole_whole _) (Memref.whole cc0_stg1_0) (Memref.isWhole_whole _)
                (Memref.whole cc0_scratch0) (Memref.isWhole_whole _) cc0_scratch1 cc0_scratch2 c v2 v416 c16_i32_311 v417 c1_i32_313) Q) := by
  rw [k0_part14_eq_skeleton]; unfold k0_part14_skel
  simp only [Prog.lift, Prog.bind_op, Prog.bind_ret, Prog.pure_eq_ret]
  iintro ⟨#HR, Hs11, ⟨%fd11, Hd11⟩, Ha11, Hb11, HO⟩ Hk
  iapply (step_send m ρ K c (fk 11) (by decide) _ (dev26_eq c) (owedR c 4) fd11) $$ [Hs11 Hd11 HO Ha11 Hb11]
  · isplitr; · iexact HR
    isplitl [Hs11]; · iexact Hs11
    isplitl [Hd11]; · iexact Hd11
    isplitl [HO]; · iexact HO
    isplitl [Ha11]; · iexact Ha11
    iexact Hb11
  iintro ⟨Hc11, HO⟩
  rw [wp_ret]; imodintro
  iapply Hk
  isplitl [Hc11]; · iexact Hc11
  iexact HO

/-- Part 15: transfers 12 and 13. -/
theorem part15_spec (K : Dev nD × CK → ℕ) (c : Dev nD) (v2 : BitVec 32) (W : Waits sig Unit)
    {Q : (Σ' (v468 : BitVec 32) (v481 : BitVec 32) (v482 : BitVec 32), BitVec 32) → sProp 𝕄} :
    iprop(records m ρ K
        ∗ slotPts c 0 (Transfers.shareTok fullShare 16 (fk 12)) (rep c (mine m ρ c)) ∗ (∃ fd, slotPts (F := F) (add c 12) (fk 12) fullShare fd)
        ∗ dutyTok ER (sendCell c (fk 12)) 0 0 ∗ dutyTok ER (recvCell (add c 12) (fk 12)) 0 0
        ∗ slotPts c 0 (Transfers.shareTok fullShare 16 (fk 13)) (rep c (mine m ρ c)) ∗ (∃ fd, slotPts (F := F) (add c 13) (fk 13) fullShare fd)
        ∗ dutyTok ER (sendCell c (fk 13)) 0 0 ∗ dutyTok ER (recvCell (add c 13) (fk 13)) 0 0
        ∗ owes (c : Thread nD τ) (owedR c 4) W)
      ⊢ iprop((∀ r, (cred (tallyAt (sendCell c (fk 12)) () Nc) ∗ cred (tallyAt (sendCell c (fk 13)) () Nc)
              ∗ owes (c : Thread nD τ) (owedR c 2) W) -∗ Q r)
          -∗ wp frame (wpE (defs₀ (F := F)) 𝒱₀ (c : Thread nD τ) none) Set.univ
              (k0_part15 (Memref.whole cc0_stg0_0) (Memref.isWhole_whole _) (Memref.whole cc0_stg1_0) (Memref.isWhole_whole _)
                (Memref.whole cc0_scratch0) (Memref.isWhole_whole _) cc0_scratch1 cc0_scratch2 c v2) Q) := by
  rw [k0_part15_eq_skeleton]; unfold k0_part15_skel
  simp only [Prog.lift, Prog.bind_op, Prog.bind_ret, Prog.pure_eq_ret]
  iintro ⟨#HR, Hs12, ⟨%fd12, Hd12⟩, Ha12, Hb12, Hs13, ⟨%fd13, Hd13⟩, Ha13, Hb13, HO⟩ Hk
  iapply (step_send m ρ K c (fk 12) (by decide) _ (dev27_eq c) (owedR c 3) fd12) $$ [Hs12 Hd12 HO Ha12 Hb12]
  · isplitr; · iexact HR
    isplitl [Hs12]; · iexact Hs12
    isplitl [Hd12]; · iexact Hd12
    isplitl [HO]; · iexact HO
    isplitl [Ha12]; · iexact Ha12
    iexact Hb12
  iintro ⟨Hc12, HO⟩
  iapply (step_send m ρ K c (fk 13) (by decide) _ (dev28_eq c) (owedR c 2) fd13) $$ [Hs13 Hd13 HO Ha13 Hb13]
  · isplitr; · iexact HR
    isplitl [Hs13]; · iexact Hs13
    isplitl [Hd13]; · iexact Hd13
    isplitl [HO]; · iexact HO
    isplitl [Ha13]; · iexact Ha13
    iexact Hb13
  iintro ⟨Hc13, HO⟩
  rw [wp_ret]; imodintro
  iapply Hk
  isplitl [Hc12]; · iexact Hc12
  isplitl [Hc13]; · iexact Hc13
  iexact HO

/-- Part 16: transfer 14. -/
theorem part16_spec (K : Dev nD × CK → ℕ) (c : Dev nD) (v2 v481 v482 c0_i32_365 : BitVec 32) (W : Waits sig Unit)
    {Q : (Σ' (v489 : BitVec 32), BitVec 32) → sProp 𝕄} :
    iprop(records m ρ K
        ∗ slotPts c 0 (Transfers.shareTok fullShare 16 (fk 14)) (rep c (mine m ρ c)) ∗ (∃ fd, slotPts (F := F) (add c 14) (fk 14) fullShare fd)
        ∗ dutyTok ER (sendCell c (fk 14)) 0 0 ∗ dutyTok ER (recvCell (add c 14) (fk 14)) 0 0
        ∗ owes (c : Thread nD τ) (owedR c 2) W)
      ⊢ iprop((∀ r, (cred (tallyAt (sendCell c (fk 14)) () Nc)
              ∗ owes (c : Thread nD τ) (owedR c 1) W) -∗ Q r)
          -∗ wp frame (wpE (defs₀ (F := F)) 𝒱₀ (c : Thread nD τ) none) Set.univ
              (k0_part16 (Memref.whole cc0_stg0_0) (Memref.isWhole_whole _) (Memref.whole cc0_stg1_0) (Memref.isWhole_whole _)
                (Memref.whole cc0_scratch0) (Memref.isWhole_whole _) cc0_scratch1 cc0_scratch2 c v2 v481 v482 c0_i32_365) Q) := by
  rw [k0_part16_eq_skeleton]; unfold k0_part16_skel
  simp only [Prog.lift, Prog.bind_op, Prog.bind_ret, Prog.pure_eq_ret]
  iintro ⟨#HR, Hs14, ⟨%fd14, Hd14⟩, Ha14, Hb14, HO⟩ Hk
  iapply (step_send m ρ K c (fk 14) (by decide) _ (dev29_eq c) (owedR c 1) fd14) $$ [Hs14 Hd14 HO Ha14 Hb14]
  · isplitr; · iexact HR
    isplitl [Hs14]; · iexact Hs14
    isplitl [Hd14]; · iexact Hd14
    isplitl [HO]; · iexact HO
    isplitl [Ha14]; · iexact Ha14
    iexact Hb14
  iintro ⟨Hc14, HO⟩
  rw [wp_ret]; imodintro
  iapply Hk
  isplitl [Hc14]; · iexact Hc14
  iexact HO

/-- Part 17: transfer 15, the load of the own slot, receive wait 1 and the load of slot 1, receive wait 2. -/
theorem part17_spec (K : Dev nD × CK → ℕ) (c : Dev nD) (v216 v237 : BitVec 32) (W : Waits sig Unit)
    {Q : FVec F S1024 .bf16 → sProp 𝕄} :
    iprop(records m ρ K
        ∗ slotPts c 0 (Transfers.shareTok fullShare 16 (fk 15)) (rep c (mine m ρ c)) ∗ (∃ fd, slotPts (F := F) (add c 15) (fk 15) fullShare fd)
        ∗ dutyTok ER (sendCell c (fk 15)) 0 0 ∗ dutyTok ER (recvCell (add c 15) (fk 15)) 0 0
        ∗ slotPts c 0 (Transfers.shareDrop fullShare 16) (rep c (mine m ρ c))
        ∗ cred (tallyAt (recvCell c (fk 1)) () Nc) ∗ atPos ER (recvCell c (fk 1)) 0 ∅ 0
        ∗ cred (tallyAt (recvCell c (fk 2)) () Nc) ∗ atPos ER (recvCell c (fk 2)) 0 ∅ 0
        ∗ owes (c : Thread nD τ) (owedR c 1) W)
      ⊢ iprop((∀ r, (cred (tallyAt (sendCell c (fk 15)) () Nc)
              ∗ slotPts c 0 (Transfers.shareDrop fullShare 16) (rep c (mine m ρ c))
              ∗ atPos ER (recvCell c (fk 1)) 1 ∅ 0 ∗ recvPay m ρ c (fk 1)
              ∗ atPos ER (recvCell c (fk 2)) 1 ∅ 0 ∗ recvPay m ρ c (fk 2)
              ∗ (∃ W', owes (c : Thread nD τ) 0 W')
              ∗ ⌜r = k0_pay3 (mine m ρ c) (mine m ρ (sub c 1))⌝) -∗ Q r)
          -∗ wp frame (wpE (defs₀ (F := F)) 𝒱₀ (c : Thread nD τ) none) Set.univ
              (k0_part17 (Memref.whole cc0_stg0_0) (Memref.isWhole_whole _) (Memref.whole cc0_stg1_0) (Memref.isWhole_whole _)
                (Memref.whole cc0_scratch0) (Memref.isWhole_whole _) cc0_scratch1 cc0_scratch2 c v216 v237) Q) := by
  rw [k0_part17_eq_skeleton]; unfold k0_part17_skel
  simp only [Prog.lift, Prog.bind_op, Prog.bind_ret, Prog.pure_eq_ret]
  have e1 : recvPay m ρ c (fk 1) = slotPts c (fk 1) fullShare (rep c (mine m ρ (sub c 1))) := rfl
  iintro ⟨#HR, Hs15, ⟨%fd15, Hd15⟩, Ha15, Hb15, H0, Hq1, Hp1, Hq2, Hp2, HO⟩ Hk
  iapply (step_send m ρ K c (fk 15) (by decide) _ (dev30_eq c) (owedR c 0) fd15) $$ [Hs15 Hd15 HO Ha15 Hb15]
  · isplitr; · iexact HR
    isplitl [Hs15]; · iexact Hs15
    isplitl [Hd15]; · iexact Hd15
    isplitl [HO]; · iexact HO
    isplitl [Ha15]; · iexact Ha15
    iexact Hb15
  iintro ⟨Hc15, HO⟩
  -- the load of the own slot, through what the fifteen read shares leave of it
  iapply (step_load c 0 (Transfers.shareDrop fullShare 16) (mine m ρ c) (rep c (mine m ρ c)) (fun _ _ => rfl)) $$ H0
  iintro H0
  -- receive wait 1, nothing owed any more
  iapply (step_recvwait m ρ K c (fk 1) (by decide) (W := W)) $$ [Hq1 HO Hp1]
  · isplitr; · iexact HR
    isplitl [Hq1]; · iexact Hq1
    isplitl [HO]; · iexact HO
    iexact Hp1
  iintro ⟨HO, Hp1, Hr1⟩
  -- the load of slot 1, which now holds the maxima of the device one place before
  ihave Hr1 := (Entails.of_eq e1) $$ Hr1
  iapply (step_load c (fk 1 (by decide)) fullShare (mine m ρ (sub c 1)) (rep c (mine m ρ (sub c 1))) (fun _ _ => rfl)) $$ [Hr1]
  · iexact Hr1
  iintro Hr1
  ihave Hr1 := (Entails.of_eq e1.symm) $$ Hr1
  -- receive wait 2
  iapply (step_recvwait m ρ K c (fk 2) (by decide)) $$ [Hq2 HO Hp2]
  · isplitr; · iexact HR
    isplitl [Hq2]; · iexact Hq2
    isplitl [HO]; · iexact HO
    iexact Hp2
  iintro ⟨HO, Hp2, Hr2⟩
  rw [wp_ret]; imodintro
  iapply Hk
  isplitl [Hc15]; · iexact Hc15
  isplitl [H0]; · iexact H0
  isplitl [Hp1]; · iexact Hp1
  isplitl [Hr1]; · iexact Hr1
  isplitl [Hp2]; · iexact Hp2
  isplitl [Hr2]; · iexact Hr2
  isplitl [HO]; · iexists _; iexact HO
  ipureintro; rfl

/-- info: 'Cert.KernelIdeal.Pf.part8_spec' depends on axioms: [propext, Classical.choice, Quot.sound] -/
#guard_msgs in #print axioms part8_spec
/-- info: 'Cert.KernelIdeal.Pf.part9_spec' depends on axioms: [propext, Classical.choice, Quot.sound] -/
#guard_msgs in #print axioms part9_spec
/-- info: 'Cert.KernelIdeal.Pf.part10_spec' depends on axioms: [propext, Classical.choice, Quot.sound] -/
#guard_msgs in #print axioms part10_spec
/-- info: 'Cert.KernelIdeal.Pf.part11_spec' depends on axioms: [propext, Classical.choice, Quot.sound] -/
#guard_msgs in #print axioms part11_spec
/-- info: 'Cert.KernelIdeal.Pf.part12_spec' depends on axioms: [propext, Classical.choice, Quot.sound] -/
#guard_msgs in #print axioms part12_spec
/-- info: 'Cert.KernelIdeal.Pf.part13_spec' depends on axioms: [propext, Classical.choice, Quot.sound] -/
#guard_msgs in #print axioms part13_spec
/-- info: 'Cert.KernelIdeal.Pf.part14_spec' depends on axioms: [propext, Classical.choice, Quot.sound] -/
#guard_msgs in #print axioms part14_spec
/-- info: 'Cert.KernelIdeal.Pf.part15_spec' depends on axioms: [propext, Classical.choice, Quot.sound] -/
#guard_msgs in #print axioms part15_spec
/-- info: 'Cert.KernelIdeal.Pf.part16_spec' depends on axioms: [propext, Classical.choice, Quot.sound] -/
#guard_msgs in #print axioms part16_spec
/-- info: 'Cert.KernelIdeal.Pf.part17_spec' depends on axioms: [propext, Classical.choice, Quot.sound] -/
#guard_msgs in #print axioms part17_spec

end Cert.KernelIdeal.Pf

end
-- ==== Proof.KernelIdealPf.BodyC.lean ====
/-
  The middle and the end of the kernel body on one device, printed part by printed part: the receive waits 3, …, 15,
  each followed by the load of the slot it filled — the maxima of the device that many places before —, folded into the
  running maximum; then the fifteen send waits, each handing back one read share of the device's own slot 0.
-/
import proofs.«900914_g7700000000000915_dist_max_ax0_shard0_i_m2048_n1024_v7x_i16_bf16_1_alg».proof.Proof.KernelIdealPf.Steps
import proofs.«900914_g7700000000000915_dist_max_ax0_shard0_i_m2048_n1024_v7x_i16_bf16_1_alg».proof.Proof.KernelIdealPf.Open

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The load of slot 2, then the receive waits 3 and 4, each followed by the load of its slot. -/
theorem part18_spec (K : Dev nD × CK → ℕ) (c : Dev nD) (v258 : BitVec 32) (v279 : BitVec 32) (v300 : BitVec 32) (v533 : FVec F S1024 .bf16) (W : Waits sig Unit)
    {Q : (Σ' (v566 : FVec F S1024 .bf16), BitVec 32) → sProp 𝕄} :
    iprop(records m ρ K
        ∗ recvPay m ρ c (fk 2)
        ∗ cred (tallyAt (recvCell c (fk 3)) () Nc) ∗ atPos ER (recvCell c (fk 3)) 0 ∅ 0
        ∗ cred (tallyAt (recvCell c (fk 4)) () Nc) ∗ atPos ER (recvCell c (fk 4)) 0 ∅ 0
        ∗ owes (c : Thread nD τ) 0 W)
      ⊢ iprop((∀ r, iprop(recvPay m ρ c (fk 2)
            ∗ atPos ER (recvCell c (fk 3)) 1 ∅ 0 ∗ recvPay m ρ c (fk 3)
            ∗ atPos ER (recvCell c (fk 4)) 1 ∅ 0 ∗ recvPay m ρ c (fk 4)
            ∗ (∃ W', owes (c : Thread nD τ) 0 W')
            ∗ ⌜r.1 = k0_pay4 v533 (mine m ρ (sub c 2)) (mine m ρ (sub c 3)) (mine m ρ (sub c 4))⌝) -∗ Q r)
          -∗ wp frame (wpE (defs₀ (F := F)) 𝒱₀ (c : Thread nD τ) none) Set.univ
              (k0_part18 (Memref.whole cc0_stg0_0) (Memref.isWhole_whole _) (Memref.whole cc0_stg1_0) (Memref.isWhole_whole _) (Memref.whole cc0_scratch0) (Memref.isWhole_whole _) cc0_scratch1 cc0_scratch2 v258 v279 v300 v533) Q) := by
  rw [k0_part18_eq_skeleton]; unfold k0_part18_skel
  simp only [Prog.lift, Prog.bind_op, Prog.bind_ret, Prog.pure_eq_ret]
  unfold recvPay
  iintro ⟨#HR, Hp2, Hc3, Ha3, Hc4, Ha4, HO⟩ Hk
  -- the load of slot 2: the maxima of the device 2 places before
  iapply (step_load c (fk 2) fullShare (mine m ρ (sub c 2)) (rep c (mine m ρ (sub c 2))) (fun _ _ => rfl)) $$ [Hp2]
  · iexact Hp2
  iintro Hp2
  -- the receive wait 3
  iapply (step_recvwait m ρ K c (fk 3) (by decide)) $$ [Hc3 HO Ha3]
  · isplitr; · iexact HR
    isplitl [Hc3]; · iexact Hc3
    isplitl [HO]; · iexact HO
    iexact Ha3
  iintro ⟨HO, Ha3, Hp3⟩
  unfold recvPay
  -- the load of slot 3: the maxima of the device 3 places before
  iapply (step_load c (fk 3) fullShare (mine m ρ (sub c 3)) (rep c (mine m ρ (sub c 3))) (fun _ _ => rfl)) $$ [Hp3]
  · iexact Hp3
  iintro Hp3
  -- the receive wait 4
  iapply (step_recvwait m ρ K c (fk 4) (by decide)) $$ [Hc4 HO Ha4]
  · isplitr; · iexact HR
    isplitl [Hc4]; · iexact Hc4
    isplitl [HO]; · iexact HO
    iexact Ha4
  iintro ⟨HO, Ha4, Hp4⟩
  unfold recvPay
  -- the load of slot 4: the maxima of the device 4 places before
  iapply (step_load c (fk 4) fullShare (mine m ρ (sub c 4)) (rep c (mine m ρ (sub c 4))) (fun _ _ => rfl)) $$ [Hp4]
  · iexact Hp4
  iintro Hp4
  rw [wp_ret]
  imodintro
  iapply Hk
  isplitl [Hp2]; · iexact Hp2
  isplitl [Ha3]; · iexact Ha3
  isplitl [Hp3]; · iexact Hp3
  isplitl [Ha4]; · iexact Ha4
  isplitl [Hp4]; · iexact Hp4
  isplitl [HO]; · iexists _; iexact HO
  ipureintro; rfl

/-- The receive waits 5 and 6, each followed by the load of its slot. -/
theorem part19_spec (K : Dev nD × CK → ℕ) (c : Dev nD) (v321 : BitVec 32) (v342 : BitVec 32) (v566 : FVec F S1024 .bf16) (v567 : BitVec 32) (W : Waits sig Unit)
    {Q : (FVec F S1024 .bf16) → sProp 𝕄} :
    iprop(records m ρ K
        ∗ cred (tallyAt (recvCell c (fk 5)) () Nc) ∗ atPos ER (recvCell c (fk 5)) 0 ∅ 0
        ∗ cred (tallyAt (recvCell c (fk 6)) () Nc) ∗ atPos ER (recvCell c (fk 6)) 0 ∅ 0
        ∗ owes (c : Thread nD τ) 0 W)
      ⊢ iprop((∀ r, iprop(atPos ER (recvCell c (fk 5)) 1 ∅ 0 ∗ recvPay m ρ c (fk 5)
            ∗ atPos ER (recvCell c (fk 6)) 1 ∅ 0 ∗ recvPay m ρ c (fk 6)
            ∗ (∃ W', owes (c : Thread nD τ) 0 W')
            ∗ ⌜r = k0_pay5 v566 (mine m ρ (sub c 5)) (mine m ρ (sub c 6))⌝) -∗ Q r)
          -∗ wp frame (wpE (defs₀ (F := F)) 𝒱₀ (c : Thread nD τ) none) Set.univ
              (k0_part19 (Memref.whole cc0_stg0_0) (Memref.isWhole_whole _) (Memref.whole cc0_stg1_0) (Memref.isWhole_whole _) (Memref.whole cc0_scratch0) (Memref.isWhole_whole _) cc0_scratch1 cc0_scratch2 v321 v342 v566 v567) Q) := by
  rw [k0_part19_eq_skeleton]; unfold k0_part19_skel
  simp only [Prog.lift, Prog.bind_op, Prog.bind_ret, Prog.pure_eq_ret]
  unfold recvPay
  iintro ⟨#HR, Hc5, Ha5, Hc6, Ha6, HO⟩ Hk
  -- the receive wait 5
  iapply (step_recvwait m ρ K c (fk 5) (by decide)) $$ [Hc5 HO Ha5]
  · isplitr; · iexact HR
    isplitl [Hc5]; · iexact Hc5
    isplitl [HO]; · iexact HO
    iexact Ha5
  iintro ⟨HO, Ha5, Hp5⟩
  unfold recvPay
  -- the load of slot 5: the maxima of the device 5 places before
  iapply (step_load c (fk 5) fullShare (mine m ρ (sub c 5)) (rep c (mine m ρ (sub c 5))) (fun _ _ => rfl)) $$ [Hp5]
  · iexact Hp5
  iintro Hp5
  -- the receive wait 6
  iapply (step_recvwait m ρ K c (fk 6) (by decide)) $$ [Hc6 HO Ha6]
  · isplitr; · iexact HR
    isplitl [Hc6]; · iexact Hc6
    isplitl [HO]; · iexact HO
    iexact Ha6
  iintro ⟨HO, Ha6, Hp6⟩
  unfold recvPay
  -- the load of slot 6: the maxima of the device 6 places before
  iapply (step_load c (fk 6) fullShare (mine m ρ (sub c 6)) (rep c (mine m ρ (sub c 6))) (fun _ _ => rfl)) $$ [Hp6]
  · iexact Hp6
  iintro Hp6
  rw [wp_ret]
  imodintro
  iapply Hk
  isplitl [Ha5]; · iexact Ha5
  isplitl [Hp5]; · iexact Hp5
  isplitl [Ha6]; · iexact Ha6
  isplitl [Hp6]; · iexact Hp6
  isplitl [HO]; · iexists _; iexact HO
  ipureintro; rfl

/-- The receive waits 7, 8 and 9, each followed by the load of its slot. -/
theorem part20_spec (K : Dev nD × CK → ℕ) (c : Dev nD) (v363 : BitVec 32) (v384 : BitVec 32) (v588 : FVec F S1024 .bf16) (W : Waits sig Unit)
    {Q : (FVec F S1024 .bf16) → sProp 𝕄} :
    iprop(records m ρ K
        ∗ cred (tallyAt (recvCell c (fk 7)) () Nc) ∗ atPos ER (recvCell c (fk 7)) 0 ∅ 0
        ∗ cred (tallyAt (recvCell c (fk 8)) () Nc) ∗ atPos ER (recvCell c (fk 8)) 0 ∅ 0
        ∗ cred (tallyAt (recvCell c (fk 9)) () Nc) ∗ atPos ER (recvCell c (fk 9)) 0 ∅ 0
        ∗ owes (c : Thread nD τ) 0 W)
      ⊢ iprop((∀ r, iprop(atPos ER (recvCell c (fk 7)) 1 ∅ 0 ∗ recvPay m ρ c (fk 7)
            ∗ atPos ER (recvCell c (fk 8)) 1 ∅ 0 ∗ recvPay m ρ c (fk 8)
            ∗ atPos ER (recvCell c (fk 9)) 1 ∅ 0 ∗ recvPay m ρ c (fk 9)
            ∗ (∃ W', owes (c : Thread nD τ) 0 W')
            ∗ ⌜r = k0_pay6 v588 (mine m ρ (sub c 7)) (mine m ρ (sub c 8)) (mine m ρ (sub c 9))⌝) -∗ Q r)
          -∗ wp frame (wpE (defs₀ (F := F)) 𝒱₀ (c : Thread nD τ) none) Set.univ
              (k0_part20 (Memref.whole cc0_stg0_0) (Memref.isWhole_whole _) (Memref.whole cc0_stg1_0) (Memref.isWhole_whole _) (Memref.whole cc0_scratch0) (Memref.isWhole_whole _) cc0_scratch1 cc0_scratch2 v363 v384 v588) Q) := by
  rw [k0_part20_eq_skeleton]; unfold k0_part20_skel
  simp only [Prog.lift, Prog.bind_op, Prog.bind_ret, Prog.pure_eq_ret]
  unfold recvPay
  iintro ⟨#HR, Hc7, Ha7, Hc8, Ha8, Hc9, Ha9, HO⟩ Hk
  -- the receive wait 7
  iapply (step_recvwait m ρ K c (fk 7) (by decide)) $$ [Hc7 HO Ha7]
  · isplitr; · iexact HR
    isplitl [Hc7]; · iexact Hc7
    isplitl [HO]; · iexact HO
    iexact Ha7
  iintro ⟨HO, Ha7, Hp7⟩
  unfold recvPay
  -- the load of slot 7: the maxima of the device 7 places before
  iapply (step_load c (fk 7) fullShare (mine m ρ (sub c 7)) (rep c (mine m ρ (sub c 7))) (fun _ _ => rfl)) $$ [Hp7]
  · iexact Hp7
  iintro Hp7
  -- the receive wait 8
  iapply (step_recvwait m ρ K c (fk 8) (by decide)) $$ [Hc8 HO Ha8]
  · isplitr; · iexact HR
    isplitl [Hc8]; · iexact Hc8
    isplitl [HO]; · iexact HO
    iexact Ha8
  iintro ⟨HO, Ha8, Hp8⟩
  unfold recvPay
  -- the load of slot 8: the maxima of the device 8 places before
  iapply (step_load c (fk 8) fullShare (mine m ρ (sub c 8)) (rep c (mine m ρ (sub c 8))) (fun _ _ => rfl)) $$ [Hp8]
  · iexact Hp8
  iintro Hp8
  -- the receive wait 9
  iapply (step_recvwait m ρ K c (fk 9) (by decide)) $$ [Hc9 HO Ha9]
  · isplitr; · iexact HR
    isplitl [Hc9]; · iexact Hc9
    isplitl [HO]; · iexact HO
    iexact Ha9
  iintro ⟨HO, Ha9, Hp9⟩
  unfold recvPay
  -- the load of slot 9: the maxima of the device 9 places before
  iapply (step_load c (fk 9) fullShare (mine m ρ (sub c 9)) (rep c (mine m ρ (sub c 9))) (fun _ _ => rfl)) $$ [Hp9]
  · iexact Hp9
  iintro Hp9
  rw [wp_ret]
  imodintro
  iapply Hk
  isplitl [Ha7]; · iexact Ha7
  isplitl [Hp7]; · iexact Hp7
  isplitl [Ha8]; · iexact Ha8
  isplitl [Hp8]; · iexact Hp8
  isplitl [Ha9]; · iexact Ha9
  isplitl [Hp9]; · iexact Hp9
  isplitl [HO]; · iexists _; iexact HO
  ipureintro; rfl

/-- The receive waits 10 and 11, each followed by the load of its slot. -/
theorem part21_spec (K : Dev nD × CK → ℕ) (c : Dev nD) (v405 : BitVec 32) (v426 : BitVec 32) (v447 : BitVec 32) (v621 : FVec F S1024 .bf16) (W : Waits sig Unit)
    {Q : (FVec F S1024 .bf16) → sProp 𝕄} :
    iprop(records m ρ K
        ∗ cred (tallyAt (recvCell c (fk 10)) () Nc) ∗ atPos ER (recvCell c (fk 10)) 0 ∅ 0
        ∗ cred (tallyAt (recvCell c (fk 11)) () Nc) ∗ atPos ER (recvCell c (fk 11)) 0 ∅ 0
        ∗ owes (c : Thread nD τ) 0 W)
      ⊢ iprop((∀ r, iprop(atPos ER (recvCell c (fk 10)) 1 ∅ 0 ∗ recvPay m ρ c (fk 10)
            ∗ atPos ER (recvCell c (fk 11)) 1 ∅ 0 ∗ recvPay m ρ c (fk 11)
            ∗ (∃ W', owes (c : Thread nD τ) 0 W')
            ∗ ⌜r = k0_pay7 v621 (mine m ρ (sub c 10)) (mine m ρ (sub c 11))⌝) -∗ Q r)
          -∗ wp frame (wpE (defs₀ (F := F)) 𝒱₀ (c : Thread nD τ) none) Set.univ
              (k0_part21 (Memref.whole cc0_stg0_0) (Memref.isWhole_whole _) (Memref.whole cc0_stg1_0) (Memref.isWhole_whole _) (Memref.whole cc0_scratch0) (Memref.isWhole_whole _) cc0_scratch1 cc0_scratch2 v405 v426 v447 v621) Q) := by
  rw [k0_part21_eq_skeleton]; unfold k0_part21_skel
  simp only [Prog.lift, Prog.bind_op, Prog.bind_ret, Prog.pure_eq_ret]
  unfold recvPay
  iintro ⟨#HR, Hc10, Ha10, Hc11, Ha11, HO⟩ Hk
  -- the receive wait 10
  iapply (step_recvwait m ρ K c (fk 10) (by decide)) $$ [Hc10 HO Ha10]
  · isplitr; · iexact HR
    isplitl [Hc10]; · iexact Hc10
    isplitl [HO]; · iexact HO
    iexact Ha10
  iintro ⟨HO, Ha10, Hp10⟩
  unfold recvPay
  -- the load of slot 10: the maxima of the device 10 places before
  iapply (step_load c (fk 10) fullShare (mine m ρ (sub c 10)) (rep c (mine m ρ (sub c 10))) (fun _ _ => rfl)) $$ [Hp10]
  · iexact Hp10
  iintro Hp10
  -- the receive wait 11
  iapply (step_recvwait m ρ K c (fk 11) (by decide)) $$ [Hc11 HO Ha11]
  · isplitr; · iexact HR
    isplitl [Hc11]; · iexact Hc11
    isplitl [HO]; · iexact HO
    iexact Ha11
  iintro ⟨HO, Ha11, Hp11⟩
  unfold recvPay
  -- the load of slot 11: the maxima of the device 11 places before
  iapply (step_load c (fk 11) fullShare (mine m ρ (sub c 11)) (rep c (mine m ρ (sub c 11))) (fun _ _ => rfl)) $$ [Hp11]
  · iexact Hp11
  iintro Hp11
  rw [wp_ret]
  imodintro
  iapply Hk
  isplitl [Ha10]; · iexact Ha10
  isplitl [Hp10]; · iexact Hp10
  isplitl [Ha11]; · iexact Ha11
  isplitl [Hp11]; · iexact Hp11
  isplitl [HO]; · iexists _; iexact HO
  ipureintro; rfl

/-- The receive waits 12 and 13, each followed by the load of its slot, then the receive wait 14. -/
theorem part22_spec (K : Dev nD × CK → ℕ) (c : Dev nD) (v468 : BitVec 32) (v489 : BitVec 32) (v643 : FVec F S1024 .bf16) (W : Waits sig Unit)
    {Q : (FVec F S1024 .bf16) → sProp 𝕄} :
    iprop(records m ρ K
        ∗ cred (tallyAt (recvCell c (fk 12)) () Nc) ∗ atPos ER (recvCell c (fk 12)) 0 ∅ 0
        ∗ cred (tallyAt (recvCell c (fk 13)) () Nc) ∗ atPos ER (recvCell c (fk 13)) 0 ∅ 0
        ∗ cred (tallyAt (recvCell c (fk 14)) () Nc) ∗ atPos ER (recvCell c (fk 14)) 0 ∅ 0
        ∗ owes (c : Thread nD τ) 0 W)
      ⊢ iprop((∀ r, iprop(atPos ER (recvCell c (fk 12)) 1 ∅ 0 ∗ recvPay m ρ c (fk 12)
            ∗ atPos ER (recvCell c (fk 13)) 1 ∅ 0 ∗ recvPay m ρ c (fk 13)
            ∗ atPos ER (recvCell c (fk 14)) 1 ∅ 0 ∗ recvPay m ρ c (fk 14)
            ∗ (∃ W', owes (c : Thread nD τ) 0 W')
            ∗ ⌜r = k0_pay8 v643 (mine m ρ (sub c 12)) (mine m ρ (sub c 13))⌝) -∗ Q r)
          -∗ wp frame (wpE (defs₀ (F := F)) 𝒱₀ (c : Thread nD τ) none) Set.univ
              (k0_part22 (Memref.whole cc0_stg0_0) (Memref.isWhole_whole _) (Memref.whole cc0_stg1_0) (Memref.isWhole_whole _) (Memref.whole cc0_scratch0) (Memref.isWhole_whole _) cc0_scratch1 cc0_scratch2 v468 v489 v643) Q) := by
  rw [k0_part22_eq_skeleton]; unfold k0_part22_skel
  simp only [Prog.lift, Prog.bind_op, Prog.bind_ret, Prog.pure_eq_ret]
  unfold recvPay
  iintro ⟨#HR, Hc12, Ha12, Hc13, Ha13, Hc14, Ha14, HO⟩ Hk
  -- the receive wait 12
  iapply (step_recvwait m ρ K c (fk 12) (by decide)) $$ [Hc12 HO Ha12]
  · isplitr; · iexact HR
    isplitl [Hc12]; · iexact Hc12
    isplitl [HO]; · iexact HO
    iexact Ha12
  iintro ⟨HO, Ha12, Hp12⟩
  unfold recvPay
  -- the load of slot 12: the maxima of the device 12 places before
  iapply (step_load c (fk 12) fullShare (mine m ρ (sub c 12)) (rep c (mine m ρ (sub c 12))) (fun _ _ => rfl)) $$ [Hp12]
  · iexact Hp12
  iintro Hp12
  -- the receive wait 13
  iapply (step_recvwait m ρ K c (fk 13) (by decide)) $$ [Hc13 HO Ha13]
  · isplitr; · iexact HR
    isplitl [Hc13]; · iexact Hc13
    isplitl [HO]; · iexact HO
    iexact Ha13
  iintro ⟨HO, Ha13, Hp13⟩
  unfold recvPay
  -- the load of slot 13: the maxima of the device 13 places before
  iapply (step_load c (fk 13) fullShare (mine m ρ (sub c 13)) (rep c (mine m ρ (sub c 13))) (fun _ _ => rfl)) $$ [Hp13]
  · iexact Hp13
  iintro Hp13
  -- the receive wait 14
  iapply (step_recvwait m ρ K c (fk 14) (by decide)) $$ [Hc14 HO Ha14]
  · isplitr; · iexact HR
    isplitl [Hc14]; · iexact Hc14
    isplitl [HO]; · iexact HO
    iexact Ha14
  iintro ⟨HO, Ha14, Hp14⟩
  unfold recvPay
  rw [wp_ret]
  imodintro
  iapply Hk
  isplitl [Ha12]; · iexact Ha12
  isplitl [Hp12]; · iexact Hp12
  isplitl [Ha13]; · iexact Ha13
  isplitl [Hp13]; · iexact Hp13
  isplitl [Ha14]; · iexact Ha14
  isplitl [Hp14]; · iexact Hp14
  isplitl [HO]; · iexists _; iexact HO
  ipureintro; rfl

/-- The load of slot 14, the receive wait 15 and the load of its slot, then the send wait 1. -/
theorem part23_spec (K : Dev nD × CK → ℕ) (c : Dev nD) (v510 : BitVec 32) (v665 : FVec F S1024 .bf16) (W : Waits sig Unit)
    {Q : (FVec F S1024 .bf16) → sProp 𝕄} :
    iprop(records m ρ K
        ∗ recvPay m ρ c (fk 14)
        ∗ cred (tallyAt (recvCell c (fk 15)) () Nc) ∗ atPos ER (recvCell c (fk 15)) 0 ∅ 0
        ∗ cred (tallyAt (sendCell c (fk 1)) () Nc) ∗ atPos ER (sendCell c (fk 1)) 0 ∅ 0
        ∗ owes (c : Thread nD τ) 0 W)
      ⊢ iprop((∀ r, iprop(recvPay m ρ c (fk 14)
            ∗ atPos ER (recvCell c (fk 15)) 1 ∅ 0 ∗ recvPay m ρ c (fk 15)
            ∗ atPos ER (sendCell c (fk 1)) 1 ∅ 0 ∗ sendPay m ρ c (fk 1)
            ∗ (∃ W', owes (c : Thread nD τ) 0 W')
            ∗ ⌜r = k0_pay9 v665 (mine m ρ (sub c 14)) (mine m ρ (sub c 15))⌝) -∗ Q r)
          -∗ wp frame (wpE (defs₀ (F := F)) 𝒱₀ (c : Thread nD τ) none) Set.univ
              (k0_part23 (Memref.whole cc0_stg0_0) (Memref.isWhole_whole _) (Memref.whole cc0_stg1_0) (Memref.isWhole_whole _) (Memref.whole cc0_scratch0) (Memref.isWhole_whole _) cc0_scratch1 cc0_scratch2 v510 v665) Q) := by
  rw [k0_part23_eq_skeleton]; unfold k0_part23_skel
  simp only [Prog.lift, Prog.bind_op, Prog.bind_ret, Prog.pure_eq_ret]
  unfold recvPay
  iintro ⟨#HR, Hp14, Hc15, Ha15, Hcs1, Has1, HO⟩ Hk
  -- the load of slot 14: the maxima of the device 14 places before
  iapply (step_load c (fk 14) fullShare (mine m ρ (sub c 14)) (rep c (mine m ρ (sub c 14))) (fun _ _ => rfl)) $$ [Hp14]
  · iexact Hp14
  iintro Hp14
  -- the receive wait 15
  iapply (step_recvwait m ρ K c (fk 15) (by decide)) $$ [Hc15 HO Ha15]
  · isplitr; · iexact HR
    isplitl [Hc15]; · iexact Hc15
    isplitl [HO]; · iexact HO
    iexact Ha15
  iintro ⟨HO, Ha15, Hp15⟩
  unfold recvPay
  -- the load of slot 15: the maxima of the device 15 places before
  iapply (step_load c (fk 15) fullShare (mine m ρ (sub c 15)) (rep c (mine m ρ (sub c 15))) (fun _ _ => rfl)) $$ [Hp15]
  · iexact Hp15
  iintro Hp15
  -- the send wait 1
  iapply (step_sendwait m ρ K c (fk 1) (by decide)) $$ [Hcs1 HO Has1]
  · isplitr; · iexact HR
    isplitl [Hcs1]; · iexact Hcs1
    isplitl [HO]; · iexact HO
    iexact Has1
  iintro ⟨HO, Has1, Hps1⟩
  rw [wp_ret]
  imodintro
  iapply Hk
  isplitl [Hp14]; · iexact Hp14
  isplitl [Ha15]; · iexact Ha15
  isplitl [Hp15]; · iexact Hp15
  isplitl [Has1]; · iexact Has1
  isplitl [Hps1]; · iexact Hps1
  isplitl [HO]; · iexists _; iexact HO
  ipureintro; rfl

/-- The send waits 2 to 5. -/
theorem part24_spec (K : Dev nD × CK → ℕ) (c : Dev nD)  (W : Waits sig Unit)
    {Q : PUnit → sProp 𝕄} :
    iprop(records m ρ K
        ∗ cred (tallyAt (sendCell c (fk 2)) () Nc) ∗ atPos ER (sendCell c (fk 2)) 0 ∅ 0
        ∗ cred (tallyAt (sendCell c (fk 3)) () Nc) ∗ atPos ER (sendCell c (fk 3)) 0 ∅ 0
        ∗ cred (tallyAt (sendCell c (fk 4)) () Nc) ∗ atPos ER (sendCell c (fk 4)) 0 ∅ 0
        ∗ cred (tallyAt (sendCell c (fk 5)) () Nc) ∗ atPos ER (sendCell c (fk 5)) 0 ∅ 0
        ∗ owes (c : Thread nD τ) 0 W)
      ⊢ iprop((∀ r, iprop(atPos ER (sendCell c (fk 2)) 1 ∅ 0 ∗ sendPay m ρ c (fk 2)
            ∗ atPos ER (sendCell c (fk 3)) 1 ∅ 0 ∗ sendPay m ρ c (fk 3)
            ∗ atPos ER (sendCell c (fk 4)) 1 ∅ 0 ∗ sendPay m ρ c (fk 4)
            ∗ atPos ER (sendCell c (fk 5)) 1 ∅ 0 ∗ sendPay m ρ c (fk 5)
            ∗ (∃ W', owes (c : Thread nD τ) 0 W')) -∗ Q r)
          -∗ wp frame (wpE (defs₀ (F := F)) 𝒱₀ (c : Thread nD τ) none) Set.univ
              (k0_part24 (Memref.whole cc0_stg0_0) (Memref.isWhole_whole _) (Memref.whole cc0_stg1_0) (Memref.isWhole_whole _) (Memref.whole cc0_scratch0) (Memref.isWhole_whole _) cc0_scratch1 cc0_scratch2 ) Q) := by
  rw [k0_part24_eq_skeleton]; unfold k0_part24_skel
  simp only [Prog.lift, Prog.bind_op, Prog.bind_ret, Prog.pure_eq_ret]
  iintro ⟨#HR, Hcs2, Has2, Hcs3, Has3, Hcs4, Has4, Hcs5, Has5, HO⟩ Hk
  -- the send wait 2
  iapply (step_sendwait m ρ K c (fk 2) (by decide)) $$ [Hcs2 HO Has2]
  · isplitr; · iexact HR
    isplitl [Hcs2]; · iexact Hcs2
    isplitl [HO]; · iexact HO
    iexact Has2
  iintro ⟨HO, Has2, Hps2⟩
  -- the send wait 3
  iapply (step_sendwait m ρ K c (fk 3) (by decide)) $$ [Hcs3 HO Has3]
  · isplitr; · iexact HR
    isplitl [Hcs3]; · iexact Hcs3
    isplitl [HO]; · iexact HO
    iexact Has3
  iintro ⟨HO, Has3, Hps3⟩
  -- the send wait 4
  iapply (step_sendwait m ρ K c (fk 4) (by decide)) $$ [Hcs4 HO Has4]
  · isplitr; · iexact HR
    isplitl [Hcs4]; · iexact Hcs4
    isplitl [HO]; · iexact HO
    iexact Has4
  iintro ⟨HO, Has4, Hps4⟩
  -- the send wait 5
  iapply (step_sendwait m ρ K c (fk 5) (by decide)) $$ [Hcs5 HO Has5]
  · isplitr; · iexact HR
    isplitl [Hcs5]; · iexact Hcs5
    isplitl [HO]; · iexact HO
    iexact Has5
  iintro ⟨HO, Has5, Hps5⟩
  rw [wp_ret]
  imodintro
  iapply Hk
  isplitl [Has2]; · iexact Has2
  isplitl [Hps2]; · iexact Hps2
  isplitl [Has3]; · iexact Has3
  isplitl [Hps3]; · iexact Hps3
  isplitl [Has4]; · iexact Has4
  isplitl [Hps4]; · iexact Hps4
  isplitl [Has5]; · iexact Has5
  isplitl [Hps5]; · iexact Hps5
  iexists _; iexact HO

/-- The send waits 6 to 9. -/
theorem part25_spec (K : Dev nD × CK → ℕ) (c : Dev nD)  (W : Waits sig Unit)
    {Q : PUnit → sProp 𝕄} :
    iprop(records m ρ K
        ∗ cred (tallyAt (sendCell c (fk 6)) () Nc) ∗ atPos ER (sendCell c (fk 6)) 0 ∅ 0
        ∗ cred (tallyAt (sendCell c (fk 7)) () Nc) ∗ atPos ER (sendCell c (fk 7)) 0 ∅ 0
        ∗ cred (tallyAt (sendCell c (fk 8)) () Nc) ∗ atPos ER (sendCell c (fk 8)) 0 ∅ 0
        ∗ cred (tallyAt (sendCell c (fk 9)) () Nc) ∗ atPos ER (sendCell c (fk 9)) 0 ∅ 0
        ∗ owes (c : Thread nD τ) 0 W)
      ⊢ iprop((∀ r, iprop(atPos ER (sendCell c (fk 6)) 1 ∅ 0 ∗ sendPay m ρ c (fk 6)
            ∗ atPos ER (sendCell c (fk 7)) 1 ∅ 0 ∗ sendPay m ρ c (fk 7)
            ∗ atPos ER (sendCell c (fk 8)) 1 ∅ 0 ∗ sendPay m ρ c (fk 8)
            ∗ atPos ER (sendCell c (fk 9)) 1 ∅ 0 ∗ sendPay m ρ c (fk 9)
            ∗ (∃ W', owes (c : Thread nD τ) 0 W')) -∗ Q r)
          -∗ wp frame (wpE (defs₀ (F := F)) 𝒱₀ (c : Thread nD τ) none) Set.univ
              (k0_part25 (Memref.whole cc0_stg0_0) (Memref.isWhole_whole _) (Memref.whole cc0_stg1_0) (Memref.isWhole_whole _) (Memref.whole cc0_scratch0) (Memref.isWhole_whole _) cc0_scratch1 cc0_scratch2 ) Q) := by
  rw [k0_part25_eq_skeleton]; unfold k0_part25_skel
  simp only [Prog.lift, Prog.bind_op, Prog.bind_ret, Prog.pure_eq_ret]
  iintro ⟨#HR, Hcs6, Has6, Hcs7, Has7, Hcs8, Has8, Hcs9, Has9, HO⟩ Hk
  -- the send wait 6
  iapply (step_sendwait m ρ K c (fk 6) (by decide)) $$ [Hcs6 HO Has6]
  · isplitr; · iexact HR
    isplitl [Hcs6]; · iexact Hcs6
    isplitl [HO]; · iexact HO
    iexact Has6
  iintro ⟨HO, Has6, Hps6⟩
  -- the send wait 7
  iapply (step_sendwait m ρ K c (fk 7) (by decide)) $$ [Hcs7 HO Has7]
  · isplitr; · iexact HR
    isplitl [Hcs7]; · iexact Hcs7
    isplitl [HO]; · iexact HO
    iexact Has7
  iintro ⟨HO, Has7, Hps7⟩
  -- the send wait 8
  iapply (step_sendwait m ρ K c (fk 8) (by decide)) $$ [Hcs8 HO Has8]
  · isplitr; · iexact HR
    isplitl [Hcs8]; · iexact Hcs8
    isplitl [HO]; · iexact HO
    iexact Has8
  iintro ⟨HO, Has8, Hps8⟩
  -- the send wait 9
  iapply (step_sendwait m ρ K c (fk 9) (by decide)) $$ [Hcs9 HO Has9]
  · isplitr; · iexact HR
    isplitl [Hcs9]; · iexact Hcs9
    isplitl [HO]; · iexact HO
    iexact Has9
  iintro ⟨HO, Has9, Hps9⟩
  rw [wp_ret]
  imodintro
  iapply Hk
  isplitl [Has6]; · iexact Has6
  isplitl [Hps6]; · iexact Hps6
  isplitl [Has7]; · iexact Has7
  isplitl [Hps7]; · iexact Hps7
  isplitl [Has8]; · iexact Has8
  isplitl [Hps8]; · iexact Hps8
  isplitl [Has9]; · iexact Has9
  isplitl [Hps9]; · iexact Hps9
  iexists _; iexact HO

/-- The send waits 10 to 13. -/
theorem part26_spec (K : Dev nD × CK → ℕ) (c : Dev nD)  (W : Waits sig Unit)
    {Q : PUnit → sProp 𝕄} :
    iprop(records m ρ K
        ∗ cred (tallyAt (sendCell c (fk 10)) () Nc) ∗ atPos ER (sendCell c (fk 10)) 0 ∅ 0
        ∗ cred (tallyAt (sendCell c (fk 11)) () Nc) ∗ atPos ER (sendCell c (fk 11)) 0 ∅ 0
        ∗ cred (tallyAt (sendCell c (fk 12)) () Nc) ∗ atPos ER (sendCell c (fk 12)) 0 ∅ 0
        ∗ cred (tallyAt (sendCell c (fk 13)) () Nc) ∗ atPos ER (sendCell c (fk 13)) 0 ∅ 0
        ∗ owes (c : Thread nD τ) 0 W)
      ⊢ iprop((∀ r, iprop(atPos ER (sendCell c (fk 10)) 1 ∅ 0 ∗ sendPay m ρ c (fk 10)
            ∗ atPos ER (sendCell c (fk 11)) 1 ∅ 0 ∗ sendPay m ρ c (fk 11)
            ∗ atPos ER (sendCell c (fk 12)) 1 ∅ 0 ∗ sendPay m ρ c (fk 12)
            ∗ atPos ER (sendCell c (fk 13)) 1 ∅ 0 ∗ sendPay m ρ c (fk 13)
            ∗ (∃ W', owes (c : Thread nD τ) 0 W')) -∗ Q r)
          -∗ wp frame (wpE (defs₀ (F := F)) 𝒱₀ (c : Thread nD τ) none) Set.univ
              (k0_part26 (Memref.whole cc0_stg0_0) (Memref.isWhole_whole _) (Memref.whole cc0_stg1_0) (Memref.isWhole_whole _) (Memref.whole cc0_scratch0) (Memref.isWhole_whole _) cc0_scratch1 cc0_scratch2 ) Q) := by
  rw [k0_part26_eq_skeleton]; unfold k0_part26_skel
  simp only [Prog.lift, Prog.bind_op, Prog.bind_ret, Prog.pure_eq_ret]
  iintro ⟨#HR, Hcs10, Has10, Hcs11, Has11, Hcs12, Has12, Hcs13, Has13, HO⟩ Hk
  -- the send wait 10
  iapply (step_sendwait m ρ K c (fk 10) (by decide)) $$ [Hcs10 HO Has10]
  · isplitr; · iexact HR
    isplitl [Hcs10]; · iexact Hcs10
    isplitl [HO]; · iexact HO
    iexact Has10
  iintro ⟨HO, Has10, Hps10⟩
  -- the send wait 11
  iapply (step_sendwait m ρ K c (fk 11) (by decide)) $$ [Hcs11 HO Has11]
  · isplitr; · iexact HR
    isplitl [Hcs11]; · iexact Hcs11
    isplitl [HO]; · iexact HO
    iexact Has11
  iintro ⟨HO, Has11, Hps11⟩
  -- the send wait 12
  iapply (step_sendwait m ρ K c (fk 12) (by decide)) $$ [Hcs12 HO Has12]
  · isplitr; · iexact HR
    isplitl [Hcs12]; · iexact Hcs12
    isplitl [HO]; · iexact HO
    iexact Has12
  iintro ⟨HO, Has12, Hps12⟩
  -- the send wait 13
  iapply (step_sendwait m ρ K c (fk 13) (by decide)) $$ [Hcs13 HO Has13]
  · isplitr; · iexact HR
    isplitl [Hcs13]; · iexact Hcs13
    isplitl [HO]; · iexact HO
    iexact Has13
  iintro ⟨HO, Has13, Hps13⟩
  rw [wp_ret]
  imodintro
  iapply Hk
  isplitl [Has10]; · iexact Has10
  isplitl [Hps10]; · iexact Hps10
  isplitl [Has11]; · iexact Has11
  isplitl [Hps11]; · iexact Hps11
  isplitl [Has12]; · iexact Has12
  isplitl [Hps12]; · iexact Hps12
  isplitl [Has13]; · iexact Has13
  isplitl [Hps13]; · iexact Hps13
  iexists _; iexact HO

/-- info: 'Cert.KernelIdeal.Pf.part18_spec' depends on axioms: [propext, Classical.choice, Quot.sound] -/
#guard_msgs in #print axioms part18_spec
/-- info: 'Cert.KernelIdeal.Pf.part26_spec' depends on axioms: [propext, Classical.choice, Quot.sound] -/
#guard_msgs in #print axioms part26_spec

end Cert.KernelIdeal.Pf

end
-- ==== Proof.KernelIdealPf.Finish.lean ====
/-
  The end of the body: the kernel's 32 own cells closed at zero, the read shares of slot 0 put back together, every slot
  at some contents, and the whole regrouped into what the body's postcondition is made from.
-/
import proofs.«900914_g7700000000000915_dist_max_ax0_shard0_i_m2048_n1024_v7x_i16_bf16_1_alg».proof.Proof.KernelIdealPf.Steps
import proofs.«900914_g7700000000000915_dist_max_ax0_shard0_i_m2048_n1024_v7x_i16_bf16_1_alg».proof.Proof.KernelIdealPf.Open

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The read shares of slot 0 -/

/-- Slot 0 held whole is what sixteen read shares leave of it, and the sixteen shares. -/
theorem share_split (c : Dev nD) (f : Buf (Elt F) ((c : Thread nD τ).loc cc0_scratch0)) :
    slotPts (F := F) c 0 fullShare f
      ⊢ iprop(slotPts c 0 (Transfers.shareDrop fullShare 16) f ∗ slotPts c 0 (Transfers.shareTok fullShare 16 0) f
          ∗ bigSepL E15 fun k => slotPts c 0 (Transfers.shareTok fullShare 16 k) f) := by
  unfold slotPts
  refine (Transfers.pointsTo_toks_split fullShare 16).trans ?_
  rw [bigSep_F16]

/-- And back. -/
theorem share_join (c : Dev nD) (f : Buf (Elt F) ((c : Thread nD τ).loc cc0_scratch0)) :
    iprop(slotPts c 0 (Transfers.shareDrop fullShare 16) f ∗ slotPts c 0 (Transfers.shareTok fullShare 16 0) f
        ∗ bigSepL E15 fun k => slotPts c 0 (Transfers.shareTok fullShare 16 k) f)
      ⊢ slotPts (F := F) c 0 fullShare f := by
  unfold slotPts
  refine BI.Entails.trans ?_ (Transfers.pointsTo_toks_join fullShare 16)
  rw [bigSep_F16]
  exact BI.Entails.refl _

/-! ## Updates over a family, under a persistent fact -/

/-- Per-summand updates that each use a persistent fact combine into one update of the whole family. -/
theorem bigSep_fupd_with {I : Type} [DecidableEq I] (S : Finset I) {R : sProp 𝕄} [BI.Persistent R] {Φ Ψ : I → sProp 𝕄}
    (h : ∀ i ∈ S, iprop(R ∗ Φ i) ⊢ iprop(|={Set.univ}=> Ψ i)) :
    iprop(R ∗ bigSep S Φ) ⊢ iprop(|={Set.univ}=> bigSep S Ψ) := by
  induction S using Finset.induction_on with
  | empty =>
    rw [bigSep_empty, bigSep_empty]
    iintro -; imodintro; iempintro
  | insert i S hi ih =>
    have e1 : bigSep (insert i S) Φ = iprop(Φ i ∗ bigSep S Φ) := bigSep_insert hi
    have e2 : bigSep (insert i S) Ψ = iprop(Ψ i ∗ bigSep S Ψ) := bigSep_insert hi
    rw [e1, e2]
    iintro ⟨#HR, Hi, HS⟩
    imod (h i (Finset.mem_insert_self i S)) $$ [Hi] with Hi
    · isplitr; · iexact HR
      iexact Hi
    imod (ih fun j hj => h j (Finset.mem_insert_of_mem hj)) $$ [HS] with HS
    · isplitr; · iexact HR
      iexact HS
    imodintro
    isplitl [Hi]; · iexact Hi
    iexact HS

/-- The kernel's 32 own semaphores are its sixteen send and its sixteen receive semaphores. -/
theorem ownZero_split (c : Dev nD) :
    (bigSep Finset.univ fun bk : Bool × Fin 16 => (semVal ((c : Thread nD τ), osem bk) 0 : sProp 𝕄))
      = iprop((bigSep Finset.univ fun k : Fin 16 => semVal (sendCell c k) 0) ∗ bigSep Finset.univ fun k : Fin 16 => semVal (recvCell c k) 0) := by
  rw [bigSep_univ_prod, bigSep_univ_eq_bigSepL [false, true] (by decide) (by decide)]
  rfl

/-! ## The end of the body -/

/-- Every own cell closed, slot 0 whole again, the other slots as their transfers left them: the body's last state. -/
theorem finish (K : Dev nD × CK → ℕ) (c : Dev nD) (W : Waits sig Unit) :
    iprop(records m ρ K
        ∗ atPos ER (sendCell c 0) 0 ∅ 0 ∗ (bigSepL E15 fun k => atPos ER (sendCell c k) 1 ∅ 0)
        ∗ atPos ER (recvCell c 0) 0 ∅ 0 ∗ (bigSepL E15 fun k => atPos ER (recvCell c k) 1 ∅ 0)
        ∗ slotPts c 0 (Transfers.shareDrop fullShare 16) (rep c (mine m ρ c)) ∗ slotPts c 0 (Transfers.shareTok fullShare 16 0) (rep c (mine m ρ c))
        ∗ (bigSepL E15 fun k => sendPay m ρ c k)
        ∗ (bigSepL E15 fun k => recvPay m ρ c k)
        ∗ owes (c : Thread nD τ) 0 W
        ∗ (((c : Thread nD τ).loc cc0_stg0_0) ↦{fullShare} xstg m ρ c)
        ∗ (((c : Thread nD τ).loc cc0_stg1_0) ↦{fullShare} outAt m ρ c))
      ⊢ iprop(|={Set.univ}=> closing m ρ c W) := by
  have hS := bigSep_fupd_with (F := F) (R := records m ρ K) (Finset.univ.erase (0 : Fin 16))
    (Φ := fun k => atPos ER (sendCell c k) 1 ∅ 0) (Ψ := fun k => semVal (sendCell c k) 0)
    (fun k _ => close_send m ρ K c k 1 (Or.inr le_rfl))
  have hR := bigSep_fupd_with (F := F) (R := records m ρ K) (Finset.univ.erase (0 : Fin 16))
    (Φ := fun k => atPos ER (recvCell c k) 1 ∅ 0) (Ψ := fun k => semVal (recvCell c k) 0)
    (fun k _ => close_recv m ρ K c k 1 (Or.inr le_rfl))
  have hslots : (bigSep (Finset.univ.erase (0 : Fin 16)) fun k => recvPay m ρ c k)
      ⊢ bigSep (Finset.univ.erase (0 : Fin 16)) fun k => iprop(∃ f, slotPts (F := F) c k fullShare f) :=
    bigSep_mono fun k _ => (show recvPay m ρ c k ⊢ iprop(∃ f, slotPts (F := F) c k fullShare f) from by
      unfold recvPay; iintro H; iexists _; iexact H)
  rw [← bigSep_E (fun k => atPos ER (sendCell c k) 1 ∅ 0), ← bigSep_E (fun k => atPos ER (recvCell c k) 1 ∅ 0),
    ← bigSep_E (fun k => recvPay m ρ c k)]
  unfold sendPay
  iintro ⟨#HR, A0, AS, B0, BS, Hd, Ht0, HSP, HRP, HO, Hx, Hout⟩
  imod (close_send m ρ K c 0 0 (Or.inl rfl)) $$ [A0] with V0
  · isplitr; · iexact HR
    iexact A0
  imod hS $$ [AS] with VS
  · isplitr; · iexact HR
    iexact AS
  imod (close_recv m ρ K c 0 0 (Or.inl rfl)) $$ [B0] with U0
  · isplitr; · iexact HR
    iexact B0
  imod hR $$ [BS] with US
  · isplitr; · iexact HR
    iexact BS
  imodintro
  unfold closing
  rw [ownZero_split, bigSep_univ_at (fun k : Fin 16 => iprop(∃ f, slotPts (F := F) c k fullShare f)) 0,
    bigSep_univ_at (fun k : Fin 16 => (semVal (sendCell c k) 0 : sProp 𝕄)) 0,
    bigSep_univ_at (fun k : Fin 16 => (semVal (recvCell c k) 0 : sProp 𝕄)) 0]
  isplitl [Hd Ht0 HSP HRP]
  · isplitl [Hd Ht0 HSP]
    · iexists (rep c (mine m ρ c))
      iapply (share_join c (rep c (mine m ρ c)))
      isplitl [Hd]; · iexact Hd
      isplitl [Ht0]; · iexact Ht0
      iexact HSP
    · iapply hslots; iexact HRP
  isplitl [V0 VS U0 US]
  · isplitl [V0 VS]
    · isplitl [V0]; · iexact V0
      iexact VS
    · isplitl [U0]; · iexact U0
      iexact US
  isplitl [HO]; · iexact HO
  isplitl [Hx]; · iexact Hx
  iexact Hout

/-- info: 'Cert.KernelIdeal.Pf.share_split' depends on axioms: [propext, Classical.choice, Quot.sound] -/
#guard_msgs in #print axioms share_split
/-- info: 'Cert.KernelIdeal.Pf.share_join' depends on axioms: [propext, Classical.choice, Quot.sound] -/
#guard_msgs in #print axioms share_join
/-- info: 'Cert.KernelIdeal.Pf.finish' depends on axioms: [propext, Classical.choice, Quot.sound] -/
#guard_msgs in #print axioms finish

end Cert.KernelIdeal.Pf

end
-- ==== Proof.KernelIdealPf.Body.lean ====
/-
  The kernel body on one device, run from its precondition to its postcondition: the precondition opened into its single
  resources, the printed parts applied in order — the fifteen signals and the barrier wait, the fifteen transfers of the
  own column maxima, the fifteen receive waits with the loads that fold the peers' maxima in, the fifteen send waits —, the
  result stored, the device's own cells closed and the postcondition put together.
-/
import proofs.«900914_g7700000000000915_dist_max_ax0_shard0_i_m2048_n1024_v7x_i16_bf16_1_alg».proof.Proof.KernelIdealPf.BodyA
import proofs.«900914_g7700000000000915_dist_max_ax0_shard0_i_m2048_n1024_v7x_i16_bf16_1_alg».proof.Proof.KernelIdealPf.BodyB
import proofs.«900914_g7700000000000915_dist_max_ax0_shard0_i_m2048_n1024_v7x_i16_bf16_1_alg».proof.Proof.KernelIdealPf.BodyC
import proofs.«900914_g7700000000000915_dist_max_ax0_shard0_i_m2048_n1024_v7x_i16_bf16_1_alg».proof.Proof.KernelIdealPf.Open
import proofs.«900914_g7700000000000915_dist_max_ax0_shard0_i_m2048_n1024_v7x_i16_bf16_1_alg».proof.Proof.KernelIdealPf.Finish

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- The chain over the fifteen proper offsets, written out. -/
theorem bigSepL_E15 (Φ : Fin 16 → sProp 𝕄) : bigSepL E15 Φ
    = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := rfl

theorem sound_body (K : Dev nD × CK → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  iintro ⟨Hpre, Hk⟩
  icases (body_open m ρ K c) $$ Hpre with ⟨%W, Hop⟩
  unfold opened
  rw [bigSep_F16 (fun k : Fin 16 => atPos ER (sendCell c k) 0 ∅ 0), bigSep_F16 (fun k : Fin 16 => atPos ER (recvCell c k) 0 ∅ 0)]
  simp only [bigSepL_E15]
  icases Hop with ⟨#HR, #Hlev, Hatb, ⟨HpS0, HpS1, HpS2, HpS3, HpS4, HpS5, HpS6, HpS7, HpS8, HpS9, HpS10, HpS11, HpS12, HpS13, HpS14, HpS15⟩, ⟨HpR0, HpR1, HpR2, HpR3, HpR4, HpR5, HpR6, HpR7, HpR8, HpR9, HpR10, HpR11, HpR12, HpR13, HpR14, HpR15⟩, ⟨HtB1, HtB2, HtB3, HtB4, HtB5, HtB6, HtB7, HtB8, HtB9, HtB10, HtB11, HtB12, HtB13, HtB14, HtB15⟩, ⟨HtS1, HtS2, HtS3, HtS4, HtS5, HtS6, HtS7, HtS8, HtS9, HtS10, HtS11, HtS12, HtS13, HtS14, HtS15⟩, ⟨HtR1, HtR2, HtR3, HtR4, HtR5, HtR6, HtR7, HtR8, HtR9, HtR10, HtR11, HtR12, HtR13, HtR14, HtR15⟩, Hcb, ⟨HcR1, HcR2, HcR3, HcR4, HcR5, HcR6, HcR7, HcR8, HcR9, HcR10, HcR11, HcR12, HcR13, HcR14, HcR15⟩, Hs0, ⟨Hs1, Hs2, Hs3, Hs4, Hs5, Hs6, Hs7, Hs8, Hs9, Hs10, Hs11, Hs12, Hs13, Hs14, Hs15⟩, HO, Hx, ⟨%g0, Hy⟩⟩
  simp only [cc0_body_eq_skeleton]; unfold cc0_body_skel
  simp only [k0_part27_eq_skeleton]; unfold k0_part27_skel
  simp only [wp_bind]
  iapply (part1_spec m ρ K c W) $$ [HtB1 Hs15 HtB2 Hs14 HO]
  · isplitr; · iexact HR
    isplitl [HtB1]; · iexact HtB1
    isplitl [Hs15]; · iexact Hs15
    isplitl [HtB2]; · iexact HtB2
    isplitl [Hs14]; · iexact Hs14
    iexact HO
  iintro %r1 ⟨HO, %hr1⟩
  simp only [hr1.1, hr1.2]
  iapply (part2_spec m ρ K c _ _ _ _ W) $$ [HtB3 Hs13 HtB4 Hs12 HO]
  · isplitr; · iexact HR
    isplitl [HtB3]; · iexact HtB3
    isplitl [Hs13]; · iexact Hs13
    isplitl [HtB4]; · iexact HtB4
    isplitl [Hs12]; · iexact Hs12
    iexact HO
  iintro %r2 HO
  iapply (part3_spec m ρ K c _ _ _ _ W) $$ [HtB5 Hs11 HtB6 Hs10 HtB7 Hs9 HO]
  · isplitr; · iexact HR
    isplitl [HtB5]; · iexact HtB5
    isplitl [Hs11]; · iexact Hs11
    isplitl [HtB6]; · iexact HtB6
    isplitl [Hs10]; · iexact Hs10
    isplitl [HtB7]; · iexact HtB7
    isplitl [Hs9]; · iexact Hs9
    iexact HO
  iintro %r3 HO
  iapply (part4_spec m ρ K c _ _ _ _ W) $$ [HtB8 Hs8 HtB9 Hs7 HO]
  · isplitr; · iexact HR
    isplitl [HtB8]; · iexact HtB8
    isplitl [Hs8]; · iexact Hs8
    isplitl [HtB9]; · iexact HtB9
    isplitl [Hs7]; · iexact Hs7
    iexact HO
  iintro %r4 HO
  iapply (part5_spec m ρ K c _ _ _ _ W) $$ [HtB10 Hs6 HtB11 Hs5 HtB12 Hs4 HO]
  · isplitr; · iexact HR
    isplitl [HtB10]; · iexact HtB10
    isplitl [Hs6]; · iexact Hs6
    isplitl [HtB11]; · iexact HtB11
    isplitl [Hs5]; · iexact Hs5
    isplitl [HtB12]; · iexact HtB12
    isplitl [Hs4]; · iexact Hs4
    iexact HO
  iintro %r5 HO
  iapply (part6_spec m ρ K c _ _ _ _ W) $$ [HtB13 Hs3 HtB14 Hs2 HO]
  · isplitr; · iexact HR
    isplitl [HtB13]; · iexact HtB13
    isplitl [Hs3]; · iexact Hs3
    isplitl [HtB14]; · iexact HtB14
    isplitl [Hs2]; · iexact Hs2
    iexact HO
  iintro %r6 HO
  iapply (part7_spec m ρ K c _ _ _ _ W) $$ [HtB15 Hs1 Hx Hs0 Hcb Hatb HO]
  · isplitr; · iexact HR
    isplitr; · iexact Hlev
    isplitl [HtB15]; · iexact HtB15
    isplitl [Hs1]; · iexact Hs1
    isplitl [Hx]; · iexact Hx
    isplitl [Hs0]; · iexact Hs0
    isplitl [Hcb]; · iexact Hcb
    isplitl [Hatb]; · iexact Hatb
    iexact HO
  iintro %r7 ⟨Hx, H0, Hatb, Hbar, ⟨%W1, HO⟩⟩
  -- what the barrier handed over: each peer's receive slot for this device
  simp only [bigSep_E, bigSepL_E15]
  unfold barPay
  icases Hbar with ⟨⟨Hp1, -⟩, ⟨Hp2, -⟩, ⟨Hp3, -⟩, ⟨Hp4, -⟩, ⟨Hp5, -⟩, ⟨Hp6, -⟩, ⟨Hp7, -⟩, ⟨Hp8, -⟩, ⟨Hp9, -⟩, ⟨Hp10, -⟩, ⟨Hp11, -⟩, ⟨Hp12, -⟩, ⟨Hp13, -⟩, ⟨Hp14, -⟩, ⟨Hp15, -⟩⟩
  -- the own maxima in slot 0: one read share per transfer, the remainder for the loads
  icases (share_split c (rep c (mine m ρ c))) $$ H0 with ⟨H0r, H0t0, H0t⟩
  simp only [bigSepL_E15]
  icases H0t with ⟨H0t1, H0t2, H0t3, H0t4, H0t5, H0t6, H0t7, H0t8, H0t9, H0t10, H0t11, H0t12, H0t13, H0t14, H0t15⟩
  iapply (part8_spec m ρ K c _ _) $$ [H0t1 Hp1 HtS1 HtR1 H0t2 Hp2 HtS2 HtR2 HO]
  · isplitr; · iexact HR
    isplitl [H0t1]; · iexact H0t1
    isplitl [Hp1]; · iexact Hp1
    isplitl [HtS1]; · iexact HtS1
    isplitl [HtR1]; · iexact HtR1
    isplitl [H0t2]; · iexact H0t2
    isplitl [Hp2]; · iexact Hp2
    isplitl [HtS2]; · iexact HtS2
    isplitl [HtR2]; · iexact HtR2
    iexact HO
  iintro %r8 ⟨HcS1, HcS2, HO⟩
  iapply (part9_spec m ρ K c _ _ _) $$ [H0t3 Hp3 HtS3 HtR3 H0t4 Hp4 HtS4 HtR4 HO]
  · isplitr; · iexact HR
    isplitl [H0t3]; · iexact H0t3
    isplitl [Hp3]; · iexact Hp3
    isplitl [HtS3]; · iexact HtS3
    isplitl [HtR3]; · iexact HtR3
    isplitl [H0t4]; · iexact H0t4
    isplitl [Hp4]; · iexact Hp4
    isplitl [HtS4]; · iexact HtS4
    isplitl [HtR4]; · iexact HtR4
    iexact HO
  iintro %r9 ⟨HcS3, HcS4, HO⟩
  iapply (part10_spec m ρ K c _ _) $$ [H0t5 Hp5 HtS5 HtR5 HO]
  · isplitr; · iexact HR
    isplitl [H0t5]; · iexact H0t5
    isplitl [Hp5]; · iexact Hp5
    isplitl [HtS5]; · iexact HtS5
    isplitl [HtR5]; · iexact HtR5
    iexact HO
  iintro %r10 ⟨HcS5, HO⟩
  iapply (part11_spec m ρ K c _ _ _) $$ [H0t6 Hp6 HtS6 HtR6 H0t7 Hp7 HtS7 HtR7 HO]
  · isplitr; · iexact HR
    isplitl [H0t6]; · iexact H0t6
    isplitl [Hp6]; · iexact Hp6
    isplitl [HtS6]; · iexact HtS6
    isplitl [HtR6]; · iexact HtR6
    isplitl [H0t7]; · iexact H0t7
    isplitl [Hp7]; · iexact Hp7
    isplitl [HtS7]; · iexact HtS7
    isplitl [HtR7]; · iexact HtR7
    iexact HO
  iintro %r11 ⟨HcS6, HcS7, HO⟩
  iapply (part12_spec m ρ K c _ _ _ _) $$ [H0t8 Hp8 HtS8 HtR8 HO]
  · isplitr; · iexact HR
    isplitl [H0t8]; · iexact H0t8
    isplitl [Hp8]; · iexact Hp8
    isplitl [HtS8]; · iexact HtS8
    isplitl [HtR8]; · iexact HtR8
    iexact HO
  iintro %r12 ⟨HcS8, HO⟩
  iapply (part13_spec m ρ K c _ _ _) $$ [H0t9 Hp9 HtS9 HtR9 H0t10 Hp10 HtS10 HtR10 HO]
  · isplitr; · iexact HR
    isplitl [H0t9]; · iexact H0t9
    isplitl [Hp9]; · iexact Hp9
    isplitl [HtS9]; · iexact HtS9
    isplitl [HtR9]; · iexact HtR9
    isplitl [H0t10]; · iexact H0t10
    isplitl [Hp10]; · iexact Hp10
    isplitl [HtS10]; · iexact HtS10
    isplitl [HtR10]; · iexact HtR10
    iexact HO
  iintro %r13 ⟨HcS9, HcS10, HO⟩
  iapply (part14_spec m ρ K c _ _ _ _ _ _) $$ [H0t11 Hp11 HtS11 HtR11 HO]
  · isplitr; · iexact HR
    isplitl [H0t11]; · iexact H0t11
    isplitl [Hp11]; · iexact Hp11
    isplitl [HtS11]; · iexact HtS11
    isplitl [HtR11]; · iexact HtR11
    iexact HO
  iintro %r14 ⟨HcS11, HO⟩
  iapply (part15_spec m ρ K c _ _) $$ [H0t12 Hp12 HtS12 HtR12 H0t13 Hp13 HtS13 HtR13 HO]
  · isplitr; · iexact HR
    isplitl [H0t12]; · iexact H0t12
    isplitl [Hp12]; · iexact Hp12
    isplitl [HtS12]; · iexact HtS12
    isplitl [HtR12]; · iexact HtR12
    isplitl [H0t13]; · iexact H0t13
    isplitl [Hp13]; · iexact Hp13
    isplitl [HtS13]; · iexact HtS13
    isplitl [HtR13]; · iexact HtR13
    iexact HO
  iintro %r15 ⟨HcS12, HcS13, HO⟩
  iapply (part16_spec m ρ K c _ _ _ _ _) $$ [H0t14 Hp14 HtS14 HtR14 HO]
  · isplitr; · iexact HR
    isplitl [H0t14]; · iexact H0t14
    isplitl [Hp14]; · iexact Hp14
    isplitl [HtS14]; · iexact HtS14
    isplitl [HtR14]; · iexact HtR14
    iexact HO
  iintro %r16 ⟨HcS14, HO⟩
  iapply (part17_spec m ρ K c _ _ _) $$ [H0t15 Hp15 HtS15 HtR15 H0r HcR1 HpR1 HcR2 HpR2 HO]
  · isplitr; · iexact HR
    isplitl [H0t15]; · iexact H0t15
    isplitl [Hp15]; · iexact Hp15
    isplitl [HtS15]; · iexact HtS15
    isplitl [HtR15]; · iexact HtR15
    isplitl [H0r]; · iexact H0r
    isplitl [HcR1]; · iexact HcR1
    isplitl [HpR1]; · iexact HpR1
    isplitl [HcR2]; · iexact HcR2
    isplitl [HpR2]; · iexact HpR2
    iexact HO
  iintro %r17 ⟨HcS15, H0r, HpR1, Hrp1, HpR2, Hrp2, ⟨%W2, HO⟩, %hr17⟩
  iapply (part18_spec m ρ K c _ _ _ _ _) $$ [Hrp2 HcR3 HpR3 HcR4 HpR4 HO]
  · isplitr; · iexact HR
    isplitl [Hrp2]; · iexact Hrp2
    isplitl [HcR3]; · iexact HcR3
    isplitl [HpR3]; · iexact HpR3
    isplitl [HcR4]; · iexact HcR4
    isplitl [HpR4]; · iexact HpR4
    iexact HO
  iintro %r18 ⟨Hrp2, HpR3, Hrp3, HpR4, Hrp4, ⟨%W3, HO⟩, %hr18⟩
  iapply (part19_spec m ρ K c _ _ _ _ _) $$ [HcR5 HpR5 HcR6 HpR6 HO]
  · isplitr; · iexact HR
    isplitl [HcR5]; · iexact HcR5
    isplitl [HpR5]; · iexact HpR5
    isplitl [HcR6]; · iexact HcR6
    isplitl [HpR6]; · iexact HpR6
    iexact HO
  iintro %r19 ⟨HpR5, Hrp5, HpR6, Hrp6, ⟨%W4, HO⟩, %hr19⟩
  iapply (part20_spec m ρ K c _ _ _ _) $$ [HcR7 HpR7 HcR8 HpR8 HcR9 HpR9 HO]
  · isplitr; · iexact HR
    isplitl [HcR7]; · iexact HcR7
    isplitl [HpR7]; · iexact HpR7
    isplitl [HcR8]; · iexact HcR8
    isplitl [HpR8]; · iexact HpR8
    isplitl [HcR9]; · iexact HcR9
    isplitl [HpR9]; · iexact HpR9
    iexact HO
  iintro %r20 ⟨HpR7, Hrp7, HpR8, Hrp8, HpR9, Hrp9, ⟨%W5, HO⟩, %hr20⟩
  iapply (part21_spec m ρ K c _ _ _ _ _) $$ [HcR10 HpR10 HcR11 HpR11 HO]
  · isplitr; · iexact HR
    isplitl [HcR10]; · iexact HcR10
    isplitl [HpR10]; · iexact HpR10
    isplitl [HcR11]; · iexact HcR11
    isplitl [HpR11]; · iexact HpR11
    iexact HO
  iintro %r21 ⟨HpR10, Hrp10, HpR11, Hrp11, ⟨%W6, HO⟩, %hr21⟩
  iapply (part22_spec m ρ K c _ _ _ _) $$ [HcR12 HpR12 HcR13 HpR13 HcR14 HpR14 HO]
  · isplitr; · iexact HR
    isplitl [HcR12]; · iexact HcR12
    isplitl [HpR12]; · iexact HpR12
    isplitl [HcR13]; · iexact HcR13
    isplitl [HpR13]; · iexact HpR13
    isplitl [HcR14]; · iexact HcR14
    isplitl [HpR14]; · iexact HpR14
    iexact HO
  iintro %r22 ⟨HpR12, Hrp12, HpR13, Hrp13, HpR14, Hrp14, ⟨%W7, HO⟩, %hr22⟩
  iapply (part23_spec m ρ K c _ _ _) $$ [Hrp14 HcR15 HpR15 HcS1 HpS1 HO]
  · isplitr; · iexact HR
    isplitl [Hrp14]; · iexact Hrp14
    isplitl [HcR15]; · iexact HcR15
    isplitl [HpR15]; · iexact HpR15
    isplitl [HcS1]; · iexact HcS1
    isplitl [HpS1]; · iexact HpS1
    iexact HO
  iintro %r23 ⟨Hrp14, HpR15, Hrp15, HpS1, Hsp1, ⟨%W8, HO⟩, %hr23⟩
  iapply (part24_spec m ρ K c _) $$ [HcS2 HpS2 HcS3 HpS3 HcS4 HpS4 HcS5 HpS5 HO]
  · isplitr; · iexact HR
    isplitl [HcS2]; · iexact HcS2
    isplitl [HpS2]; · iexact HpS2
    isplitl [HcS3]; · iexact HcS3
    isplitl [HpS3]; · iexact HpS3
    isplitl [HcS4]; · iexact HcS4
    isplitl [HpS4]; · iexact HpS4
    isplitl [HcS5]; · iexact HcS5
    isplitl [HpS5]; · iexact HpS5
    iexact HO
  iintro %r24 ⟨HpS2, Hsp2, HpS3, Hsp3, HpS4, Hsp4, HpS5, Hsp5, ⟨%W9, HO⟩⟩
  iapply (part25_spec m ρ K c _) $$ [HcS6 HpS6 HcS7 HpS7 HcS8 HpS8 HcS9 HpS9 HO]
  · isplitr; · iexact HR
    isplitl [HcS6]; · iexact HcS6
    isplitl [HpS6]; · iexact HpS6
    isplitl [HcS7]; · iexact HcS7
    isplitl [HpS7]; · iexact HpS7
    isplitl [HcS8]; · iexact HcS8
    isplitl [HpS8]; · iexact HpS8
    isplitl [HcS9]; · iexact HcS9
    isplitl [HpS9]; · iexact HpS9
    iexact HO
  iintro %r25 ⟨HpS6, Hsp6, HpS7, Hsp7, HpS8, Hsp8, HpS9, Hsp9, ⟨%W10, HO⟩⟩
  iapply (part26_spec m ρ K c _) $$ [HcS10 HpS10 HcS11 HpS11 HcS12 HpS12 HcS13 HpS13 HO]
  · isplitr; · iexact HR
    isplitl [HcS10]; · iexact HcS10
    isplitl [HpS10]; · iexact HpS10
    isplitl [HcS11]; · iexact HcS11
    isplitl [HpS11]; · iexact HpS11
    isplitl [HcS12]; · iexact HcS12
    isplitl [HpS12]; · iexact HpS12
    isplitl [HcS13]; · iexact HcS13
    isplitl [HpS13]; · iexact HpS13
    iexact HO
  iintro %r26 ⟨HpS10, Hsp10, HpS11, Hsp11, HpS12, Hsp12, HpS13, Hsp13, ⟨%W11, HO⟩⟩
  -- the last two send waits, the load of the output block (its value is not used), the store of the result
  simp only [Prog.lift, Prog.pure_eq_ret, wp_ret]
  iapply (step_sendwait m ρ K c (fk 14) (by decide)) $$ [HcS14 HO HpS14]
  · isplitr; · iexact HR
    isplitl [HcS14]; · iexact HcS14
    isplitl [HO]; · iexact HO
    iexact HpS14
  iintro ⟨HO, HpS14, Hsp14⟩
  simp only [wp_ret]
  imodintro
  iapply (step_sendwait m ρ K c (fk 15) (by decide)) $$ [HcS15 HO HpS15]
  · isplitr; · iexact HR
    isplitl [HcS15]; · iexact HcS15
    isplitl [HO]; · iexact HO
    iexact HpS15
  iintro ⟨HO, HpS15, Hsp15⟩
  simp only [wp_ret]
  imodintro
  iapply (wp_load 𝒱₀ (c : Thread nD τ) none Set.univ (m := oM) (Finset.subset_univ _)) $$ [Hy]
  · iexact Hy
  iintro Hy
  simp only [wp_ret]
  imodintro
  imodintro
  iapply (wp_store 𝒱₀ (c : Thread nD τ) none Set.univ (m := oM) (Finset.subset_univ _)) $$ [Hy]
  · iexact Hy
  iintro Hy
  simp only [wp_ret]
  -- what the output staging buffer now holds is the maximum over the sixteen devices' blocks
  have hw : (oM.access (Rect.unit (s := S1x1024) ![0, 0] S1x1024.size inb_S1x1024_S1x1024_0_0) : View sig .tc _ _ _).write (Elt F) g0
      (k0_pay1 (k0_pay10 r23)) Finset.univ = outAt m ρ c := by
    refine Eq.trans (Memref.write_access_unit_zero_univ (Elt F) (cc0_stg1_0 : Ref sig .tc) (off := ![0, 0])
      (by funext a; fin_cases a <;> rfl) inb_S1x1024_S1x1024_0_0 g0 _) ?_
    rw [hr23, hr22, hr21, hr20, hr19, hr18, hr17]
    unfold outAt outOf accOf mine
    simp only [Cert.KernelIdeal.Pf.sub_zero]
  simp only [hw]
  -- the 32 own cells close at zero, slot 0's shares rejoin
  imod (finish m ρ K c _) $$ [HpS0 HpS1 HpS2 HpS3 HpS4 HpS5 HpS6 HpS7 HpS8 HpS9 HpS10 HpS11 HpS12 HpS13 HpS14 HpS15 HpR0 HpR1 HpR2 HpR3 HpR4 HpR5 HpR6 HpR7 HpR8 HpR9 HpR10 HpR11 HpR12 HpR13 HpR14 HpR15 H0r H0t0 Hsp1 Hsp2 Hsp3 Hsp4 Hsp5 Hsp6 Hsp7 Hsp8 Hsp9 Hsp10 Hsp11 Hsp12 Hsp13 Hsp14 Hsp15 Hrp1 Hrp2 Hrp3 Hrp4 Hrp5 Hrp6 Hrp7 Hrp8 Hrp9 Hrp10 Hrp11 Hrp12 Hrp13 Hrp14 Hrp15 HO Hx Hy] with Hcl
  · simp only [bigSepL_E15]
    isplitr; · iexact HR
    isplitl [HpS0]; · iexact HpS0
    isplitl [HpS1 HpS2 HpS3 HpS4 HpS5 HpS6 HpS7 HpS8 HpS9 HpS10 HpS11 HpS12 HpS13 HpS14 HpS15]
    · isplitl [HpS1]; · iexact HpS1
      isplitl [HpS2]; · iexact HpS2
      isplitl [HpS3]; · iexact HpS3
      isplitl [HpS4]; · iexact HpS4
      isplitl [HpS5]; · iexact HpS5
      isplitl [HpS6]; · iexact HpS6
      isplitl [HpS7]; · iexact HpS7
      isplitl [HpS8]; · iexact HpS8
      isplitl [HpS9]; · iexact HpS9
      isplitl [HpS10]; · iexact HpS10
      isplitl [HpS11]; · iexact HpS11
      isplitl [HpS12]; · iexact HpS12
      isplitl [HpS13]; · iexact HpS13
      isplitl [HpS14]; · iexact HpS14
      iexact HpS15
    isplitl [HpR0]; · iexact HpR0
    isplitl [HpR1 HpR2 HpR3 HpR4 HpR5 HpR6 HpR7 HpR8 HpR9 HpR10 HpR11 HpR12 HpR13 HpR14 HpR15]
    · isplitl [HpR1]; · iexact HpR1
      isplitl [HpR2]; · iexact HpR2
      isplitl [HpR3]; · iexact HpR3
      isplitl [HpR4]; · iexact HpR4
      isplitl [HpR5]; · iexact HpR5
      isplitl [HpR6]; · iexact HpR6
      isplitl [HpR7]; · iexact HpR7
      isplitl [HpR8]; · iexact HpR8
      isplitl [HpR9]; · iexact HpR9
      isplitl [HpR10]; · iexact HpR10
      isplitl [HpR11]; · iexact HpR11
      isplitl [HpR12]; · iexact HpR12
      isplitl [HpR13]; · iexact HpR13
      isplitl [HpR14]; · iexact HpR14
      iexact HpR15
    isplitl [H0r]; · iexact H0r
    isplitl [H0t0]; · iexact H0t0
    isplitl [Hsp1 Hsp2 Hsp3 Hsp4 Hsp5 Hsp6 Hsp7 Hsp8 Hsp9 Hsp10 Hsp11 Hsp12 Hsp13 Hsp14 Hsp15]
    · isplitl [Hsp1]; · iexact Hsp1
      isplitl [Hsp2]; · iexact Hsp2
      isplitl [Hsp3]; · iexact Hsp3
      isplitl [Hsp4]; · iexact Hsp4
      isplitl [Hsp5]; · iexact Hsp5
      isplitl [Hsp6]; · iexact Hsp6
      isplitl [Hsp7]; · iexact Hsp7
      isplitl [Hsp8]; · iexact Hsp8
      isplitl [Hsp9]; · iexact Hsp9
      isplitl [Hsp10]; · iexact Hsp10
      isplitl [Hsp11]; · iexact Hsp11
      isplitl [Hsp12]; · iexact Hsp12
      isplitl [Hsp13]; · iexact Hsp13
      isplitl [Hsp14]; · iexact Hsp14
      iexact Hsp15
    isplitl [Hrp1 Hrp2 Hrp3 Hrp4 Hrp5 Hrp6 Hrp7 Hrp8 Hrp9 Hrp10 Hrp11 Hrp12 Hrp13 Hrp14 Hrp15]
    · isplitl [Hrp1]; · iexact Hrp1
      isplitl [Hrp2]; · iexact Hrp2
      isplitl [Hrp3]; · iexact Hrp3
      isplitl [Hrp4]; · iexact Hrp4
      isplitl [Hrp5]; · iexact Hrp5
      isplitl [Hrp6]; · iexact Hrp6
      isplitl [Hrp7]; · iexact Hrp7
      isplitl [Hrp8]; · iexact Hrp8
      isplitl [Hrp9]; · iexact Hrp9
      isplitl [Hrp10]; · iexact Hrp10
      isplitl [Hrp11]; · iexact Hrp11
      isplitl [Hrp12]; · iexact Hrp12
      isplitl [Hrp13]; · iexact Hrp13
      isplitl [Hrp14]; · iexact Hrp14
      iexact Hrp15
    isplitl [HO]; · iexact HO
    isplitl [Hx]; · iexact Hx
    iexact Hy
  imodintro
  imodintro
  iapply Hk
  iapply (body_close m ρ c _)
  iexact Hcl

/-- info: 'Cert.KernelIdeal.Pf.sound_body' depends on axioms: [propext, Classical.choice, Quot.sound] -/
#guard_msgs in #print axioms sound_body

end Cert.KernelIdeal.Pf

end
-- ==== Proof.KernelIdealPf.Launch.lean ====
/-
  The launch: the sixteen devices' bodies, each proved from its own ghost state and launch credit, put together into
  a run of the whole program. The launch element funds the 33 cells of every device and mints one token per duty;
  the global step opens every cell's invariant at once (the barrier semaphore is not scoped to the launch, so its
  counter arrives with the kernel's own 32) and deals each token to the device that pays the duty, around the ring;
  the launch credit on each barrier cell sums to fifteen units and on each receive cell to one block's credit.
-/
import proofs.«900914_g7700000000000915_dist_max_ax0_shard0_i_m2048_n1024_v7x_i16_bf16_1_alg».proof.Proof.KernelIdealPf.Body
import proofs.«900914_g7700000000000915_dist_max_ax0_shard0_i_m2048_n1024_v7x_i16_bf16_1_alg».proof.Proof.Gen.KernelIdeal.Frame
import Idealize.ShloMosaic.Lib.Pipeline.Launch
import Idealize.ShloMosaic.Lib.Pipeline.Kit
import Idealize.ShloMosaic.Lib.Tactic

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

/-- The obligation's precondition on device `c`, named. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- The library's body obligation on device `c`. -/
theorem body_obligation (m : (ℓ : Loc nD τ sig) → Buf (Elt F) ℓ) (ρ : Dev nD → PrngReg) (c : Dev nD) :
    BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-! ## The launch -/

theorem ownSemFacts : Pipeline.OwnSemFacts cfg0.spec osem := by decide

theorem share_eq (m : (ℓ : Loc nD τ sig) → Buf (Elt F) ℓ) (ρ : Dev nD → PrngReg) (c : Dev nD) (w : Fin cfg0.W) : (dats m ρ 0 c).share w = fullShare := by unfold Dat.share; split <;> rfl

/-! ### Iterated conjunctions: small regrouping facts -/

section BigSep
variable {M : Type} [URA M]

/-- A family over an optional index: the member at `none`, and the members at `some a`. -/
theorem bigSep_option {α : Type} [Fintype α] [DecidableEq α] (Φ : Option α → sProp M) :
    bigSep Finset.univ Φ = iprop(Φ none ∗ bigSep Finset.univ fun a => Φ (some a)) := by
  rw [bigSep_univ_at Φ none,
    show (Finset.univ.erase (none : Option α)) = Finset.univ.map Function.Embedding.some from by
      ext x; cases x <;> simp,
    bigSep_map]
  rfl

/-- Iterated conjunctions over two sets commute. -/
theorem bigSep_comm {α β : Type} (s : Finset α) (t : Finset β) (Φ : α → β → sProp M) :
    bigSep s (fun a => bigSep t fun b => Φ a b) = bigSep t fun b => bigSep s fun a => Φ a b := by
  classical
  induction t using Finset.induction_on with
  | empty => simp only [bigSep_empty]; exact bigSep_emp_const s
  | insert b t hb ih =>
    rw [bigSep_insert hb, ← ih, ← bigSep_sep]
    exact bigSep_congr fun a _ => bigSep_insert hb

theorem bigSep_fin3 (Φ : Fin 3 → sProp M) : bigSep Finset.univ Φ = iprop(Φ 0 ∗ Φ 1 ∗ Φ 2) :=
  bigSep_univ_eq_bigSepL [0, 1, 2] (by decide) (by decide) Φ

end BigSep

/-! ### The cells and the tokens the launch element is taken at -/

theorem sendQ_val (k : Fin 16) : (sendQ k).val = 2 + k.val := rfl
theorem recvQ_val (k : Fin 16) : (recvQ k).val = 18 + k.val := rfl
theorem sendQ_injective : Function.Injective sendQ := fun k k' h => by rw [← kOf_send k, ← kOf_send k', h]
theorem recvQ_injective : Function.Injective recvQ := fun k k' h => by rw [← kOf_recv k, ← kOf_recv k', h]
theorem send_ne_recv (k k' : Fin 16) : sendQ k ≠ recvQ k' := fun h => by
  have h1 := congrArg Fin.val h; rw [sendQ_val, recvQ_val] at h1; have := k.isLt; omega
theorem reg_ne_dma (s : Sem sig) (q : DmaSem sig) : (SemLoc.reg s : SemLoc sig) ≠ .dma q := fun h => by cases h

theorem csem_injective : Function.Injective csem := by
  intro a b h
  rcases a with _ | ⟨_ | _, k⟩ <;> rcases b with _ | ⟨_ | _, k'⟩
  · rfl
  · exact absurd h (reg_ne_dma _ _)
  · exact absurd h (reg_ne_dma _ _)
  · exact absurd h.symm (reg_ne_dma _ _)
  · rw [sendQ_injective (SemLoc.dma.inj h)]
  · exact absurd (SemLoc.dma.inj h) (send_ne_recv k k')
  · exact absurd h.symm (reg_ne_dma _ _)
  · exact absurd (SemLoc.dma.inj h).symm (send_ne_recv k' k)
  · rw [recvQ_injective (SemLoc.dma.inj h)]

theorem kcell_injective : Function.Injective (kcell : Dev nD × CK → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- Every device's 33 cells. -/
def ringCells : Finset (GSem nD τ sig) := Finset.univ.map ⟨kcell, kcell_injective⟩

/-- A proper offset. -/
abbrev Off : Type := {j : Fin 16 // j ≠ 0}

/-- The duty tokens as minted, per device and proper offset `j`: duty `j` of the barrier cell, the one duty of send
    cell `j`, the one duty of receive cell `j`. -/
def tokOf (x : Dev nD × Fin 3 × Off) : GSem nD τ sig × ℕ × Fin 16 := match x.2.1 with
  | 0 => (barCell x.1, 0, x.2.2.1)
  | 1 => (sendCell x.1 x.2.2.1, 0, 0)
  | 2 => (recvCell x.1 x.2.2.1, 0, 0)

theorem tokOf_injective : Function.Injective tokOf := by
  rintro ⟨c, i, j⟩ ⟨c', i', j'⟩ h
  have h1 : c = c' := by
    have := congrArg (fun x : GSem nD τ sig × ℕ × Fin 16 => x.1.1.1) h
    fin_cases i <;> fin_cases i' <;> exact this
  subst h1
  have hs := congrArg (fun x : GSem nD τ sig × ℕ × Fin 16 => x.1.2) h
  have hd := congrArg (fun x : GSem nD τ sig × ℕ × Fin 16 => x.2.2) h
  fin_cases i <;> fin_cases i'
  · have : j = j' := Subtype.ext hd
    rw [this]
  · exact absurd hs (reg_ne_dma _ _)
  · exact absurd hs (reg_ne_dma _ _)
  · exact absurd hs.symm (reg_ne_dma _ _)
  · have : j = j' := Subtype.ext (sendQ_injective (SemLoc.dma.inj hs))
    rw [this]
  · exact absurd (SemLoc.dma.inj hs) (send_ne_recv _ _)
  · exact absurd hs.symm (reg_ne_dma _ _)
  · exact absurd (SemLoc.dma.inj hs).symm (send_ne_recv _ _)
  · have : j = j' := Subtype.ext (recvQ_injective (SemLoc.dma.inj hs))
    rw [this]

def ringToks : Finset (GSem nD τ sig × ℕ × Fin 16) := Finset.univ.map ⟨tokOf, tokOf_injective⟩

/-- The launch element: the pipeline's staging cells, and the protocol's cells and tokens. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep (Finset.univ.erase (0 : Fin 16)) fun d => dutyTok ER (barCell c) 0 d)
    ∗ (bigSep (Finset.univ.erase (0 : Fin 16)) fun k => dutyTok ER (sendCell c k) 0 0)
    ∗ (bigSep (Finset.univ.erase (0 : Fin 16)) fun k => dutyTok ER (recvCell c k) 0 0))

/-- What the launch element deals device `c`. -/
def G (c : Dev nD) : sProp 𝕄 :=
  iprop((bigSep Finset.univ fun ck : CK => roundState ER (Rd m ρ) (kcell (c, ck)) 0)
    ∗ (bigSep Finset.univ fun ck : CK => iprop(atPos ER (kcell (c, ck)) 0 ∅ 0 ∗ reached ER (kcell (c, ck)) 0)) ∗ toks (F := F) c)

/-- What the global step makes of it. -/
def G' (c : Dev nD) : sProp 𝕄 := iprop(∃ K, ghost m ρ K c)

theorem fund_ring (m : (ℓ : Loc nD τ sig) → Buf (Elt F) ℓ) (ρ : Dev nD → PrngReg) :
    BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun ck : CK => Φ (kcell (c, ck)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    refine bigSep_congr fun c _ => ?_
    rw [bigSep_univ_prod, bigSep_fin3]
    unfold toks
    rw [← bigSep_subtype_ne (0 : Fin 16) (fun d => (dutyTok ER (barCell c) 0 d : sProp 𝕄)),
      ← bigSep_subtype_ne (0 : Fin 16) (fun k => (dutyTok ER (sendCell c k) 0 0 : sProp 𝕄)),
      ← bigSep_subtype_ne (0 : Fin 16) (fun k => (dutyTok ER (recvCell c k) 0 0 : sProp 𝕄))]
    rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The global step: every cell's invariant, and the tokens dealt around the ring -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The 33 counters of device `c` at zero: the kernel's own 32 and the barrier semaphore's. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun ck : CK => semVal (kcell (c, ck)) 0 : sProp 𝕄) := by
  rw [unscopedSems0_eq, bigSep_option]
  iintro ⟨HS, HB⟩
  isplitl [HB]; · iexact HB
  unfold Pipeline.ownSems0; iexact HS

theorem core_alloc (m : (ℓ : Loc nD τ sig) → Buf (Elt F) ℓ) (ρ : Dev nD → PrngReg) (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun ck : CK => iprop(∃ κ : ℕ, cellInv ER (Rd m ρ) κ (kcell (c, ck))))
          ∗ (bigSep Finset.univ fun ck : CK => iprop(atPos ER (kcell (c, ck)) 0 ∅ 0 ∗ reached ER (kcell (c, ck)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun ck : CK => semVal (kcell (c, ck)) 0) ∗ bigSep Finset.univ fun ck : CK => roundState ER (Rd m ρ) (kcell (c, ck)) 0)
      ⊢ (|={Set.univ}=> bigSep Finset.univ fun ck : CK => iprop(∃ κ : ℕ, cellInv ER (Rd m ρ) κ (kcell (c, ck))) : sProp 𝕄) from by
        rw [← bigSep_sep']
        exact (bigSep_mono fun ck _ => (Rounds.body_intro ER (Rd m ρ) (kcell (c, ck))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (m : (ℓ : Loc nD τ sig) → Buf (Elt F) ℓ) (ρ : Dev nD → PrngReg) (K : Dev nD × CK → ℕ) (c : Dev nD) :
    iprop(records m ρ K ∗ linear (F := F) c) ⊢ G' m ρ c := by
  unfold G' ghost
  iintro H; iexists K; iexact H

theorem neg_injective : Function.Injective neg := by decide
theorem neg_erase : (Finset.univ.erase (0 : Fin 16)).map ⟨neg, neg_injective⟩ = Finset.univ.erase (0 : Fin 16) := by decide

/-- The tokens dealt around the ring: duty `neg j` of a barrier cell and the duty of receive cell `j` go `j` devices down,
    to the device that pays them; a send cell's stays. -/
theorem toks_around : (bigSep Finset.univ fun c : Dev nD => (toks (F := F) c : sProp 𝕄)) ⊢ bigSep Finset.univ fun c : Dev nD => payToks (F := F) c := by
  have hbar : (bigSep Finset.univ fun c : Dev nD => bigSep (Finset.univ.erase (0 : Fin 16)) fun d => (dutyTok ER (barCell c) 0 d : sProp 𝕄))
      = bigSep Finset.univ fun c : Dev nD => bigSep (Finset.univ.erase (0 : Fin 16)) fun j => (dutyTok ER (barCell (add c j.val)) 0 (neg j) : sProp 𝕄) := by
    rw [bigSep_comm, bigSep_comm (Finset.univ : Finset (Dev nD)) (Finset.univ.erase (0 : Fin 16)) (fun c j => (dutyTok ER (barCell (add c j.val)) 0 (neg j) : sProp 𝕄))]
    conv_lhs => rw [← neg_erase, bigSep_map]
    exact bigSep_congr fun j _ => bigSep_univ_equiv (rot j.val) (fun c : Dev nD => (dutyTok ER (barCell c) 0 (neg j) : sProp 𝕄))
  have hrecv : (bigSep Finset.univ fun c : Dev nD => bigSep (Finset.univ.erase (0 : Fin 16)) fun k => (dutyTok ER (recvCell c k) 0 0 : sProp 𝕄))
      = bigSep Finset.univ fun c : Dev nD => bigSep (Finset.univ.erase (0 : Fin 16)) fun k => (dutyTok ER (recvCell (add c k.val) k) 0 0 : sProp 𝕄) := by
    rw [bigSep_comm, bigSep_comm (Finset.univ : Finset (Dev nD)) (Finset.univ.erase (0 : Fin 16)) (fun c k => (dutyTok ER (recvCell (add c k.val) k) 0 0 : sProp 𝕄))]
    exact bigSep_congr fun k _ => bigSep_univ_equiv (rot k.val) (fun c : Dev nD => (dutyTok ER (recvCell c k) 0 0 : sProp 𝕄))
  unfold toks payToks
  rw [bigSep_sep', bigSep_sep', bigSep_sep', bigSep_sep', hbar, hrecv]

theorem regroup (m : (ℓ : Loc nD τ sig) → Buf (Elt F) ℓ) (ρ : Dev nD → PrngReg) :
    (bigSep Finset.univ fun c : Dev nD => iprop((bigSep Finset.univ fun ck : CK => iprop(∃ κ : ℕ, cellInv ER (Rd m ρ) κ (kcell (c, ck))))
          ∗ (bigSep Finset.univ fun ck : CK => iprop(atPos ER (kcell (c, ck)) 0 ∅ 0 ∗ reached ER (kcell (c, ck)) 0)) ∗ toks (F := F) c) : sProp 𝕄)
      ⊢ bigSep Finset.univ (G' m ρ) := by
  rw [bigSep_sep', bigSep_sep', ← bigSep_univ_prod (fun ck : Dev nD × CK => iprop(∃ κ : ℕ, cellInv ER (Rd m ρ) κ (kcell ck))),
    bigSep_congr (s := Finset.univ) (fun (c : Dev nD) _ => bigSep_sep' Finset.univ (fun ck : CK => (atPos ER (kcell (c, ck)) 0 ∅ 0 : sProp 𝕄)) (fun ck => reached ER (kcell (c, ck)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => positions (F := F) c) (fun c => payToks (F := F) c)).symm)
    isplitl [Hat]; · iexact Hat
    iexact Htk

/-- The global step: own AND unscoped semaphores of every device at once. -/
theorem glob (m : (ℓ : Loc nD τ sig) → Buf (Elt F) ℓ) (ρ : Dev nD → PrngReg) :
    (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- Device `d`'s dues, one by one: the block's credit to receive cell `15 - j` of the device `15 - j` places after it, and
    one unit to that device's barrier cell. -/
def dueR (j : ℕ) (d : Dev nD) : CellTallies nD τ sig Unit := tallyAt (recvCell (add d (15 - j)) (off (15 - j))) () Nc
def dueB (j : ℕ) (d : Dev nD) : CellTallies nD τ sig Unit := tallyAt (barCell (add d (15 - j))) () 1

theorem owedR_eq (d : Dev nD) (n : ℕ) : owedR d n = ∑ j ∈ Finset.range n, dueR j d := by
  induction n with
  | zero => rfl
  | succ n ih => rw [Finset.sum_range_succ, ← ih]; rfl
theorem owedB_eq (d : Dev nD) (n : ℕ) : owedB d n = (∑ j ∈ Finset.range 15, dueR j d) + ∑ j ∈ Finset.range n, dueB j d := by
  induction n with
  | zero => rw [Finset.sum_range_zero, _root_.add_zero, ← owedR_eq]; rfl
  | succ n ih => rw [Finset.sum_range_succ (fun j => dueB j d) n, ← _root_.add_assoc, ← ih]; rfl
/-- What a device owes at launch, as two sums over its fifteen peers. -/
theorem O₀_eq : (O₀ : Dev nD → CellTallies nD τ sig Unit) = fun d => (∑ j ∈ Finset.range 15, dueR j d) + ∑ j ∈ Finset.range 15, dueB j d :=
  funext fun d => owedB_eq d 15

theorem sum_tallyAt_const (g : GSem nD τ sig) (n a : ℕ) :
    (∑ _j ∈ Finset.range n, (tallyAt g () a : CellTallies nD τ sig Unit)) = tallyAt g () (n * a) := by
  induction n with
  | zero => rw [Finset.sum_range_zero, Nat.zero_mul, tallyAt_zero]
  | succ n ih => rw [Finset.sum_range_succ, ih, tallyAt_add, Nat.succ_mul]

theorem off_image : (Finset.range 15).image (fun j => off (15 - j)) = Finset.univ.erase (0 : Fin 16) := by decide
theorem off_injOn : Set.InjOn (fun j => off (15 - j)) (Finset.range 15 : Finset ℕ) := by
  intro a ha b hb h
  have ha' := Finset.mem_range.mp (Finset.mem_coe.mp ha)
  have hb' := Finset.mem_range.mp (Finset.mem_coe.mp hb)
  have h1 : (15 - a) % 16 = (15 - b) % 16 := congrArg Fin.val h
  omega

/-- The launch credit of device `c`: its fifteen peers each owe its barrier cell a unit, and the peer `k` places before it
    owes its receive cell `k` the block's credit. -/
theorem creds_intro (c : Dev nD) : (Pipeline.launchCred O₀ c : sProp 𝕄) ⊢ creds (F := F) c := by
  have hB : (bigSep (Finset.range 15) fun j => (Pipeline.launchCred (dueB j) c : sProp 𝕄)) ⊢ cred (tallyAt (barCell c) () 15) := by
    refine (bigSep_mono fun j _ => Pipeline.launchCred_tallyAt (.reg barS) (fun d => add d (15 - j)) (fun d => sub d (15 - j))
      (fun d => add_sub d _) (fun d => sub_add d _) () 1 c).trans ?_
    rw [← Pipeline.cred_finsetSum, sum_tallyAt_const]
    exact BI.Entails.refl _
  have hR : (bigSep (Finset.range 15) fun j => (Pipeline.launchCred (dueR j) c : sProp 𝕄))
      ⊢ bigSep (Finset.univ.erase (0 : Fin 16)) fun k => cred (tallyAt (recvCell c k) () Nc) := by
    refine (bigSep_mono fun j _ => Pipeline.launchCred_tallyAt (.dma (recvQ (off (15 - j)))) (fun d => add d (15 - j)) (fun d => sub d (15 - j))
      (fun d => add_sub d _) (fun d => sub_add d _) () Nc c).trans ?_
    rw [← off_image, bigSep_image_of_injOn off_injOn]
    exact BI.Entails.refl _
  rw [O₀_eq, Pipeline.launchCred_add, Pipeline.launchCred_sum, Pipeline.launchCred_sum]
  unfold creds
  iintro ⟨HR, HB⟩
  isplitl [HB]
  · iapply hB; iexact HB
  · iapply hR; iexact HR

/-! ### The levels -/

/-- Whatever a device owes at launch it owes to a barrier cell or a receive cell of a TensorCore: a cell above level 0. -/
theorem O₀_pos {c : Dev nD} {g : GSem nD τ sig} {u : Unit} (h : 0 < O₀ c g u) : g.1.2 = .tc ∧ 0 < lv g u := by
  rw [O₀_eq] at h
  rcases Pipeline.add_pos_cases h with h | h
  · obtain ⟨j, -, hj⟩ := Pipeline.sum_pos_exists h
    obtain ⟨rfl, -⟩ := Pipeline.tallyAt_pos hj
    refine ⟨rfl, ?_⟩
    show 0 < (if 18 ≤ (recvQ (off (15 - j))).val then 2 else 0)
    rw [if_pos (by rw [recvQ_val]; omega)]; decide
  · obtain ⟨j, -, hj⟩ := Pipeline.sum_pos_exists h
    obtain ⟨rfl, -⟩ := Pipeline.tallyAt_pos hj
    exact ⟨rfl, Nat.one_pos⟩

/-- A wait on a staging semaphore (level 0) is below everything a device owes at launch. -/
theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0
      (fun p hp => by rw [Finset.mem_singleton.mp hp, L_tc]; exact Finset.mem_singleton_self _)
      (fun g u hg => by unfold L; rw [if_pos (O₀_pos hg).1]; exact Finset.mem_singleton_self _)
      (fun p hp => by
        rw [Finset.mem_singleton.mp hp]
        show (if 18 ≤ q.val then 2 else 0) ≤ 0
        rw [if_neg (by omega)])
      (fun g u hg => (O₀_pos hg).2)
  · rw [MayWait_zero]; iintro -; iempintro

theorem waits (m : (ℓ : Loc nD τ sig) → Buf (Elt F) ℓ) (ρ : Dev nD → PrngReg) (c : Dev nD) :
    (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The theorem's side conditions -/

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (m : (ℓ : Loc nD τ sig) → Buf (Elt F) ℓ) (ρ : Dev nD → PrngReg) (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrAny
  iintro ⟨Hs, -, Hr⟩
  isplitl [Hs]; · iexact Hs
  iexact Hr

theorem phi1_exit (m : (ℓ : Loc nD τ sig) → Buf (Elt F) ℓ) (ρ : Dev nD → PrngReg) (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁ scrAny ownZero Pipeline.ownSems0
  iintro ⟨Hr, Hz⟩
  isplitr; · iempintro
  isplitl [Hz]; · iexact Hz
  iexact Hr

/-! ### The run -/

/-- At the compiled mesh of sixteen devices, for any float values, from any memory with zero counters: every weakly fair
    execution of the program — the sixteen kernels handshaking on the barrier semaphore, then each sending its column
    maxima to its fifteen peers — terminates, and every final state has each window's array at the contents the proof
    data computes. -/
theorem run_main (m : (ℓ : Loc nD τ sig) → Buf (Elt F) ℓ) (ρ : Dev nD → PrngReg) :
    θ_run defs (onTc (τ := τ) (main (F := F))) (s₀ m ρ)
      (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ### The result arrays -/

/-- Window 0 is its whole array: the staged input block of a device is its argument array. -/
theorem xstg_eq (m : (ℓ : Loc nD τ sig) → Buf (Elt F) ℓ) (ρ : Dev nD → PrngReg) (c : Dev nD) :
    xstg m ρ c = m ((c.tc : Thread nD τ).loc main_arg0) := by
  unfold xstg
  exact Memref.read_access_unit_zero (Elt F) main_arg0 (funext fun a => Nat.zero_mul _) _ _

/-- The result array after the one write-back: what the body left in the output staging buffer. -/
theorem final_out (m : (ℓ : Loc nD τ sig) → Buf (Elt F) ℓ) (ρ : Dev nD → PrngReg) (c : Dev nD) :
    (dats m ρ 0 c).arrAt (1 : Fin 2) cfg0.N = outAt m ρ c := by
  have h1 := (dats m ρ 0 c).arrAt_succ (1 : Fin 2) t₀
  rw [flush0_1 t₀, if_pos rfl] at h1
  have h3 : ((cfg0.win 1).blk t₀).view.read (Elt F) ((dats m ρ 0 c).arrAt 1 (↑t₀ + 1)) = (dats m ρ 0 c).arrAt 1 (↑t₀ + 1) :=
    Memref.read_access_unit_zero (Elt F) main_v1 (funext fun a => Nat.zero_mul _) _ _
  have h2 := View.read_write_univ (v := ((cfg0.win 1).blk t₀).view) (Val := Elt F) ((dats m ρ 0 c).arrAt 1 ↑t₀) ((dats m ρ 0 c).flushed 1 t₀)
  show (dats m ρ 0 c).arrAt 1 (↑t₀ + 1) = _
  rw [← h3, h1, h2]
  rfl

/-- At the compiled mesh of sixteen devices, for any float values, from any memory with zero counters: every weakly fair
    execution terminates, and in every final state each device's result array holds the maximum over all sixteen input
    blocks, as the pure term `outOf` of the devices' argument arrays, and its argument array is unchanged. -/
theorem run (m : (ℓ : Loc nD τ sig) → Buf (Elt F) ℓ) (ρ : Dev nD → PrngReg) :
    θ_run defs (onTc (τ := τ) (main (F := F))) ⟨m, fun _ => 0, ρ⟩
      (fun r => ∀ c : Dev nD, r.2.mem ((c.tc : Thread nD τ).loc main_v1) = outOf (fun d => m ((d.tc : Thread nD τ).loc main_arg0)) c
        ∧ r.2.mem ((c.tc : Thread nD τ).loc main_arg0) = m ((c.tc : Thread nD τ).loc main_arg0)) :=
  (θ_run defs _ _).mono (fun r h c =>
    ⟨(h c (1 : Fin 2)).trans ((final_out m ρ c).trans (by
        unfold outAt
        rw [show (fun d => xstg m ρ d) = fun d : Dev nD => m ((d.tc : Thread nD τ).loc main_arg0) from funext fun d => xstg_eq m ρ d])),
      (h c (0 : Fin 2)).trans ((dats m ρ 0 c).arrAt_in (0 : Fin 2) rfl _)⟩) (run_main m ρ)

end Cert.KernelIdeal.Pf

end
-- ==== Proof.Value.lean ====
/-
  The value: on every device the kernel's result is the reference's.
  Column by column. Device `c` ends with the maximum, over k = 0, …, 15, of the column maxima of the block held by the
  device `k` places before it; each column maximum is the maximum over that block's 2048 rows, from `-∞`. The reference
  takes the maximum over all 32768 rows of the whole array, from `-∞`. Block `d`'s row `r` is the whole array's row
  `2048 d + r`, and the sixteen devices before `c` are all sixteen devices, so both sides are the least upper bound of
  the same set of entries: an extended real is above one side exactly when it is above every entry of the column, and
  likewise for the other. Narrowing to bf16 and widening back are the identity on extended reals. No finiteness is used.
-/
import proofs.«900914_g7700000000000915_dist_max_ax0_shard0_i_m2048_n1024_v7x_i16_bf16_1_alg».proof.Defs
import proofs.«900914_g7700000000000915_dist_max_ax0_shard0_i_m2048_n1024_v7x_i16_bf16_1_alg».proof.Proof.Gen.ReferenceIdeal
import proofs.«900914_g7700000000000915_dist_max_ax0_shard0_i_m2048_n1024_v7x_i16_bf16_1_alg».proof.Proof.Gen.ReferenceIdeal.Run
import proofs.«900914_g7700000000000915_dist_max_ax0_shard0_i_m2048_n1024_v7x_i16_bf16_1_alg».proof.Proof.Gen.ReferenceIdeal.Read
import proofs.«900914_g7700000000000915_dist_max_ax0_shard0_i_m2048_n1024_v7x_i16_bf16_1_alg».proof.Proof.KernelIdealPf.Out
import Idealize.ShloMosaic.Lib.Layout
import Idealize.ShloMosaic.Lib.ValueIdx
import Idealize.ShloMosaic.Lib.Pipeline.Value
import Idealize.ShloMosaic.PureOps.Ideal.Laws
import Mathlib.Data.Finset.Fold
import Mathlib.Tactic.IntervalCases
import Mathlib.Order.Basic

noncomputable section

namespace Cert.Proof.Value

open Idealize.ShloMosaic Idealize.ShloMosaic.ValueIdx
open Cert.KernelIdeal Cert.KernelIdeal.Gen Cert.KernelIdeal.Pf

/-! ## Bricks: the bottom element, shape casts read at an index, the index a reduction inserts -/

/-- The word `0xFF800000` denotes `-∞`, the least extended real: the maximum over no rows. -/
theorem negInf : FloatOps.ofBits (F := Ideal) .f32 0xFF800000#32 = (⊥ : EReal) := by
  simp [Ideal.ofBits, Ideal.ieee]

theorem cast_1_to_3 {α : Type} (v : S1024.Idx → α) (h : S1024.ShapeCasts S1x1x1024) (q : Fin 1024) :
    shapeCast S1x1x1024 v h (ix3 (0 : Fin 1) (0 : Fin 1) q) = v (ix1 q) :=
  shapeCast_apply v h _ _ (by rw [Shape.rowMajor_val_one, Shape.rowMajor_val_three]; simp)

theorem cast_3_to_1 {α : Type} (v : S1x1x1024.Idx → α) (h : S1x1x1024.ShapeCasts S1024) (q : Fin 1024) :
    shapeCast S1024 v h (ix1 q) = v (ix3 (0 : Fin 1) (0 : Fin 1) q) :=
  shapeCast_apply v h _ _ (by rw [Shape.rowMajor_val_one, Shape.rowMajor_val_three]; simp)

theorem cast_1_to_2 {α : Type} (v : S1024.Idx → α) (h : S1024.ShapeCasts S1x1024) (q : Fin 1024) :
    shapeCast S1x1024 v h (ix2 (0 : Fin 1) q) = v (ix1 q) :=
  shapeCast_apply v h _ _ (by rw [Shape.rowMajor_val_one, Shape.rowMajor_val_two]; simp)

/-- Column `q` with row `r` put back on the reduced axis is the entry `(r, q)`. -/
theorem lift_rows (h : S2048x1024.Reduces [0] S1024) (q : Fin 1024) (r : Fin 2048) :
    h.lift (ix1 q) r = ix2 r q := by
  funext a; match a with | ⟨0, _⟩ => rfl | ⟨1, _⟩ => rfl

/-! ## The kernel's side: a column of the result is below `z` exactly when every entry it is a maximum of is -/

/-- A device's column maxima at column `q`: the maximum over its 2048 rows, from `-∞`. -/
theorem colmax_apply (x : Vec Ideal S2048x1024 .f32) (q : Fin 1024) :
    colmax (F := Ideal) x (ix3 (0 : Fin 1) (0 : Fin 1) q)
      = (Finset.univ : Finset (Fin 2048)).fold max (⊥ : EReal) (fun r => x (ix2 r q)) := by
  unfold colmax k0_pay2
  dsimp only
  rw [cast_1_to_3, truncf_apply]
  refine (Ideal.multiReduction_maximumf_single _ _ _ _ _ (ix1 q)).trans ?_
  rw [shapeCast_self, negInf]
  congr 1
  funext r
  exact congrArg x (lift_rows _ q r)

/-- The accumulated maximum of sixteen slots at column `q` is below `z` exactly when each slot is. -/
theorem accOf_le_iff (s : ℕ → Vec Ideal S1x1x1024 .bf16) (q : Fin 1024) (z : EReal) :
    (accOf (F := Ideal) s (ix1 q) : EReal) ≤ z ↔ ∀ k, k < 16 → (s k (ix3 (0 : Fin 1) (0 : Fin 1) q) : EReal) ≤ z := by
  unfold accOf k0_pay9 k0_pay8 k0_pay7 k0_pay6 k0_pay5 k0_pay4 k0_pay3
  dsimp only
  simp only [maximumf_apply, cast_3_to_1, max_le_iff, and_assoc]
  constructor
  · rintro ⟨h0, h1, h2, h3, h4, h5, h6, h7, h8, h9, h10, h11, h12, h13, h14, h15⟩ k hk
    interval_cases k <;> assumption
  · intro h
    exact ⟨h 0 (by decide), h 1 (by decide), h 2 (by decide), h 3 (by decide), h 4 (by decide), h 5 (by decide),
      h 6 (by decide), h 7 (by decide), h 8 (by decide), h 9 (by decide), h 10 (by decide), h 11 (by decide),
      h 12 (by decide), h 13 (by decide), h 14 (by decide), h 15 (by decide)⟩

/-- Device `c`'s result at column `q` is below `z` exactly when every entry of column `q` of every block is:
    the sixteen slots hold the column maxima of the devices 0, …, 15 places before `c`. -/
theorem outOf_le_iff (X : Dev nD → Vec Ideal S2048x1024 .f32) (c : Dev nD) (q : Fin 1024) (z : EReal) :
    (outOf (F := Ideal) X c (ix2 (0 : Fin 1) q) : EReal) ≤ z
      ↔ ∀ k, k < 16 → ∀ r : Fin 2048, (X (sub c k) (ix2 r q) : EReal) ≤ z := by
  unfold outOf k0_pay1 k0_pay10
  dsimp only
  rw [cast_1_to_2, extf_apply, accOf_le_iff]
  simp only [colmax_apply, Finset.fold_max_le, bot_le, true_and, Finset.mem_univ, forall_true_left]

/-! ## The reference's side -/

theorem lift_rows_ref (h : Cert.ReferenceIdeal.S32768x1024.Reduces [0] Cert.ReferenceIdeal.S1024) (q : Fin 1024) (R : Fin 32768) :
    h.lift (Cert.ReferenceIdeal.Read.idx_main_v1 (ix2 (0 : Fin 1) q)) R = ix2 R q := by
  funext a; match a with | ⟨0, _⟩ => rfl | ⟨1, _⟩ => rfl

/-- The reference's result at column `q`: the maximum over all 32768 rows, from `-∞`. -/
theorem ref_apply (A : (⟨Cert.ReferenceIdeal.S32768x1024, .f32⟩ : BufTy).Contents (Elt Ideal)) (q : Fin 1024) :
    Cert.ReferenceIdeal.Read.val_main_v1 (F := Ideal) A (ix2 (0 : Fin 1) q)
      = (Finset.univ : Finset (Fin 32768)).fold max (⊥ : EReal) (fun R => A (ix2 R q)) := by
  rw [Cert.ReferenceIdeal.Read.val_main_v1_apply]
  unfold Cert.ReferenceIdeal.Read.val_main_v0
  refine (Host.reduce_eq_fold_single _ _ _ _
    (by decide : Cert.ReferenceIdeal.S32768x1024.Reduces [0] Cert.ReferenceIdeal.S1024) _ _).trans ?_
  rw [Cert.ReferenceIdeal.Read.val_main_cst_apply, negInf]
  show Finset.fold max ⊥ _ _ = _
  congr 1
  funext R
  exact congrArg A (lift_rows_ref _ q R)

/-! ## The join: block `d`'s row `r` is the whole array's row `2048 d + r`, and the sixteen devices before `c` are all sixteen -/

theorem blk_idx (h : Layout.Tiles ⟨2, ![2048, 1024]⟩ ⟨2, ![32768, 1024]⟩ 0 16) (d : Fin 16) (r : Fin 2048) (q : Fin 1024) :
    h.idx d (ix2 r q) = ix2 (⟨d.val * 2048 + r.val, by have := d.isLt; have := r.isLt; omega⟩ : Fin 32768) q := by
  funext a
  match a with
  | ⟨0, _⟩ => exact Fin.ext (Layout.idx_rows_val h d (ix2 r q)).1
  | ⟨1, _⟩ => exact Fin.ext (Layout.idx_rows_val h d (ix2 r q)).2

theorem point_eq (A : (⟨Cert.ReferenceIdeal.S32768x1024, .f32⟩ : BufTy).Contents (Elt Ideal)) (c : Dev nD) (q : Fin 1024) :
    outOf (F := Ideal) (fun d => Layout.block ⟨2, ![2048, 1024]⟩ ⟨2, ![32768, 1024]⟩ 0 16 d A) c (ix2 (0 : Fin 1) q)
      = Cert.ReferenceIdeal.Read.val_main_v1 (F := Ideal) A (ix2 (0 : Fin 1) q) := by
  refine eq_of_forall_ge_iff fun z => ?_
  rw [outOf_le_iff, ref_apply, Finset.fold_max_le]
  simp only [bot_le, true_and, Finset.mem_univ, forall_true_left, Layout.block_apply, blk_idx]
  constructor
  · intro h R
    have hR := R.isLt
    have hc := c.isLt
    have hk : (c.val + 16 - R.val / 2048) % 16 < 16 := Nat.mod_lt _ (by decide)
    have hd : (sub c ((c.val + 16 - R.val / 2048) % 16)).val = R.val / 2048 := by
      rw [sub_val]; omega
    have e := h _ hk ⟨R.val % 2048, Nat.mod_lt _ (by decide)⟩
    have eR : (⟨(sub c ((c.val + 16 - R.val / 2048) % 16)).val * 2048 + R.val % 2048, by omega⟩ : Fin 32768) = R :=
      Fin.ext (by show _ * 2048 + R.val % 2048 = R.val; rw [hd]; omega)
    rw [eR] at e
    exact e
  · intro h k _ r
    exact h _

/-! ## The statement -/

/-- Each device ends with the reference's result: column by column, the maximum of the sixteen devices' column maxima
    is the maximum over all rows of the whole array. -/
theorem result_eq (m : (ℓ : Loc Cert.KernelIdeal.nD Cert.KernelIdeal.τ Cert.KernelIdeal.sig) → Buf (Elt Ideal) ℓ)
    (A : (⟨Cert.ReferenceIdeal.S32768x1024, .f32⟩ : BufTy).Contents (Elt Ideal))
    (hagree : ∀ c : Dev Cert.KernelIdeal.nD,
      m ((c.tc : Thread Cert.KernelIdeal.nD Cert.KernelIdeal.τ).loc Cert.KernelIdeal.main_arg0)
        = Layout.block ⟨2, ![2048, 1024]⟩ ⟨2, ![32768, 1024]⟩ 0 16 c A)
    (c : Dev Cert.KernelIdeal.nD) :
    Cert.KernelIdeal.Pf.outOf (F := Ideal)
        (fun d => m ((d.tc : Thread Cert.KernelIdeal.nD Cert.KernelIdeal.τ).loc Cert.KernelIdeal.main_arg0)) c
      = Cert.ReferenceIdeal.Read.val_main_v1 (F := Ideal) A := by
  have hX : Cert.KernelIdeal.Pf.outOf (F := Ideal)
        (fun d => m ((d.tc : Thread Cert.KernelIdeal.nD Cert.KernelIdeal.τ).loc Cert.KernelIdeal.main_arg0)) c
      = Cert.KernelIdeal.Pf.outOf (F := Ideal)
        (fun d => Layout.block ⟨2, ![2048, 1024]⟩ ⟨2, ![32768, 1024]⟩ 0 16 d A) c :=
    congrArg (fun X => Cert.KernelIdeal.Pf.outOf (F := Ideal) X c) (funext hagree)
  rw [hX]
  funext y
  obtain ⟨p, q, rfl⟩ : ∃ (p : Fin 1) (q : Fin 1024), y = ix2 p q := ⟨y 0, y 1, eq_ix2 y⟩
  obtain rfl : p = 0 := Subsingleton.elim _ _
  exact point_eq A c q

/-- info: 'Cert.Proof.Value.result_eq' depends on axioms: [propext, Classical.choice, Quot.sound] -/
#guard_msgs in #print axioms result_eq

end Cert.Proof.Value

end
-- ==== Proof.lean ====
/-
  The certificate of the sixteen-device column maximum.

  Each device holds one block of 2048 rows of `x : f32[32768, 1024]`. It takes the column maxima of its block, narrows them
  to bf16, and exchanges them with every other device: an entry handshake on the collective's barrier semaphore (each
  device signals its fifteen peers and waits for fifteen units, so that every peer's landing buffer exists before anything
  is sent to it), fifteen remote copies of the own maxima into slot `k` of the device `k` places after it, and, slot by
  slot, a wait for the arrival followed by an elementwise maximum. The reference takes `max` over all 32768 rows at once.

  * The frames of the two kernel programs (word level and idealized) are one proof, generic in the float instance: the
    protocol under the rounds discipline (`KernelIdealPf/Sched.lean`), the body stepped on a symbolic device
    (`Body.lean`), and the launch on all sixteen devices (`Launch.lean`); the word-level program's modules are the same
    text over its own namespace.
  * `preserves`: the ideal pass rewrote nothing, the conjunct is `True`.
  * `algebraic`: over the extended reals the narrowing and widening are the identity, so device `c` ends with the maximum
    over the sixteen devices `c, c - 1, …, c - 15` (all of them) of their blocks' column maxima; blocks tile the rows, and
    `max` is associative, commutative and idempotent: that is the maximum over all rows (`Value.lean`). The reference's
    side is its generated run.
-/
import proofs.«900914_g7700000000000915_dist_max_ax0_shard0_i_m2048_n1024_v7x_i16_bf16_1_alg».proof.Defs
import proofs.«900914_g7700000000000915_dist_max_ax0_shard0_i_m2048_n1024_v7x_i16_bf16_1_alg».proof.Proof.Gen.Kernel
import proofs.«900914_g7700000000000915_dist_max_ax0_shard0_i_m2048_n1024_v7x_i16_bf16_1_alg».proof.Proof.Gen.KernelIdeal
import proofs.«900914_g7700000000000915_dist_max_ax0_shard0_i_m2048_n1024_v7x_i16_bf16_1_alg».proof.Proof.Gen.ReferenceIdeal
import proofs.«900914_g7700000000000915_dist_max_ax0_shard0_i_m2048_n1024_v7x_i16_bf16_1_alg».proof.Proof.Gen.ReferenceIdeal.Run
import proofs.«900914_g7700000000000915_dist_max_ax0_shard0_i_m2048_n1024_v7x_i16_bf16_1_alg».proof.Proof.Gen.ReferenceIdeal.Read
import proofs.«900914_g7700000000000915_dist_max_ax0_shard0_i_m2048_n1024_v7x_i16_bf16_1_alg».proof.Proof.Gen.Pre_finite_inputs_Kernel
import proofs.«900914_g7700000000000915_dist_max_ax0_shard0_i_m2048_n1024_v7x_i16_bf16_1_alg».proof.Proof.Gen.Pre_finite_inputs_ReferenceIdeal
import proofs.«900914_g7700000000000915_dist_max_ax0_shard0_i_m2048_n1024_v7x_i16_bf16_1_alg».proof.Proof.KernelPf.Launch
import proofs.«900914_g7700000000000915_dist_max_ax0_shard0_i_m2048_n1024_v7x_i16_bf16_1_alg».proof.Proof.KernelIdealPf.Launch
import proofs.«900914_g7700000000000915_dist_max_ax0_shard0_i_m2048_n1024_v7x_i16_bf16_1_alg».proof.Proof.Value
import Idealize.ShloMosaic.Adequacy
import Idealize.ShloMosaic.Init

noncomputable section

namespace Cert.Proof

open Idealize.ShloMosaic Idealize.SL.Sem

/-- The word-level kernel runs on the sixteen devices and leaves its argument blocks unchanged. -/
theorem frame_k : Cert.frame_Kernel (hKernel := Cert.Kernel.Gen.facts) (hPre_finite_inputs_Kernel := Cert.Pre_finite_inputs_Kernel.Gen.facts) := fun m ρ _ =>
  (θ_run (Cert.Kernel.defs (F := Bits)) _ _).mono (fun _ h c => (h c).2) (Cert.Kernel.Pf.run (F := Bits) m ρ)

/-- So does the idealized kernel. -/
theorem frame_ki : Cert.frame_KernelIdeal (hKernelIdeal := Cert.KernelIdeal.Gen.facts) (hPre_finite_inputs_Kernel := Cert.Pre_finite_inputs_Kernel.Gen.facts) := fun m ρ _ =>
  (θ_run (Cert.KernelIdeal.defs (F := Ideal)) _ _).mono (fun _ h c => (h c).2) (Cert.KernelIdeal.Pf.run (F := Ideal) m ρ)

/-- The reference's frame is its run with the result dropped. -/
theorem frame_ri : Cert.frame_ReferenceIdeal (hReferenceIdeal := Cert.ReferenceIdeal.Gen.facts) (hPre_finite_inputs_ReferenceIdeal := Cert.Pre_finite_inputs_ReferenceIdeal.Gen.facts) := fun m ρ _ =>
  (θ_run (Cert.ReferenceIdeal.defs (F := Ideal)) _ _).mono (fun _ h c => (h c).2) (Cert.ReferenceIdeal.Value.run (F := Ideal) m ρ)

/-- Every device's result is the reference's: the maximum over the sixteen blocks' column maxima is the maximum over all rows. -/
theorem algebraic : Cert.algebraic_KernelIdeal_ReferenceIdeal (hKernelIdeal := Cert.KernelIdeal.Gen.facts) (hReferenceIdeal := Cert.ReferenceIdeal.Gen.facts) (hPre_finite_inputs_Kernel := Cert.Pre_finite_inputs_Kernel.Gen.facts) := by
  intro m ρ m' ρ' _ hagree
  refine ⟨Cert.ReferenceIdeal.Read.val_main_v1 (F := Ideal) (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨(h c).1.trans (Cert.Proof.Value.result_eq m _ hagree c), (h c).2⟩) (Cert.KernelIdeal.Pf.run (F := Ideal) m ρ)
  · exact (θ_run (Cert.ReferenceIdeal.defs (F := Ideal)) _ _).mono
      (fun _ h => ⟨(h 0).1.trans (Cert.ReferenceIdeal.Read.val_main_v1_eq _), (h 0).2⟩) (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
